-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x256 : Shape := ⟨3, ![32, 512, 256]⟩
abbrev S64x64 : Shape := ⟨2, ![64, 64]⟩
abbrev S2x256x256 : Shape := ⟨3, ![2, 256, 256]⟩
abbrev S2x256 : Shape := ⟨2, ![2, 256]⟩
abbrev S2x64x256 : Shape := ⟨3, ![2, 64, 256]⟩
abbrev S2x524288 : Shape := ⟨2, ![2, 524288]⟩
abbrev S524288 : Shape := ⟨1, ![524288]⟩
abbrev S_ : Shape := ⟨0, ![]⟩
abbrev S1x524288 : Shape := ⟨2, ![1, 524288]⟩

class Facts : Prop where
  bcast_S_S32x512x256 : S_.BroadcastsInDim S32x512x256 (![] : Fin 0 → Fin S32x512x256.rank)
  reducesTo_S32x512x256_S_d0_1_2 : S32x512x256.ReducesTo [0, 1, 2] S_
  h_S_ : 0 < S_.numel
  bcast_S_S64x64 : S_.BroadcastsInDim S64x64 (![] : Fin 0 → Fin S64x64.rank)
  reducesTo_S64x64_S_d0_1 : S64x64.ReducesTo [0, 1] S_
  bcast_S_S2x256x256 : S_.BroadcastsInDim S2x256x256 (![] : Fin 0 → Fin S2x256x256.rank)
  reducesTo_S2x256x256_S_d0_1_2 : S2x256x256.ReducesTo [0, 1, 2] S_
  bcast_S_S2x256 : S_.BroadcastsInDim S2x256 (![] : Fin 0 → Fin S2x256.rank)
  reducesTo_S2x256_S_d0_1 : S2x256.ReducesTo [0, 1] S_
  bcast_S_S2x64x256 : S_.BroadcastsInDim S2x64x256 (![] : Fin 0 → Fin S2x64x256.rank)
  reducesTo_S2x64x256_S_d0_1_2 : S2x64x256.ReducesTo [0, 1, 2] S_
  slices_S2x524288_S1x524288_0_0 : S2x524288.Slices ![0, 0] S1x524288
  shapeCasts_S1x524288_S524288 : S1x524288.ShapeCasts S524288
  bcast_S_S524288 : S_.BroadcastsInDim S524288 (![] : Fin 0 → Fin S524288.rank)
  reducesTo_S524288_S_d0 : S524288.ReducesTo [0] S_

variable [Facts]

def fn_part3 {F : FTy → Type} [FloatOps F] (main_arg10 : IVec S2x524288 32) (main_arg11 : IVec S524288 32) (main_v48 : IVec S_ 1) (main_v50 : IVec S524288 32) (main_c_18 : IVec S_ 32) : IVec S_ 1 :=
  let main_v51 : IVec S524288 32 := broadcastInDim S524288 ![] bcast_S_S524288 main_c_18
  let main_v52 : IVec S524288 1 := cmpi .sge main_v50 main_v51
  let main_v53 : IVec S1x524288 32 := (extractStridedSlice S1x524288 ![0, 0] · slices_S2x524288_S1x524288_0_0) main_arg10
  let main_v54 : IVec S524288 32 := shapeCast S524288 main_v53 shapeCasts_S1x524288_S524288
  let main_c_19 : IVec S_ 32 := constantI S_ 32 16384#32
  let main_v55 : IVec S524288 32 := broadcastInDim S524288 ![] bcast_S_S524288 main_c_19
  let main_v56 : IVec S524288 1 := cmpi .slt main_v54 main_v55
  let main_v57 : IVec S524288 1 := andi main_v52 main_v56
  let main_c_20 : IVec S_ 1 := constantI S_ 1 1#1
  let main_v58 : IVec S_ 1 := (fun x v => Host.reduce IntOp.andi x v reducesTo_S524288_S_d0 h_S_) main_v57 main_c_20
  let main_v59 : IVec S_ 1 := andi main_v48 main_v58
  let main_c_21 : IVec S_ 32 := constantI S_ 32 0#32
  let main_v60 : IVec S524288 32 := broadcastInDim S524288 ![] bcast_S_S524288 main_c_21
  let main_v61 : IVec S524288 1 := cmpi .sge main_arg11 main_v60
  let main_c_22 : IVec S_ 32 := constantI S_ 32 64#32
  let main_v62 : IVec S524288 32 := broadcastInDim S524288 ![] bcast_S_S524288 main_c_22
  let main_v63 : IVec S524288 1 := cmpi .slt main_arg11 main_v62
  let main_v64 : IVec S524288 1 := andi main_v61 main_v63
  let main_c_23 : IVec S_ 1 := constantI S_ 1 1#1
  let main_v65 : IVec S_ 1 := (fun x v => Host.reduce IntOp.andi x v reducesTo_S524288_S_d0 h_S_) main_v64 main_c_23
  let main_v66 : IVec S_ 1 := andi main_v59 main_v65
  main_v66

def fn_part2 {F : FTy → Type} [FloatOps F] (main_arg7 : FVec F S2x256 .f32) (main_arg8 : FVec F S2x256 .f32) (main_arg9 : FVec F S2x256 .f32) (main_arg10 : IVec S2x524288 32) (main_arg11 : IVec S524288 32) (main_v33 : IVec S_ 1) : IVec S_ 1 :=
  let main_v34 : FVec F S2x256 .f32 := Host.absf main_arg7
  let main_cst_12 : FVec F S_ .f32 := constant S_ .f32 0x7F800000#32
  let main_v35 : FVec F S2x256 .f32 := broadcastInDim S2x256 ![] bcast_S_S2x256 main_cst_12
  let main_v36 : IVec S2x256 1 := cmpf .olt main_v34 main_v35
  let main_c_13 : IVec S_ 1 := constantI S_ 1 1#1
  let main_v37 : IVec S_ 1 := (fun x v => Host.reduce IntOp.andi x v reducesTo_S2x256_S_d0_1 h_S_) main_v36 main_c_13
  let main_v38 : IVec S_ 1 := andi main_v33 main_v37
  let main_v39 : FVec F S2x256 .f32 := Host.absf main_arg8
  let main_cst_14 : FVec F S_ .f32 := constant S_ .f32 0x7F800000#32
  let main_v40 : FVec F S2x256 .f32 := broadcastInDim S2x256 ![] bcast_S_S2x256 main_cst_14
  let main_v41 : IVec S2x256 1 := cmpf .olt main_v39 main_v40
  let main_c_15 : IVec S_ 1 := constantI S_ 1 1#1
  let main_v42 : IVec S_ 1 := (fun x v => Host.reduce IntOp.andi x v reducesTo_S2x256_S_d0_1 h_S_) main_v41 main_c_15
  let main_v43 : IVec S_ 1 := andi main_v38 main_v42
  let main_v44 : FVec F S2x256 .f32 := Host.absf main_arg9
  let main_cst_16 : FVec F S_ .f32 := constant S_ .f32 0x7F800000#32
  let main_v45 : FVec F S2x256 .f32 := broadcastInDim S2x256 ![] bcast_S_S2x256 main_cst_16
  let main_v46 : IVec S2x256 1 := cmpf .olt main_v44 main_v45
  let main_c_17 : IVec S_ 1 := constantI S_ 1 1#1
  let main_v47 : IVec S_ 1 := (fun x v => Host.reduce IntOp.andi x v reducesTo_S2x256_S_d0_1 h_S_) main_v46 main_c_17
  let main_v48 : IVec S_ 1 := andi main_v43 main_v47
  let main_v49 : IVec S1x524288 32 := (extractStridedSlice S1x524288 ![0, 0] · slices_S2x524288_S1x524288_0_0) main_arg10
  let main_v50 : IVec S524288 32 := shapeCast S524288 main_v49 shapeCasts_S1x524288_S524288
  let main_c_18 : IVec S_ 32 := constantI S_ 32 0#32
  fn_part3 (F := F) main_arg10 main_arg11 main_v48 main_v50 main_c_18

def fn_part1 {F : FTy → Type} [FloatOps F] (main_arg4 : FVec F S2x256x256 .f32) (main_arg5 : FVec F S2x256 .f32) (main_arg6 : FVec F S2x64x256 .f32) (main_arg7 : FVec F S2x256 .f32) (main_arg8 : FVec F S2x256 .f32) (main_arg9 : FVec F S2x256 .f32) (main_arg10 : IVec S2x524288 32) (main_arg11 : IVec S524288 32) (main_v13 : IVec S_ 1) (main_v16 : IVec S2x256 1) : IVec S_ 1 :=
  let main_c_5 : IVec S_ 1 := constantI S_ 1 1#1
  let main_v17 : IVec S_ 1 := (fun x v => Host.reduce IntOp.andi x v reducesTo_S2x256_S_d0_1 h_S_) main_v16 main_c_5
  let main_v18 : IVec S_ 1 := andi main_v13 main_v17
  let main_v19 : FVec F S2x256x256 .f32 := Host.absf main_arg4
  let main_cst_6 : FVec F S_ .f32 := constant S_ .f32 0x7F800000#32
  let main_v20 : FVec F S2x256x256 .f32 := broadcastInDim S2x256x256 ![] bcast_S_S2x256x256 main_cst_6
  let main_v21 : IVec S2x256x256 1 := cmpf .olt main_v19 main_v20
  let main_c_7 : IVec S_ 1 := constantI S_ 1 1#1
  let main_v22 : IVec S_ 1 := (fun x v => Host.reduce IntOp.andi x v reducesTo_S2x256x256_S_d0_1_2 h_S_) main_v21 main_c_7
  let main_v23 : IVec S_ 1 := andi main_v18 main_v22
  let main_v24 : FVec F S2x256 .f32 := Host.absf main_arg5
  let main_cst_8 : FVec F S_ .f32 := constant S_ .f32 0x7F800000#32
  let main_v25 : FVec F S2x256 .f32 := broadcastInDim S2x256 ![] bcast_S_S2x256 main_cst_8
  let main_v26 : IVec S2x256 1 := cmpf .olt main_v24 main_v25
  let main_c_9 : IVec S_ 1 := constantI S_ 1 1#1
  let main_v27 : IVec S_ 1 := (fun x v => Host.reduce IntOp.andi x v reducesTo_S2x256_S_d0_1 h_S_) main_v26 main_c_9
  let main_v28 : IVec S_ 1 := andi main_v23 main_v27
  let main_v29 : FVec F S2x64x256 .f32 := Host.absf main_arg6
  let main_cst_10 : FVec F S_ .f32 := constant S_ .f32 0x7F800000#32
  let main_v30 : FVec F S2x64x256 .f32 := broadcastInDim S2x64x256 ![] bcast_S_S2x64x256 main_cst_10
  let main_v31 : IVec S2x64x256 1 := cmpf .olt main_v29 main_v30
  let main_c_11 : IVec S_ 1 := constantI S_ 1 1#1
  let main_v32 : IVec S_ 1 := (fun x v => Host.reduce IntOp.andi x v reducesTo_S2x64x256_S_d0_1_2 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S32x512x256 .f32) (main_arg1 : FVec F S64x64 .f32) (main_arg2 : FVec F S2x256x256 .f32) (main_arg3 : FVec F S2x256 .f32) (main_arg4 : FVec F S2x256x256 .f32) (main_arg5 : FVec F S2x256 .f32) (main_arg6 : FVec F S2x64x256 .f32) (main_arg7 : FVec F S2x256 .f32) (main_arg8 : FVec F S2x256 .f32) (main_arg9 : FVec F S2x256 .f32) (main_arg10 : IVec S2x524288 32) (main_arg11 : IVec S524288 32) : IVec S_ 1 :=
  let main_v0 : FVec F S32x512x256 .f32 := Host.absf main_arg0
  let main_cst : FVec F S_ .f32 := constant S_ .f32 0x7F800000#32
  let main_v1 : FVec F S32x512x256 .f32 := broadcastInDim S32x512x256 ![] bcast_S_S32x512x256 main_cst
  let main_v2 : IVec S32x512x256 1 := cmpf .olt main_v0 main_v1
  let main_c : IVec S_ 1 := constantI S_ 1 1#1
  let main_v3 : IVec S_ 1 := (fun x v => Host.reduce IntOp.andi x v reducesTo_S32x512x256_S_d0_1_2 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S2x256x256 .f32 := Host.absf main_arg2
  let main_cst_2 : FVec F S_ .f32 := constant S_ .f32 0x7F800000#32
  let main_v10 : FVec F S2x256x256 .f32 := broadcastInDim S2x256x256 ![] bcast_S_S2x256x256 main_cst_2
  let main_v11 : IVec S2x256x256 1 := cmpf .olt main_v9 main_v10
  let main_c_3 : IVec S_ 1 := constantI S_ 1 1#1
  let main_v12 : IVec S_ 1 := (fun x v => Host.reduce IntOp.andi x v reducesTo_S2x256x256_S_d0_1_2 h_S_) main_v11 main_c_3
  let main_v13 : IVec S_ 1 := andi main_v8 main_v12
  let main_v14 : FVec F S2x256 .f32 := Host.absf main_arg3
  let main_cst_4 : FVec F S_ .f32 := constant S_ .f32 0x7F800000#32
  let main_v15 : FVec F S2x256 .f32 := broadcastInDim S2x256 ![] bcast_S_S2x256 main_cst_4
  let main_v16 : IVec S2x256 1 := cmpf .olt main_v14 main_v15
  fn_part1 (F := F) main_arg4 main_arg5 main_arg6 main_arg7 main_arg8 main_arg9 main_arg10 main_arg11 main_v13 main_v16
-- ==== Kernel.lean ====
abbrev S32x512x256 : Shape := ⟨3, ![32, 512, 256]⟩
abbrev S64x64 : Shape := ⟨2, ![64, 64]⟩
abbrev S2x256x256 : Shape := ⟨3, ![2, 256, 256]⟩
abbrev S2x256 : Shape := ⟨2, ![2, 256]⟩
abbrev S2x64x256 : Shape := ⟨3, ![2, 64, 256]⟩
abbrev S2x524288 : Shape := ⟨2, ![2, 524288]⟩
abbrev S524288 : Shape := ⟨1, ![524288]⟩
abbrev S16384x256 : Shape := ⟨2, ![16384, 256]⟩
abbrev S1x524288 : Shape := ⟨2, ![1, 524288]⟩
abbrev S_ : Shape := ⟨0, ![]⟩
abbrev S16384 : Shape := ⟨1, ![16384]⟩
abbrev S524288x1 : Shape := ⟨2, ![524288, 1]⟩
abbrev S1048576 : Shape := ⟨1, ![1048576]⟩
abbrev S16384x64 : Shape := ⟨2, ![16384, 64]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S1x64x256 : Shape := ⟨3, ![1, 64, 256]⟩
abbrev S64x256 : Shape := ⟨2, ![64, 256]⟩
abbrev S4096x256 : Shape := ⟨2, ![4096, 256]⟩
abbrev S524288x256 : Shape := ⟨2, ![524288, 256]⟩
abbrev S2048x256 : Shape := ⟨2, ![2048, 256]⟩
abbrev S2048x64 : Shape := ⟨2, ![2048, 64]⟩
abbrev S2048 : Shape := ⟨1, ![2048]⟩
abbrev S2048x1 : Shape := ⟨2, ![2048, 1]⟩

abbrev nBuf : Space → Nat
  | .hbm => 177
  | .vmem => 54
  | .smem => 0
  | _ => 0

abbrev hbmTy0_0 (i : Nat) : BufTy := match i % 128 with
  | 0 => ⟨S32x512x256, .f32⟩
  | 1 => ⟨S64x64, .f32⟩
  | 2 => ⟨S2x256x256, .f32⟩
  | 3 => ⟨S2x256, .f32⟩
  | 4 => ⟨S2x256x256, .f32⟩
  | 5 => ⟨S2x256, .f32⟩
  | 6 => ⟨S2x64x256, .f32⟩
  | 7 => ⟨S2x256, .f32⟩
  | 8 => ⟨S2x256, .f32⟩
  | 9 => ⟨S2x256, .f32⟩
  | 10 => ⟨S2x524288, .i32⟩
  | 11 => ⟨S524288, .i32⟩
  | 12 => ⟨S16384x256, .f32⟩
  | 13 => ⟨S1x524288, .i32⟩
  | 14 => ⟨S524288, .i32⟩
  | 15 => ⟨S1x524288, .i32⟩
  | 16 => ⟨S524288, .i32⟩
  | 17 => ⟨S_, .f32⟩
  | 18 => ⟨S524288, .f32⟩
  | 19 => ⟨S_, .f32⟩
  | 20 => ⟨S16384, .f32⟩
  | 21 => ⟨S524288x1, .i32⟩
  | 22 => ⟨S16384, .f32⟩
  | 23 => ⟨S_, .f32⟩
  | 24 => ⟨S16384, .f32⟩
  | 25 => ⟨S16384, .f32⟩
  | 26 => ⟨S_, .f32⟩
  | 27 => ⟨S16384, .f32⟩
  | 28 => ⟨S16384, .f32⟩
  | 29 => ⟨S_, .i32⟩
  | 30 => ⟨S524288, .i32⟩
  | 31 => ⟨S524288, .i32⟩
  | 32 => ⟨S524288, .i32⟩
  | 33 => ⟨S_, .f32⟩
  | 34 => ⟨S524288, .f32⟩
  | 35 => ⟨S_, .f32⟩
  | 36 => ⟨S1048576, .f32⟩
  | 37 => ⟨S524288x1, .i32⟩
  | 38 => ⟨S1048576, .f32⟩
  | 39 => ⟨S16384x64, .f32⟩
  | 40 => ⟨S1x256x256, .f32⟩
  | 41 => ⟨S256x256, .f32⟩
  | 42 => ⟨S1x256, .f32⟩
  | 43 => ⟨S256, .f32⟩
  | 44 => ⟨S1x256x256, .f32⟩
  | 45 => ⟨S256x256, .f32⟩
  | 46 => ⟨S1x256, .f32⟩
  | 47 => ⟨S256, .f32⟩
  | 48 => ⟨S1x64x256, .f32⟩
  | 49 => ⟨S64x256, .f32⟩
  | 50 => ⟨S1x256, .f32⟩
  | 51 => ⟨S256, .f32⟩
  | 52 => ⟨S1x256, .f32⟩
  | 53 => ⟨S256, .f32⟩
  | 54 => ⟨S1x256, .f32⟩
  | 55 => ⟨S256, .f32⟩
  | 56 => ⟨S64x256, .f32⟩
  | 57 => ⟨S256, .f32⟩
  | 58 => ⟨S1x256, .f32⟩
  | 59 => ⟨S16384x256, .f32⟩
  | 60 => ⟨S_, .i32⟩
  | 61 => ⟨S524288, .i32⟩
  | 62 => ⟨S524288, .i1⟩
  | 63 => ⟨S_, .i32⟩
  | 64 => ⟨S524288, .i32⟩
  | 65 => ⟨S524288, .i32⟩
  | 66 => ⟨S524288, .i32⟩
  | 67 => ⟨S524288x1, .i32⟩
  | 68 => ⟨S524288x256, .f32⟩
  | 69 => ⟨S_, .f32⟩
  | 70 => ⟨S16384x256, .f32⟩
  | 71 => ⟨S524288x1, .i32⟩
  | 72 => ⟨S16384x256, .f32⟩
  | 73 => ⟨S1x256, .f32⟩
  | 74 => ⟨S16384x256, .f32⟩
  | 75 => ⟨S_, .f32⟩
  | 76 => ⟨S256, .f32⟩
  | 77 => ⟨S1x256, .f32⟩
  | 78 => ⟨S_, .f32⟩
  | 79 => ⟨S1x256, .f32⟩
  | 80 => ⟨S1x256, .f32⟩
  | 81 => ⟨S_, .i32⟩
  | 82 => ⟨S_, .f32⟩
  | 83 => ⟨S256, .f32⟩
  | 84 => ⟨S1x256, .f32⟩
  | 85 => ⟨S_, .f32⟩
  | 86 => ⟨S1x256, .f32⟩
  | 87 => ⟨S1x256, .f32⟩
  | 88 => ⟨S16384x256, .f32⟩
  | 89 => ⟨S16384x256, .f32⟩
  | 90 => ⟨S16384x256, .f32⟩
  | 91 => ⟨S_, .f32⟩
  | 92 => ⟨S_, .f32⟩
  | 93 => ⟨S_, .f32⟩
  | 94 => ⟨S_, .f32⟩
  | 95 => ⟨S256, .f32⟩
  | 96 => ⟨S1x256, .f32⟩
  | 97 => ⟨S1x256, .f32⟩
  | 98 => ⟨S1x256, .f32⟩
  | 99 => ⟨S_, .f32⟩
  | 100 => ⟨S_, .i1⟩
  | 101 => ⟨S_, .f32⟩
  | 102 => ⟨S_, .f32⟩
  | 103 => ⟨S1x256, .f32⟩
  | 104 => ⟨S1x256, .f32⟩
  | 105 => ⟨S1x256, .f32⟩
  | 106 => ⟨S1x256, .f32⟩
  | 107 => ⟨S16384x256, .f32⟩
  | 108 => ⟨S1x256x256, .f32⟩
  | 109 => ⟨S256x256, .f32⟩
  | 110 => ⟨S1x256, .f32⟩
  | 111 => ⟨S256, .f32⟩
  | 112 => ⟨S1x256x256, .f32⟩
  | 113 => ⟨S256x256, .f32⟩
  | 114 => ⟨S1x256, .f32⟩
  | 115 => ⟨S256, .f32⟩
  | 116 => ⟨S1x64x256, .f32⟩
  | 117 => ⟨S64x256, .f32⟩
  | 118 => ⟨S1x256, .f32⟩
  | 119 => ⟨S256, .f32⟩
  | 120 => ⟨S1x256, .f32⟩
  | 121 => ⟨S256, .f32⟩
  | 122 => ⟨S1x256, .f32⟩
  | 123 => ⟨S256, .f32⟩
  | 124 => ⟨S64x256, .f32⟩
  | 125 => ⟨S256, .f32⟩
  | 126 => ⟨S1x256, .f32⟩
  | 127 => ⟨S16384x256, .f32⟩
  | _ => ⟨S32x512x256, .f32⟩

abbrev hbmTy0_1 (i : Nat) : BufTy := match i % 128 with
  | 0 => ⟨S_, .i32⟩
  | 1 => ⟨S524288, .i32⟩
  | 2 => ⟨S524288, .i1⟩
  | 3 => ⟨S_, .i32⟩
  | 4 => ⟨S524288, .i32⟩
  | 5 => ⟨S524288, .i32⟩
  | 6 => ⟨S524288, .i32⟩
  | 7 => ⟨S524288x1, .i32⟩
  | 8 => ⟨S524288x256, .f32⟩
  | 9 => ⟨S_, .f32⟩
  | 10 => ⟨S16384x256, .f32⟩
  | 11 => ⟨S524288x1, .i32⟩
  | 12 => ⟨S16384x256, .f32⟩
  | 13 => ⟨S1x256, .f32⟩
  | 14 => ⟨S16384x256, .f32⟩
  | 15 => ⟨S_, .f32⟩
  | 16 => ⟨S256, .f32⟩
  | 17 => ⟨S1x256, .f32⟩
  | 18 => ⟨S_, .f32⟩
  | 19 => ⟨S1x256, .f32⟩
  | 20 => ⟨S1x256, .f32⟩
  | 21 => ⟨S_, .i32⟩
  | 22 => ⟨S_, .f32⟩
  | 23 => ⟨S256, .f32⟩
  | 24 => ⟨S1x256, .f32⟩
  | 25 => ⟨S_, .f32⟩
  | 26 => ⟨S1x256, .f32⟩
  | 27 => ⟨S1x256, .f32⟩
  | 28 => ⟨S16384x256, .f32⟩
  | 29 => ⟨S16384x256, .f32⟩
  | 30 => ⟨S16384x256, .f32⟩
  | 31 => ⟨S_, .f32⟩
  | 32 => ⟨S_, .f32⟩
  | 33 => ⟨S_, .f32⟩
  | 34 => ⟨S_, .f32⟩
  | 35 => ⟨S256, .f32⟩
  | 36 => ⟨S1x256, .f32⟩
  | 37 => ⟨S1x256, .f32⟩
  | 38 => ⟨S1x256, .f32⟩
  | 39 => ⟨S_, .f32⟩
  | 40 => ⟨S_, .i1⟩
  | 41 => ⟨S_, .f32⟩
  | 42 => ⟨S_, .f32⟩
  | 43 => ⟨S1x256, .f32⟩
  | 44 => ⟨S1x256, .f32⟩
  | 45 => ⟨S1x256, .f32⟩
  | 46 => ⟨S1x256, .f32⟩
  | 47 => ⟨S16384x256, .f32⟩
  | 48 => ⟨S32x512x256, .f32⟩
  | _ => ⟨S32x512x256, .f32⟩

abbrev hbmTy (i : Nat) : BufTy := match i / 128 with
  | 0 => hbmTy0_0 i
  | 1 => hbmTy0_1 i
  | _ => ⟨S32x512x256, .f32⟩

abbrev bufTy : (tb : Table) → Fin (tcTables nBuf tb) → BufTy
  | .hbm, ⟨i, _⟩ => hbmTy i
  | .local _ .vmem, ⟨0, _⟩ => ⟨S4096x256, .f32⟩
  | .local _ .vmem, ⟨1, _⟩ => ⟨S4096x256, .f32⟩
  | .local _ .vmem, ⟨2, _⟩ => ⟨S256x256, .f32⟩
  | .local _ .vmem, ⟨3, _⟩ => ⟨S1x256, .f32⟩
  | .local _ .vmem, ⟨4, _⟩ => ⟨S4096x256, .f32⟩
  | .local _ .vmem, ⟨5, _⟩ => ⟨S4096x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S2048x64, .f32⟩
  | .local _ .vmem, ⟨11, _⟩ => ⟨S2048x64, .f32⟩
  | .local _ .vmem, ⟨12, _⟩ => ⟨S64x256, .f32⟩
  | .local _ .vmem, ⟨13, _⟩ => ⟨S2048, .f32⟩
  | .local _ .vmem, ⟨14, _⟩ => ⟨S2048, .f32⟩
  | .local _ .vmem, ⟨15, _⟩ => ⟨S256x256, .f32⟩
  | .local _ .vmem, ⟨16, _⟩ => ⟨S1x256, .f32⟩
  | .local _ .vmem, ⟨17, _⟩ => ⟨S2048x256, .f32⟩
  | .local _ .vmem, ⟨18, _⟩ => ⟨S2048x256, .f32⟩
  | .local _ .vmem, ⟨19, _⟩ => ⟨S4096x256, .f32⟩
  | .local _ .vmem, ⟨20, _⟩ => ⟨S4096x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S4096x256, .f32⟩
  | .local _ .vmem, ⟨26, _⟩ => ⟨S4096x256, .f32⟩
  | .local _ .vmem, ⟨27, _⟩ => ⟨S4096x256, .f32⟩
  | .local _ .vmem, ⟨28, _⟩ => ⟨S4096x256, .f32⟩
  | .local _ .vmem, ⟨29, _⟩ => ⟨S256x256, .f32⟩
  | .local _ .vmem, ⟨30, _⟩ => ⟨S1x256, .f32⟩
  | .local _ .vmem, ⟨31, _⟩ => ⟨S4096x256, .f32⟩
  | .local _ .vmem, ⟨32, _⟩ => ⟨S4096x256, .f32⟩
  | .local _ .vmem, ⟨33, _⟩ => ⟨S2048x256, .f32⟩
  | .local _ .vmem, ⟨34, _⟩ => ⟨S2048x256, .f32⟩
  | .local _ .vmem, ⟨35, _⟩ => ⟨S2048x256, .f32⟩
  | .local _ .vmem, ⟨36, _⟩ => ⟨S2048x256, .f32⟩
  | .local _ .vmem, ⟨37, _⟩ => ⟨S2048x64, .f32⟩
  | .local _ .vmem, ⟨38, _⟩ => ⟨S2048x64, .f32⟩
  | .local _ .vmem, ⟨39, _⟩ => ⟨S64x256, .f32⟩
  | .local _ .vmem, ⟨40, _⟩ => ⟨S2048, .f32⟩
  | .local _ .vmem, ⟨41, _⟩ => ⟨S2048, .f32⟩
  | .local _ .vmem, ⟨42, _⟩ => ⟨S256x256, .f32⟩
  | .local _ .vmem, ⟨43, _⟩ => ⟨S1x256, .f32⟩
  | .local _ .vmem, ⟨44, _⟩ => ⟨S2048x256, .f32⟩
  | .local _ .vmem, ⟨45, _⟩ => ⟨S2048x256, .f32⟩
  | .local _ .vmem, ⟨46, _⟩ => ⟨S4096x256, .f32⟩
  | .local _ .vmem, ⟨47, _⟩ => ⟨S4096x256, .f32⟩
  | .local _ .vmem, ⟨48, _⟩ => ⟨S1x256, .f32⟩
  | .local _ .vmem, ⟨49, _⟩ => ⟨S1x256, .f32⟩
  | .local _ .vmem, ⟨50, _⟩ => ⟨S1x256, .f32⟩
  | .local _ .vmem, ⟨51, _⟩ => ⟨S1x256, .f32⟩
  | .local _ .vmem, ⟨52, _⟩ => ⟨S4096x256, .f32⟩
  | .local _ .vmem, ⟨53, _⟩ => ⟨S4096x256, .f32⟩
  | _, _ => ⟨S32x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_5 : Ref sig .tc := ⟨.hbm, 60, rfl⟩
abbrev main_v41 : Ref sig .tc := ⟨.hbm, 61, rfl⟩
abbrev main_v42 : Ref sig .tc := ⟨.hbm, 62, rfl⟩
abbrev main_c_6 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_7 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_8 : Ref sig .tc := ⟨.hbm, 75, rfl⟩
abbrev main_v53 : Ref sig .tc := ⟨.hbm, 76, rfl⟩
abbrev main_v54 : Ref sig .tc := ⟨.hbm, 77, rfl⟩
abbrev main_cst_9 : Ref sig .tc := ⟨.hbm, 78, rfl⟩
abbrev main_v55 : Ref sig .tc := ⟨.hbm, 79, rfl⟩
abbrev main_v56 : Ref sig .tc := ⟨.hbm, 80, rfl⟩
abbrev main_c_10 : Ref sig .tc := ⟨.hbm, 81, rfl⟩
abbrev main_call0_cst : Ref sig .tc := ⟨.hbm, 82, rfl⟩
abbrev main_call0_v0 : Ref sig .tc := ⟨.hbm, 83, rfl⟩
abbrev main_call0_v1 : Ref sig .tc := ⟨.hbm, 84, rfl⟩
abbrev main_call0_cst_0 : Ref sig .tc := ⟨.hbm, 85, rfl⟩
abbrev main_call0_v2 : Ref sig .tc := ⟨.hbm, 86, rfl⟩
abbrev main_call0_v3 : Ref sig .tc := ⟨.hbm, 87, rfl⟩
abbrev main_call0_v4 : Ref sig .tc := ⟨.hbm, 88, rfl⟩
abbrev main_call0_v5 : Ref sig .tc := ⟨.hbm, 89, rfl⟩
abbrev main_call0_v6 : Ref sig .tc := ⟨.hbm, 90, rfl⟩
abbrev main_call0_v7 : Ref sig .tc := ⟨.hbm, 91, rfl⟩
abbrev main_call0_cst_1 : Ref sig .tc := ⟨.hbm, 92, rfl⟩
abbrev main_call0_v8 : Ref sig .tc := ⟨.hbm, 93, rfl⟩
abbrev main_call0_cst_2 : Ref sig .tc := ⟨.hbm, 94, rfl⟩
abbrev main_call0_v9 : Ref sig .tc := ⟨.hbm, 95, rfl⟩
abbrev main_call0_v10 : Ref sig .tc := ⟨.hbm, 96, rfl⟩
abbrev main_call0_v11 : Ref sig .tc := ⟨.hbm, 97, rfl⟩
abbrev main_call0_v12 : Ref sig .tc := ⟨.hbm, 98, rfl⟩
abbrev main_call0_cst_3 : Ref sig .tc := ⟨.hbm, 99, rfl⟩
abbrev main_call0_v13 : Ref sig .tc := ⟨.hbm, 100, rfl⟩
abbrev main_call0_cst_4 : Ref sig .tc := ⟨.hbm, 101, rfl⟩
abbrev main_call0_call0_v0 : Ref sig .tc := ⟨.hbm, 102, rfl⟩
abbrev main_call0_call0_v1 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_c_11 : Ref sig .tc := ⟨.hbm, 128, rfl⟩
abbrev main_v81 : Ref sig .tc := ⟨.hbm, 129, rfl⟩
abbrev main_v82 : Ref sig .tc := ⟨.hbm, 130, rfl⟩
abbrev main_c_12 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_13 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_cst_14 : Ref sig .tc := ⟨.hbm, 143, rfl⟩
abbrev main_v93 : Ref sig .tc := ⟨.hbm, 144, rfl⟩
abbrev main_v94 : Ref sig .tc := ⟨.hbm, 145, rfl⟩
abbrev main_cst_15 : Ref sig .tc := ⟨.hbm, 146, rfl⟩
abbrev main_v95 : Ref sig .tc := ⟨.hbm, 147, rfl⟩
abbrev main_v96 : Ref sig .tc := ⟨.hbm, 148, rfl⟩
abbrev main_c_16 : Ref sig .tc := ⟨.hbm, 149, rfl⟩
abbrev main_call1_cst : Ref sig .tc := ⟨.hbm, 150, rfl⟩
abbrev main_call1_v0 : Ref sig .tc := ⟨.hbm, 151, rfl⟩
abbrev main_call1_v1 : Ref sig .tc := ⟨.hbm, 152, rfl⟩
abbrev main_call1_cst_0 : Ref sig .tc := ⟨.hbm, 153, rfl⟩
abbrev main_call1_v2 : Ref sig .tc := ⟨.hbm, 154, rfl⟩
abbrev main_call1_v3 : Ref sig .tc := ⟨.hbm, 155, rfl⟩
abbrev main_call1_v4 : Ref sig .tc := ⟨.hbm, 156, rfl⟩
abbrev main_call1_v5 : Ref sig .tc := ⟨.hbm, 157, rfl⟩
abbrev main_call1_v6 : Ref sig .tc := ⟨.hbm, 158, rfl⟩
abbrev main_call1_v7 : Ref sig .tc := ⟨.hbm, 159, rfl⟩
abbrev main_call1_cst_1 : Ref sig .tc := ⟨.hbm, 160, rfl⟩
abbrev main_call1_v8 : Ref sig .tc := ⟨.hbm, 161, rfl⟩
abbrev main_call1_cst_2 : Ref sig .tc := ⟨.hbm, 162, rfl⟩
abbrev main_call1_v9 : Ref sig .tc := ⟨.hbm, 163, rfl⟩
abbrev main_call1_v10 : Ref sig .tc := ⟨.hbm, 164, rfl⟩
abbrev main_call1_v11 : Ref sig .tc := ⟨.hbm, 165, rfl⟩
abbrev main_call1_v12 : Ref sig .tc := ⟨.hbm, 166, rfl⟩
abbrev main_call1_cst_3 : Ref sig .tc := ⟨.hbm, 167, rfl⟩
abbrev main_call1_v13 : Ref sig .tc := ⟨.hbm, 168, rfl⟩
abbrev main_call1_cst_4 : Ref sig .tc := ⟨.hbm, 169, rfl⟩
abbrev main_call1_call0_v0 : Ref sig .tc := ⟨.hbm, 170, rfl⟩
abbrev main_call1_call0_v1 : Ref sig .tc := ⟨.hbm, 171, rfl⟩
abbrev main_v97 : Ref sig .tc := ⟨.hbm, 172, rfl⟩
abbrev main_v98 : Ref sig .tc := ⟨.hbm, 173, rfl⟩
abbrev main_v99 : Ref sig .tc := ⟨.hbm, 174, rfl⟩
abbrev main_v100 : Ref sig .tc := ⟨.hbm, 175, rfl⟩
abbrev main_v101 : Ref sig .tc := ⟨.hbm, 176, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg7_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg3_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg2_1 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg4_1 : Ref sig .tc := ⟨.vmem, 41, rfl⟩
abbrev cc4_stg5_0 : Ref sig .tc := ⟨.vmem, 42, rfl⟩
abbrev cc4_stg6_0 : Ref sig .tc := ⟨.vmem, 43, rfl⟩
abbrev cc4_stg7_0 : Ref sig .tc := ⟨.vmem, 44, rfl⟩
abbrev cc4_stg7_1 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem6_0 : DmaSem sig := 16
abbrev cc1_sem7_0 : DmaSem sig := 17
abbrev cc1_sem7_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem3_1 : DmaSem sig := 32
abbrev cc4_sem0_0 : DmaSem sig := 33
abbrev cc4_sem0_1 : DmaSem sig := 34
abbrev cc4_sem1_0 : DmaSem sig := 35
abbrev cc4_sem1_1 : DmaSem sig := 36
abbrev cc4_sem2_0 : DmaSem sig := 37
abbrev cc4_sem2_1 : DmaSem sig := 38
abbrev cc4_sem3_0 : DmaSem sig := 39
abbrev cc4_sem4_0 : DmaSem sig := 40
abbrev cc4_sem4_1 : DmaSem sig := 41
abbrev cc4_sem5_0 : DmaSem sig := 42
abbrev cc4_sem6_0 : DmaSem sig := 43
abbrev cc4_sem7_0 : DmaSem sig := 44
abbrev cc4_sem7_1 : DmaSem sig := 45
abbrev cc5_sem0_0 : DmaSem sig := 46
abbrev cc5_sem0_1 : DmaSem sig := 47
abbrev cc5_sem1_0 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  ![arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2048x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4096x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S4096x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  ![arg0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2048x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2048x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2048x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2048 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S256x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S2048x256 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4096x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S4096x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  shapeCasts_S32x512x256_S16384x256 : S32x512x256.ShapeCasts S16384x256
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S_S16384 : S_.BroadcastsInDim S16384 (![] : Fin 0 → Fin S16384.rank)
  bcast_S524288_S524288x1_0 : S524288.BroadcastsInDim S524288x1 (![0] : Fin 1 → Fin S524288x1.rank)
  bcast_S_S1048576 : S_.BroadcastsInDim S1048576 (![] : Fin 0 → Fin S1048576.rank)
  shapeCasts_S1048576_S16384x64 : S1048576.ShapeCasts S16384x64
  slices_S2x256x256_S1x256x256_0_0_0 : S2x256x256.Slices ![0, 0, 0] S1x256x256
  shapeCasts_S1x256x256_S256x256 : S1x256x256.ShapeCasts S256x256
  slices_S2x256_S1x256_0_0 : S2x256.Slices ![0, 0] S1x256
  shapeCasts_S1x256_S256 : S1x256.ShapeCasts S256
  slices_S2x64x256_S1x64x256_0_0_0 : S2x64x256.Slices ![0, 0, 0] S1x64x256
  shapeCasts_S1x64x256_S64x256 : S1x64x256.ShapeCasts S64x256
  shapeCasts_S256_S1x256 : S256.ShapeCasts S1x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  bcast_S_S16384x256 : S_.BroadcastsInDim S16384x256 (![] : Fin 0 → Fin S16384x256.rank)
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S2048_S2048_0 : ∀ a, (![0] : Fin 1 → Nat) a + S2048.size a ≤ S2048.size a
  h_S2048 : 0 < S2048.numel
  shapeCasts_S2048_S2048 : S2048.ShapeCasts S2048
  shapeCasts_S2048_S2048x1 : S2048.ShapeCasts S2048x1
  broadcasts_S2048x1_S2048x256 : S2048x1.Broadcasts S2048x256
  broadcasts_S1x256_S2048x256 : S1x256.Broadcasts S2048x256
  reducesTo_S16384x256_S256_d0 : S16384x256.ReducesTo [0] S256
  h_S_ : 0 < S_.numel
  bcast_S256_S1x256_1 : S256.BroadcastsInDim S1x256 (![1] : Fin 1 → Fin S1x256.rank)
  bcast_S_S1x256 : S_.BroadcastsInDim S1x256 (![] : Fin 0 → Fin S1x256.rank)
  bcast_S1x256_S16384x256_0_1 : S1x256.BroadcastsInDim S16384x256 (![0, 1] : Fin 2 → Fin S16384x256.rank)
  slices_S2x256x256_S1x256x256_1_0_0 : S2x256x256.Slices ![1, 0, 0] S1x256x256
  slices_S2x256_S1x256_1_0 : S2x256.Slices ![1, 0] S1x256
  slices_S2x64x256_S1x64x256_1_0_0 : S2x64x256.Slices ![1, 0, 0] S1x64x256
  shapeCasts_S16384x256_S32x512x256 : S16384x256.ShapeCasts S32x512x256
  scatter_S16384_S524288x1_S524288_n_0_0_1_wf : ScatterDims.WF S16384 S524288x1 S524288 [] [0] [0] 1
  scatter_S1048576_S524288x1_S524288_n_0_0_1_wf : ScatterDims.WF S1048576 S524288x1 S524288 [] [0] [0] 1
  dot_S64x64_S64x256_S64x256_1_0_0_1_n_n_wf : DotDims.WF S64x64 S64x256 S64x256 [1] [0] [0] [1] [] []
  dot_S4096x256_S256x256_S4096x256_1_0_0_1_n_n_wf : DotDims.WF S4096x256 S256x256 S4096x256 [1] [0] [0] [1] [] []
  gather_S16384x256_S524288x1_S524288x256_1_0_n_n_0_1_1256_wf : GatherDims.WF S16384x256 S524288x1 S524288x256 [1] [0] [] [0] [] 1 ![1, 256]
  scatter_S16384x256_S524288x1_S524288x256_1_0_0_1_wf : ScatterDims.WF S16384x256 S524288x1 S524288x256 [1] [0] [0] 1
  dot_S2048x256_S256x256_S2048x256_1_0_0_1_n_n_wf : DotDims.WF S2048x256 S256x256 S2048x256 [1] [0] [0] [1] [] []
  dot_S2048x64_S64x256_S2048x256_1_0_0_1_n_n_wf : DotDims.WF S2048x64 S64x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S16384x256.size a
  hwx0_0 : ∀ i : grid0.Coords, EltTy.bits .f32 = 32 ∨ (Rect.block (s := S16384x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S16384x256.size a
  hwx0_3 : ∀ i : grid0.Coords, EltTy.bits .f32 = 32 ∨ (Rect.block (s := S16384x256) S4096x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S16384x256.size a
  hwx1_0 : ∀ i : grid1.Coords, EltTy.bits .f32 = 32 ∨ (Rect.block (s := S16384x256) S2048x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S16384x256.size a
  hwx1_1 : ∀ i : grid1.Coords, EltTy.bits .f32 = 32 ∨ (Rect.block (s := S16384x256) S2048x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x64.size a ≤ S16384x64.size a
  hwx1_2 : ∀ i : grid1.Coords, EltTy.bits .f32 = 32 ∨ (Rect.block (s := S16384x64) S2048x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x256.size a ≤ S64x256.size a
  hwx1_3 : ∀ i : grid1.Coords, EltTy.bits .f32 = 32 ∨ (Rect.block (s := S64x256) S64x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048.size a ≤ S16384.size a
  hwx1_4 : ∀ i : grid1.Coords, EltTy.bits .f32 = 32 ∨ (Rect.block (s := S16384) S2048.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2048x256.size a ≤ S16384x256.size a
  hwx1_7 : ∀ i : grid1.Coords, EltTy.bits .f32 = 32 ∨ (Rect.block (s := S16384x256) S2048x256.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x256.size a ≤ S16384x256.size a
  hwx2_0 : ∀ i : grid2.Coords, EltTy.bits .f32 = 32 ∨ (Rect.block (s := S16384x256) S4096x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4096x256.size a ≤ S16384x256.size a
  hwx2_5 : ∀ i : grid2.Coords, EltTy.bits .f32 = 32 ∨ (Rect.block (s := S16384x256) S4096x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x256.size a ≤ S16384x256.size a
  hwx3_0 : ∀ i : grid3.Coords, EltTy.bits .f32 = 32 ∨ (Rect.block (s := S16384x256) S4096x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4096x256.size a ≤ S16384x256.size a
  hwx3_3 : ∀ i : grid3.Coords, EltTy.bits .f32 = 32 ∨ (Rect.block (s := S16384x256) S4096x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x256.size a ≤ S16384x256.size a
  hwx4_0 : ∀ i : grid4.Coords, EltTy.bits .f32 = 32 ∨ (Rect.block (s := S16384x256) S2048x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x256.size a ≤ S16384x256.size a
  hwx4_1 : ∀ i : grid4.Coords, EltTy.bits .f32 = 32 ∨ (Rect.block (s := S16384x256) S2048x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x64.size a ≤ S16384x64.size a
  hwx4_2 : ∀ i : grid4.Coords, EltTy.bits .f32 = 32 ∨ (Rect.block (s := S16384x64) S2048x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x256.size a ≤ S64x256.size a
  hwx4_3 : ∀ i : grid4.Coords, EltTy.bits .f32 = 32 ∨ (Rect.block (s := S64x256) S64x256.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2048.size a ≤ S16384.size a
  hwx4_4 : ∀ i : grid4.Coords, EltTy.bits .f32 = 32 ∨ (Rect.block (s := S16384) S2048.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S256x256.size a ≤ S256x256.size a
  hwx4_5 : ∀ i : grid4.Coords, EltTy.bits .f32 = 32 ∨ (Rect.block (s := S256x256) S256x256.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x256.size a ≤ S1x256.size a
  hwx4_6 : ∀ i : grid4.Coords, EltTy.bits .f32 = 32 ∨ (Rect.block (s := S1x256) S1x256.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S2048x256.size a ≤ S16384x256.size a
  hwx4_7 : ∀ i : grid4.Coords, EltTy.bits .f32 = 32 ∨ (Rect.block (s := S16384x256) S2048x256.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4096x256.size a ≤ S16384x256.size a
  hwx5_0 : ∀ i : grid5.Coords, EltTy.bits .f32 = 32 ∨ (Rect.block (s := S16384x256) S4096x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S4096x256.size a ≤ S16384x256.size a
  hwx5_5 : ∀ i : grid5.Coords, EltTy.bits .f32 = 32 ∨ (Rect.block (s := S16384x256) S4096x256.size (cc5_transform_5 i) (hinb5_5 i)).WholeWords (EltTy.packing .f32)

variable [Facts₀]

def scatter_S16384_S524288x1_S524288_n_0_0_1 : ScatterDims S16384 S524288x1 S524288 where
  updateWindowDims := []
  insertedWindowDims := [0]
  scatterDimsToOperandDims := [0]
  indexVectorDim := 1
  wf := scatter_S16384_S524288x1_S524288_n_0_0_1_wf
def scatter_S1048576_S524288x1_S524288_n_0_0_1 : ScatterDims S1048576 S524288x1 S524288 where
  updateWindowDims := []
  insertedWindowDims := [0]
  scatterDimsToOperandDims := [0]
  indexVectorDim := 1
  wf := scatter_S1048576_S524288x1_S524288_n_0_0_1_wf
def dot_S64x64_S64x256_S64x256_1_0_0_1_n_n : DotDims S64x64 S64x256 S64x256 where
  lhsContracting := [1]
  rhsContracting := [0]
  lhsNonContracting := [0]
  rhsNonContracting := [1]
  lhsBatch := []
  rhsBatch := []
  wf := dot_S64x64_S64x256_S64x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def gather_S16384x256_S524288x1_S524288x256_1_0_n_n_0_1_1256 : GatherDims S16384x256 S524288x1 S524288x256 where
  offsetDims := [1]
  collapsedSliceDims := [0]
  operandBatchingDims := []
  startIndicesBatchingDims := []
  startIndexMap := [0]
  indexVectorDim := 1
  sliceSizes := ![1, 256]
  wf := gather_S16384x256_S524288x1_S524288x256_1_0_n_n_0_1_1256_wf
def scatter_S16384x256_S524288x1_S524288x256_1_0_0_1 : ScatterDims S16384x256 S524288x1 S524288x256 where
  updateWindowDims := [1]
  insertedWindowDims := [0]
  scatterDimsToOperandDims := [0]
  indexVectorDim := 1
  wf := scatter_S16384x256_S524288x1_S524288x256_1_0_0_1_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x64_S64x256_S2048x256_1_0_0_1_n_n : DotDims S2048x64 S64x256 S2048x256 where
  lhsContracting := [1]
  rhsContracting := [0]
  lhsNonContracting := [0]
  rhsNonContracting := [1]
  lhsBatch := []
  rhsBatch := []
  wf := dot_S2048x64_S64x256_S2048x256_1_0_0_1_n_n_wf

abbrev win0_0 : Pipeline.Window sig grid0 :=
  Pipeline.Window.ofSpec (Memref.whole main_v0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v39) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v40) S4096x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v37) S64x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S2048.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v26) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v51) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v52) S2048x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v52) S4096x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v59) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v60) S4096x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v60) S4096x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v79) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v80) S4096x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v60) S2048x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v90) S2048x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v20) S2048x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v77) S64x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v12) S2048.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v66) S256x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v91) S1x256.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v92) S2048x256.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v92) S4096x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v96) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v97) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v98) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v99) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v100) S4096x256.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S32x512x256 : Shape := ⟨3, ![32, 512, 256]⟩
abbrev S64x64 : Shape := ⟨2, ![64, 64]⟩
abbrev S2x256x256 : Shape := ⟨3, ![2, 256, 256]⟩
abbrev S2x256 : Shape := ⟨2, ![2, 256]⟩
abbrev S2x64x256 : Shape := ⟨3, ![2, 64, 256]⟩
abbrev S2x524288 : Shape := ⟨2, ![2, 524288]⟩
abbrev S524288 : Shape := ⟨1, ![524288]⟩
abbrev S16384x256 : Shape := ⟨2, ![16384, 256]⟩
abbrev S1x524288 : Shape := ⟨2, ![1, 524288]⟩
abbrev S_ : Shape := ⟨0, ![]⟩
abbrev S524288x1 : Shape := ⟨2, ![524288, 1]⟩
abbrev S524288x64 : Shape := ⟨2, ![524288, 64]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S1x64x256 : Shape := ⟨3, ![1, 64, 256]⟩
abbrev S64x256 : Shape := ⟨2, ![64, 256]⟩
abbrev S524288x256 : Shape := ⟨2, ![524288, 256]⟩
abbrev S16384 : Shape := ⟨1, ![16384]⟩
abbrev S16384x1 : Shape := ⟨2, ![16384, 1]⟩

abbrev nBuf : Space → Nat
  | .hbm => 231
  | .vmem => 0
  | .smem => 0
  | _ => 0

abbrev hbmTy0_0 (i : Nat) : BufTy := match i % 128 with
  | 0 => ⟨S32x512x256, .f32⟩
  | 1 => ⟨S64x64, .f32⟩
  | 2 => ⟨S2x256x256, .f32⟩
  | 3 => ⟨S2x256, .f32⟩
  | 4 => ⟨S2x256x256, .f32⟩
  | 5 => ⟨S2x256, .f32⟩
  | 6 => ⟨S2x64x256, .f32⟩
  | 7 => ⟨S2x256, .f32⟩
  | 8 => ⟨S2x256, .f32⟩
  | 9 => ⟨S2x256, .f32⟩
  | 10 => ⟨S2x524288, .i32⟩
  | 11 => ⟨S524288, .i32⟩
  | 12 => ⟨S16384x256, .f32⟩
  | 13 => ⟨S1x524288, .i32⟩
  | 14 => ⟨S524288, .i32⟩
  | 15 => ⟨S1x524288, .i32⟩
  | 16 => ⟨S524288, .i32⟩
  | 17 => ⟨S_, .i32⟩
  | 18 => ⟨S524288, .i32⟩
  | 19 => ⟨S524288, .i1⟩
  | 20 => ⟨S_, .i32⟩
  | 21 => ⟨S524288, .i32⟩
  | 22 => ⟨S524288, .i32⟩
  | 23 => ⟨S524288, .i32⟩
  | 24 => ⟨S524288x1, .i32⟩
  | 25 => ⟨S524288x64, .f32⟩
  | 26 => ⟨S1x256x256, .f32⟩
  | 27 => ⟨S256x256, .f32⟩
  | 28 => ⟨S1x256, .f32⟩
  | 29 => ⟨S256, .f32⟩
  | 30 => ⟨S1x256x256, .f32⟩
  | 31 => ⟨S256x256, .f32⟩
  | 32 => ⟨S1x256, .f32⟩
  | 33 => ⟨S256, .f32⟩
  | 34 => ⟨S1x64x256, .f32⟩
  | 35 => ⟨S64x256, .f32⟩
  | 36 => ⟨S1x256, .f32⟩
  | 37 => ⟨S256, .f32⟩
  | 38 => ⟨S1x256, .f32⟩
  | 39 => ⟨S256, .f32⟩
  | 40 => ⟨S1x256, .f32⟩
  | 41 => ⟨S256, .f32⟩
  | 42 => ⟨S_, .i32⟩
  | 43 => ⟨S524288, .i32⟩
  | 44 => ⟨S524288, .i1⟩
  | 45 => ⟨S_, .i32⟩
  | 46 => ⟨S524288, .i32⟩
  | 47 => ⟨S524288, .i32⟩
  | 48 => ⟨S524288, .i32⟩
  | 49 => ⟨S524288x1, .i32⟩
  | 50 => ⟨S524288x256, .f32⟩
  | 51 => ⟨S524288x256, .f32⟩
  | 52 => ⟨S1x256, .f32⟩
  | 53 => ⟨S524288x256, .f32⟩
  | 54 => ⟨S524288x256, .f32⟩
  | 55 => ⟨S524288x256, .f32⟩
  | 56 => ⟨S524288x256, .f32⟩
  | 57 => ⟨S1x256, .f32⟩
  | 58 => ⟨S524288x256, .f32⟩
  | 59 => ⟨S524288x256, .f32⟩
  | 60 => ⟨S_, .f32⟩
  | 61 => ⟨S16384x256, .f32⟩
  | 62 => ⟨S524288x1, .i32⟩
  | 63 => ⟨S16384x256, .f32⟩
  | 64 => ⟨S_, .f32⟩
  | 65 => ⟨S524288, .f32⟩
  | 66 => ⟨S_, .f32⟩
  | 67 => ⟨S16384, .f32⟩
  | 68 => ⟨S524288x1, .i32⟩
  | 69 => ⟨S16384, .f32⟩
  | 70 => ⟨S_, .f32⟩
  | 71 => ⟨S16384, .f32⟩
  | 72 => ⟨S16384, .f32⟩
  | 73 => ⟨S16384x1, .f32⟩
  | 74 => ⟨S16384x256, .f32⟩
  | 75 => ⟨S16384x256, .f32⟩
  | 76 => ⟨S16384x256, .f32⟩
  | 77 => ⟨S16384x256, .f32⟩
  | 78 => ⟨S1x256, .f32⟩
  | 79 => ⟨S16384x256, .f32⟩
  | 80 => ⟨S16384x256, .f32⟩
  | 81 => ⟨S_, .f32⟩
  | 82 => ⟨S256, .f32⟩
  | 83 => ⟨S_, .f32⟩
  | 84 => ⟨S256, .f32⟩
  | 85 => ⟨S256, .f32⟩
  | 86 => ⟨S_, .i32⟩
  | 87 => ⟨S_, .f32⟩
  | 88 => ⟨S256, .f32⟩
  | 89 => ⟨S1x256, .f32⟩
  | 90 => ⟨S_, .f32⟩
  | 91 => ⟨S1x256, .f32⟩
  | 92 => ⟨S1x256, .f32⟩
  | 93 => ⟨S16384x256, .f32⟩
  | 94 => ⟨S16384x256, .f32⟩
  | 95 => ⟨S16384x256, .f32⟩
  | 96 => ⟨S_, .f32⟩
  | 97 => ⟨S_, .f32⟩
  | 98 => ⟨S_, .f32⟩
  | 99 => ⟨S_, .f32⟩
  | 100 => ⟨S256, .f32⟩
  | 101 => ⟨S256, .f32⟩
  | 102 => ⟨S256, .f32⟩
  | 103 => ⟨S_, .f32⟩
  | 104 => ⟨S_, .i1⟩
  | 105 => ⟨S_, .f32⟩
  | 106 => ⟨S_, .f32⟩
  | 107 => ⟨S256, .f32⟩
  | 108 => ⟨S256, .f32⟩
  | 109 => ⟨S1x256, .f32⟩
  | 110 => ⟨S16384x256, .f32⟩
  | 111 => ⟨S16384x256, .f32⟩
  | 112 => ⟨S_, .f32⟩
  | 113 => ⟨S256, .f32⟩
  | 114 => ⟨S256, .f32⟩
  | 115 => ⟨S256, .f32⟩
  | 116 => ⟨S1x256, .f32⟩
  | 117 => ⟨S16384x256, .f32⟩
  | 118 => ⟨S16384x256, .f32⟩
  | 119 => ⟨S1x256, .f32⟩
  | 120 => ⟨S16384x256, .f32⟩
  | 121 => ⟨S16384x256, .f32⟩
  | 122 => ⟨S1x256, .f32⟩
  | 123 => ⟨S16384x256, .f32⟩
  | 124 => ⟨S16384x256, .f32⟩
  | 125 => ⟨S_, .f32⟩
  | 126 => ⟨S16384x256, .f32⟩
  | 127 => ⟨S16384x256, .f32⟩
  | _ => ⟨S32x512x256, .f32⟩

abbrev hbmTy0_1 (i : Nat) : BufTy := match i % 128 with
  | 0 => ⟨S1x256x256, .f32⟩
  | 1 => ⟨S256x256, .f32⟩
  | 2 => ⟨S1x256, .f32⟩
  | 3 => ⟨S256, .f32⟩
  | 4 => ⟨S1x256x256, .f32⟩
  | 5 => ⟨S256x256, .f32⟩
  | 6 => ⟨S1x256, .f32⟩
  | 7 => ⟨S256, .f32⟩
  | 8 => ⟨S1x64x256, .f32⟩
  | 9 => ⟨S64x256, .f32⟩
  | 10 => ⟨S1x256, .f32⟩
  | 11 => ⟨S256, .f32⟩
  | 12 => ⟨S1x256, .f32⟩
  | 13 => ⟨S256, .f32⟩
  | 14 => ⟨S1x256, .f32⟩
  | 15 => ⟨S256, .f32⟩
  | 16 => ⟨S_, .i32⟩
  | 17 => ⟨S524288, .i32⟩
  | 18 => ⟨S524288, .i1⟩
  | 19 => ⟨S_, .i32⟩
  | 20 => ⟨S524288, .i32⟩
  | 21 => ⟨S524288, .i32⟩
  | 22 => ⟨S524288, .i32⟩
  | 23 => ⟨S524288x1, .i32⟩
  | 24 => ⟨S524288x256, .f32⟩
  | 25 => ⟨S524288x256, .f32⟩
  | 26 => ⟨S1x256, .f32⟩
  | 27 => ⟨S524288x256, .f32⟩
  | 28 => ⟨S524288x256, .f32⟩
  | 29 => ⟨S524288x256, .f32⟩
  | 30 => ⟨S524288x256, .f32⟩
  | 31 => ⟨S1x256, .f32⟩
  | 32 => ⟨S524288x256, .f32⟩
  | 33 => ⟨S524288x256, .f32⟩
  | 34 => ⟨S_, .f32⟩
  | 35 => ⟨S16384x256, .f32⟩
  | 36 => ⟨S524288x1, .i32⟩
  | 37 => ⟨S16384x256, .f32⟩
  | 38 => ⟨S_, .f32⟩
  | 39 => ⟨S524288, .f32⟩
  | 40 => ⟨S_, .f32⟩
  | 41 => ⟨S16384, .f32⟩
  | 42 => ⟨S524288x1, .i32⟩
  | 43 => ⟨S16384, .f32⟩
  | 44 => ⟨S_, .f32⟩
  | 45 => ⟨S16384, .f32⟩
  | 46 => ⟨S16384, .f32⟩
  | 47 => ⟨S16384x1, .f32⟩
  | 48 => ⟨S16384x256, .f32⟩
  | 49 => ⟨S16384x256, .f32⟩
  | 50 => ⟨S16384x256, .f32⟩
  | 51 => ⟨S16384x256, .f32⟩
  | 52 => ⟨S1x256, .f32⟩
  | 53 => ⟨S16384x256, .f32⟩
  | 54 => ⟨S16384x256, .f32⟩
  | 55 => ⟨S_, .f32⟩
  | 56 => ⟨S256, .f32⟩
  | 57 => ⟨S_, .f32⟩
  | 58 => ⟨S256, .f32⟩
  | 59 => ⟨S256, .f32⟩
  | 60 => ⟨S_, .i32⟩
  | 61 => ⟨S_, .f32⟩
  | 62 => ⟨S256, .f32⟩
  | 63 => ⟨S1x256, .f32⟩
  | 64 => ⟨S_, .f32⟩
  | 65 => ⟨S1x256, .f32⟩
  | 66 => ⟨S1x256, .f32⟩
  | 67 => ⟨S16384x256, .f32⟩
  | 68 => ⟨S16384x256, .f32⟩
  | 69 => ⟨S16384x256, .f32⟩
  | 70 => ⟨S_, .f32⟩
  | 71 => ⟨S_, .f32⟩
  | 72 => ⟨S_, .f32⟩
  | 73 => ⟨S_, .f32⟩
  | 74 => ⟨S256, .f32⟩
  | 75 => ⟨S256, .f32⟩
  | 76 => ⟨S256, .f32⟩
  | 77 => ⟨S_, .f32⟩
  | 78 => ⟨S_, .i1⟩
  | 79 => ⟨S_, .f32⟩
  | 80 => ⟨S_, .f32⟩
  | 81 => ⟨S256, .f32⟩
  | 82 => ⟨S256, .f32⟩
  | 83 => ⟨S1x256, .f32⟩
  | 84 => ⟨S16384x256, .f32⟩
  | 85 => ⟨S16384x256, .f32⟩
  | 86 => ⟨S_, .f32⟩
  | 87 => ⟨S256, .f32⟩
  | 88 => ⟨S256, .f32⟩
  | 89 => ⟨S256, .f32⟩
  | 90 => ⟨S1x256, .f32⟩
  | 91 => ⟨S16384x256, .f32⟩
  | 92 => ⟨S16384x256, .f32⟩
  | 93 => ⟨S1x256, .f32⟩
  | 94 => ⟨S16384x256, .f32⟩
  | 95 => ⟨S16384x256, .f32⟩
  | 96 => ⟨S1x256, .f32⟩
  | 97 => ⟨S16384x256, .f32⟩
  | 98 => ⟨S16384x256, .f32⟩
  | 99 => ⟨S_, .f32⟩
  | 100 => ⟨S16384x256, .f32⟩
  | 101 => ⟨S16384x256, .f32⟩
  | 102 => ⟨S32x512x256, .f32⟩
  | _ => ⟨S32x512x256, .f32⟩

abbrev hbmTy (i : Nat) : BufTy := match i / 128 with
  | 0 => hbmTy0_0 i
  | 1 => hbmTy0_1 i
  | _ => ⟨S32x512x256, .f32⟩

abbrev bufTy : (tb : Table) → Fin (tcTables nBuf tb) → BufTy
  | .hbm, ⟨i, _⟩ => hbmTy i
  | _, _ => ⟨S32x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_1 : Ref sig .tc := ⟨.hbm, 42, rfl⟩
abbrev main_v28 : Ref sig .tc := ⟨.hbm, 43, rfl⟩
abbrev main_v29 : Ref sig .tc := ⟨.hbm, 44, rfl⟩
abbrev main_c_2 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_3 : Ref sig .tc := ⟨.hbm, 64, rfl⟩
abbrev main_v47 : Ref sig .tc := ⟨.hbm, 65, rfl⟩
abbrev main_cst_4 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_5 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_6 : Ref sig .tc := ⟨.hbm, 81, rfl⟩
abbrev main_v61 : Ref sig .tc := ⟨.hbm, 82, rfl⟩
abbrev main_cst_7 : Ref sig .tc := ⟨.hbm, 83, rfl⟩
abbrev main_v62 : Ref sig .tc := ⟨.hbm, 84, rfl⟩
abbrev main_v63 : Ref sig .tc := ⟨.hbm, 85, rfl⟩
abbrev main_c_8 : Ref sig .tc := ⟨.hbm, 86, rfl⟩
abbrev main_call0_cst : Ref sig .tc := ⟨.hbm, 87, rfl⟩
abbrev main_call0_v0 : Ref sig .tc := ⟨.hbm, 88, rfl⟩
abbrev main_call0_v1 : Ref sig .tc := ⟨.hbm, 89, rfl⟩
abbrev main_call0_cst_0 : Ref sig .tc := ⟨.hbm, 90, rfl⟩
abbrev main_call0_v2 : Ref sig .tc := ⟨.hbm, 91, rfl⟩
abbrev main_call0_v3 : Ref sig .tc := ⟨.hbm, 92, rfl⟩
abbrev main_call0_v4 : Ref sig .tc := ⟨.hbm, 93, rfl⟩
abbrev main_call0_v5 : Ref sig .tc := ⟨.hbm, 94, rfl⟩
abbrev main_call0_v6 : Ref sig .tc := ⟨.hbm, 95, rfl⟩
abbrev main_call0_v7 : Ref sig .tc := ⟨.hbm, 96, rfl⟩
abbrev main_call0_cst_1 : Ref sig .tc := ⟨.hbm, 97, rfl⟩
abbrev main_call0_v8 : Ref sig .tc := ⟨.hbm, 98, rfl⟩
abbrev main_call0_cst_2 : Ref sig .tc := ⟨.hbm, 99, rfl⟩
abbrev main_call0_v9 : Ref sig .tc := ⟨.hbm, 100, rfl⟩
abbrev main_call0_v10 : Ref sig .tc := ⟨.hbm, 101, rfl⟩
abbrev main_call0_v11 : Ref sig .tc := ⟨.hbm, 102, rfl⟩
abbrev main_call0_cst_3 : Ref sig .tc := ⟨.hbm, 103, rfl⟩
abbrev main_call0_v12 : Ref sig .tc := ⟨.hbm, 104, rfl⟩
abbrev main_call0_cst_4 : Ref sig .tc := ⟨.hbm, 105, rfl⟩
abbrev main_call0_call0_v0 : Ref sig .tc := ⟨.hbm, 106, rfl⟩
abbrev main_call0_call0_v1 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_cst_9 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_call1_cst : Ref sig .tc := ⟨.hbm, 125, rfl⟩
abbrev main_call1_v0 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_c_10 : Ref sig .tc := ⟨.hbm, 144, rfl⟩
abbrev main_v97 : Ref sig .tc := ⟨.hbm, 145, rfl⟩
abbrev main_v98 : Ref sig .tc := ⟨.hbm, 146, rfl⟩
abbrev main_c_11 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_cst_12 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_cst_13 : Ref sig .tc := ⟨.hbm, 166, rfl⟩
abbrev main_v116 : Ref sig .tc := ⟨.hbm, 167, rfl⟩
abbrev main_cst_14 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_cst_15 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_cst_16 : Ref sig .tc := ⟨.hbm, 183, rfl⟩
abbrev main_v130 : Ref sig .tc := ⟨.hbm, 184, rfl⟩
abbrev main_cst_17 : Ref sig .tc := ⟨.hbm, 185, rfl⟩
abbrev main_v131 : Ref sig .tc := ⟨.hbm, 186, rfl⟩
abbrev main_v132 : Ref sig .tc := ⟨.hbm, 187, rfl⟩
abbrev main_c_18 : Ref sig .tc := ⟨.hbm, 188, rfl⟩
abbrev main_call2_cst : Ref sig .tc := ⟨.hbm, 189, rfl⟩
abbrev main_call2_v0 : Ref sig .tc := ⟨.hbm, 190, rfl⟩
abbrev main_call2_v1 : Ref sig .tc := ⟨.hbm, 191, rfl⟩
abbrev main_call2_cst_0 : Ref sig .tc := ⟨.hbm, 192, rfl⟩
abbrev main_call2_v2 : Ref sig .tc := ⟨.hbm, 193, rfl⟩
abbrev main_call2_v3 : Ref sig .tc := ⟨.hbm, 194, rfl⟩
abbrev main_call2_v4 : Ref sig .tc := ⟨.hbm, 195, rfl⟩
abbrev main_call2_v5 : Ref sig .tc := ⟨.hbm, 196, rfl⟩
abbrev main_call2_v6 : Ref sig .tc := ⟨.hbm, 197, rfl⟩
abbrev main_call2_v7 : Ref sig .tc := ⟨.hbm, 198, rfl⟩
abbrev main_call2_cst_1 : Ref sig .tc := ⟨.hbm, 199, rfl⟩
abbrev main_call2_v8 : Ref sig .tc := ⟨.hbm, 200, rfl⟩
abbrev main_call2_cst_2 : Ref sig .tc := ⟨.hbm, 201, rfl⟩
abbrev main_call2_v9 : Ref sig .tc := ⟨.hbm, 202, rfl⟩
abbrev main_call2_v10 : Ref sig .tc := ⟨.hbm, 203, rfl⟩
abbrev main_call2_v11 : Ref sig .tc := ⟨.hbm, 204, rfl⟩
abbrev main_call2_cst_3 : Ref sig .tc := ⟨.hbm, 205, rfl⟩
abbrev main_call2_v12 : Ref sig .tc := ⟨.hbm, 206, rfl⟩
abbrev main_call2_cst_4 : Ref sig .tc := ⟨.hbm, 207, rfl⟩
abbrev main_call2_call0_v0 : Ref sig .tc := ⟨.hbm, 208, rfl⟩
abbrev main_call2_call0_v1 : Ref sig .tc := ⟨.hbm, 209, rfl⟩
abbrev main_v133 : Ref sig .tc := ⟨.hbm, 210, rfl⟩
abbrev main_v134 : Ref sig .tc := ⟨.hbm, 211, rfl⟩
abbrev main_v135 : Ref sig .tc := ⟨.hbm, 212, rfl⟩
abbrev main_v136 : Ref sig .tc := ⟨.hbm, 213, rfl⟩
abbrev main_cst_19 : Ref sig .tc := ⟨.hbm, 214, rfl⟩
abbrev main_v137 : Ref sig .tc := ⟨.hbm, 215, rfl⟩
abbrev main_v138 : Ref sig .tc := ⟨.hbm, 216, rfl⟩
abbrev main_v139 : Ref sig .tc := ⟨.hbm, 217, rfl⟩
abbrev main_v140 : Ref sig .tc := ⟨.hbm, 218, rfl⟩
abbrev main_v141 : Ref sig .tc := ⟨.hbm, 219, rfl⟩
abbrev main_v142 : Ref sig .tc := ⟨.hbm, 220, rfl⟩
abbrev main_v143 : Ref sig .tc := ⟨.hbm, 221, rfl⟩
abbrev main_v144 : Ref sig .tc := ⟨.hbm, 222, rfl⟩
abbrev main_v145 : Ref sig .tc := ⟨.hbm, 223, rfl⟩
abbrev main_v146 : Ref sig .tc := ⟨.hbm, 224, rfl⟩
abbrev main_v147 : Ref sig .tc := ⟨.hbm, 225, rfl⟩
abbrev main_v148 : Ref sig .tc := ⟨.hbm, 226, rfl⟩
abbrev main_call3_cst : Ref sig .tc := ⟨.hbm, 227, rfl⟩
abbrev main_call3_v0 : Ref sig .tc := ⟨.hbm, 228, rfl⟩
abbrev main_v149 : Ref sig .tc := ⟨.hbm, 229, rfl⟩
abbrev main_v150 : Ref sig .tc := ⟨.hbm, 230, rfl⟩

abbrev nD : Nat := 1
abbrev τ : Topo := Topo.v7x

variable {F : FTy → Type} [FloatOps F]

class Facts₀ : Prop where
  shapeCasts_S32x512x256_S16384x256 : S32x512x256.ShapeCasts S16384x256
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S524288_S524288x1_0 : S524288.BroadcastsInDim S524288x1 (![0] : Fin 1 → Fin S524288x1.rank)
  slices_S2x256x256_S1x256x256_0_0_0 : S2x256x256.Slices ![0, 0, 0] S1x256x256
  shapeCasts_S1x256x256_S256x256 : S1x256x256.ShapeCasts S256x256
  slices_S2x256_S1x256_0_0 : S2x256.Slices ![0, 0] S1x256
  shapeCasts_S1x256_S256 : S1x256.ShapeCasts S256
  slices_S2x64x256_S1x64x256_0_0_0 : S2x64x256.Slices ![0, 0, 0] S1x64x256
  shapeCasts_S1x64x256_S64x256 : S1x64x256.ShapeCasts S64x256
  bcast_S256_S1x256_1 : S256.BroadcastsInDim S1x256 (![1] : Fin 1 → Fin S1x256.rank)
  bcast_S1x256_S524288x256_0_1 : S1x256.BroadcastsInDim S524288x256 (![0, 1] : Fin 2 → Fin S524288x256.rank)
  bcast_S_S16384x256 : S_.BroadcastsInDim S16384x256 (![] : Fin 0 → Fin S16384x256.rank)
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x256_0_1 : S16384x1.BroadcastsInDim S16384x256 (![0, 1] : Fin 2 → Fin S16384x256.rank)
  bcast_S1x256_S16384x256_0_1 : S1x256.BroadcastsInDim S16384x256 (![0, 1] : Fin 2 → Fin S16384x256.rank)
  reducesTo_S16384x256_S256_d0 : S16384x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  slices_S2x256x256_S1x256x256_1_0_0 : S2x256x256.Slices ![1, 0, 0] S1x256x256
  slices_S2x256_S1x256_1_0 : S2x256.Slices ![1, 0] S1x256
  slices_S2x64x256_S1x64x256_1_0_0 : S2x64x256.Slices ![1, 0, 0] S1x64x256
  shapeCasts_S16384x256_S32x512x256 : S16384x256.ShapeCasts S32x512x256
  gather_S64x64_S524288x1_S524288x64_1_0_n_n_0_1_164_wf : GatherDims.WF S64x64 S524288x1 S524288x64 [1] [0] [] [0] [] 1 ![1, 64]
  gather_S16384x256_S524288x1_S524288x256_1_0_n_n_0_1_1256_wf : GatherDims.WF S16384x256 S524288x1 S524288x256 [1] [0] [] [0] [] 1 ![1, 256]
  dot_S524288x256_S256x256_S524288x256_1_0_0_1_n_n_wf : DotDims.WF S524288x256 S256x256 S524288x256 [1] [0] [0] [1] [] []
  dot_S524288x64_S64x256_S524288x256_1_0_0_1_n_n_wf : DotDims.WF S524288x64 S64x256 S524288x256 [1] [0] [0] [1] [] []
  scatter_S16384x256_S524288x1_S524288x256_1_0_0_1_wf : ScatterDims.WF S16384x256 S524288x1 S524288x256 [1] [0] [0] 1
  scatter_S16384_S524288x1_S524288_n_0_0_1_wf : ScatterDims.WF S16384 S524288x1 S524288 [] [0] [0] 1
  dot_S16384x256_S256x256_S16384x256_1_0_0_1_n_n_wf : DotDims.WF S16384x256 S256x256 S16384x256 [1] [0] [0] [1] [] []

variable [Facts₀]

def gather_S64x64_S524288x1_S524288x64_1_0_n_n_0_1_164 : GatherDims S64x64 S524288x1 S524288x64 where
  offsetDims := [1]
  collapsedSliceDims := [0]
  operandBatchingDims := []
  startIndicesBatchingDims := []
  startIndexMap := [0]
  indexVectorDim := 1
  sliceSizes := ![1, 64]
  wf := gather_S64x64_S524288x1_S524288x64_1_0_n_n_0_1_164_wf
def gather_S16384x256_S524288x1_S524288x256_1_0_n_n_0_1_1256 : GatherDims S16384x256 S524288x1 S524288x256 where
  offsetDims := [1]
  collapsedSliceDims := [0]
  operandBatchingDims := []
  startIndicesBatchingDims := []
  startIndexMap := [0]
  indexVectorDim := 1
  sliceSizes := ![1, 256]
  wf := gather_S16384x256_S524288x1_S524288x256_1_0_n_n_0_1_1256_wf
def dot_S524288x256_S256x256_S524288x256_1_0_0_1_n_n : DotDims S524288x256 S256x256 S524288x256 where
  lhsContracting := [1]
  rhsContracting := [0]
  lhsNonContracting := [0]
  rhsNonContracting := [1]
  lhsBatch := []
  rhsBatch := []
  wf := dot_S524288x256_S256x256_S524288x256_1_0_0_1_n_n_wf
def dot_S524288x64_S64x256_S524288x256_1_0_0_1_n_n : DotDims S524288x64 S64x256 S524288x256 where
  lhsContracting := [1]
  rhsContracting := [0]
  lhsNonContracting := [0]
  rhsNonContracting := [1]
  lhsBatch := []
  rhsBatch := []
  wf := dot_S524288x64_S64x256_S524288x256_1_0_0_1_n_n_wf
def scatter_S16384x256_S524288x1_S524288x256_1_0_0_1 : ScatterDims S16384x256 S524288x1 S524288x256 where
  updateWindowDims := [1]
  insertedWindowDims := [0]
  scatterDimsToOperandDims := [0]
  indexVectorDim := 1
  wf := scatter_S16384x256_S524288x1_S524288x256_1_0_0_1_wf
def scatter_S16384_S524288x1_S524288_n_0_0_1 : ScatterDims S16384 S524288x1 S524288 where
  updateWindowDims := []
  insertedWindowDims := [0]
  scatterDimsToOperandDims := [0]
  indexVectorDim := 1
  wf := scatter_S16384_S524288x1_S524288_n_0_0_1_wf
def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf

class Facts : Prop extends Facts₀ where

variable [Facts]
-- ==== Proof.Spec.lean ====
/-
  The two-layer message-passing network that both programs compute, written once as plain arithmetic on the
  extended reals, entry by entry.

  A layer takes node features `x` (16384 nodes, 256 features). Every edge `e` has a source (a signed integer: an
  edge whose source names no node contributes nowhere), a destination row `dstRow e` whose features it carries, and
  an embedding row `efRow e`. The message of an edge is an affine map of the destination's features plus an affine
  map of the edge's embedding; a node's aggregate is the mean of the messages of the edges that leave it (the sum
  divided by `max count 1`); to it are added an affine map of the node's own features. The layer ends with a
  normalisation over the nodes (subtract the column's mean, scale by the reciprocal square root of the column's
  variance plus a small constant, an affine map per column) and a maximum with zero.

  `preRef` is the layer before the normalisation as the reference computes it: each edge's message is formed and
  the messages are summed per source. `preKer` is the same quantity as the kernel computes it: the affine map is
  applied once per node and its rows are summed per source, the embedding part is recovered from a histogram
  `hist n k` (how many edges leave node `n` with embedding row `k`, found by a flat index `64 n + k`) times the
  embedded table, and the mean is a product with the reciprocal of the count.
-/
import Idealize.ShloMosaic.PureOps.Ideal
import Idealize.ShloMosaic.Lib.ValueIdx

noncomputable section

namespace Cert.Gnn

open Idealize.ShloMosaic Idealize.ShloMosaic.ValueIdx
open scoped BigOperators

/-- Nodes, edges, features per node, rows (and columns) of the embedding table. -/
abbrev Nn : ℕ := 16384
abbrev Ne : ℕ := 524288
abbrev Dd : ℕ := 256
abbrev Kk : ℕ := 64

/-- One layer's parameters. -/
structure Params where
  Wm : Fin Dd → Fin Dd → EReal
  bm : Fin Dd → EReal
  Ws : Fin Dd → Fin Dd → EReal
  bs : Fin Dd → EReal
  We : Fin Kk → Fin Dd → EReal
  be : Fin Dd → EReal
  gam : Fin Dd → EReal
  bet : Fin Dd → EReal

/-- How the edges index the nodes and the embedding table: the source as a signed integer, the row of node
    features an edge carries, the row of the embedding table the reference reads for it, and the signed flat index
    `64 · source + feature` the kernel counts it under. -/
structure Graph where
  srcZ : Fin Ne → ℤ
  dstRow : Fin Ne → Fin Nn
  efRow : Fin Ne → Fin Kk
  flatZ : Fin Ne → ℤ

/-- The flat index names the pair (source, embedding row): what the kernel's histogram needs of the integers. -/
def Graph.FlatOk (G : Graph) : Prop :=
  ∀ (e : Fin Ne) (n : Fin Nn) (k : Fin Kk),
    G.flatZ e = ((n.val * 64 + k.val : ℕ) : ℤ) ↔ (G.srcZ e = (n.val : ℤ) ∧ G.efRow e = k)

section Layer
variable (G : Graph) (emb : Fin Kk → Fin Kk → EReal) (P : Params) (x : Fin Nn → Fin Dd → EReal)

/-- The edges that leave node `n`. -/
def seg (n : Fin Nn) : Finset (Fin Ne) := Finset.univ.filter fun e => G.srcZ e = (n.val : ℤ)
/-- The edges counted under the flat index `64 n + k`. -/
def cell (n : Fin Nn) (k : Fin Kk) : Finset (Fin Ne) :=
  Finset.univ.filter fun e => G.flatZ e = ((n.val * 64 + k.val : ℕ) : ℤ)

/-- How many edges leave `n`, as a sum of ones. -/
def cnt (n : Fin Nn) : EReal := ∑ _e ∈ seg G n, (1 : EReal)
/-- The mean's divisor. -/
def den (n : Fin Nn) : EReal := max (cnt G n) 1
/-- How many edges are counted under `64 n + k`. -/
def hist (n : Fin Nn) (k : Fin Kk) : EReal := ∑ _e ∈ cell G n k, (1 : EReal)

/-- Rows times a square matrix. -/
def lin (W : Fin Dd → Fin Dd → EReal) (n : Fin Nn) (d : Fin Dd) : EReal := ∑ j, x n j * W j d
/-- The embedding table times the edge weights. -/
def embW (k : Fin Kk) (d : Fin Dd) : EReal := ∑ j, emb k j * P.We j d

/-- The reference's message of edge `e`. -/
def msgRef (e : Fin Ne) (d : Fin Dd) : EReal :=
  ((lin x P.Wm (G.dstRow e) d + P.bm d) + embW emb P (G.efRow e) d) + P.be d
/-- The reference's layer before the normalisation. -/
def preRef (n : Fin Nn) (d : Fin Dd) : EReal :=
  (Ideal.div (∑ e ∈ seg G n, msgRef G emb P x e d) (den G n) + lin x P.Ws n d) + P.bs d

/-- The kernel's per-node affine map. -/
def nodeT (n : Fin Nn) (d : Fin Dd) : EReal := lin x P.Wm n d + (P.bm d + P.be d)
/-- The kernel's layer before the normalisation. -/
def preKer (n : Fin Nn) (d : Fin Dd) : EReal :=
  (((∑ e ∈ seg G n, nodeT P x (G.dstRow e) d) + ∑ k, hist G n k * embW emb P k d) * Ideal.div 1 (den G n)
      + lin x P.Ws n d) + P.bs d

end Layer

/-! ## The normalisation's scalar constants, as both programs spell them (never evaluated) -/

/-- The scalar shape. -/
abbrev S0 : Shape := ⟨0, ![]⟩

/-- The number of nodes as the float constant both programs divide a column's sum by. -/
def nAll : EReal := Ideal.ofBits .f32 0x46800000#32
/-- The variance's divisor: that constant minus the converted integer zero. -/
def nOffV : FVec Ideal S0 .f32 := subf (constant S0 .f32 0x46800000#32) (sitofp .f32 (constantI S0 32 0#32))
def nOff : EReal := nOffV ix0
/-- The variance's guard: is the divisor positive. -/
def guardV : IVec S0 1 := cmpf .ogt nOffV (constant S0 .f32 0x00000000#32)
/-- The guarded variance: the quotient where the guard holds, else the constant both programs put there. -/
def guarded (v : EReal) : EReal := Scalar.select (guardV ix0) v (Ideal.ofBits .f32 0x7FC00000#32)
/-- The small constant added to the variance. -/
def epsC : EReal := Ideal.ofBits .f32 0x3727C5AC#32

section Norm
variable (P : Params) (y : Fin Nn → Fin Dd → EReal)

/-- A column's mean. -/
def colMean (d : Fin Dd) : EReal := Ideal.div (∑ n, y n d) nAll
/-- A column's variance. -/
def colVar (d : Fin Dd) : EReal :=
  guarded (Ideal.div (∑ n, (y n d - colMean y d) * (y n d - colMean y d)) nOff)
/-- Normalise, scale and shift, and take the maximum with zero. -/
def normRelu (n : Fin Nn) (d : Fin Dd) : EReal :=
  max ((((y n d - colMean y d) * Ideal.rsqrt (colVar y d + epsC)) * P.gam d) + P.bet d) (Ideal.ofBits .f32 0x00000000#32)

end Norm

/-- A whole layer, reference's way and kernel's way. -/
def layerRef (G : Graph) (emb : Fin Kk → Fin Kk → EReal) (P : Params) (x : Fin Nn → Fin Dd → EReal) :
    Fin Nn → Fin Dd → EReal := normRelu P (preRef G emb P x)
def layerKer (G : Graph) (emb : Fin Kk → Fin Kk → EReal) (P : Params) (x : Fin Nn → Fin Dd → EReal) :
    Fin Nn → Fin Dd → EReal := normRelu P (preKer G emb P x)

end Cert.Gnn

end
-- ==== Proof.Arrays.lean ====
/-
  From the twelve argument arrays to the network: which entries of the arrays are a layer's parameters, how the two
  integer arrays index the nodes and the embedding table, and the whole two-layer network as one function of the
  arguments, entry by entry.

  The node features are the rows of `data` flattened: node `512 b + s` is `data[b, s, :]`. Layer `l` uses the
  slices `[l, …]` of the stacked parameters. An edge's source is `edge[0, e]` read as a signed integer; the row
  of node features it carries is `edge[1, e]`, a negative value counted from the end (plus 16384), then clamped to
  a row that exists; the row of the embedding table the reference reads is `edge_feature[e]` treated the same way
  (plus 64); the flat index the kernel's histogram files the edge under is the machine integer
  `edge[0, e] · 64 + edge_feature[e]`.
-/
import proofs.«410086_j81595788689991_2_alg».proof.Proof.Spec

noncomputable section

namespace Cert.Gnn

open Idealize.ShloMosaic Idealize.ShloMosaic.ValueIdx

abbrev SData : Shape := ⟨3, ![32, 512, 256]⟩
abbrev SEmb : Shape := ⟨2, ![64, 64]⟩
abbrev SW : Shape := ⟨3, ![2, 256, 256]⟩
abbrev SB : Shape := ⟨2, ![2, 256]⟩
abbrev SWe : Shape := ⟨3, ![2, 64, 256]⟩
abbrev SEdge : Shape := ⟨2, ![2, 524288]⟩
abbrev SEf : Shape := ⟨1, ![524288]⟩
/-- Node features as a matrix. -/
abbrev SND : Shape := ⟨2, ![16384, 256]⟩

theorem idx3_lt0 {n0 n1 n2 : Nat} (j : (⟨3, ![n0, n1, n2]⟩ : Shape).Idx) : (j 0).val < n0 := (j 0).isLt
theorem idx3_lt1 {n0 n1 n2 : Nat} (j : (⟨3, ![n0, n1, n2]⟩ : Shape).Idx) : (j 1).val < n1 := (j 1).isLt
theorem idx3_lt2 {n0 n1 n2 : Nat} (j : (⟨3, ![n0, n1, n2]⟩ : Shape).Idx) : (j 2).val < n2 := (j 2).isLt

/-- The twelve argument arrays. -/
structure Inputs where
  data : SData.Idx → EReal
  emb : SEmb.Idx → EReal
  Wmsg : SW.Idx → EReal
  bmsg : SB.Idx → EReal
  Wself : SW.Idx → EReal
  bself : SB.Idx → EReal
  Wedge : SWe.Idx → EReal
  bedge : SB.Idx → EReal
  gamma : SB.Idx → EReal
  beta : SB.Idx → EReal
  edge : IVec SEdge 32
  ef : IVec SEf 32

/-- A negative index counts from the end: `w + ext` when `w` is negative as a signed integer, else `w`. -/
def wrapW (ext w : BitVec 32) : BitVec 32 := Scalar.select (IntOp.cmpi .slt w 0#32) (IntOp.addi w ext) w

namespace Inputs
variable (I : Inputs)

/-- The embedding table as a matrix. -/
def embT : Fin Kk → Fin Kk → EReal := fun k j => I.emb (ix2 k j)
/-- Layer `l`'s parameters. -/
def params (l : Fin 2) : Params where
  Wm := fun j d => I.Wmsg (ix3 l j d)
  bm := fun d => I.bmsg (ix2 l d)
  Ws := fun j d => I.Wself (ix3 l j d)
  bs := fun d => I.bself (ix2 l d)
  We := fun k d => I.Wedge (ix3 l k d)
  be := fun d => I.bedge (ix2 l d)
  gam := fun d => I.gamma (ix2 l d)
  bet := fun d => I.beta (ix2 l d)
/-- The node features the first layer starts from: node `512 b + s` is `data[b, s, :]`. -/
def x0 : Fin Nn → Fin Dd → EReal := fun n d =>
  I.data (ix3 (⟨n.val / 512, by have h : n.val < 16384 := n.isLt; omega⟩ : Fin 32)
    (⟨n.val % 512, Nat.mod_lt _ (by decide)⟩ : Fin 512) d)
/-- An edge's source word, destination word and feature word. -/
def srcW (e : Fin Ne) : BitVec 32 := I.edge (ix2 (0 : Fin 2) e)
def dstW (e : Fin Ne) : BitVec 32 := I.edge (ix2 (1 : Fin 2) e)
def efW (e : Fin Ne) : BitVec 32 := I.ef (ix1 e)
/-- How the edges index the nodes and the embedding table. -/
def graph : Graph where
  srcZ := fun e => (I.srcW e).toInt
  dstRow := fun e => ⟨min (wrapW 16384#32 (I.dstW e)).toInt.toNat (16384 - 1), by show _ < 16384; omega⟩
  efRow := fun e => ⟨min (wrapW 64#32 (I.efW e)).toInt.toNat (64 - 1), by show _ < 64; omega⟩
  flatZ := fun e => (IntOp.addi (IntOp.muli (I.srcW e) 64#32) (I.efW e)).toInt

/-- The network's result, given how one layer is computed: two layers, then node `512 b + s` back to `[b, s, :]`. -/
def netWith (layer : Graph → (Fin Kk → Fin Kk → EReal) → Params → (Fin Nn → Fin Dd → EReal) → Fin Nn → Fin Dd → EReal) :
    SData.Idx → EReal := fun i =>
  layer I.graph I.embT (I.params 1) (layer I.graph I.embT (I.params 0) I.x0)
    (⟨(i 0).val * 512 + (i 1).val, by
        have h0 : (i 0).val < 32 := idx3_lt0 i
        have h1 : (i 1).val < 512 := idx3_lt1 i
        show _ < 16384; omega⟩ : Fin Nn)
    (⟨(i 2).val, (idx3_lt2 i : (i 2).val < 256)⟩ : Fin Dd)
/-- The network as the reference computes it, and as the kernel computes it. -/
def netRef : SData.Idx → EReal := I.netWith layerRef
def netKer : SData.Idx → EReal := I.netWith layerKer

end Inputs

end Cert.Gnn

end
-- ==== Proof.KIn.lean ====
/-
  When a core's buffers hold the twelve argument arrays: the link between the kernel program's buffer contents and
  the arrays the network is a function of.
-/
import proofs.«410086_j81595788689991_2_alg».proof.KernelIdeal
import proofs.«410086_j81595788689991_2_alg».proof.Proof.Arrays
import Idealize.ShloMosaic.Lib.StableHlo.Run

noncomputable section

namespace Cert.KernelIdeal.Val

open Idealize.ShloMosaic Idealize.ShloMosaic.ValueIdx Cert.KernelIdeal Cert.Gnn

/-- The contents `W` of one core's buffers hold the argument arrays `I`, each argument buffer the array of its
    position. -/
structure Holds (W : Valuation τ sig (Elt Ideal)) (I : Inputs) : Prop where
  data : (W (Proc.devRef .tc main_arg0) : S32x512x256.Idx → EReal) = I.data
  emb : (W (Proc.devRef .tc main_arg1) : S64x64.Idx → EReal) = I.emb
  Wmsg : (W (Proc.devRef .tc main_arg2) : S2x256x256.Idx → EReal) = I.Wmsg
  bmsg : (W (Proc.devRef .tc main_arg3) : S2x256.Idx → EReal) = I.bmsg
  Wself : (W (Proc.devRef .tc main_arg4) : S2x256x256.Idx → EReal) = I.Wself
  bself : (W (Proc.devRef .tc main_arg5) : S2x256.Idx → EReal) = I.bself
  Wedge : (W (Proc.devRef .tc main_arg6) : S2x64x256.Idx → EReal) = I.Wedge
  bedge : (W (Proc.devRef .tc main_arg7) : S2x256.Idx → EReal) = I.bedge
  gamma : (W (Proc.devRef .tc main_arg8) : S2x256.Idx → EReal) = I.gamma
  beta : (W (Proc.devRef .tc main_arg9) : S2x256.Idx → EReal) = I.beta
  edge : (W (Proc.devRef .tc main_arg10) : IVec S2x524288 32) = I.edge
  ef : (W (Proc.devRef .tc main_arg11) : IVec S524288 32) = I.ef

/-- The argument arrays a core's buffer contents hold. -/
def inputsOf (W : Valuation τ sig (Elt Ideal)) : Inputs where
  data := (W (Proc.devRef .tc main_arg0) : S32x512x256.Idx → EReal)
  emb := (W (Proc.devRef .tc main_arg1) : S64x64.Idx → EReal)
  Wmsg := (W (Proc.devRef .tc main_arg2) : S2x256x256.Idx → EReal)
  bmsg := (W (Proc.devRef .tc main_arg3) : S2x256.Idx → EReal)
  Wself := (W (Proc.devRef .tc main_arg4) : S2x256x256.Idx → EReal)
  bself := (W (Proc.devRef .tc main_arg5) : S2x256.Idx → EReal)
  Wedge := (W (Proc.devRef .tc main_arg6) : S2x64x256.Idx → EReal)
  bedge := (W (Proc.devRef .tc main_arg7) : S2x256.Idx → EReal)
  gamma := (W (Proc.devRef .tc main_arg8) : S2x256.Idx → EReal)
  beta := (W (Proc.devRef .tc main_arg9) : S2x256.Idx → EReal)
  edge := (W (Proc.devRef .tc main_arg10) : IVec S2x524288 32)
  ef := (W (Proc.devRef .tc main_arg11) : IVec S524288 32)

theorem holds_inputsOf (W : Valuation τ sig (Elt Ideal)) : Holds W (inputsOf W) :=
  ⟨rfl, rfl, rfl, rfl, rfl, rfl, rfl, rfl, rfl, rfl, rfl, rfl⟩

end Cert.KernelIdeal.Val

end
-- ==== Proof.KKeep.lean ====
import proofs.«410086_j81595788689991_2_alg».proof.Proof.Gen.KernelIdeal.Frame

/-! # Carried buffers

A buffer that no host operation writes and that no kernel launch writes back holds, at a later boundary of the
program's run, what it held at an earlier one. Each statement below walks one buffer across a span of boundaries,
one step at a time: a host stretch keeps a buffer that is the result of none of its operations; a kernel launch keeps
every buffer that is not one of its arrays, and also each array it only reads. -/

set_option maxRecDepth 16384

noncomputable section

namespace Cert.KernelIdeal.Keep

open Cert.KernelIdeal Cert.KernelIdeal.Gen Idealize.ShloMosaic

variable {F : FTy → Type} [FloatOps F]
variable (m : (ℓ : Loc nD τ sig) → Buf (Elt F) ℓ) (ρ : Dev nD → PrngReg)

/-- A host stretch keeps a buffer none of whose operations has it as its result: the stretch's list is opened,
    each operation's written set is a singleton, and the buffer differs from each result by name. -/
macro "host_keep " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide))))

/-! ## The argument arrays, from the launch to the exit of the third kernel launch

No host operation has an argument as its result and no launch among the first three has one as an array. -/

theorem step1_arg0 (c : Dev nD) : W1 m ρ c (Proc.devRef .tc main_arg0) = W0 m ρ c (Proc.devRef .tc main_arg0) := by host_keep hostOps0
theorem step2_arg0 (c : Dev nD) : W2 m ρ c (Proc.devRef .tc main_arg0) = W1 m ρ c (Proc.devRef .tc main_arg0) := W2_of_ne m ρ c main_arg0 (by decide)
theorem step3_arg0 (c : Dev nD) : W3 m ρ c (Proc.devRef .tc main_arg0) = W2 m ρ c (Proc.devRef .tc main_arg0) := by host_keep hostOps1
theorem step4_arg0 (c : Dev nD) : W4 m ρ c (Proc.devRef .tc main_arg0) = W3 m ρ c (Proc.devRef .tc main_arg0) := W4_of_ne m ρ c main_arg0 (by decide)
theorem step5_arg0 (c : Dev nD) : W5 m ρ c (Proc.devRef .tc main_arg0) = W4 m ρ c (Proc.devRef .tc main_arg0) := by host_keep hostOps2
theorem step6_arg0 (c : Dev nD) : W6 m ρ c (Proc.devRef .tc main_arg0) = W5 m ρ c (Proc.devRef .tc main_arg0) := by host_keep hostOps2_1
theorem step7_arg0 (c : Dev nD) : W7 m ρ c (Proc.devRef .tc main_arg0) = W6 m ρ c (Proc.devRef .tc main_arg0) := by host_keep hostOps2_2
theorem step8_arg0 (c : Dev nD) : W8 m ρ c (Proc.devRef .tc main_arg0) = W7 m ρ c (Proc.devRef .tc main_arg0) := W8_of_ne m ρ c main_arg0 (by decide)
theorem keep_arg0_W0_W8 (c : Dev nD) : W8 m ρ c (Proc.devRef .tc main_arg0) = W0 m ρ c (Proc.devRef .tc main_arg0) :=
  (step8_arg0 m ρ c).trans <| (step7_arg0 m ρ c).trans <| (step6_arg0 m ρ c).trans <| (step5_arg0 m ρ c).trans <|
    (step4_arg0 m ρ c).trans <| (step3_arg0 m ρ c).trans <| (step2_arg0 m ρ c).trans (step1_arg0 m ρ c)

theorem step1_arg1 (c : Dev nD) : W1 m ρ c (Proc.devRef .tc main_arg1) = W0 m ρ c (Proc.devRef .tc main_arg1) := by host_keep hostOps0
theorem step2_arg1 (c : Dev nD) : W2 m ρ c (Proc.devRef .tc main_arg1) = W1 m ρ c (Proc.devRef .tc main_arg1) := W2_of_ne m ρ c main_arg1 (by decide)
theorem step3_arg1 (c : Dev nD) : W3 m ρ c (Proc.devRef .tc main_arg1) = W2 m ρ c (Proc.devRef .tc main_arg1) := by host_keep hostOps1
theorem step4_arg1 (c : Dev nD) : W4 m ρ c (Proc.devRef .tc main_arg1) = W3 m ρ c (Proc.devRef .tc main_arg1) := W4_of_ne m ρ c main_arg1 (by decide)
theorem step5_arg1 (c : Dev nD) : W5 m ρ c (Proc.devRef .tc main_arg1) = W4 m ρ c (Proc.devRef .tc main_arg1) := by host_keep hostOps2
theorem step6_arg1 (c : Dev nD) : W6 m ρ c (Proc.devRef .tc main_arg1) = W5 m ρ c (Proc.devRef .tc main_arg1) := by host_keep hostOps2_1
theorem step7_arg1 (c : Dev nD) : W7 m ρ c (Proc.devRef .tc main_arg1) = W6 m ρ c (Proc.devRef .tc main_arg1) := by host_keep hostOps2_2
theorem step8_arg1 (c : Dev nD) : W8 m ρ c (Proc.devRef .tc main_arg1) = W7 m ρ c (Proc.devRef .tc main_arg1) := W8_of_ne m ρ c main_arg1 (by decide)
theorem keep_arg1_W0_W8 (c : Dev nD) : W8 m ρ c (Proc.devRef .tc main_arg1) = W0 m ρ c (Proc.devRef .tc main_arg1) :=
  (step8_arg1 m ρ c).trans <| (step7_arg1 m ρ c).trans <| (step6_arg1 m ρ c).trans <| (step5_arg1 m ρ c).trans <|
    (step4_arg1 m ρ c).trans <| (step3_arg1 m ρ c).trans <| (step2_arg1 m ρ c).trans (step1_arg1 m ρ c)

theorem step1_arg2 (c : Dev nD) : W1 m ρ c (Proc.devRef .tc main_arg2) = W0 m ρ c (Proc.devRef .tc main_arg2) := by host_keep hostOps0
theorem step2_arg2 (c : Dev nD) : W2 m ρ c (Proc.devRef .tc main_arg2) = W1 m ρ c (Proc.devRef .tc main_arg2) := W2_of_ne m ρ c main_arg2 (by decide)
theorem step3_arg2 (c : Dev nD) : W3 m ρ c (Proc.devRef .tc main_arg2) = W2 m ρ c (Proc.devRef .tc main_arg2) := by host_keep hostOps1
theorem step4_arg2 (c : Dev nD) : W4 m ρ c (Proc.devRef .tc main_arg2) = W3 m ρ c (Proc.devRef .tc main_arg2) := W4_of_ne m ρ c main_arg2 (by decide)
theorem step5_arg2 (c : Dev nD) : W5 m ρ c (Proc.devRef .tc main_arg2) = W4 m ρ c (Proc.devRef .tc main_arg2) := by host_keep hostOps2
theorem step6_arg2 (c : Dev nD) : W6 m ρ c (Proc.devRef .tc main_arg2) = W5 m ρ c (Proc.devRef .tc main_arg2) := by host_keep hostOps2_1
theorem step7_arg2 (c : Dev nD) : W7 m ρ c (Proc.devRef .tc main_arg2) = W6 m ρ c (Proc.devRef .tc main_arg2) := by host_keep hostOps2_2
theorem step8_arg2 (c : Dev nD) : W8 m ρ c (Proc.devRef .tc main_arg2) = W7 m ρ c (Proc.devRef .tc main_arg2) := W8_of_ne m ρ c main_arg2 (by decide)
theorem keep_arg2_W0_W8 (c : Dev nD) : W8 m ρ c (Proc.devRef .tc main_arg2) = W0 m ρ c (Proc.devRef .tc main_arg2) :=
  (step8_arg2 m ρ c).trans <| (step7_arg2 m ρ c).trans <| (step6_arg2 m ρ c).trans <| (step5_arg2 m ρ c).trans <|
    (step4_arg2 m ρ c).trans <| (step3_arg2 m ρ c).trans <| (step2_arg2 m ρ c).trans (step1_arg2 m ρ c)

theorem step1_arg3 (c : Dev nD) : W1 m ρ c (Proc.devRef .tc main_arg3) = W0 m ρ c (Proc.devRef .tc main_arg3) := by host_keep hostOps0
theorem step2_arg3 (c : Dev nD) : W2 m ρ c (Proc.devRef .tc main_arg3) = W1 m ρ c (Proc.devRef .tc main_arg3) := W2_of_ne m ρ c main_arg3 (by decide)
theorem step3_arg3 (c : Dev nD) : W3 m ρ c (Proc.devRef .tc main_arg3) = W2 m ρ c (Proc.devRef .tc main_arg3) := by host_keep hostOps1
theorem step4_arg3 (c : Dev nD) : W4 m ρ c (Proc.devRef .tc main_arg3) = W3 m ρ c (Proc.devRef .tc main_arg3) := W4_of_ne m ρ c main_arg3 (by decide)
theorem step5_arg3 (c : Dev nD) : W5 m ρ c (Proc.devRef .tc main_arg3) = W4 m ρ c (Proc.devRef .tc main_arg3) := by host_keep hostOps2
theorem step6_arg3 (c : Dev nD) : W6 m ρ c (Proc.devRef .tc main_arg3) = W5 m ρ c (Proc.devRef .tc main_arg3) := by host_keep hostOps2_1
theorem step7_arg3 (c : Dev nD) : W7 m ρ c (Proc.devRef .tc main_arg3) = W6 m ρ c (Proc.devRef .tc main_arg3) := by host_keep hostOps2_2
theorem step8_arg3 (c : Dev nD) : W8 m ρ c (Proc.devRef .tc main_arg3) = W7 m ρ c (Proc.devRef .tc main_arg3) := W8_of_ne m ρ c main_arg3 (by decide)
theorem keep_arg3_W0_W8 (c : Dev nD) : W8 m ρ c (Proc.devRef .tc main_arg3) = W0 m ρ c (Proc.devRef .tc main_arg3) :=
  (step8_arg3 m ρ c).trans <| (step7_arg3 m ρ c).trans <| (step6_arg3 m ρ c).trans <| (step5_arg3 m ρ c).trans <|
    (step4_arg3 m ρ c).trans <| (step3_arg3 m ρ c).trans <| (step2_arg3 m ρ c).trans (step1_arg3 m ρ c)

theorem step1_arg4 (c : Dev nD) : W1 m ρ c (Proc.devRef .tc main_arg4) = W0 m ρ c (Proc.devRef .tc main_arg4) := by host_keep hostOps0
theorem step2_arg4 (c : Dev nD) : W2 m ρ c (Proc.devRef .tc main_arg4) = W1 m ρ c (Proc.devRef .tc main_arg4) := W2_of_ne m ρ c main_arg4 (by decide)
theorem step3_arg4 (c : Dev nD) : W3 m ρ c (Proc.devRef .tc main_arg4) = W2 m ρ c (Proc.devRef .tc main_arg4) := by host_keep hostOps1
theorem step4_arg4 (c : Dev nD) : W4 m ρ c (Proc.devRef .tc main_arg4) = W3 m ρ c (Proc.devRef .tc main_arg4) := W4_of_ne m ρ c main_arg4 (by decide)
theorem step5_arg4 (c : Dev nD) : W5 m ρ c (Proc.devRef .tc main_arg4) = W4 m ρ c (Proc.devRef .tc main_arg4) := by host_keep hostOps2
theorem step6_arg4 (c : Dev nD) : W6 m ρ c (Proc.devRef .tc main_arg4) = W5 m ρ c (Proc.devRef .tc main_arg4) := by host_keep hostOps2_1
theorem step7_arg4 (c : Dev nD) : W7 m ρ c (Proc.devRef .tc main_arg4) = W6 m ρ c (Proc.devRef .tc main_arg4) := by host_keep hostOps2_2
theorem step8_arg4 (c : Dev nD) : W8 m ρ c (Proc.devRef .tc main_arg4) = W7 m ρ c (Proc.devRef .tc main_arg4) := W8_of_ne m ρ c main_arg4 (by decide)
theorem keep_arg4_W0_W8 (c : Dev nD) : W8 m ρ c (Proc.devRef .tc main_arg4) = W0 m ρ c (Proc.devRef .tc main_arg4) :=
  (step8_arg4 m ρ c).trans <| (step7_arg4 m ρ c).trans <| (step6_arg4 m ρ c).trans <| (step5_arg4 m ρ c).trans <|
    (step4_arg4 m ρ c).trans <| (step3_arg4 m ρ c).trans <| (step2_arg4 m ρ c).trans (step1_arg4 m ρ c)

theorem step1_arg5 (c : Dev nD) : W1 m ρ c (Proc.devRef .tc main_arg5) = W0 m ρ c (Proc.devRef .tc main_arg5) := by host_keep hostOps0
theorem step2_arg5 (c : Dev nD) : W2 m ρ c (Proc.devRef .tc main_arg5) = W1 m ρ c (Proc.devRef .tc main_arg5) := W2_of_ne m ρ c main_arg5 (by decide)
theorem step3_arg5 (c : Dev nD) : W3 m ρ c (Proc.devRef .tc main_arg5) = W2 m ρ c (Proc.devRef .tc main_arg5) := by host_keep hostOps1
theorem step4_arg5 (c : Dev nD) : W4 m ρ c (Proc.devRef .tc main_arg5) = W3 m ρ c (Proc.devRef .tc main_arg5) := W4_of_ne m ρ c main_arg5 (by decide)
theorem step5_arg5 (c : Dev nD) : W5 m ρ c (Proc.devRef .tc main_arg5) = W4 m ρ c (Proc.devRef .tc main_arg5) := by host_keep hostOps2
theorem step6_arg5 (c : Dev nD) : W6 m ρ c (Proc.devRef .tc main_arg5) = W5 m ρ c (Proc.devRef .tc main_arg5) := by host_keep hostOps2_1
theorem step7_arg5 (c : Dev nD) : W7 m ρ c (Proc.devRef .tc main_arg5) = W6 m ρ c (Proc.devRef .tc main_arg5) := by host_keep hostOps2_2
theorem step8_arg5 (c : Dev nD) : W8 m ρ c (Proc.devRef .tc main_arg5) = W7 m ρ c (Proc.devRef .tc main_arg5) := W8_of_ne m ρ c main_arg5 (by decide)
theorem keep_arg5_W0_W8 (c : Dev nD) : W8 m ρ c (Proc.devRef .tc main_arg5) = W0 m ρ c (Proc.devRef .tc main_arg5) :=
  (step8_arg5 m ρ c).trans <| (step7_arg5 m ρ c).trans <| (step6_arg5 m ρ c).trans <| (step5_arg5 m ρ c).trans <|
    (step4_arg5 m ρ c).trans <| (step3_arg5 m ρ c).trans <| (step2_arg5 m ρ c).trans (step1_arg5 m ρ c)

theorem step1_arg6 (c : Dev nD) : W1 m ρ c (Proc.devRef .tc main_arg6) = W0 m ρ c (Proc.devRef .tc main_arg6) := by host_keep hostOps0
theorem step2_arg6 (c : Dev nD) : W2 m ρ c (Proc.devRef .tc main_arg6) = W1 m ρ c (Proc.devRef .tc main_arg6) := W2_of_ne m ρ c main_arg6 (by decide)
theorem step3_arg6 (c : Dev nD) : W3 m ρ c (Proc.devRef .tc main_arg6) = W2 m ρ c (Proc.devRef .tc main_arg6) := by host_keep hostOps1
theorem step4_arg6 (c : Dev nD) : W4 m ρ c (Proc.devRef .tc main_arg6) = W3 m ρ c (Proc.devRef .tc main_arg6) := W4_of_ne m ρ c main_arg6 (by decide)
theorem step5_arg6 (c : Dev nD) : W5 m ρ c (Proc.devRef .tc main_arg6) = W4 m ρ c (Proc.devRef .tc main_arg6) := by host_keep hostOps2
theorem step6_arg6 (c : Dev nD) : W6 m ρ c (Proc.devRef .tc main_arg6) = W5 m ρ c (Proc.devRef .tc main_arg6) := by host_keep hostOps2_1
theorem step7_arg6 (c : Dev nD) : W7 m ρ c (Proc.devRef .tc main_arg6) = W6 m ρ c (Proc.devRef .tc main_arg6) := by host_keep hostOps2_2
theorem step8_arg6 (c : Dev nD) : W8 m ρ c (Proc.devRef .tc main_arg6) = W7 m ρ c (Proc.devRef .tc main_arg6) := W8_of_ne m ρ c main_arg6 (by decide)
theorem keep_arg6_W0_W8 (c : Dev nD) : W8 m ρ c (Proc.devRef .tc main_arg6) = W0 m ρ c (Proc.devRef .tc main_arg6) :=
  (step8_arg6 m ρ c).trans <| (step7_arg6 m ρ c).trans <| (step6_arg6 m ρ c).trans <| (step5_arg6 m ρ c).trans <|
    (step4_arg6 m ρ c).trans <| (step3_arg6 m ρ c).trans <| (step2_arg6 m ρ c).trans (step1_arg6 m ρ c)

theorem step1_arg7 (c : Dev nD) : W1 m ρ c (Proc.devRef .tc main_arg7) = W0 m ρ c (Proc.devRef .tc main_arg7) := by host_keep hostOps0
theorem step2_arg7 (c : Dev nD) : W2 m ρ c (Proc.devRef .tc main_arg7) = W1 m ρ c (Proc.devRef .tc main_arg7) := W2_of_ne m ρ c main_arg7 (by decide)
theorem step3_arg7 (c : Dev nD) : W3 m ρ c (Proc.devRef .tc main_arg7) = W2 m ρ c (Proc.devRef .tc main_arg7) := by host_keep hostOps1
theorem step4_arg7 (c : Dev nD) : W4 m ρ c (Proc.devRef .tc main_arg7) = W3 m ρ c (Proc.devRef .tc main_arg7) := W4_of_ne m ρ c main_arg7 (by decide)
theorem step5_arg7 (c : Dev nD) : W5 m ρ c (Proc.devRef .tc main_arg7) = W4 m ρ c (Proc.devRef .tc main_arg7) := by host_keep hostOps2
theorem step6_arg7 (c : Dev nD) : W6 m ρ c (Proc.devRef .tc main_arg7) = W5 m ρ c (Proc.devRef .tc main_arg7) := by host_keep hostOps2_1
theorem step7_arg7 (c : Dev nD) : W7 m ρ c (Proc.devRef .tc main_arg7) = W6 m ρ c (Proc.devRef .tc main_arg7) := by host_keep hostOps2_2
theorem step8_arg7 (c : Dev nD) : W8 m ρ c (Proc.devRef .tc main_arg7) = W7 m ρ c (Proc.devRef .tc main_arg7) := W8_of_ne m ρ c main_arg7 (by decide)
theorem keep_arg7_W0_W8 (c : Dev nD) : W8 m ρ c (Proc.devRef .tc main_arg7) = W0 m ρ c (Proc.devRef .tc main_arg7) :=
  (step8_arg7 m ρ c).trans <| (step7_arg7 m ρ c).trans <| (step6_arg7 m ρ c).trans <| (step5_arg7 m ρ c).trans <|
    (step4_arg7 m ρ c).trans <| (step3_arg7 m ρ c).trans <| (step2_arg7 m ρ c).trans (step1_arg7 m ρ c)

theorem step1_arg8 (c : Dev nD) : W1 m ρ c (Proc.devRef .tc main_arg8) = W0 m ρ c (Proc.devRef .tc main_arg8) := by host_keep hostOps0
theorem step2_arg8 (c : Dev nD) : W2 m ρ c (Proc.devRef .tc main_arg8) = W1 m ρ c (Proc.devRef .tc main_arg8) := W2_of_ne m ρ c main_arg8 (by decide)
theorem step3_arg8 (c : Dev nD) : W3 m ρ c (Proc.devRef .tc main_arg8) = W2 m ρ c (Proc.devRef .tc main_arg8) := by host_keep hostOps1
theorem step4_arg8 (c : Dev nD) : W4 m ρ c (Proc.devRef .tc main_arg8) = W3 m ρ c (Proc.devRef .tc main_arg8) := W4_of_ne m ρ c main_arg8 (by decide)
theorem step5_arg8 (c : Dev nD) : W5 m ρ c (Proc.devRef .tc main_arg8) = W4 m ρ c (Proc.devRef .tc main_arg8) := by host_keep hostOps2
theorem step6_arg8 (c : Dev nD) : W6 m ρ c (Proc.devRef .tc main_arg8) = W5 m ρ c (Proc.devRef .tc main_arg8) := by host_keep hostOps2_1
theorem step7_arg8 (c : Dev nD) : W7 m ρ c (Proc.devRef .tc main_arg8) = W6 m ρ c (Proc.devRef .tc main_arg8) := by host_keep hostOps2_2
theorem step8_arg8 (c : Dev nD) : W8 m ρ c (Proc.devRef .tc main_arg8) = W7 m ρ c (Proc.devRef .tc main_arg8) := W8_of_ne m ρ c main_arg8 (by decide)
theorem keep_arg8_W0_W8 (c : Dev nD) : W8 m ρ c (Proc.devRef .tc main_arg8) = W0 m ρ c (Proc.devRef .tc main_arg8) :=
  (step8_arg8 m ρ c).trans <| (step7_arg8 m ρ c).trans <| (step6_arg8 m ρ c).trans <| (step5_arg8 m ρ c).trans <|
    (step4_arg8 m ρ c).trans <| (step3_arg8 m ρ c).trans <| (step2_arg8 m ρ c).trans (step1_arg8 m ρ c)

theorem step1_arg9 (c : Dev nD) : W1 m ρ c (Proc.devRef .tc main_arg9) = W0 m ρ c (Proc.devRef .tc main_arg9) := by host_keep hostOps0
theorem step2_arg9 (c : Dev nD) : W2 m ρ c (Proc.devRef .tc main_arg9) = W1 m ρ c (Proc.devRef .tc main_arg9) := W2_of_ne m ρ c main_arg9 (by decide)
theorem step3_arg9 (c : Dev nD) : W3 m ρ c (Proc.devRef .tc main_arg9) = W2 m ρ c (Proc.devRef .tc main_arg9) := by host_keep hostOps1
theorem step4_arg9 (c : Dev nD) : W4 m ρ c (Proc.devRef .tc main_arg9) = W3 m ρ c (Proc.devRef .tc main_arg9) := W4_of_ne m ρ c main_arg9 (by decide)
theorem step5_arg9 (c : Dev nD) : W5 m ρ c (Proc.devRef .tc main_arg9) = W4 m ρ c (Proc.devRef .tc main_arg9) := by host_keep hostOps2
theorem step6_arg9 (c : Dev nD) : W6 m ρ c (Proc.devRef .tc main_arg9) = W5 m ρ c (Proc.devRef .tc main_arg9) := by host_keep hostOps2_1
theorem step7_arg9 (c : Dev nD) : W7 m ρ c (Proc.devRef .tc main_arg9) = W6 m ρ c (Proc.devRef .tc main_arg9) := by host_keep hostOps2_2
theorem step8_arg9 (c : Dev nD) : W8 m ρ c (Proc.devRef .tc main_arg9) = W7 m ρ c (Proc.devRef .tc main_arg9) := W8_of_ne m ρ c main_arg9 (by decide)
theorem keep_arg9_W0_W8 (c : Dev nD) : W8 m ρ c (Proc.devRef .tc main_arg9) = W0 m ρ c (Proc.devRef .tc main_arg9) :=
  (step8_arg9 m ρ c).trans <| (step7_arg9 m ρ c).trans <| (step6_arg9 m ρ c).trans <| (step5_arg9 m ρ c).trans <|
    (step4_arg9 m ρ c).trans <| (step3_arg9 m ρ c).trans <| (step2_arg9 m ρ c).trans (step1_arg9 m ρ c)

theorem step1_arg10 (c : Dev nD) : W1 m ρ c (Proc.devRef .tc main_arg10) = W0 m ρ c (Proc.devRef .tc main_arg10) := by host_keep hostOps0
theorem step2_arg10 (c : Dev nD) : W2 m ρ c (Proc.devRef .tc main_arg10) = W1 m ρ c (Proc.devRef .tc main_arg10) := W2_of_ne m ρ c main_arg10 (by decide)
theorem step3_arg10 (c : Dev nD) : W3 m ρ c (Proc.devRef .tc main_arg10) = W2 m ρ c (Proc.devRef .tc main_arg10) := by host_keep hostOps1
theorem step4_arg10 (c : Dev nD) : W4 m ρ c (Proc.devRef .tc main_arg10) = W3 m ρ c (Proc.devRef .tc main_arg10) := W4_of_ne m ρ c main_arg10 (by decide)
theorem step5_arg10 (c : Dev nD) : W5 m ρ c (Proc.devRef .tc main_arg10) = W4 m ρ c (Proc.devRef .tc main_arg10) := by host_keep hostOps2
theorem step6_arg10 (c : Dev nD) : W6 m ρ c (Proc.devRef .tc main_arg10) = W5 m ρ c (Proc.devRef .tc main_arg10) := by host_keep hostOps2_1
theorem step7_arg10 (c : Dev nD) : W7 m ρ c (Proc.devRef .tc main_arg10) = W6 m ρ c (Proc.devRef .tc main_arg10) := by host_keep hostOps2_2
theorem step8_arg10 (c : Dev nD) : W8 m ρ c (Proc.devRef .tc main_arg10) = W7 m ρ c (Proc.devRef .tc main_arg10) := W8_of_ne m ρ c main_arg10 (by decide)
theorem keep_arg10_W0_W8 (c : Dev nD) : W8 m ρ c (Proc.devRef .tc main_arg10) = W0 m ρ c (Proc.devRef .tc main_arg10) :=
  (step8_arg10 m ρ c).trans <| (step7_arg10 m ρ c).trans <| (step6_arg10 m ρ c).trans <| (step5_arg10 m ρ c).trans <|
    (step4_arg10 m ρ c).trans <| (step3_arg10 m ρ c).trans <| (step2_arg10 m ρ c).trans (step1_arg10 m ρ c)

theorem step1_arg11 (c : Dev nD) : W1 m ρ c (Proc.devRef .tc main_arg11) = W0 m ρ c (Proc.devRef .tc main_arg11) := by host_keep hostOps0
theorem step2_arg11 (c : Dev nD) : W2 m ρ c (Proc.devRef .tc main_arg11) = W1 m ρ c (Proc.devRef .tc main_arg11) := W2_of_ne m ρ c main_arg11 (by decide)
theorem step3_arg11 (c : Dev nD) : W3 m ρ c (Proc.devRef .tc main_arg11) = W2 m ρ c (Proc.devRef .tc main_arg11) := by host_keep hostOps1
theorem step4_arg11 (c : Dev nD) : W4 m ρ c (Proc.devRef .tc main_arg11) = W3 m ρ c (Proc.devRef .tc main_arg11) := W4_of_ne m ρ c main_arg11 (by decide)
theorem step5_arg11 (c : Dev nD) : W5 m ρ c (Proc.devRef .tc main_arg11) = W4 m ρ c (Proc.devRef .tc main_arg11) := by host_keep hostOps2
theorem step6_arg11 (c : Dev nD) : W6 m ρ c (Proc.devRef .tc main_arg11) = W5 m ρ c (Proc.devRef .tc main_arg11) := by host_keep hostOps2_1
theorem step7_arg11 (c : Dev nD) : W7 m ρ c (Proc.devRef .tc main_arg11) = W6 m ρ c (Proc.devRef .tc main_arg11) := by host_keep hostOps2_2
theorem step8_arg11 (c : Dev nD) : W8 m ρ c (Proc.devRef .tc main_arg11) = W7 m ρ c (Proc.devRef .tc main_arg11) := W8_of_ne m ρ c main_arg11 (by decide)
theorem keep_arg11_W0_W8 (c : Dev nD) : W8 m ρ c (Proc.devRef .tc main_arg11) = W0 m ρ c (Proc.devRef .tc main_arg11) :=
  (step8_arg11 m ρ c).trans <| (step7_arg11 m ρ c).trans <| (step6_arg11 m ρ c).trans <| (step5_arg11 m ρ c).trans <|
    (step4_arg11 m ρ c).trans <| (step3_arg11 m ρ c).trans <| (step2_arg11 m ρ c).trans (step1_arg11 m ρ c)

/-! ## The first layer's host results

The edge endpoints (`main_v2`, `main_v4`) are read by host operations only and stay to the second layer's
first launch; the edge histogram (`main_v20`) and the reciprocal counts (`main_v12`) are arrays the first layer's second
launch only READS, so they pass it unchanged (an input window's array is never written back); the node
features (`main_v0`) are likewise an array the first launch only reads. -/

theorem step2_v2 (c : Dev nD) : W2 m ρ c (Proc.devRef .tc main_v2) = W1 m ρ c (Proc.devRef .tc main_v2) := W2_of_ne m ρ c main_v2 (by decide)
theorem step3_v2 (c : Dev nD) : W3 m ρ c (Proc.devRef .tc main_v2) = W2 m ρ c (Proc.devRef .tc main_v2) := by host_keep hostOps1
theorem step4_v2 (c : Dev nD) : W4 m ρ c (Proc.devRef .tc main_v2) = W3 m ρ c (Proc.devRef .tc main_v2) := W4_of_ne m ρ c main_v2 (by decide)
theorem step5_v2 (c : Dev nD) : W5 m ρ c (Proc.devRef .tc main_v2) = W4 m ρ c (Proc.devRef .tc main_v2) := by host_keep hostOps2
theorem step6_v2 (c : Dev nD) : W6 m ρ c (Proc.devRef .tc main_v2) = W5 m ρ c (Proc.devRef .tc main_v2) := by host_keep hostOps2_1
theorem step7_v2 (c : Dev nD) : W7 m ρ c (Proc.devRef .tc main_v2) = W6 m ρ c (Proc.devRef .tc main_v2) := by host_keep hostOps2_2
theorem step8_v2 (c : Dev nD) : W8 m ρ c (Proc.devRef .tc main_v2) = W7 m ρ c (Proc.devRef .tc main_v2) := W8_of_ne m ρ c main_v2 (by decide)
theorem step9_v2 (c : Dev nD) : W9 m ρ c (Proc.devRef .tc main_v2) = W8 m ρ c (Proc.devRef .tc main_v2) := by host_keep hostOps3
theorem step10_v2 (c : Dev nD) : W10 m ρ c (Proc.devRef .tc main_v2) = W9 m ρ c (Proc.devRef .tc main_v2) := W10_of_ne m ρ c main_v2 (by decide)
theorem keep_v2_W1_W2 (c : Dev nD) : W2 m ρ c (Proc.devRef .tc main_v2) = W1 m ρ c (Proc.devRef .tc main_v2) :=
  step2_v2 m ρ c
theorem keep_v2_W1_W10 (c : Dev nD) : W10 m ρ c (Proc.devRef .tc main_v2) = W1 m ρ c (Proc.devRef .tc main_v2) :=
  (step10_v2 m ρ c).trans <| (step9_v2 m ρ c).trans <| (step8_v2 m ρ c).trans <| (step7_v2 m ρ c).trans <|
    (step6_v2 m ρ c).trans <| (step5_v2 m ρ c).trans <| (step4_v2 m ρ c).trans <| (step3_v2 m ρ c).trans (step2_v2 m ρ c)

theorem step2_v4 (c : Dev nD) : W2 m ρ c (Proc.devRef .tc main_v4) = W1 m ρ c (Proc.devRef .tc main_v4) := W2_of_ne m ρ c main_v4 (by decide)
theorem step3_v4 (c : Dev nD) : W3 m ρ c (Proc.devRef .tc main_v4) = W2 m ρ c (Proc.devRef .tc main_v4) := by host_keep hostOps1
theorem step4_v4 (c : Dev nD) : W4 m ρ c (Proc.devRef .tc main_v4) = W3 m ρ c (Proc.devRef .tc main_v4) := W4_of_ne m ρ c main_v4 (by decide)
theorem step5_v4 (c : Dev nD) : W5 m ρ c (Proc.devRef .tc main_v4) = W4 m ρ c (Proc.devRef .tc main_v4) := by host_keep hostOps2
theorem step6_v4 (c : Dev nD) : W6 m ρ c (Proc.devRef .tc main_v4) = W5 m ρ c (Proc.devRef .tc main_v4) := by host_keep hostOps2_1
theorem step7_v4 (c : Dev nD) : W7 m ρ c (Proc.devRef .tc main_v4) = W6 m ρ c (Proc.devRef .tc main_v4) := by host_keep hostOps2_2
theorem step8_v4 (c : Dev nD) : W8 m ρ c (Proc.devRef .tc main_v4) = W7 m ρ c (Proc.devRef .tc main_v4) := W8_of_ne m ρ c main_v4 (by decide)
theorem step9_v4 (c : Dev nD) : W9 m ρ c (Proc.devRef .tc main_v4) = W8 m ρ c (Proc.devRef .tc main_v4) := by host_keep hostOps3
theorem step10_v4 (c : Dev nD) : W10 m ρ c (Proc.devRef .tc main_v4) = W9 m ρ c (Proc.devRef .tc main_v4) := W10_of_ne m ρ c main_v4 (by decide)
theorem keep_v4_W1_W2 (c : Dev nD) : W2 m ρ c (Proc.devRef .tc main_v4) = W1 m ρ c (Proc.devRef .tc main_v4) :=
  step2_v4 m ρ c
theorem keep_v4_W1_W10 (c : Dev nD) : W10 m ρ c (Proc.devRef .tc main_v4) = W1 m ρ c (Proc.devRef .tc main_v4) :=
  (step10_v4 m ρ c).trans <| (step9_v4 m ρ c).trans <| (step8_v4 m ρ c).trans <| (step7_v4 m ρ c).trans <|
    (step6_v4 m ρ c).trans <| (step5_v4 m ρ c).trans <| (step4_v4 m ρ c).trans <| (step3_v4 m ρ c).trans (step2_v4 m ρ c)

/-- The node features are the first launch's window 0, an input: at the launch's exit the array holds what the
    write-backs leave, which for an input is its contents at entry. -/
theorem step2_v0 (c : Dev nD) : W2 m ρ c (Proc.devRef .tc main_v0) = W1 m ρ c (Proc.devRef .tc main_v0) :=
  (W2_arr m ρ c 0).trans (((dat0 (V1 m ρ) c).arrAt_in 0 rfl cfg0.N).trans (A_eq0 (V1 m ρ) c 0))
theorem step3_v0 (c : Dev nD) : W3 m ρ c (Proc.devRef .tc main_v0) = W2 m ρ c (Proc.devRef .tc main_v0) := by host_keep hostOps1
theorem keep_v0_W1_W3 (c : Dev nD) : W3 m ρ c (Proc.devRef .tc main_v0) = W1 m ρ c (Proc.devRef .tc main_v0) :=
  (step3_v0 m ρ c).trans (step2_v0 m ρ c)

theorem step2_v20 (c : Dev nD) : W2 m ρ c (Proc.devRef .tc main_v20) = W1 m ρ c (Proc.devRef .tc main_v20) := W2_of_ne m ρ c main_v20 (by decide)
theorem step3_v20 (c : Dev nD) : W3 m ρ c (Proc.devRef .tc main_v20) = W2 m ρ c (Proc.devRef .tc main_v20) := by host_keep hostOps1
/-- The edge histogram is the second launch's window 2, an input. -/
theorem step4_v20 (c : Dev nD) : W4 m ρ c (Proc.devRef .tc main_v20) = W3 m ρ c (Proc.devRef .tc main_v20) :=
  (W4_arr m ρ c 2).trans (((dat1 (V3 m ρ) c).arrAt_in 2 rfl cfg1.N).trans (A_eq1 (V3 m ρ) c 2))
theorem step5_v20 (c : Dev nD) : W5 m ρ c (Proc.devRef .tc main_v20) = W4 m ρ c (Proc.devRef .tc main_v20) := by host_keep hostOps2
theorem step6_v20 (c : Dev nD) : W6 m ρ c (Proc.devRef .tc main_v20) = W5 m ρ c (Proc.devRef .tc main_v20) := by host_keep hostOps2_1
theorem step7_v20 (c : Dev nD) : W7 m ρ c (Proc.devRef .tc main_v20) = W6 m ρ c (Proc.devRef .tc main_v20) := by host_keep hostOps2_2
theorem step8_v20 (c : Dev nD) : W8 m ρ c (Proc.devRef .tc main_v20) = W7 m ρ c (Proc.devRef .tc main_v20) := W8_of_ne m ρ c main_v20 (by decide)
theorem step9_v20 (c : Dev nD) : W9 m ρ c (Proc.devRef .tc main_v20) = W8 m ρ c (Proc.devRef .tc main_v20) := by host_keep hostOps3
theorem step10_v20 (c : Dev nD) : W10 m ρ c (Proc.devRef .tc main_v20) = W9 m ρ c (Proc.devRef .tc main_v20) := W10_of_ne m ρ c main_v20 (by decide)
theorem step11_v20 (c : Dev nD) : W11 m ρ c (Proc.devRef .tc main_v20) = W10 m ρ c (Proc.devRef .tc main_v20) := by host_keep hostOps4
theorem keep_v20_W1_W3 (c : Dev nD) : W3 m ρ c (Proc.devRef .tc main_v20) = W1 m ρ c (Proc.devRef .tc main_v20) :=
  (step3_v20 m ρ c).trans (step2_v20 m ρ c)
theorem keep_v20_W1_W11 (c : Dev nD) : W11 m ρ c (Proc.devRef .tc main_v20) = W1 m ρ c (Proc.devRef .tc main_v20) :=
  (step11_v20 m ρ c).trans <| (step10_v20 m ρ c).trans <| (step9_v20 m ρ c).trans <| (step8_v20 m ρ c).trans <|
    (step7_v20 m ρ c).trans <| (step6_v20 m ρ c).trans <| (step5_v20 m ρ c).trans <| (step4_v20 m ρ c).trans <|
    (step3_v20 m ρ c).trans (step2_v20 m ρ c)

theorem step2_v12 (c : Dev nD) : W2 m ρ c (Proc.devRef .tc main_v12) = W1 m ρ c (Proc.devRef .tc main_v12) := W2_of_ne m ρ c main_v12 (by decide)
theorem step3_v12 (c : Dev nD) : W3 m ρ c (Proc.devRef .tc main_v12) = W2 m ρ c (Proc.devRef .tc main_v12) := by host_keep hostOps1
/-- The reciprocal counts are the second launch's window 4, an input. -/
theorem step4_v12 (c : Dev nD) : W4 m ρ c (Proc.devRef .tc main_v12) = W3 m ρ c (Proc.devRef .tc main_v12) :=
  (W4_arr m ρ c 4).trans (((dat1 (V3 m ρ) c).arrAt_in 4 rfl cfg1.N).trans (A_eq1 (V3 m ρ) c 4))
theorem step5_v12 (c : Dev nD) : W5 m ρ c (Proc.devRef .tc main_v12) = W4 m ρ c (Proc.devRef .tc main_v12) := by host_keep hostOps2
theorem step6_v12 (c : Dev nD) : W6 m ρ c (Proc.devRef .tc main_v12) = W5 m ρ c (Proc.devRef .tc main_v12) := by host_keep hostOps2_1
theorem step7_v12 (c : Dev nD) : W7 m ρ c (Proc.devRef .tc main_v12) = W6 m ρ c (Proc.devRef .tc main_v12) := by host_keep hostOps2_2
theorem step8_v12 (c : Dev nD) : W8 m ρ c (Proc.devRef .tc main_v12) = W7 m ρ c (Proc.devRef .tc main_v12) := W8_of_ne m ρ c main_v12 (by decide)
theorem step9_v12 (c : Dev nD) : W9 m ρ c (Proc.devRef .tc main_v12) = W8 m ρ c (Proc.devRef .tc main_v12) := by host_keep hostOps3
theorem step10_v12 (c : Dev nD) : W10 m ρ c (Proc.devRef .tc main_v12) = W9 m ρ c (Proc.devRef .tc main_v12) := W10_of_ne m ρ c main_v12 (by decide)
theorem step11_v12 (c : Dev nD) : W11 m ρ c (Proc.devRef .tc main_v12) = W10 m ρ c (Proc.devRef .tc main_v12) := by host_keep hostOps4
theorem keep_v12_W1_W3 (c : Dev nD) : W3 m ρ c (Proc.devRef .tc main_v12) = W1 m ρ c (Proc.devRef .tc main_v12) :=
  (step3_v12 m ρ c).trans (step2_v12 m ρ c)
theorem keep_v12_W1_W11 (c : Dev nD) : W11 m ρ c (Proc.devRef .tc main_v12) = W1 m ρ c (Proc.devRef .tc main_v12) :=
  (step11_v12 m ρ c).trans <| (step10_v12 m ρ c).trans <| (step9_v12 m ρ c).trans <| (step8_v12 m ρ c).trans <|
    (step7_v12 m ρ c).trans <| (step6_v12 m ρ c).trans <| (step5_v12 m ρ c).trans <| (step4_v12 m ρ c).trans <|
    (step3_v12 m ρ c).trans (step2_v12 m ρ c)

theorem step2_v37 (c : Dev nD) : W2 m ρ c (Proc.devRef .tc main_v37) = W1 m ρ c (Proc.devRef .tc main_v37) := W2_of_ne m ρ c main_v37 (by decide)
theorem step3_v37 (c : Dev nD) : W3 m ρ c (Proc.devRef .tc main_v37) = W2 m ρ c (Proc.devRef .tc main_v37) := by host_keep hostOps1
theorem keep_v37_W1_W3 (c : Dev nD) : W3 m ρ c (Proc.devRef .tc main_v37) = W1 m ρ c (Proc.devRef .tc main_v37) :=
  (step3_v37 m ρ c).trans (step2_v37 m ρ c)

theorem step2_v26 (c : Dev nD) : W2 m ρ c (Proc.devRef .tc main_v26) = W1 m ρ c (Proc.devRef .tc main_v26) := W2_of_ne m ρ c main_v26 (by decide)
theorem step3_v26 (c : Dev nD) : W3 m ρ c (Proc.devRef .tc main_v26) = W2 m ρ c (Proc.devRef .tc main_v26) := by host_keep hostOps1
theorem keep_v26_W1_W3 (c : Dev nD) : W3 m ρ c (Proc.devRef .tc main_v26) = W1 m ρ c (Proc.devRef .tc main_v26) :=
  (step3_v26 m ρ c).trans (step2_v26 m ρ c)

theorem keep_v28_W1_W2 (c : Dev nD) : W2 m ρ c (Proc.devRef .tc main_v28) = W1 m ρ c (Proc.devRef .tc main_v28) :=
  W2_of_ne m ρ c main_v28 (by decide)

theorem step2_v34 (c : Dev nD) : W2 m ρ c (Proc.devRef .tc main_v34) = W1 m ρ c (Proc.devRef .tc main_v34) := W2_of_ne m ρ c main_v34 (by decide)
theorem step3_v34 (c : Dev nD) : W3 m ρ c (Proc.devRef .tc main_v34) = W2 m ρ c (Proc.devRef .tc main_v34) := by host_keep hostOps1
theorem step4_v34 (c : Dev nD) : W4 m ρ c (Proc.devRef .tc main_v34) = W3 m ρ c (Proc.devRef .tc main_v34) := W4_of_ne m ρ c main_v34 (by decide)
theorem keep_v34_W1_W4 (c : Dev nD) : W4 m ρ c (Proc.devRef .tc main_v34) = W1 m ρ c (Proc.devRef .tc main_v34) :=
  (step4_v34 m ρ c).trans <| (step3_v34 m ρ c).trans (step2_v34 m ρ c)

theorem step2_v36 (c : Dev nD) : W2 m ρ c (Proc.devRef .tc main_v36) = W1 m ρ c (Proc.devRef .tc main_v36) := W2_of_ne m ρ c main_v36 (by decide)
theorem step3_v36 (c : Dev nD) : W3 m ρ c (Proc.devRef .tc main_v36) = W2 m ρ c (Proc.devRef .tc main_v36) := by host_keep hostOps1
theorem step4_v36 (c : Dev nD) : W4 m ρ c (Proc.devRef .tc main_v36) = W3 m ρ c (Proc.devRef .tc main_v36) := W4_of_ne m ρ c main_v36 (by decide)
theorem keep_v36_W1_W4 (c : Dev nD) : W4 m ρ c (Proc.devRef .tc main_v36) = W1 m ρ c (Proc.devRef .tc main_v36) :=
  (step4_v36 m ρ c).trans <| (step3_v36 m ρ c).trans (step2_v36 m ρ c)

/-! ## The first layer's output and the second layer's host results

The first layer's output (`main_v60`) is window 0 of the second layer's first launch, an input, and passes it
unchanged; the second layer's parameter slices pass its first two launches, none of which has them as an array
before the launch that reads them. -/

theorem step9_v60 (c : Dev nD) : W9 m ρ c (Proc.devRef .tc main_v60) = W8 m ρ c (Proc.devRef .tc main_v60) := by host_keep hostOps3
/-- The first layer's output is the fourth launch's window 0, an input. -/
theorem step10_v60 (c : Dev nD) : W10 m ρ c (Proc.devRef .tc main_v60) = W9 m ρ c (Proc.devRef .tc main_v60) :=
  (W10_arr m ρ c 0).trans (((dat3 (V9 m ρ) c).arrAt_in 0 rfl cfg3.N).trans (A_eq3 (V9 m ρ) c 0))
theorem step11_v60 (c : Dev nD) : W11 m ρ c (Proc.devRef .tc main_v60) = W10 m ρ c (Proc.devRef .tc main_v60) := by host_keep hostOps4
theorem keep_v60_W8_W9 (c : Dev nD) : W9 m ρ c (Proc.devRef .tc main_v60) = W8 m ρ c (Proc.devRef .tc main_v60) :=
  step9_v60 m ρ c
theorem keep_v60_W8_W11 (c : Dev nD) : W11 m ρ c (Proc.devRef .tc main_v60) = W8 m ρ c (Proc.devRef .tc main_v60) :=
  (step11_v60 m ρ c).trans <| (step10_v60 m ρ c).trans (step9_v60 m ρ c)

theorem step10_v66 (c : Dev nD) : W10 m ρ c (Proc.devRef .tc main_v66) = W9 m ρ c (Proc.devRef .tc main_v66) := W10_of_ne m ρ c main_v66 (by decide)
theorem step11_v66 (c : Dev nD) : W11 m ρ c (Proc.devRef .tc main_v66) = W10 m ρ c (Proc.devRef .tc main_v66) := by host_keep hostOps4
theorem keep_v66_W9_W11 (c : Dev nD) : W11 m ρ c (Proc.devRef .tc main_v66) = W9 m ρ c (Proc.devRef .tc main_v66) :=
  (step11_v66 m ρ c).trans (step10_v66 m ρ c)

theorem step10_v77 (c : Dev nD) : W10 m ρ c (Proc.devRef .tc main_v77) = W9 m ρ c (Proc.devRef .tc main_v77) := W10_of_ne m ρ c main_v77 (by decide)
theorem step11_v77 (c : Dev nD) : W11 m ρ c (Proc.devRef .tc main_v77) = W10 m ρ c (Proc.devRef .tc main_v77) := by host_keep hostOps4
theorem keep_v77_W9_W11 (c : Dev nD) : W11 m ρ c (Proc.devRef .tc main_v77) = W9 m ρ c (Proc.devRef .tc main_v77) :=
  (step11_v77 m ρ c).trans (step10_v77 m ρ c)

theorem keep_v68_W9_W10 (c : Dev nD) : W10 m ρ c (Proc.devRef .tc main_v68) = W9 m ρ c (Proc.devRef .tc main_v68) :=
  W10_of_ne m ρ c main_v68 (by decide)

theorem step10_v74 (c : Dev nD) : W10 m ρ c (Proc.devRef .tc main_v74) = W9 m ρ c (Proc.devRef .tc main_v74) := W10_of_ne m ρ c main_v74 (by decide)
theorem step11_v74 (c : Dev nD) : W11 m ρ c (Proc.devRef .tc main_v74) = W10 m ρ c (Proc.devRef .tc main_v74) := by host_keep hostOps4
theorem step12_v74 (c : Dev nD) : W12 m ρ c (Proc.devRef .tc main_v74) = W11 m ρ c (Proc.devRef .tc main_v74) := W12_of_ne m ρ c main_v74 (by decide)
theorem keep_v74_W9_W12 (c : Dev nD) : W12 m ρ c (Proc.devRef .tc main_v74) = W9 m ρ c (Proc.devRef .tc main_v74) :=
  (step12_v74 m ρ c).trans <| (step11_v74 m ρ c).trans (step10_v74 m ρ c)

theorem step10_v76 (c : Dev nD) : W10 m ρ c (Proc.devRef .tc main_v76) = W9 m ρ c (Proc.devRef .tc main_v76) := W10_of_ne m ρ c main_v76 (by decide)
theorem step11_v76 (c : Dev nD) : W11 m ρ c (Proc.devRef .tc main_v76) = W10 m ρ c (Proc.devRef .tc main_v76) := by host_keep hostOps4
theorem step12_v76 (c : Dev nD) : W12 m ρ c (Proc.devRef .tc main_v76) = W11 m ρ c (Proc.devRef .tc main_v76) := W12_of_ne m ρ c main_v76 (by decide)
theorem keep_v76_W9_W12 (c : Dev nD) : W12 m ρ c (Proc.devRef .tc main_v76) = W9 m ρ c (Proc.devRef .tc main_v76) :=
  (step12_v76 m ρ c).trans <| (step11_v76 m ρ c).trans (step10_v76 m ρ c)

end Cert.KernelIdeal.Keep

end
-- ==== Proof.KRegA0.lean ====
import proofs.«410086_j81595788689991_2_alg».proof.Proof.Gen.KernelIdeal.Frame
import Idealize.ShloMosaic.Lib.Pipeline.Value
import Idealize.ShloMosaic.Lib.ValueIdx
import Idealize.ShloMosaic.PureOps.Ideal.Laws

/-!
# The node transform of the first layer, as the whole array it leaves

The kernel walks the 16384 nodes in four blocks of 4096 rows. At each block it multiplies the block's rows of the node
features (256 wide) by the whole 256 × 256 weight matrix, starting from a zero accumulator, and adds the bias row to
every row of the product. Read over the extended reals, where the narrowing of the two factors to a shorter format
changes nothing, entry (n, d) of the result is therefore

  ∑ j, X (n, j) · W (j, d) + B (0, d)

with X, W, B the three arrays as they stand when the kernel starts. The blocks tile the result array (row n lies in
block n / 4096), so this holds at every entry of it.
-/

noncomputable section

namespace Cert.KernelIdeal.RegA0

open Cert.KernelIdeal Cert.KernelIdeal.Gen Idealize.ShloMosaic Idealize.ShloMosaic.TcCoe Idealize.ShloMosaic.ValueIdx
open Idealize.ShloMosaic.Pipeline (Dat)
open scoped BigOperators

/-! ## The body's arithmetic at an entry of a block -/

/-- A row of the left factor and the contracted position give the left factor's entry: its row is the result's row, -/
theorem lhs_nodeDot_0 (j : S4096x256.Idx) (k : dot_S4096x256_S256x256_S4096x256_1_0_0_1_n_n.contr.Idx) :
    (dot_S4096x256_S256x256_S4096x256_1_0_0_1_n_n.lhsIdx j k 0).val = (j 0).val := by
  unfold DotDims.lhsIdx
  rw [dif_neg (show ¬(0 : Fin S4096x256.rank) ∈ dot_S4096x256_S256x256_S4096x256_1_0_0_1_n_n.lhsBatch by decide),
    dif_pos (show (0 : Fin S4096x256.rank) ∈ dot_S4096x256_S256x256_S4096x256_1_0_0_1_n_n.lhsNonContracting by decide)]
  rfl

/-- its column the contracted position; -/
theorem lhs_nodeDot_1 (j : S4096x256.Idx) (k : dot_S4096x256_S256x256_S4096x256_1_0_0_1_n_n.contr.Idx) :
    (dot_S4096x256_S256x256_S4096x256_1_0_0_1_n_n.lhsIdx j k 1).val = (k ⟨0, by decide⟩).val :=
  dot_S4096x256_S256x256_S4096x256_1_0_0_1_n_n.lhsIdx_val_of_single (cl := 1) rfl j k

/-- the right factor's row is the contracted position, -/
theorem rhs_nodeDot_0 (j : S4096x256.Idx) (k : dot_S4096x256_S256x256_S4096x256_1_0_0_1_n_n.contr.Idx) :
    (dot_S4096x256_S256x256_S4096x256_1_0_0_1_n_n.rhsIdx j k 0).val = (k ⟨0, by decide⟩).val :=
  dot_S4096x256_S256x256_S4096x256_1_0_0_1_n_n.rhsIdx_val_of_single (cr := 0) rfl j k

/-- and its column the result's column. -/
theorem rhs_nodeDot_1 (j : S4096x256.Idx) (k : dot_S4096x256_S256x256_S4096x256_1_0_0_1_n_n.contr.Idx) :
    (dot_S4096x256_S256x256_S4096x256_1_0_0_1_n_n.rhsIdx j k 1).val = (j 1).val := by
  unfold DotDims.rhsIdx
  rw [dif_neg (show ¬(1 : Fin S256x256.rank) ∈ dot_S4096x256_S256x256_S4096x256_1_0_0_1_n_n.rhsBatch by decide),
    dif_pos (show (1 : Fin S256x256.rank) ∈ dot_S4096x256_S256x256_S4096x256_1_0_0_1_n_n.rhsNonContracting by decide)]
  rfl

/-- The product of a block of rows with the weight matrix, from a zero accumulator, at an entry: the block's row
    against the weights' column. -/
theorem matmul_rows_apply (x : FVec Ideal S4096x256 .bf16) (w : FVec Ideal S256x256 .bf16) (r : Fin 4096) (d : Fin 256) :
    matmul (F := Ideal) dot_S4096x256_S256x256_S4096x256_1_0_0_1_n_n none x w (constant (F := Ideal) S4096x256 .f32 0x00000000#32) (ix2 r d)
      = ∑ j : Fin 256, x (ix2 r j) * w (ix2 j d) := by
  show FloatOps.matmul _ none x w _ (ix2 r d) = _
  rw [Ideal.matmul_constant_zero_apply,
    ← Equiv.sum_comp (contrEquiv1 dot_S4096x256_S256x256_S4096x256_1_0_0_1_n_n 256 rfl rfl).symm]
  refine Finset.sum_congr rfl fun j _ => ?_
  have hk := contrEquiv1_symm_val dot_S4096x256_S256x256_S4096x256_1_0_0_1_n_n 256 rfl rfl j
  have hl : dot_S4096x256_S256x256_S4096x256_1_0_0_1_n_n.lhsIdx (ix2 r d) ((contrEquiv1 _ 256 rfl rfl).symm j) = ix2 r j := by
    funext ax; apply Fin.ext
    match ax with
    | ⟨0, _⟩ => exact lhs_nodeDot_0 _ _
    | ⟨1, _⟩ => exact (lhs_nodeDot_1 _ _).trans hk
  have hr : dot_S4096x256_S256x256_S4096x256_1_0_0_1_n_n.rhsIdx (ix2 r d) ((contrEquiv1 _ 256 rfl rfl).symm j) = ix2 j d := by
    funext ax; apply Fin.ext
    match ax with
    | ⟨0, _⟩ => exact (rhs_nodeDot_0 _ _).trans hk
    | ⟨1, _⟩ => exact rhs_nodeDot_1 _ _
  rw [hl, hr]

/-- The bias row spread over the block's rows, at an entry: the bias at the entry's column. -/
theorem bias_rows_apply (b : FVec Ideal S1x256 .f32) (r : Fin 4096) (d : Fin 256) :
    broadcastTo S4096x256 b broadcasts_S1x256_S4096x256 (ix2 r d) = b (ix2 (0 : Fin 1) d) := by
  refine broadcastTo_apply b _ (ix2 r d) (ix2 (0 : Fin 1) d) fun a => ?_
  match a with
  | ⟨0, _⟩ => rfl
  | ⟨1, _⟩ => rfl

/-- What the body stores, at an entry of the block: the block's row against the weights' column, plus the bias. -/
theorem pay_apply (x : Vec Ideal S4096x256 .f32) (w : Vec Ideal S256x256 .f32) (b : Vec Ideal S1x256 .f32)
    (r : Fin 4096) (d : Fin 256) :
    k0_pay1 x w b (ix2 r d) = (∑ j : Fin 256, x (ix2 r j) * w (ix2 j d)) + b (ix2 (0 : Fin 1) d) := by
  unfold k0_pay1
  simp only [shapeCast_self]
  rw [addf_apply, matmul_rows_apply, bias_rows_apply]
  rfl

/-! ## The whole array -/

/-- The transform as one function of the three arrays, entry by entry. -/
def nodeLin (X : S16384x256.Idx → EReal) (W : S256x256.Idx → EReal) (B : S1x256.Idx → EReal) : S16384x256.Idx → EReal :=
  fun i => (∑ j : Fin 256, X (ix2 (⟨(i 0).val, (i 0).isLt⟩ : Fin 16384) j) * W (ix2 j (⟨(i 1).val, (i 1).isLt⟩ : Fin 256)))
    + B (ix2 (0 : Fin 1) (⟨(i 1).val, (i 1).isLt⟩ : Fin 256))

/-- The body's stored value at an entry of the block, when the three loaded blocks are the arrays' entries the block's
    place in the grid says: rows q·4096 … q·4096 + 4095 of the features, the whole weights, the whole bias. -/
theorem pay_eq_nodeLin (X : S16384x256.Idx → EReal) (W : S256x256.Idx → EReal) (B : S1x256.Idx → EReal)
    (x : Vec Ideal S4096x256 .f32) (w : Vec Ideal S256x256 .f32) (b : Vec Ideal S1x256 .f32)
    (y : S4096x256.Idx) (i : S16384x256.Idx)
    (hx : ∀ j : Fin 256, x (ix2 (⟨(y 0).val, (y 0).isLt⟩ : Fin 4096) j) = X (ix2 (⟨(i 0).val, (i 0).isLt⟩ : Fin 16384) j))
    (hw : w = W) (hb : b = B) (h1 : (i 1).val = (y 1).val) :
    k0_pay1 x w b y = nodeLin X W B i := by
  obtain ⟨r, d, rfl⟩ : ∃ (r : Fin 4096) (d : Fin 256), y = ix2 r d := ⟨y 0, y 1, eq_ix2 y⟩
  subst hw hb
  rw [pay_apply]
  unfold nodeLin
  have hd : (⟨(i 1).val, (i 1).isLt⟩ : Fin 256) = d := Fin.ext h1
  rw [hd]
  exact congrArg (· + b (ix2 (0 : Fin 1) d)) (Finset.sum_congr rfl fun j _ => by rw [← hx j])

variable (V : (c : Dev nD) → (b : Ref sig .tc) → Buf (Elt Ideal) ((c : Thread nD τ).loc b))

/-- The arrays the four windows stage: the node features, the weights, the bias row, and the result. -/
theorem arrRef_0 : Pipeline.arrRef spec0 0 = main_v0 := rfl
theorem arrRef_1 : Pipeline.arrRef spec0 1 = main_v22 := rfl
theorem arrRef_2 : Pipeline.arrRef spec0 2 = main_v39 := rfl
theorem arrRef_3 : Pipeline.arrRef spec0 3 = main_v40 := rfl

theorem hz : (![0, 0] : Fin 2 → Nat) = fun _ => 0 := funext fun a => by fin_cases a <;> rfl

/-- Where each window's block sits at a grid point: the features' and the result's blocks are the point's own block of
    rows, the weights' and the bias's the one block there is. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is block `t` of the transform of the arrays as the kernel finds them. -/
theorem flushed_eq (c : Dev nD) (t : Fin cfg0.N) :
    (dat0 V c).flushed 3 t = ((cfg0.win 3).blk t).view.read (Elt Ideal)
      (nodeLin (V c main_v0) (V c main_v22) (V c main_v39)) := by
  show (cfg0.win 3).cut (grid0.coords t) ((dat0 V c).after 3 t) = _
  rw [after0_3]
  unfold out0_3
  rw [View.canon_unit_zero hz]
  simp only [View.ld_unit_zero (S := S4096x256) hz, View.ld_unit_zero (S := S256x256) hz, View.ld_unit_zero (S := S1x256) hz]
  obtain ⟨e00, e01, e10, e11, e20, e21, e30, e31⟩ := idx_facts t
  funext y
  show k0_pay1 (iblk0 V c 0 t) (iblk0 V c 1 t) (iblk0 V c 2 t) y
    = nodeLin (V c main_v0) (V c main_v22) (V c main_v39) (((cfg0.win 3).blk t).view.emb y)
  refine pay_eq_nodeLin (V c main_v0) (V c main_v22) (V c main_v39) (iblk0 V c 0 t) (iblk0 V c 1 t) (iblk0 V c 2 t) y
    (((cfg0.win 3).blk t).view.emb y) (fun j => ?_) ?_ ?_ ?_
  · unfold iblk0
    rw [View.read_apply]
    show V c main_v0 (((cfg0.win 0).blk t).view.emb (ix2 (⟨(y 0).val, (y 0).isLt⟩ : Fin 4096) j)) = V c main_v0 _
    refine congrArg (V c main_v0) (funext fun a => Fin.ext ?_)
    match a with
    | ⟨0, _⟩ =>
      show win0_0.index t (0 : Fin 2) * 4096 + 1 * (y 0).val = win0_3.index t (0 : Fin 2) * 4096 + 1 * (y 0).val
      omega
    | ⟨1, _⟩ =>
      show win0_0.index t (1 : Fin 2) * 256 + 1 * j.val = j.val
      omega
  · funext x
    unfold iblk0
    rw [View.read_apply]
    show V c main_v22 (((cfg0.win 1).blk t).view.emb x) = V c main_v22 x
    refine congrArg (V c main_v22) (funext fun a => Fin.ext ?_)
    match a with
    | ⟨0, _⟩ => show win0_1.index t (0 : Fin 2) * 256 + 1 * (x 0).val = (x 0).val; omega
    | ⟨1, _⟩ => show win0_1.index t (1 : Fin 2) * 256 + 1 * (x 1).val = (x 1).val; omega
  · funext x
    unfold iblk0
    rw [View.read_apply]
    show V c main_v39 (((cfg0.win 2).blk t).view.emb x) = V c main_v39 x
    refine congrArg (V c main_v39) (funext fun a => Fin.ext ?_)
    match a with
    | ⟨0, _⟩ => show win0_2.index t (0 : Fin 2) * 1 + 1 * (x 0).val = (x 0).val; omega
    | ⟨1, _⟩ => show win0_2.index t (1 : Fin 2) * 256 + 1 * (x 1).val = (x 1).val; omega
  · show win0_3.index t (1 : Fin 2) * 256 + 1 * (y 1).val = (y 1).val
    omega

/-- An index of the result array is in point `t`'s block iff each coordinate is in the block's range on its axis. -/
theorem mem_blk (t : Fin cfg0.N) (i : S16384x256.Idx) :
    i ∈ ((cfg0.win 3).blk t).view.set ↔ ∀ a : Fin 2, win0_3.index t a * S4096x256.size a ≤ (i a).val
      ∧ (i a).val < win0_3.index t a * S4096x256.size a + S4096x256.size a := by
  show i ∈ ((View.whole main_v40).slice (win0_3.rect t)).set ↔ _
  rw [View.set_slice_whole, Rect.mem_set_unit]
  exact Iff.rfl

/-- The four blocks of rows tile the result: row n is in the block of point n / 4096. -/
theorem covered (i : S16384x256.Idx) :
    ∃ t : Fin cfg0.N, (cfg0.win 3).flush t = true ∧ i ∈ ((cfg0.win 3).blk t).view.set := by
  have hi0 : (i 0).val < 16384 := (i 0).isLt
  have hi1 : (i 1).val < 256 := (i 1).isLt
  have hN : cfg0.N = 4 := N_0
  obtain ⟨t, ht⟩ : ∃ t : Fin cfg0.N, t.val = (i 0).val / 4096 := ⟨⟨(i 0).val / 4096, by rw [hN]; omega⟩, rfl⟩
  obtain ⟨e00, e01, e10, e11, e20, e21, e30, e31⟩ := idx_facts t
  refine ⟨t, flush0_3 t, ?_⟩
  rw [mem_blk]
  intro a
  match a with
  | ⟨0, _⟩ =>
    show win0_3.index t (0 : Fin 2) * 4096 ≤ (i 0).val ∧ (i 0).val < win0_3.index t (0 : Fin 2) * 4096 + 4096
    omega
  | ⟨1, _⟩ =>
    show win0_3.index t (1 : Fin 2) * 256 ≤ (i 1).val ∧ (i 1).val < win0_3.index t (1 : Fin 2) * 256 + 256
    omega

/-- THE RESULT ARRAY when the kernel has run: the transform of the three arrays as the kernel found them. -/
theorem final (c : Dev nD) :
    (dat0 V c).arrAt 3 cfg0.N = nodeLin (V c main_v0) (V c main_v22) (V c main_v39) :=
  (dat0 V c).arrAt_eq_of_cover 3 (nodeLin (V c main_v0) (V c main_v22) (V c main_v39))
    (fun t _ => flushed_eq V c t) covered

/-- The transform at entry (n, d): row n of the features against column d of the weights, plus the bias at d. -/
theorem nodeLin_apply (X : S16384x256.Idx → EReal) (W : S256x256.Idx → EReal) (B : S1x256.Idx → EReal)
    (n : Fin 16384) (d : Fin 256) :
    nodeLin X W B (ix2 n d) = (∑ j : Fin 256, X (ix2 n j) * W (ix2 j d)) + B (ix2 (0 : Fin 1) d) := rfl

/-- The three arrays the kernel reads and the one it leaves, each at its own shape: the node features, the weights,
    the bias row, the result. -/
abbrev featArr (c : Dev nD) : S16384x256.Idx → EReal := V c main_v0
abbrev weightArr (c : Dev nD) : S256x256.Idx → EReal := V c main_v22
abbrev biasArr (c : Dev nD) : S1x256.Idx → EReal := V c main_v39
abbrev outArr (c : Dev nD) : S16384x256.Idx → EReal := (dat0 (F := Ideal) V c).arrAt 3 cfg0.N

/-- Entry (n, d) of the result: row n of the features against column d of the weights, plus the bias at d. -/
theorem nodeTransform0_apply (c : Dev nD) (n : Fin 16384) (d : Fin 256) :
    outArr V c (ix2 n d)
      = (∑ j : Fin 256, featArr V c (ix2 n j) * weightArr V c (ix2 j d)) + biasArr V c (ix2 (0 : Fin 1) d) :=
  congrFun (final V c) (ix2 n d)

/-- The same with the four arrays under names of the caller's choosing. -/
theorem nodeTransform0_apply_of (c : Dev nD) (X : S16384x256.Idx → EReal) (W : S256x256.Idx → EReal)
    (B : S1x256.Idx → EReal) (O : S16384x256.Idx → EReal)
    (hX : V c main_v0 = X) (hW : V c main_v22 = W) (hB : V c main_v39 = B)
    (hO : (dat0 (F := Ideal) V c).arrAt 3 cfg0.N = O) (n : Fin 16384) (d : Fin 256) :
    O (ix2 n d) = (∑ j : Fin 256, X (ix2 n j) * W (ix2 j d)) + B (ix2 (0 : Fin 1) d) := by
  subst hX hW hB hO
  exact congrFun (final V c) (ix2 n d)

end Cert.KernelIdeal.RegA0

end
-- ==== Proof.KRegA3.lean ====
import proofs.«410086_j81595788689991_2_alg».proof.Proof.Gen.KernelIdeal.Frame
import Idealize.ShloMosaic.Lib.Pipeline.Value
import Idealize.ShloMosaic.Lib.ValueIdx
import Idealize.ShloMosaic.PureOps.Ideal.Laws

/-!
# The node transform of the second layer, as the whole array it leaves

The kernel walks the 16384 nodes in four blocks of 4096 rows. At each block it multiplies the block's rows of the node
features (256 wide) by the whole 256 × 256 weight matrix, starting from a zero accumulator, and adds the bias row to
every row of the product. Read over the extended reals, where the narrowing of the two factors to a shorter format
changes nothing, entry (n, d) of the result is therefore

  ∑ j, X (n, j) · W (j, d) + B (0, d)

with X, W, B the three arrays as they stand when the kernel starts. The blocks tile the result array (row n lies in
block n / 4096), so this holds at every entry of it.
-/

noncomputable section

namespace Cert.KernelIdeal.RegA3

open Cert.KernelIdeal Cert.KernelIdeal.Gen Idealize.ShloMosaic Idealize.ShloMosaic.TcCoe Idealize.ShloMosaic.ValueIdx
open Idealize.ShloMosaic.Pipeline (Dat)
open scoped BigOperators

/-! ## The body's arithmetic at an entry of a block -/

/-- A row of the left factor and the contracted position give the left factor's entry: its row is the result's row, -/
theorem lhs_nodeDot_0 (j : S4096x256.Idx) (k : dot_S4096x256_S256x256_S4096x256_1_0_0_1_n_n.contr.Idx) :
    (dot_S4096x256_S256x256_S4096x256_1_0_0_1_n_n.lhsIdx j k 0).val = (j 0).val := by
  unfold DotDims.lhsIdx
  rw [dif_neg (show ¬(0 : Fin S4096x256.rank) ∈ dot_S4096x256_S256x256_S4096x256_1_0_0_1_n_n.lhsBatch by decide),
    dif_pos (show (0 : Fin S4096x256.rank) ∈ dot_S4096x256_S256x256_S4096x256_1_0_0_1_n_n.lhsNonContracting by decide)]
  rfl

/-- its column the contracted position; -/
theorem lhs_nodeDot_1 (j : S4096x256.Idx) (k : dot_S4096x256_S256x256_S4096x256_1_0_0_1_n_n.contr.Idx) :
    (dot_S4096x256_S256x256_S4096x256_1_0_0_1_n_n.lhsIdx j k 1).val = (k ⟨0, by decide⟩).val :=
  dot_S4096x256_S256x256_S4096x256_1_0_0_1_n_n.lhsIdx_val_of_single (cl := 1) rfl j k

/-- the right factor's row is the contracted position, -/
theorem rhs_nodeDot_0 (j : S4096x256.Idx) (k : dot_S4096x256_S256x256_S4096x256_1_0_0_1_n_n.contr.Idx) :
    (dot_S4096x256_S256x256_S4096x256_1_0_0_1_n_n.rhsIdx j k 0).val = (k ⟨0, by decide⟩).val :=
  dot_S4096x256_S256x256_S4096x256_1_0_0_1_n_n.rhsIdx_val_of_single (cr := 0) rfl j k

/-- and its column the result's column. -/
theorem rhs_nodeDot_1 (j : S4096x256.Idx) (k : dot_S4096x256_S256x256_S4096x256_1_0_0_1_n_n.contr.Idx) :
    (dot_S4096x256_S256x256_S4096x256_1_0_0_1_n_n.rhsIdx j k 1).val = (j 1).val := by
  unfold DotDims.rhsIdx
  rw [dif_neg (show ¬(1 : Fin S256x256.rank) ∈ dot_S4096x256_S256x256_S4096x256_1_0_0_1_n_n.rhsBatch by decide),
    dif_pos (show (1 : Fin S256x256.rank) ∈ dot_S4096x256_S256x256_S4096x256_1_0_0_1_n_n.rhsNonContracting by decide)]
  rfl

/-- The product of a block of rows with the weight matrix, from a zero accumulator, at an entry: the block's row
    against the weights' column. -/
theorem matmul_rows_apply (x : FVec Ideal S4096x256 .bf16) (w : FVec Ideal S256x256 .bf16) (r : Fin 4096) (d : Fin 256) :
    matmul (F := Ideal) dot_S4096x256_S256x256_S4096x256_1_0_0_1_n_n none x w (constant (F := Ideal) S4096x256 .f32 0x00000000#32) (ix2 r d)
      = ∑ j : Fin 256, x (ix2 r j) * w (ix2 j d) := by
  show FloatOps.matmul _ none x w _ (ix2 r d) = _
  rw [Ideal.matmul_constant_zero_apply,
    ← Equiv.sum_comp (contrEquiv1 dot_S4096x256_S256x256_S4096x256_1_0_0_1_n_n 256 rfl rfl).symm]
  refine Finset.sum_congr rfl fun j _ => ?_
  have hk := contrEquiv1_symm_val dot_S4096x256_S256x256_S4096x256_1_0_0_1_n_n 256 rfl rfl j
  have hl : dot_S4096x256_S256x256_S4096x256_1_0_0_1_n_n.lhsIdx (ix2 r d) ((contrEquiv1 _ 256 rfl rfl).symm j) = ix2 r j := by
    funext ax; apply Fin.ext
    match ax with
    | ⟨0, _⟩ => exact lhs_nodeDot_0 _ _
    | ⟨1, _⟩ => exact (lhs_nodeDot_1 _ _).trans hk
  have hr : dot_S4096x256_S256x256_S4096x256_1_0_0_1_n_n.rhsIdx (ix2 r d) ((contrEquiv1 _ 256 rfl rfl).symm j) = ix2 j d := by
    funext ax; apply Fin.ext
    match ax with
    | ⟨0, _⟩ => exact (rhs_nodeDot_0 _ _).trans hk
    | ⟨1, _⟩ => exact rhs_nodeDot_1 _ _
  rw [hl, hr]

/-- The bias row spread over the block's rows, at an entry: the bias at the entry's column. -/
theorem bias_rows_apply (b : FVec Ideal S1x256 .f32) (r : Fin 4096) (d : Fin 256) :
    broadcastTo S4096x256 b broadcasts_S1x256_S4096x256 (ix2 r d) = b (ix2 (0 : Fin 1) d) := by
  refine broadcastTo_apply b _ (ix2 r d) (ix2 (0 : Fin 1) d) fun a => ?_
  match a with
  | ⟨0, _⟩ => rfl
  | ⟨1, _⟩ => rfl

/-- What the body stores, at an entry of the block: the block's row against the weights' column, plus the bias. -/
theorem pay_apply (x : Vec Ideal S4096x256 .f32) (w : Vec Ideal S256x256 .f32) (b : Vec Ideal S1x256 .f32)
    (r : Fin 4096) (d : Fin 256) :
    k3_pay1 x w b (ix2 r d) = (∑ j : Fin 256, x (ix2 r j) * w (ix2 j d)) + b (ix2 (0 : Fin 1) d) := by
  unfold k3_pay1
  simp only [shapeCast_self]
  rw [addf_apply, matmul_rows_apply, bias_rows_apply]
  rfl

/-! ## The whole array -/

/-- The transform as one function of the three arrays, entry by entry. -/
def nodeLin (X : S16384x256.Idx → EReal) (W : S256x256.Idx → EReal) (B : S1x256.Idx → EReal) : S16384x256.Idx → EReal :=
  fun i => (∑ j : Fin 256, X (ix2 (⟨(i 0).val, (i 0).isLt⟩ : Fin 16384) j) * W (ix2 j (⟨(i 1).val, (i 1).isLt⟩ : Fin 256)))
    + B (ix2 (0 : Fin 1) (⟨(i 1).val, (i 1).isLt⟩ : Fin 256))

/-- The body's stored value at an entry of the block, when the three loaded blocks are the arrays' entries the block's
    place in the grid says: rows q·4096 … q·4096 + 4095 of the features, the whole weights, the whole bias. -/
theorem pay_eq_nodeLin (X : S16384x256.Idx → EReal) (W : S256x256.Idx → EReal) (B : S1x256.Idx → EReal)
    (x : Vec Ideal S4096x256 .f32) (w : Vec Ideal S256x256 .f32) (b : Vec Ideal S1x256 .f32)
    (y : S4096x256.Idx) (i : S16384x256.Idx)
    (hx : ∀ j : Fin 256, x (ix2 (⟨(y 0).val, (y 0).isLt⟩ : Fin 4096) j) = X (ix2 (⟨(i 0).val, (i 0).isLt⟩ : Fin 16384) j))
    (hw : w = W) (hb : b = B) (h1 : (i 1).val = (y 1).val) :
    k3_pay1 x w b y = nodeLin X W B i := by
  obtain ⟨r, d, rfl⟩ : ∃ (r : Fin 4096) (d : Fin 256), y = ix2 r d := ⟨y 0, y 1, eq_ix2 y⟩
  subst hw hb
  rw [pay_apply]
  unfold nodeLin
  have hd : (⟨(i 1).val, (i 1).isLt⟩ : Fin 256) = d := Fin.ext h1
  rw [hd]
  exact congrArg (· + b (ix2 (0 : Fin 1) d)) (Finset.sum_congr rfl fun j _ => by rw [← hx j])

variable (V : (c : Dev nD) → (b : Ref sig .tc) → Buf (Elt Ideal) ((c : Thread nD τ).loc b))

/-- The arrays the four windows stage: the node features, the weights, the bias row, and the result. -/
theorem arrRef_0 : Pipeline.arrRef spec3 0 = main_v60 := rfl
theorem arrRef_1 : Pipeline.arrRef spec3 1 = main_v62 := rfl
theorem arrRef_2 : Pipeline.arrRef spec3 2 = main_v79 := rfl
theorem arrRef_3 : Pipeline.arrRef spec3 3 = main_v80 := rfl

theorem hz : (![0, 0] : Fin 2 → Nat) = fun _ => 0 := funext fun a => by fin_cases a <;> rfl

/-- Where each window's block sits at a grid point: the features' and the result's blocks are the point's own block of
    rows, the weights' and the bias's the one block there is. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- WHAT POINT `t` WRITES BACK is block `t` of the transform of the arrays as the kernel finds them. -/
theorem flushed_eq (c : Dev nD) (t : Fin cfg3.N) :
    (dat3 V c).flushed 3 t = ((cfg3.win 3).blk t).view.read (Elt Ideal)
      (nodeLin (V c main_v60) (V c main_v62) (V c main_v79)) := by
  show (cfg3.win 3).cut (grid3.coords t) ((dat3 V c).after 3 t) = _
  rw [after3_3]
  unfold out3_3
  rw [View.canon_unit_zero hz]
  simp only [View.ld_unit_zero (S := S4096x256) hz, View.ld_unit_zero (S := S256x256) hz, View.ld_unit_zero (S := S1x256) hz]
  obtain ⟨e00, e01, e10, e11, e20, e21, e30, e31⟩ := idx_facts t
  funext y
  show k3_pay1 (iblk3 V c 0 t) (iblk3 V c 1 t) (iblk3 V c 2 t) y
    = nodeLin (V c main_v60) (V c main_v62) (V c main_v79) (((cfg3.win 3).blk t).view.emb y)
  refine pay_eq_nodeLin (V c main_v60) (V c main_v62) (V c main_v79) (iblk3 V c 0 t) (iblk3 V c 1 t) (iblk3 V c 2 t) y
    (((cfg3.win 3).blk t).view.emb y) (fun j => ?_) ?_ ?_ ?_
  · unfold iblk3
    rw [View.read_apply]
    show V c main_v60 (((cfg3.win 0).blk t).view.emb (ix2 (⟨(y 0).val, (y 0).isLt⟩ : Fin 4096) j)) = V c main_v60 _
    refine congrArg (V c main_v60) (funext fun a => Fin.ext ?_)
    match a with
    | ⟨0, _⟩ =>
      show win3_0.index t (0 : Fin 2) * 4096 + 1 * (y 0).val = win3_3.index t (0 : Fin 2) * 4096 + 1 * (y 0).val
      omega
    | ⟨1, _⟩ =>
      show win3_0.index t (1 : Fin 2) * 256 + 1 * j.val = j.val
      omega
  · funext x
    unfold iblk3
    rw [View.read_apply]
    show V c main_v62 (((cfg3.win 1).blk t).view.emb x) = V c main_v62 x
    refine congrArg (V c main_v62) (funext fun a => Fin.ext ?_)
    match a with
    | ⟨0, _⟩ => show win3_1.index t (0 : Fin 2) * 256 + 1 * (x 0).val = (x 0).val; omega
    | ⟨1, _⟩ => show win3_1.index t (1 : Fin 2) * 256 + 1 * (x 1).val = (x 1).val; omega
  · funext x
    unfold iblk3
    rw [View.read_apply]
    show V c main_v79 (((cfg3.win 2).blk t).view.emb x) = V c main_v79 x
    refine congrArg (V c main_v79) (funext fun a => Fin.ext ?_)
    match a with
    | ⟨0, _⟩ => show win3_2.index t (0 : Fin 2) * 1 + 1 * (x 0).val = (x 0).val; omega
    | ⟨1, _⟩ => show win3_2.index t (1 : Fin 2) * 256 + 1 * (x 1).val = (x 1).val; omega
  · show win3_3.index t (1 : Fin 2) * 256 + 1 * (y 1).val = (y 1).val
    omega

/-- An index of the result array is in point `t`'s block iff each coordinate is in the block's range on its axis. -/
theorem mem_blk (t : Fin cfg3.N) (i : S16384x256.Idx) :
    i ∈ ((cfg3.win 3).blk t).view.set ↔ ∀ a : Fin 2, win3_3.index t a * S4096x256.size a ≤ (i a).val
      ∧ (i a).val < win3_3.index t a * S4096x256.size a + S4096x256.size a := by
  show i ∈ ((View.whole main_v80).slice (win3_3.rect t)).set ↔ _
  rw [View.set_slice_whole, Rect.mem_set_unit]
  exact Iff.rfl

/-- The four blocks of rows tile the result: row n is in the block of point n / 4096. -/
theorem covered (i : S16384x256.Idx) :
    ∃ t : Fin cfg3.N, (cfg3.win 3).flush t = true ∧ i ∈ ((cfg3.win 3).blk t).view.set := by
  have hi0 : (i 0).val < 16384 := (i 0).isLt
  have hi1 : (i 1).val < 256 := (i 1).isLt
  have hN : cfg3.N = 4 := N_3
  obtain ⟨t, ht⟩ : ∃ t : Fin cfg3.N, t.val = (i 0).val / 4096 := ⟨⟨(i 0).val / 4096, by rw [hN]; omega⟩, rfl⟩
  obtain ⟨e00, e01, e10, e11, e20, e21, e30, e31⟩ := idx_facts t
  refine ⟨t, flush3_3 t, ?_⟩
  rw [mem_blk]
  intro a
  match a with
  | ⟨0, _⟩ =>
    show win3_3.index t (0 : Fin 2) * 4096 ≤ (i 0).val ∧ (i 0).val < win3_3.index t (0 : Fin 2) * 4096 + 4096
    omega
  | ⟨1, _⟩ =>
    show win3_3.index t (1 : Fin 2) * 256 ≤ (i 1).val ∧ (i 1).val < win3_3.index t (1 : Fin 2) * 256 + 256
    omega

/-- THE RESULT ARRAY when the kernel has run: the transform of the three arrays as the kernel found them. -/
theorem final (c : Dev nD) :
    (dat3 V c).arrAt 3 cfg3.N = nodeLin (V c main_v60) (V c main_v62) (V c main_v79) :=
  (dat3 V c).arrAt_eq_of_cover 3 (nodeLin (V c main_v60) (V c main_v62) (V c main_v79))
    (fun t _ => flushed_eq V c t) covered

/-- The transform at entry (n, d): row n of the features against column d of the weights, plus the bias at d. -/
theorem nodeLin_apply (X : S16384x256.Idx → EReal) (W : S256x256.Idx → EReal) (B : S1x256.Idx → EReal)
    (n : Fin 16384) (d : Fin 256) :
    nodeLin X W B (ix2 n d) = (∑ j : Fin 256, X (ix2 n j) * W (ix2 j d)) + B (ix2 (0 : Fin 1) d) := rfl

/-- The three arrays the kernel reads and the one it leaves, each at its own shape: the node features, the weights,
    the bias row, the result. -/
abbrev featArr (c : Dev nD) : S16384x256.Idx → EReal := V c main_v60
abbrev weightArr (c : Dev nD) : S256x256.Idx → EReal := V c main_v62
abbrev biasArr (c : Dev nD) : S1x256.Idx → EReal := V c main_v79
abbrev outArr (c : Dev nD) : S16384x256.Idx → EReal := (dat3 (F := Ideal) V c).arrAt 3 cfg3.N

/-- Entry (n, d) of the result: row n of the features against column d of the weights, plus the bias at d. -/
theorem nodeTransform3_apply (c : Dev nD) (n : Fin 16384) (d : Fin 256) :
    outArr V c (ix2 n d)
      = (∑ j : Fin 256, featArr V c (ix2 n j) * weightArr V c (ix2 j d)) + biasArr V c (ix2 (0 : Fin 1) d) :=
  congrFun (final V c) (ix2 n d)

/-- The same with the four arrays under names of the caller's choosing. -/
theorem nodeTransform3_apply_of (c : Dev nD) (X : S16384x256.Idx → EReal) (W : S256x256.Idx → EReal)
    (B : S1x256.Idx → EReal) (O : S16384x256.Idx → EReal)
    (hX : V c main_v60 = X) (hW : V c main_v62 = W) (hB : V c main_v79 = B)
    (hO : (dat3 (F := Ideal) V c).arrAt 3 cfg3.N = O) (n : Fin 16384) (d : Fin 256) :
    O (ix2 n d) = (∑ j : Fin 256, X (ix2 n j) * W (ix2 j d)) + B (ix2 (0 : Fin 1) d) := by
  subst hX hW hB hO
  exact congrFun (final V c) (ix2 n d)

end Cert.KernelIdeal.RegA3

end
-- ==== Proof.KRegB1.lean ====
/-
  The value of the layer's pre-normalisation stage (first layer).

  The stage computes, for every node `n` and feature `d`,

      ((agg n d + ∑ k, hist n k * edge k d) * recip n + ∑ j, x n j * wself j d) + bias d

  from seven arrays: the node features `x` [16384, 256], the aggregated messages `agg` [16384, 256], the histogram
  `hist` [16384, 64] of each node's edge kinds, the combined edge table `edge` [64, 256], the reciprocal edge counts
  `recip` [16384], the self weights `wself` [256, 256] and the bias row `bias` [1, 256]. It is computed eight times,
  on blocks of 2048 consecutive nodes; since entry `(n, d)` depends on row `n` of the row-blocked arrays only, the
  block results are the blocks of ONE function of the seven arrays, and the eight blocks tile the output. Hence the
  output array holds that function of what the seven arrays held on entry.

  Order of the proof: the two products of a block at an entry; the block's whole arithmetic at an entry; the array
  function and its agreement with a block's arithmetic; each window's block as rows of its array; the block a grid
  point writes; the blocks cover the output; the output array, and the same read at `(n, d)`.
-/
import proofs.«410086_j81595788689991_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxHeartbeats 400000

noncomputable section

namespace Cert.KernelIdeal.PreBN1

open Cert.KernelIdeal Cert.KernelIdeal.Gen Idealize.ShloMosaic Idealize.ShloMosaic.TcCoe Idealize.SL.Sem
open Idealize.ShloMosaic.ValueIdx
open Idealize.ShloMosaic.Pipeline (Dat)

/-! ## The two block products at an entry

Both products contract the left operand's columns against the right operand's rows: at output entry `(p, q)` and
contraction position `k` the left operand is read at `(p, k)` and the right at `(k, q)`. -/

theorem selfL_0 (j : S2048x256.Idx) (k : dot_S2048x256_S256x256_S2048x256_1_0_0_1_n_n.contr.Idx) :
    (dot_S2048x256_S256x256_S2048x256_1_0_0_1_n_n.lhsIdx j k 0).val = (j 0).val := rfl
theorem selfL_1 (j : S2048x256.Idx) (k : dot_S2048x256_S256x256_S2048x256_1_0_0_1_n_n.contr.Idx) :
    (dot_S2048x256_S256x256_S2048x256_1_0_0_1_n_n.lhsIdx j k 1).val = (k ⟨0, by decide⟩).val := rfl
theorem selfR_0 (j : S2048x256.Idx) (k : dot_S2048x256_S256x256_S2048x256_1_0_0_1_n_n.contr.Idx) :
    (dot_S2048x256_S256x256_S2048x256_1_0_0_1_n_n.rhsIdx j k 0).val = (k ⟨0, by decide⟩).val := rfl
theorem selfR_1 (j : S2048x256.Idx) (k : dot_S2048x256_S256x256_S2048x256_1_0_0_1_n_n.contr.Idx) :
    (dot_S2048x256_S256x256_S2048x256_1_0_0_1_n_n.rhsIdx j k 1).val = (j 1).val := rfl

/-- The node block times the self weights, into the zero accumulator: entry `(p, q)` is the sum over the 256
    features `j` of `x (p, j) * w (j, q)`. -/
theorem selfProd_apply (x : FVec Ideal S2048x256 .bf16) (w : FVec Ideal S256x256 .bf16) (p : Fin 2048) (q : Fin 256) :
    matmul dot_S2048x256_S256x256_S2048x256_1_0_0_1_n_n none x w (constant (F := Ideal) S2048x256 .f32 0x00000000#32) (ix2 p q)
      = ∑ j : Fin 256, x (ix2 p j) * w (ix2 j q) := by
  simp only [matmul]
  rw [Ideal.matmul_constant_zero_apply,
    ← Equiv.sum_comp (contrEquiv1 dot_S2048x256_S256x256_S2048x256_1_0_0_1_n_n 256 rfl rfl).symm]
  refine Finset.sum_congr rfl fun i _ => ?_
  have hl : dot_S2048x256_S256x256_S2048x256_1_0_0_1_n_n.lhsIdx (ix2 p q)
      ((contrEquiv1 dot_S2048x256_S256x256_S2048x256_1_0_0_1_n_n 256 rfl rfl).symm i) = ix2 p i :=
    Shape.idx_ext₂ (selfL_0 _ _) ((selfL_1 _ _).trans (contrEquiv1_symm_val _ 256 rfl rfl i))
  have hr : dot_S2048x256_S256x256_S2048x256_1_0_0_1_n_n.rhsIdx (ix2 p q)
      ((contrEquiv1 dot_S2048x256_S256x256_S2048x256_1_0_0_1_n_n 256 rfl rfl).symm i) = ix2 i q :=
    Shape.idx_ext₂ ((selfR_0 _ _).trans (contrEquiv1_symm_val _ 256 rfl rfl i)) (selfR_1 _ _)
  rw [hl, hr]

theorem edgeL_0 (j : S2048x256.Idx) (k : dot_S2048x64_S64x256_S2048x256_1_0_0_1_n_n.contr.Idx) :
    (dot_S2048x64_S64x256_S2048x256_1_0_0_1_n_n.lhsIdx j k 0).val = (j 0).val := rfl
theorem edgeL_1 (j : S2048x256.Idx) (k : dot_S2048x64_S64x256_S2048x256_1_0_0_1_n_n.contr.Idx) :
    (dot_S2048x64_S64x256_S2048x256_1_0_0_1_n_n.lhsIdx j k 1).val = (k ⟨0, by decide⟩).val := rfl
theorem edgeR_0 (j : S2048x256.Idx) (k : dot_S2048x64_S64x256_S2048x256_1_0_0_1_n_n.contr.Idx) :
    (dot_S2048x64_S64x256_S2048x256_1_0_0_1_n_n.rhsIdx j k 0).val = (k ⟨0, by decide⟩).val := rfl
theorem edgeR_1 (j : S2048x256.Idx) (k : dot_S2048x64_S64x256_S2048x256_1_0_0_1_n_n.contr.Idx) :
    (dot_S2048x64_S64x256_S2048x256_1_0_0_1_n_n.rhsIdx j k 1).val = (j 1).val := rfl

/-- The edge-kind histogram block times the combined edge table, into the zero accumulator: entry `(p, q)` is the
    sum over the 64 edge kinds `k` of `h (p, k) * e (k, q)`. -/
theorem edgeProd_apply (h : FVec Ideal S2048x64 .bf16) (e : FVec Ideal S64x256 .bf16) (p : Fin 2048) (q : Fin 256) :
    matmul dot_S2048x64_S64x256_S2048x256_1_0_0_1_n_n none h e (constant (F := Ideal) S2048x256 .f32 0x00000000#32) (ix2 p q)
      = ∑ k : Fin 64, h (ix2 p k) * e (ix2 k q) := by
  simp only [matmul]
  rw [Ideal.matmul_constant_zero_apply,
    ← Equiv.sum_comp (contrEquiv1 dot_S2048x64_S64x256_S2048x256_1_0_0_1_n_n 64 rfl rfl).symm]
  refine Finset.sum_congr rfl fun i _ => ?_
  have hl : dot_S2048x64_S64x256_S2048x256_1_0_0_1_n_n.lhsIdx (ix2 p q)
      ((contrEquiv1 dot_S2048x64_S64x256_S2048x256_1_0_0_1_n_n 64 rfl rfl).symm i) = ix2 p i :=
    Shape.idx_ext₂ (edgeL_0 _ _) ((edgeL_1 _ _).trans (contrEquiv1_symm_val _ 64 rfl rfl i))
  have hr : dot_S2048x64_S64x256_S2048x256_1_0_0_1_n_n.rhsIdx (ix2 p q)
      ((contrEquiv1 dot_S2048x64_S64x256_S2048x256_1_0_0_1_n_n 64 rfl rfl).symm i) = ix2 i q :=
    Shape.idx_ext₂ ((edgeR_0 _ _).trans (contrEquiv1_symm_val _ 64 rfl rfl i)) (edgeR_1 _ _)
  rw [hl, hr]

/-! ## The layout steps around the reciprocal counts and the bias -/

/-- The vector of 2048 reciprocal counts viewed as a column and copied along the 256 features reads, at `(p, q)`,
    the count of row `p`. -/
theorem recipColumn_apply (r : S2048.Idx → EReal) (p : Fin 2048) (q : Fin 256) :
    broadcastTo S2048x256 (shapeCast S2048x1 r shapeCasts_S2048_S2048x1) broadcasts_S2048x1_S2048x256 (ix2 p q) = r (ix1 p) := by
  refine (broadcastTo_apply _ broadcasts_S2048x1_S2048x256 (ix2 p q) (ix2 p (0 : Fin 1)) fun a => ?_).trans ?_
  · match a with
    | ⟨0, _⟩ => rfl
    | ⟨1, _⟩ => rfl
  · refine shapeCast_apply r shapeCasts_S2048_S2048x1 (ix2 p (0 : Fin 1)) (ix1 p) ?_
    rw [Shape.rowMajor_val_one, Shape.rowMajor_val_two]
    show p.val = p.val * 1 + 0
    omega
/-! ## The body's arithmetic at an entry -/

/-- What the body stores, read at entry `(p, q)` of the block: the aggregated messages plus the histogram's
    product with the edge table, scaled by the row's reciprocal count, plus the node block's product with the self
    weights, plus the bias of feature `q`. The narrowing of the products' operands changes no value here. -/
theorem pay_apply (x : Vec Ideal S2048x256 .f32) (ws : Vec Ideal S256x256 .f32) (h : Vec Ideal S2048x64 .f32)
    (e : Vec Ideal S64x256 .f32) (r : Vec Ideal S2048 .f32) (a : Vec Ideal S2048x256 .f32) (b : Vec Ideal S1x256 .f32)
    (p : Fin 2048) (q : Fin 256) :
    (k1_pay1 x ws h e r a b : S2048x256.Idx → EReal) (ix2 p q)
      = ((a (ix2 p q) + ∑ k : Fin 64, h (ix2 p k) * e (ix2 k q)) * r (ix1 p)
          + ∑ j : Fin 256, x (ix2 p j) * ws (ix2 j q)) + b (ix2 (0 : Fin 1) q) := by
  unfold k1_pay1
  simp only [shapeCast_self]
  rw [addf_apply, addf_apply, mulf_apply, addf_apply, edgeProd_apply, selfProd_apply, recipColumn_apply,
    broadcastTo_1b_ab_apply]
  rfl
/-! ## The layer's value before normalisation, as one function of the seven arrays -/

/-- Entry `(n, d)` of the pre-normalisation array: node `n`'s aggregated messages plus its edge-kind histogram
    against the combined edge table, divided by its edge count (as a product with the reciprocal), plus the node's
    own features against the self weights, plus the bias. -/
def preBN (X A : S16384x256.Idx → EReal) (H : S16384x64.Idx → EReal) (E : S64x256.Idx → EReal)
    (R : S16384.Idx → EReal) (Ws : S256x256.Idx → EReal) (Bs : S1x256.Idx → EReal) : S16384x256.Idx → EReal :=
  fun i => ((A (ix2 (i 0) (i 1)) + ∑ k : Fin 64, H (ix2 (i 0) k) * E (ix2 k (i 1))) * R (ix1 (i 0))
      + ∑ j : Fin 256, X (ix2 (i 0) j) * Ws (ix2 j (i 1))) + Bs (ix2 (0 : Fin 1) (i 1))

/-- A block of 2048 consecutive rows, the `T`-th, computes the same entries as the whole array: if each row-blocked
    input holds rows `2048 T …` of its array and the three small inputs are their whole arrays, the body's result at
    block entry `y` is the array function at the entry `2048 T` rows further down. -/
theorem block_eq (X A : S16384x256.Idx → EReal) (H : S16384x64.Idx → EReal) (E : S64x256.Idx → EReal)
    (R : S16384.Idx → EReal) (Ws : S256x256.Idx → EReal) (Bs : S1x256.Idx → EReal)
    (x : Vec Ideal S2048x256 .f32) (ws : Vec Ideal S256x256 .f32) (h : Vec Ideal S2048x64 .f32)
    (e : Vec Ideal S64x256 .f32) (r : Vec Ideal S2048 .f32) (a : Vec Ideal S2048x256 .f32) (b : Vec Ideal S1x256 .f32)
    (T : ℕ)
    (hx : ∀ (p : Fin 2048) (j : Fin 256) (n : Fin 16384), n.val = T * 2048 + p.val → x (ix2 p j) = X (ix2 n j))
    (ha : ∀ (p : Fin 2048) (q : Fin 256) (n : Fin 16384), n.val = T * 2048 + p.val → a (ix2 p q) = A (ix2 n q))
    (hh : ∀ (p : Fin 2048) (k : Fin 64) (n : Fin 16384), n.val = T * 2048 + p.val → h (ix2 p k) = H (ix2 n k))
    (hr : ∀ (p : Fin 2048) (n : Fin 16384), n.val = T * 2048 + p.val → r (ix1 p) = R (ix1 n))
    (he : e = E) (hws : ws = Ws) (hb : b = Bs)
    (y : S2048x256.Idx) (i : S16384x256.Idx) (hi0 : (i 0).val = T * 2048 + (y 0).val) (hi1 : (i 1).val = (y 1).val) :
    (k1_pay1 x ws h e r a b : S2048x256.Idx → EReal) y = preBN X A H E R Ws Bs i := by
  obtain ⟨p, q, rfl⟩ : ∃ (p : Fin 2048) (q : Fin 256), y = ix2 p q := ⟨y 0, y 1, eq_ix2 y⟩
  have hq : i 1 = q := Fin.ext hi1
  have hp : (i 0).val = T * 2048 + p.val := hi0
  rw [pay_apply]
  unfold preBN
  rw [hq, ha p q (i 0) hp, hr p (i 0) hp, he, hws, hb]
  congr 2
  · congr 2
    exact Finset.sum_congr rfl fun k _ => by rw [hh p k (i 0) hp]
  · exact Finset.sum_congr rfl fun j _ => by rw [hx p j (i 0) hp]
/-! ## The region's windows

The grid has eight points. At point `t` the four row-blocked windows (node features, aggregated messages, edge-kind
histogram, reciprocal counts) and the output window hold rows `2048 t … 2048 t + 2047` of their arrays; the combined
edge table, the self weights and the bias are whole arrays at every point. -/

section Region

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- Which array each window stages. -/
theorem arr_0 : Pipeline.arrRef spec1 0 = main_v0 := rfl
theorem arr_1 : Pipeline.arrRef spec1 1 = main_v50 := rfl
theorem arr_2 : Pipeline.arrRef spec1 2 = main_v20 := rfl
theorem arr_3 : Pipeline.arrRef spec1 3 = main_v37 := rfl
theorem arr_4 : Pipeline.arrRef spec1 4 = main_v12 := rfl
theorem arr_5 : Pipeline.arrRef spec1 5 = main_v26 := rfl
theorem arr_6 : Pipeline.arrRef spec1 6 = main_v51 := rfl
theorem arr_7 : Pipeline.arrRef spec1 7 = main_v52 := rfl

/-- The windows' index maps over the grid: the row-blocked windows sit at block row `t`, column block 0; the whole-array
    windows at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = t.val
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- The node-feature block at point `t` is rows `2048 t …` of the node features. -/
theorem xblk_apply (c : Dev nD) (t : Fin cfg1.N) (p : Fin 2048) (j : Fin 256) (n : Fin 16384)
    (hn : n.val = t.val * 2048 + p.val) :
    (iblk1 V c 0 t : Vec Ideal S2048x256 .f32) (ix2 p j) = (V c main_v0 : S16384x256.Idx → EReal) (ix2 n j) := by
  obtain ⟨e0, e1, -⟩ := idx_facts t
  unfold iblk1
  rw [View.read_apply]
  show V c main_v0 _ = V c main_v0 _
  congr 1
  funext a
  apply Fin.ext
  match a with
  | ⟨0, _⟩ => show win1_0.index t (0 : Fin 2) * 2048 + 1 * p.val = n.val; rw [e0, hn]; omega
  | ⟨1, _⟩ => show win1_0.index t (1 : Fin 2) * 256 + 1 * j.val = j.val; rw [e1]; omega

/-- The aggregated-message block at point `t` is rows `2048 t …` of the aggregated messages. -/
theorem ablk_apply (c : Dev nD) (t : Fin cfg1.N) (p : Fin 2048) (q : Fin 256) (n : Fin 16384)
    (hn : n.val = t.val * 2048 + p.val) :
    (iblk1 V c 1 t : Vec Ideal S2048x256 .f32) (ix2 p q) = (V c main_v50 : S16384x256.Idx → EReal) (ix2 n q) := by
  obtain ⟨-, -, e0, e1, -⟩ := idx_facts t
  unfold iblk1
  rw [View.read_apply]
  show V c main_v50 _ = V c main_v50 _
  congr 1
  funext a
  apply Fin.ext
  match a with
  | ⟨0, _⟩ => show win1_1.index t (0 : Fin 2) * 2048 + 1 * p.val = n.val; rw [e0, hn]; omega
  | ⟨1, _⟩ => show win1_1.index t (1 : Fin 2) * 256 + 1 * q.val = q.val; rw [e1]; omega

/-- The histogram block at point `t` is rows `2048 t …` of the edge-kind histogram. -/
theorem hblk_apply (c : Dev nD) (t : Fin cfg1.N) (p : Fin 2048) (k : Fin 64) (n : Fin 16384)
    (hn : n.val = t.val * 2048 + p.val) :
    (iblk1 V c 2 t : Vec Ideal S2048x64 .f32) (ix2 p k) = (V c main_v20 : S16384x64.Idx → EReal) (ix2 n k) := by
  obtain ⟨-, -, -, -, e0, e1, -⟩ := idx_facts t
  unfold iblk1
  rw [View.read_apply]
  show V c main_v20 _ = V c main_v20 _
  congr 1
  funext a
  apply Fin.ext
  match a with
  | ⟨0, _⟩ => show win1_2.index t (0 : Fin 2) * 2048 + 1 * p.val = n.val; rw [e0, hn]; omega
  | ⟨1, _⟩ => show win1_2.index t (1 : Fin 2) * 64 + 1 * k.val = k.val; rw [e1]; omega

/-- The reciprocal-count block at point `t` is entries `2048 t …` of the reciprocal counts. -/
theorem rblk_apply (c : Dev nD) (t : Fin cfg1.N) (p : Fin 2048) (n : Fin 16384)
    (hn : n.val = t.val * 2048 + p.val) :
    (iblk1 V c 4 t : Vec Ideal S2048 .f32) (ix1 p) = (V c main_v12 : S16384.Idx → EReal) (ix1 n) := by
  obtain ⟨-, -, -, -, -, -, -, -, e0, -⟩ := idx_facts t
  unfold iblk1
  rw [View.read_apply]
  show V c main_v12 _ = V c main_v12 _
  congr 1
  funext a
  apply Fin.ext
  match a with
  | ⟨0, _⟩ => show win1_4.index t (0 : Fin 1) * 2048 + 1 * p.val = n.val; rw [e0, hn]; omega

/-- The edge-table window holds the whole combined edge table at every point. -/
theorem eblk_eq (c : Dev nD) (t : Fin cfg1.N) :
    (iblk1 V c 3 t : Vec Ideal S64x256 .f32) = (V c main_v37 : S64x256.Idx → EReal) := by
  obtain ⟨-, -, -, -, -, -, e0, e1, -⟩ := idx_facts t
  funext y
  unfold iblk1
  rw [View.read_apply]
  show V c main_v37 _ = V c main_v37 _
  congr 1
  funext a
  apply Fin.ext
  match a with
  | ⟨0, _⟩ => show win1_3.index t (0 : Fin 2) * 64 + 1 * (y 0).val = (y 0).val; rw [e0]; omega
  | ⟨1, _⟩ => show win1_3.index t (1 : Fin 2) * 256 + 1 * (y 1).val = (y 1).val; rw [e1]; omega

/-- The self-weight window holds the whole weight matrix at every point. -/
theorem wblk_eq (c : Dev nD) (t : Fin cfg1.N) :
    (iblk1 V c 5 t : Vec Ideal S256x256 .f32) = (V c main_v26 : S256x256.Idx → EReal) := by
  obtain ⟨-, -, -, -, -, -, -, -, -, e0, e1, -⟩ := idx_facts t
  funext y
  unfold iblk1
  rw [View.read_apply]
  show V c main_v26 _ = V c main_v26 _
  congr 1
  funext a
  apply Fin.ext
  match a with
  | ⟨0, _⟩ => show win1_5.index t (0 : Fin 2) * 256 + 1 * (y 0).val = (y 0).val; rw [e0]; omega
  | ⟨1, _⟩ => show win1_5.index t (1 : Fin 2) * 256 + 1 * (y 1).val = (y 1).val; rw [e1]; omega

/-- The bias window holds the whole bias row at every point. -/
theorem bblk_eq (c : Dev nD) (t : Fin cfg1.N) :
    (iblk1 V c 6 t : Vec Ideal S1x256 .f32) = (V c main_v51 : S1x256.Idx → EReal) := by
  obtain ⟨-, -, -, -, -, -, -, -, -, -, -, e0, e1, -⟩ := idx_facts t
  funext y
  unfold iblk1
  rw [View.read_apply]
  show V c main_v51 _ = V c main_v51 _
  congr 1
  funext a
  apply Fin.ext
  match a with
  | ⟨0, _⟩ => show win1_6.index t (0 : Fin 2) * 1 + 1 * (y 0).val = (y 0).val; rw [e0]; omega
  | ⟨1, _⟩ => show win1_6.index t (1 : Fin 2) * 256 + 1 * (y 1).val = (y 1).val; rw [e1]; omega

/-- The seven arrays as the region finds them, each at its literal shape: node features, aggregated messages,
    edge-kind histogram, combined edge table, reciprocal edge counts, self weights, bias row. -/
abbrev nodeArr (c : Dev nD) : S16384x256.Idx → EReal := V c main_v0
abbrev aggArr (c : Dev nD) : S16384x256.Idx → EReal := V c main_v50
abbrev histArr (c : Dev nD) : S16384x64.Idx → EReal := V c main_v20
abbrev edgeArr (c : Dev nD) : S64x256.Idx → EReal := V c main_v37
abbrev recipArr (c : Dev nD) : S16384.Idx → EReal := V c main_v12
abbrev selfWArr (c : Dev nD) : S256x256.Idx → EReal := V c main_v26
abbrev biasArr (c : Dev nD) : S1x256.Idx → EReal := V c main_v51

/-- The array function at the entry contents of the region. -/
abbrev preBNAt (c : Dev nD) : S16384x256.Idx → EReal :=
  preBN (nodeArr V c) (aggArr V c) (histArr V c) (edgeArr V c) (recipArr V c) (selfWArr V c) (biasArr V c)

/-- What point `t` writes back is block `t` of the array function of the entry contents. -/
theorem block_written (c : Dev nD) (t : Fin cfg1.N) :
    (dat1 (F := Ideal) V c).flushed 7 t = ((cfg1.win 7).blk t).view.read (Elt Ideal) (preBNAt V c) := by
  show (cfg1.win 7).cut (grid1.coords t) ((dat1 V c).after 7 t) = _
  rw [after1_7]
  unfold out1_7
  rw [View.canon_unit_zero hz2]
  simp only [View.ld_unit_zero (S := S2048x256) hz2, View.ld_unit_zero (S := S256x256) hz2,
    View.ld_unit_zero (S := S2048x64) hz2, View.ld_unit_zero (S := S64x256) hz2,
    View.ld_unit_zero (S := S2048) hz1, View.ld_unit_zero (S := S1x256) hz2]
  funext y
  rw [View.read_apply]
  obtain ⟨-, -, -, -, -, -, -, -, -, -, -, -, -, e0, e1⟩ := idx_facts t
  refine block_eq (V c main_v0) (V c main_v50) (V c main_v20) (V c main_v37) (V c main_v12) (V c main_v26) (V c main_v51)
    (iblk1 V c 0 t) (iblk1 V c 5 t) (iblk1 V c 2 t) (iblk1 V c 3 t) (iblk1 V c 4 t) (iblk1 V c 1 t) (iblk1 V c 6 t) t.val
    (xblk_apply V c t) (ablk_apply V c t) (hblk_apply V c t) (rblk_apply V c t) (eblk_eq V c t) (wblk_eq V c t) (bblk_eq V c t)
    y (((cfg1.win 7).blk t).view.emb y) ?_ ?_
  · show win1_7.index t (0 : Fin 2) * 2048 + 1 * (y 0).val = t.val * 2048 + (y 0).val
    rw [e0]; omega
  · show win1_7.index t (1 : Fin 2) * 256 + 1 * (y 1).val = (y 1).val
    rw [e1]; omega

/-- An entry of the output array lies in point `t`'s block iff each coordinate lies in the block's range. -/
theorem mem_rowBlock (t : Fin cfg1.N) (i : S16384x256.Idx) :
    i ∈ ((cfg1.win 7).blk t).view.set ↔ ∀ a : Fin 2, win1_7.index t a * S2048x256.size a ≤ (i a).val
      ∧ (i a).val < win1_7.index t a * S2048x256.size a + S2048x256.size a := by
  show i ∈ ((View.whole main_v52).slice (win1_7.rect t)).set ↔ _
  rw [View.set_slice_whole, Rect.mem_set_unit]
  exact Iff.rfl

/-- Every entry of the output array is written: row `n` lies in the block of point `n / 2048`. -/
theorem rows_covered (i : S16384x256.Idx) :
    ∃ t : Fin cfg1.N, (cfg1.win 7).flush t = true ∧ i ∈ ((cfg1.win 7).blk t).view.set := by
  have hi0 : (i 0).val < 16384 := (i 0).isLt
  have hi1 : (i 1).val < 256 := (i 1).isLt
  have hN : cfg1.N = 8 := N_1
  have hlt : (i 0).val / 2048 < cfg1.N := by rw [hN]; omega
  obtain ⟨t, ht⟩ : ∃ t : Fin cfg1.N, t.val = (i 0).val / 2048 := ⟨⟨(i 0).val / 2048, hlt⟩, rfl⟩
  obtain ⟨-, -, -, -, -, -, -, -, -, -, -, -, -, e0, e1⟩ := idx_facts t
  refine ⟨t, flush1_7 t, ?_⟩
  rw [mem_rowBlock]
  intro a
  match a with
  | ⟨0, _⟩ =>
    show win1_7.index t (0 : Fin 2) * 2048 ≤ (i 0).val ∧ (i 0).val < win1_7.index t (0 : Fin 2) * 2048 + 2048
    rw [e0, ht]; omega
  | ⟨1, _⟩ =>
    show win1_7.index t (1 : Fin 2) * 256 ≤ (i 1).val ∧ (i 1).val < win1_7.index t (1 : Fin 2) * 256 + 256
    rw [e1]; omega

/-- When the region exits, its output array holds the array function of the region's entry contents. -/
theorem preBN_array (c : Dev nD) : (dat1 (F := Ideal) V c).arrAt 7 cfg1.N = preBNAt V c :=
  (dat1 V c).arrAt_eq_of_cover 7 (preBNAt V c) (fun t _ => block_written V c t) rows_covered

/-- The same read at node `n` and feature `d`. -/
theorem preBN_entry (c : Dev nD) (n : Fin 16384) (d : Fin 256) :
    ((dat1 (F := Ideal) V c).arrAt 7 cfg1.N : S16384x256.Idx → EReal) (ix2 n d)
      = ((aggArr V c (ix2 n d) + ∑ k : Fin 64, histArr V c (ix2 n k) * edgeArr V c (ix2 k d)) * recipArr V c (ix1 n)
          + ∑ j : Fin 256, nodeArr V c (ix2 n j) * selfWArr V c (ix2 j d))
        + biasArr V c (ix2 (0 : Fin 1) d) := by
  rw [preBN_array]
  rfl

end Region

end Cert.KernelIdeal.PreBN1

end
-- ==== Proof.KRegB4.lean ====
/-
  The value of the layer's pre-normalisation stage (second layer).

  The stage computes, for every node `n` and feature `d`,

      ((agg n d + ∑ k, hist n k * edge k d) * recip n + ∑ j, x n j * wself j d) + bias d

  from seven arrays: the node features `x` [16384, 256], the aggregated messages `agg` [16384, 256], the histogram
  `hist` [16384, 64] of each node's edge kinds, the combined edge table `edge` [64, 256], the reciprocal edge counts
  `recip` [16384], the self weights `wself` [256, 256] and the bias row `bias` [1, 256]. It is computed eight times,
  on blocks of 2048 consecutive nodes; since entry `(n, d)` depends on row `n` of the row-blocked arrays only, the
  block results are the blocks of ONE function of the seven arrays, and the eight blocks tile the output. Hence the
  output array holds that function of what the seven arrays held on entry.

  Order of the proof: the two products of a block at an entry; the block's whole arithmetic at an entry; the array
  function and its agreement with a block's arithmetic; each window's block as rows of its array; the block a grid
  point writes; the blocks cover the output; the output array, and the same read at `(n, d)`.
-/
import proofs.«410086_j81595788689991_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxHeartbeats 400000

noncomputable section

namespace Cert.KernelIdeal.PreBN4

open Cert.KernelIdeal Cert.KernelIdeal.Gen Idealize.ShloMosaic Idealize.ShloMosaic.TcCoe Idealize.SL.Sem
open Idealize.ShloMosaic.ValueIdx
open Idealize.ShloMosaic.Pipeline (Dat)

/-! ## The two block products at an entry

Both products contract the left operand's columns against the right operand's rows: at output entry `(p, q)` and
contraction position `k` the left operand is read at `(p, k)` and the right at `(k, q)`. -/

theorem selfL_0 (j : S2048x256.Idx) (k : dot_S2048x256_S256x256_S2048x256_1_0_0_1_n_n.contr.Idx) :
    (dot_S2048x256_S256x256_S2048x256_1_0_0_1_n_n.lhsIdx j k 0).val = (j 0).val := rfl
theorem selfL_1 (j : S2048x256.Idx) (k : dot_S2048x256_S256x256_S2048x256_1_0_0_1_n_n.contr.Idx) :
    (dot_S2048x256_S256x256_S2048x256_1_0_0_1_n_n.lhsIdx j k 1).val = (k ⟨0, by decide⟩).val := rfl
theorem selfR_0 (j : S2048x256.Idx) (k : dot_S2048x256_S256x256_S2048x256_1_0_0_1_n_n.contr.Idx) :
    (dot_S2048x256_S256x256_S2048x256_1_0_0_1_n_n.rhsIdx j k 0).val = (k ⟨0, by decide⟩).val := rfl
theorem selfR_1 (j : S2048x256.Idx) (k : dot_S2048x256_S256x256_S2048x256_1_0_0_1_n_n.contr.Idx) :
    (dot_S2048x256_S256x256_S2048x256_1_0_0_1_n_n.rhsIdx j k 1).val = (j 1).val := rfl

/-- The node block times the self weights, into the zero accumulator: entry `(p, q)` is the sum over the 256
    features `j` of `x (p, j) * w (j, q)`. -/
theorem selfProd_apply (x : FVec Ideal S2048x256 .bf16) (w : FVec Ideal S256x256 .bf16) (p : Fin 2048) (q : Fin 256) :
    matmul dot_S2048x256_S256x256_S2048x256_1_0_0_1_n_n none x w (constant (F := Ideal) S2048x256 .f32 0x00000000#32) (ix2 p q)
      = ∑ j : Fin 256, x (ix2 p j) * w (ix2 j q) := by
  simp only [matmul]
  rw [Ideal.matmul_constant_zero_apply,
    ← Equiv.sum_comp (contrEquiv1 dot_S2048x256_S256x256_S2048x256_1_0_0_1_n_n 256 rfl rfl).symm]
  refine Finset.sum_congr rfl fun i _ => ?_
  have hl : dot_S2048x256_S256x256_S2048x256_1_0_0_1_n_n.lhsIdx (ix2 p q)
      ((contrEquiv1 dot_S2048x256_S256x256_S2048x256_1_0_0_1_n_n 256 rfl rfl).symm i) = ix2 p i :=
    Shape.idx_ext₂ (selfL_0 _ _) ((selfL_1 _ _).trans (contrEquiv1_symm_val _ 256 rfl rfl i))
  have hr : dot_S2048x256_S256x256_S2048x256_1_0_0_1_n_n.rhsIdx (ix2 p q)
      ((contrEquiv1 dot_S2048x256_S256x256_S2048x256_1_0_0_1_n_n 256 rfl rfl).symm i) = ix2 i q :=
    Shape.idx_ext₂ ((selfR_0 _ _).trans (contrEquiv1_symm_val _ 256 rfl rfl i)) (selfR_1 _ _)
  rw [hl, hr]

theorem edgeL_0 (j : S2048x256.Idx) (k : dot_S2048x64_S64x256_S2048x256_1_0_0_1_n_n.contr.Idx) :
    (dot_S2048x64_S64x256_S2048x256_1_0_0_1_n_n.lhsIdx j k 0).val = (j 0).val := rfl
theorem edgeL_1 (j : S2048x256.Idx) (k : dot_S2048x64_S64x256_S2048x256_1_0_0_1_n_n.contr.Idx) :
    (dot_S2048x64_S64x256_S2048x256_1_0_0_1_n_n.lhsIdx j k 1).val = (k ⟨0, by decide⟩).val := rfl
theorem edgeR_0 (j : S2048x256.Idx) (k : dot_S2048x64_S64x256_S2048x256_1_0_0_1_n_n.contr.Idx) :
    (dot_S2048x64_S64x256_S2048x256_1_0_0_1_n_n.rhsIdx j k 0).val = (k ⟨0, by decide⟩).val := rfl
theorem edgeR_1 (j : S2048x256.Idx) (k : dot_S2048x64_S64x256_S2048x256_1_0_0_1_n_n.contr.Idx) :
    (dot_S2048x64_S64x256_S2048x256_1_0_0_1_n_n.rhsIdx j k 1).val = (j 1).val := rfl

/-- The edge-kind histogram block times the combined edge table, into the zero accumulator: entry `(p, q)` is the
    sum over the 64 edge kinds `k` of `h (p, k) * e (k, q)`. -/
theorem edgeProd_apply (h : FVec Ideal S2048x64 .bf16) (e : FVec Ideal S64x256 .bf16) (p : Fin 2048) (q : Fin 256) :
    matmul dot_S2048x64_S64x256_S2048x256_1_0_0_1_n_n none h e (constant (F := Ideal) S2048x256 .f32 0x00000000#32) (ix2 p q)
      = ∑ k : Fin 64, h (ix2 p k) * e (ix2 k q) := by
  simp only [matmul]
  rw [Ideal.matmul_constant_zero_apply,
    ← Equiv.sum_comp (contrEquiv1 dot_S2048x64_S64x256_S2048x256_1_0_0_1_n_n 64 rfl rfl).symm]
  refine Finset.sum_congr rfl fun i _ => ?_
  have hl : dot_S2048x64_S64x256_S2048x256_1_0_0_1_n_n.lhsIdx (ix2 p q)
      ((contrEquiv1 dot_S2048x64_S64x256_S2048x256_1_0_0_1_n_n 64 rfl rfl).symm i) = ix2 p i :=
    Shape.idx_ext₂ (edgeL_0 _ _) ((edgeL_1 _ _).trans (contrEquiv1_symm_val _ 64 rfl rfl i))
  have hr : dot_S2048x64_S64x256_S2048x256_1_0_0_1_n_n.rhsIdx (ix2 p q)
      ((contrEquiv1 dot_S2048x64_S64x256_S2048x256_1_0_0_1_n_n 64 rfl rfl).symm i) = ix2 i q :=
    Shape.idx_ext₂ ((edgeR_0 _ _).trans (contrEquiv1_symm_val _ 64 rfl rfl i)) (edgeR_1 _ _)
  rw [hl, hr]

/-! ## The layout steps around the reciprocal counts and the bias -/

/-- The vector of 2048 reciprocal counts viewed as a column and copied along the 256 features reads, at `(p, q)`,
    the count of row `p`. -/
theorem recipColumn_apply (r : S2048.Idx → EReal) (p : Fin 2048) (q : Fin 256) :
    broadcastTo S2048x256 (shapeCast S2048x1 r shapeCasts_S2048_S2048x1) broadcasts_S2048x1_S2048x256 (ix2 p q) = r (ix1 p) := by
  refine (broadcastTo_apply _ broadcasts_S2048x1_S2048x256 (ix2 p q) (ix2 p (0 : Fin 1)) fun a => ?_).trans ?_
  · match a with
    | ⟨0, _⟩ => rfl
    | ⟨1, _⟩ => rfl
  · refine shapeCast_apply r shapeCasts_S2048_S2048x1 (ix2 p (0 : Fin 1)) (ix1 p) ?_
    rw [Shape.rowMajor_val_one, Shape.rowMajor_val_two]
    show p.val = p.val * 1 + 0
    omega
/-! ## The body's arithmetic at an entry -/

/-- What the body stores, read at entry `(p, q)` of the block: the aggregated messages plus the histogram's
    product with the edge table, scaled by the row's reciprocal count, plus the node block's product with the self
    weights, plus the bias of feature `q`. The narrowing of the products' operands changes no value here. -/
theorem pay_apply (x : Vec Ideal S2048x256 .f32) (ws : Vec Ideal S256x256 .f32) (h : Vec Ideal S2048x64 .f32)
    (e : Vec Ideal S64x256 .f32) (r : Vec Ideal S2048 .f32) (a : Vec Ideal S2048x256 .f32) (b : Vec Ideal S1x256 .f32)
    (p : Fin 2048) (q : Fin 256) :
    (k4_pay1 x ws h e r a b : S2048x256.Idx → EReal) (ix2 p q)
      = ((a (ix2 p q) + ∑ k : Fin 64, h (ix2 p k) * e (ix2 k q)) * r (ix1 p)
          + ∑ j : Fin 256, x (ix2 p j) * ws (ix2 j q)) + b (ix2 (0 : Fin 1) q) := by
  unfold k4_pay1
  simp only [shapeCast_self]
  rw [addf_apply, addf_apply, mulf_apply, addf_apply, edgeProd_apply, selfProd_apply, recipColumn_apply,
    broadcastTo_1b_ab_apply]
  rfl
/-! ## The layer's value before normalisation, as one function of the seven arrays -/

/-- Entry `(n, d)` of the pre-normalisation array: node `n`'s aggregated messages plus its edge-kind histogram
    against the combined edge table, divided by its edge count (as a product with the reciprocal), plus the node's
    own features against the self weights, plus the bias. -/
def preBN (X A : S16384x256.Idx → EReal) (H : S16384x64.Idx → EReal) (E : S64x256.Idx → EReal)
    (R : S16384.Idx → EReal) (Ws : S256x256.Idx → EReal) (Bs : S1x256.Idx → EReal) : S16384x256.Idx → EReal :=
  fun i => ((A (ix2 (i 0) (i 1)) + ∑ k : Fin 64, H (ix2 (i 0) k) * E (ix2 k (i 1))) * R (ix1 (i 0))
      + ∑ j : Fin 256, X (ix2 (i 0) j) * Ws (ix2 j (i 1))) + Bs (ix2 (0 : Fin 1) (i 1))

/-- A block of 2048 consecutive rows, the `T`-th, computes the same entries as the whole array: if each row-blocked
    input holds rows `2048 T …` of its array and the three small inputs are their whole arrays, the body's result at
    block entry `y` is the array function at the entry `2048 T` rows further down. -/
theorem block_eq (X A : S16384x256.Idx → EReal) (H : S16384x64.Idx → EReal) (E : S64x256.Idx → EReal)
    (R : S16384.Idx → EReal) (Ws : S256x256.Idx → EReal) (Bs : S1x256.Idx → EReal)
    (x : Vec Ideal S2048x256 .f32) (ws : Vec Ideal S256x256 .f32) (h : Vec Ideal S2048x64 .f32)
    (e : Vec Ideal S64x256 .f32) (r : Vec Ideal S2048 .f32) (a : Vec Ideal S2048x256 .f32) (b : Vec Ideal S1x256 .f32)
    (T : ℕ)
    (hx : ∀ (p : Fin 2048) (j : Fin 256) (n : Fin 16384), n.val = T * 2048 + p.val → x (ix2 p j) = X (ix2 n j))
    (ha : ∀ (p : Fin 2048) (q : Fin 256) (n : Fin 16384), n.val = T * 2048 + p.val → a (ix2 p q) = A (ix2 n q))
    (hh : ∀ (p : Fin 2048) (k : Fin 64) (n : Fin 16384), n.val = T * 2048 + p.val → h (ix2 p k) = H (ix2 n k))
    (hr : ∀ (p : Fin 2048) (n : Fin 16384), n.val = T * 2048 + p.val → r (ix1 p) = R (ix1 n))
    (he : e = E) (hws : ws = Ws) (hb : b = Bs)
    (y : S2048x256.Idx) (i : S16384x256.Idx) (hi0 : (i 0).val = T * 2048 + (y 0).val) (hi1 : (i 1).val = (y 1).val) :
    (k4_pay1 x ws h e r a b : S2048x256.Idx → EReal) y = preBN X A H E R Ws Bs i := by
  obtain ⟨p, q, rfl⟩ : ∃ (p : Fin 2048) (q : Fin 256), y = ix2 p q := ⟨y 0, y 1, eq_ix2 y⟩
  have hq : i 1 = q := Fin.ext hi1
  have hp : (i 0).val = T * 2048 + p.val := hi0
  rw [pay_apply]
  unfold preBN
  rw [hq, ha p q (i 0) hp, hr p (i 0) hp, he, hws, hb]
  congr 2
  · congr 2
    exact Finset.sum_congr rfl fun k _ => by rw [hh p k (i 0) hp]
  · exact Finset.sum_congr rfl fun j _ => by rw [hx p j (i 0) hp]
/-! ## The region's windows

The grid has eight points. At point `t` the four row-blocked windows (node features, aggregated messages, edge-kind
histogram, reciprocal counts) and the output window hold rows `2048 t … 2048 t + 2047` of their arrays; the combined
edge table, the self weights and the bias are whole arrays at every point. -/

section Region

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- Which array each window stages. -/
theorem arr_0 : Pipeline.arrRef spec4 0 = main_v60 := rfl
theorem arr_1 : Pipeline.arrRef spec4 1 = main_v90 := rfl
theorem arr_2 : Pipeline.arrRef spec4 2 = main_v20 := rfl
theorem arr_3 : Pipeline.arrRef spec4 3 = main_v77 := rfl
theorem arr_4 : Pipeline.arrRef spec4 4 = main_v12 := rfl
theorem arr_5 : Pipeline.arrRef spec4 5 = main_v66 := rfl
theorem arr_6 : Pipeline.arrRef spec4 6 = main_v91 := rfl
theorem arr_7 : Pipeline.arrRef spec4 7 = main_v92 := rfl

/-- The windows' index maps over the grid: the row-blocked windows sit at block row `t`, column block 0; the whole-array
    windows at block (0, 0). -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 1) = t.val
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0 :=
  (by decide +kernel : ∀ t : Fin grid4.N, _)

/-- The node-feature block at point `t` is rows `2048 t …` of the node features. -/
theorem xblk_apply (c : Dev nD) (t : Fin cfg4.N) (p : Fin 2048) (j : Fin 256) (n : Fin 16384)
    (hn : n.val = t.val * 2048 + p.val) :
    (iblk4 V c 0 t : Vec Ideal S2048x256 .f32) (ix2 p j) = (V c main_v60 : S16384x256.Idx → EReal) (ix2 n j) := by
  obtain ⟨e0, e1, -⟩ := idx_facts t
  unfold iblk4
  rw [View.read_apply]
  show V c main_v60 _ = V c main_v60 _
  congr 1
  funext a
  apply Fin.ext
  match a with
  | ⟨0, _⟩ => show win4_0.index t (0 : Fin 2) * 2048 + 1 * p.val = n.val; rw [e0, hn]; omega
  | ⟨1, _⟩ => show win4_0.index t (1 : Fin 2) * 256 + 1 * j.val = j.val; rw [e1]; omega

/-- The aggregated-message block at point `t` is rows `2048 t …` of the aggregated messages. -/
theorem ablk_apply (c : Dev nD) (t : Fin cfg4.N) (p : Fin 2048) (q : Fin 256) (n : Fin 16384)
    (hn : n.val = t.val * 2048 + p.val) :
    (iblk4 V c 1 t : Vec Ideal S2048x256 .f32) (ix2 p q) = (V c main_v90 : S16384x256.Idx → EReal) (ix2 n q) := by
  obtain ⟨-, -, e0, e1, -⟩ := idx_facts t
  unfold iblk4
  rw [View.read_apply]
  show V c main_v90 _ = V c main_v90 _
  congr 1
  funext a
  apply Fin.ext
  match a with
  | ⟨0, _⟩ => show win4_1.index t (0 : Fin 2) * 2048 + 1 * p.val = n.val; rw [e0, hn]; omega
  | ⟨1, _⟩ => show win4_1.index t (1 : Fin 2) * 256 + 1 * q.val = q.val; rw [e1]; omega

/-- The histogram block at point `t` is rows `2048 t …` of the edge-kind histogram. -/
theorem hblk_apply (c : Dev nD) (t : Fin cfg4.N) (p : Fin 2048) (k : Fin 64) (n : Fin 16384)
    (hn : n.val = t.val * 2048 + p.val) :
    (iblk4 V c 2 t : Vec Ideal S2048x64 .f32) (ix2 p k) = (V c main_v20 : S16384x64.Idx → EReal) (ix2 n k) := by
  obtain ⟨-, -, -, -, e0, e1, -⟩ := idx_facts t
  unfold iblk4
  rw [View.read_apply]
  show V c main_v20 _ = V c main_v20 _
  congr 1
  funext a
  apply Fin.ext
  match a with
  | ⟨0, _⟩ => show win4_2.index t (0 : Fin 2) * 2048 + 1 * p.val = n.val; rw [e0, hn]; omega
  | ⟨1, _⟩ => show win4_2.index t (1 : Fin 2) * 64 + 1 * k.val = k.val; rw [e1]; omega

/-- The reciprocal-count block at point `t` is entries `2048 t …` of the reciprocal counts. -/
theorem rblk_apply (c : Dev nD) (t : Fin cfg4.N) (p : Fin 2048) (n : Fin 16384)
    (hn : n.val = t.val * 2048 + p.val) :
    (iblk4 V c 4 t : Vec Ideal S2048 .f32) (ix1 p) = (V c main_v12 : S16384.Idx → EReal) (ix1 n) := by
  obtain ⟨-, -, -, -, -, -, -, -, e0, -⟩ := idx_facts t
  unfold iblk4
  rw [View.read_apply]
  show V c main_v12 _ = V c main_v12 _
  congr 1
  funext a
  apply Fin.ext
  match a with
  | ⟨0, _⟩ => show win4_4.index t (0 : Fin 1) * 2048 + 1 * p.val = n.val; rw [e0, hn]; omega

/-- The edge-table window holds the whole combined edge table at every point. -/
theorem eblk_eq (c : Dev nD) (t : Fin cfg4.N) :
    (iblk4 V c 3 t : Vec Ideal S64x256 .f32) = (V c main_v77 : S64x256.Idx → EReal) := by
  obtain ⟨-, -, -, -, -, -, e0, e1, -⟩ := idx_facts t
  funext y
  unfold iblk4
  rw [View.read_apply]
  show V c main_v77 _ = V c main_v77 _
  congr 1
  funext a
  apply Fin.ext
  match a with
  | ⟨0, _⟩ => show win4_3.index t (0 : Fin 2) * 64 + 1 * (y 0).val = (y 0).val; rw [e0]; omega
  | ⟨1, _⟩ => show win4_3.index t (1 : Fin 2) * 256 + 1 * (y 1).val = (y 1).val; rw [e1]; omega

/-- The self-weight window holds the whole weight matrix at every point. -/
theorem wblk_eq (c : Dev nD) (t : Fin cfg4.N) :
    (iblk4 V c 5 t : Vec Ideal S256x256 .f32) = (V c main_v66 : S256x256.Idx → EReal) := by
  obtain ⟨-, -, -, -, -, -, -, -, -, e0, e1, -⟩ := idx_facts t
  funext y
  unfold iblk4
  rw [View.read_apply]
  show V c main_v66 _ = V c main_v66 _
  congr 1
  funext a
  apply Fin.ext
  match a with
  | ⟨0, _⟩ => show win4_5.index t (0 : Fin 2) * 256 + 1 * (y 0).val = (y 0).val; rw [e0]; omega
  | ⟨1, _⟩ => show win4_5.index t (1 : Fin 2) * 256 + 1 * (y 1).val = (y 1).val; rw [e1]; omega

/-- The bias window holds the whole bias row at every point. -/
theorem bblk_eq (c : Dev nD) (t : Fin cfg4.N) :
    (iblk4 V c 6 t : Vec Ideal S1x256 .f32) = (V c main_v91 : S1x256.Idx → EReal) := by
  obtain ⟨-, -, -, -, -, -, -, -, -, -, -, e0, e1, -⟩ := idx_facts t
  funext y
  unfold iblk4
  rw [View.read_apply]
  show V c main_v91 _ = V c main_v91 _
  congr 1
  funext a
  apply Fin.ext
  match a with
  | ⟨0, _⟩ => show win4_6.index t (0 : Fin 2) * 1 + 1 * (y 0).val = (y 0).val; rw [e0]; omega
  | ⟨1, _⟩ => show win4_6.index t (1 : Fin 2) * 256 + 1 * (y 1).val = (y 1).val; rw [e1]; omega

/-- The seven arrays as the region finds them, each at its literal shape: node features, aggregated messages,
    edge-kind histogram, combined edge table, reciprocal edge counts, self weights, bias row. -/
abbrev nodeArr (c : Dev nD) : S16384x256.Idx → EReal := V c main_v60
abbrev aggArr (c : Dev nD) : S16384x256.Idx → EReal := V c main_v90
abbrev histArr (c : Dev nD) : S16384x64.Idx → EReal := V c main_v20
abbrev edgeArr (c : Dev nD) : S64x256.Idx → EReal := V c main_v77
abbrev recipArr (c : Dev nD) : S16384.Idx → EReal := V c main_v12
abbrev selfWArr (c : Dev nD) : S256x256.Idx → EReal := V c main_v66
abbrev biasArr (c : Dev nD) : S1x256.Idx → EReal := V c main_v91

/-- The array function at the entry contents of the region. -/
abbrev preBNAt (c : Dev nD) : S16384x256.Idx → EReal :=
  preBN (nodeArr V c) (aggArr V c) (histArr V c) (edgeArr V c) (recipArr V c) (selfWArr V c) (biasArr V c)

/-- What point `t` writes back is block `t` of the array function of the entry contents. -/
theorem block_written (c : Dev nD) (t : Fin cfg4.N) :
    (dat4 (F := Ideal) V c).flushed 7 t = ((cfg4.win 7).blk t).view.read (Elt Ideal) (preBNAt V c) := by
  show (cfg4.win 7).cut (grid4.coords t) ((dat4 V c).after 7 t) = _
  rw [after4_7]
  unfold out4_7
  rw [View.canon_unit_zero hz2]
  simp only [View.ld_unit_zero (S := S2048x256) hz2, View.ld_unit_zero (S := S256x256) hz2,
    View.ld_unit_zero (S := S2048x64) hz2, View.ld_unit_zero (S := S64x256) hz2,
    View.ld_unit_zero (S := S2048) hz1, View.ld_unit_zero (S := S1x256) hz2]
  funext y
  rw [View.read_apply]
  obtain ⟨-, -, -, -, -, -, -, -, -, -, -, -, -, e0, e1⟩ := idx_facts t
  refine block_eq (V c main_v60) (V c main_v90) (V c main_v20) (V c main_v77) (V c main_v12) (V c main_v66) (V c main_v91)
    (iblk4 V c 0 t) (iblk4 V c 5 t) (iblk4 V c 2 t) (iblk4 V c 3 t) (iblk4 V c 4 t) (iblk4 V c 1 t) (iblk4 V c 6 t) t.val
    (xblk_apply V c t) (ablk_apply V c t) (hblk_apply V c t) (rblk_apply V c t) (eblk_eq V c t) (wblk_eq V c t) (bblk_eq V c t)
    y (((cfg4.win 7).blk t).view.emb y) ?_ ?_
  · show win4_7.index t (0 : Fin 2) * 2048 + 1 * (y 0).val = t.val * 2048 + (y 0).val
    rw [e0]; omega
  · show win4_7.index t (1 : Fin 2) * 256 + 1 * (y 1).val = (y 1).val
    rw [e1]; omega

/-- An entry of the output array lies in point `t`'s block iff each coordinate lies in the block's range. -/
theorem mem_rowBlock (t : Fin cfg4.N) (i : S16384x256.Idx) :
    i ∈ ((cfg4.win 7).blk t).view.set ↔ ∀ a : Fin 2, win4_7.index t a * S2048x256.size a ≤ (i a).val
      ∧ (i a).val < win4_7.index t a * S2048x256.size a + S2048x256.size a := by
  show i ∈ ((View.whole main_v92).slice (win4_7.rect t)).set ↔ _
  rw [View.set_slice_whole, Rect.mem_set_unit]
  exact Iff.rfl

/-- Every entry of the output array is written: row `n` lies in the block of point `n / 2048`. -/
theorem rows_covered (i : S16384x256.Idx) :
    ∃ t : Fin cfg4.N, (cfg4.win 7).flush t = true ∧ i ∈ ((cfg4.win 7).blk t).view.set := by
  have hi0 : (i 0).val < 16384 := (i 0).isLt
  have hi1 : (i 1).val < 256 := (i 1).isLt
  have hN : cfg4.N = 8 := N_4
  have hlt : (i 0).val / 2048 < cfg4.N := by rw [hN]; omega
  obtain ⟨t, ht⟩ : ∃ t : Fin cfg4.N, t.val = (i 0).val / 2048 := ⟨⟨(i 0).val / 2048, hlt⟩, rfl⟩
  obtain ⟨-, -, -, -, -, -, -, -, -, -, -, -, -, e0, e1⟩ := idx_facts t
  refine ⟨t, flush4_7 t, ?_⟩
  rw [mem_rowBlock]
  intro a
  match a with
  | ⟨0, _⟩ =>
    show win4_7.index t (0 : Fin 2) * 2048 ≤ (i 0).val ∧ (i 0).val < win4_7.index t (0 : Fin 2) * 2048 + 2048
    rw [e0, ht]; omega
  | ⟨1, _⟩ =>
    show win4_7.index t (1 : Fin 2) * 256 ≤ (i 1).val ∧ (i 1).val < win4_7.index t (1 : Fin 2) * 256 + 256
    rw [e1]; omega

/-- When the region exits, its output array holds the array function of the region's entry contents. -/
theorem preBN_array (c : Dev nD) : (dat4 (F := Ideal) V c).arrAt 7 cfg4.N = preBNAt V c :=
  (dat4 V c).arrAt_eq_of_cover 7 (preBNAt V c) (fun t _ => block_written V c t) rows_covered

/-- The same read at node `n` and feature `d`. -/
theorem preBN_entry (c : Dev nD) (n : Fin 16384) (d : Fin 256) :
    ((dat4 (F := Ideal) V c).arrAt 7 cfg4.N : S16384x256.Idx → EReal) (ix2 n d)
      = ((aggArr V c (ix2 n d) + ∑ k : Fin 64, histArr V c (ix2 n k) * edgeArr V c (ix2 k d)) * recipArr V c (ix1 n)
          + ∑ j : Fin 256, nodeArr V c (ix2 n j) * selfWArr V c (ix2 j d))
        + biasArr V c (ix2 (0 : Fin 1) d) := by
  rw [preBN_array]
  rfl

end Region

end Cert.KernelIdeal.PreBN4

end
-- ==== Proof.KRegC2.lean ====
/-
  The normalise-and-rectify stage of a layer, read entry by entry.

  The stage takes an array of pre-normalisation activations, one row of 256 features for each of the 16384 nodes, and
  four rows of 256 numbers: the per-feature mean, the per-feature variance, a per-feature scale and a per-feature
  shift. It walks the nodes in four slabs of 4096 rows; at each slab it sees that slab of the activations and the four
  rows whole, and writes the same slab of the result. What it writes at node `n`, feature `d` is

      max ((((pre n d - mean d) * rsqrt (var d + eps)) * scale d) + shift d) 0,

  with `eps` and `0` the stage's own two constants, kept as the words it spells them with. Every entry of the result
  lies in exactly one slab (the slab of row `n` is `n / 4096`), and the value written there depends on the arrays the
  stage finds at entry only; so after the last slab the result array holds that formula at every entry.

  The arrays are those the stage finds at entry (`V`, kept a variable); the result is the array the stage's last window
  writes back, after the walk.
-/
import proofs.«410086_j81595788689991_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal

noncomputable section

namespace Cert.KernelIdeal.RegC2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## Which array each window walks -/

theorem arrRef_pre : Pipeline.arrRef spec2 0 = main_v52 := rfl
theorem arrRef_mean : Pipeline.arrRef spec2 1 = main_v56 := rfl
theorem arrRef_var : Pipeline.arrRef spec2 2 = main_v57 := rfl
theorem arrRef_scale : Pipeline.arrRef spec2 3 = main_v58 := rfl
theorem arrRef_shift : Pipeline.arrRef spec2 4 = main_v59 := rfl
theorem arrRef_result : Pipeline.arrRef spec2 5 = main_v60 := rfl

/-- The activations before normalisation, as the stage finds them: nodes by features. -/
abbrev preAct (c : Dev nD) : S16384x256.Idx → EReal := V c main_v52
/-- The per-feature mean, one row. -/
abbrev meanRow (c : Dev nD) : S1x256.Idx → EReal := V c main_v56
/-- The per-feature variance, one row. -/
abbrev varRow (c : Dev nD) : S1x256.Idx → EReal := V c main_v57
/-- The per-feature scale, one row. -/
abbrev scaleRow (c : Dev nD) : S1x256.Idx → EReal := V c main_v58
/-- The per-feature shift, one row. -/
abbrev shiftRow (c : Dev nD) : S1x256.Idx → EReal := V c main_v59

/-! ## The formula -/

/-- Normalise, scale, shift, rectify: the whole result array as one function of the five arrays, entry by entry.
    The feature of entry `i` is its second coordinate; the four rows are read at that feature. -/
abbrev bnReluAt (Pp : S16384x256.Idx → EReal) (Mu Vr Gm Bt : S1x256.Idx → EReal) : S16384x256.Idx → EReal := fun i =>
  max ((((Pp i - Mu (ix2 (0 : Fin 1) (i 1))) * Ideal.rsqrt (Vr (ix2 (0 : Fin 1) (i 1)) + Ideal.ofBits .f32 0x3727C5AC#32))
          * Gm (ix2 (0 : Fin 1) (i 1))) + Bt (ix2 (0 : Fin 1) (i 1))) (Ideal.ofBits .f32 0x00000000#32)

/-- The formula at the arrays the stage finds at entry. -/
abbrev resultArr (c : Dev nD) : S16384x256.Idx → EReal :=
  bnReluAt (preAct V c) (meanRow V c) (varRow V c) (scaleRow V c) (shiftRow V c)

/-! ## One slab -/

/-- What the stage computes on one slab, read at an entry of the slab: each of the four rows is spread over the
    4096 rows of the slab, so an entry sees the rows at its own feature; the casts are between equal shapes. -/
theorem slab_apply (vr : Vec Ideal S1x256 .f32) (pp : Vec Ideal S4096x256 .f32) (mu gm bt : Vec Ideal S1x256 .f32)
    (j : S4096x256.Idx) :
    (k2_pay1 (F := Ideal) vr pp mu gm bt : S4096x256.Idx → EReal) j
      = max ((((pp j - mu (ix2 (0 : Fin 1) (j 1))) * Ideal.rsqrt (vr (ix2 (0 : Fin 1) (j 1)) + Ideal.ofBits .f32 0x3727C5AC#32))
              * gm (ix2 (0 : Fin 1) (j 1))) + bt (ix2 (0 : Fin 1) (j 1))) (Ideal.ofBits .f32 0x00000000#32) := by
  obtain ⟨r, d, rfl⟩ : ∃ (r : Fin 4096) (d : Fin 256), j = ix2 r d := ⟨j 0, j 1, eq_ix2 j⟩
  unfold k2_pay1
  simp only [shapeCast_self]
  rw [maximumf_apply, addf_apply, mulf_apply, mulf_apply, subf_apply]
  rw [broadcastTo_1b_ab_apply, broadcastTo_1b_ab_apply, broadcastTo_1b_ab_apply, broadcastTo_1b_ab_apply]
  rfl

/-- A slab is read and written from its first entry on. -/
theorem zeroOff : (![0, 0] : Fin 2 → Nat) = fun _ => 0 := funext fun a => by fin_cases a <;> rfl

/-- Where each window stands at step `t` of the walk: the activations' window and the result's window stand at
    slab `t`; the four rows' windows never move. -/
theorem walk : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Slab `t` of the activations: its row `r` is row `4096 t + r` of the array. -/
theorem blkPre (c : Dev nD) (t : Fin cfg2.N) (x : S4096x256.Idx) (k : S16384x256.Idx)
    (hk0 : (k 0).val = t.val * 4096 + (x 0).val) (hk1 : (k 1).val = (x 1).val) :
    (iblk2 V c 0 t : Vec Ideal S4096x256 .f32) x = preAct V c k := by
  obtain ⟨e0, e1, -⟩ := walk t
  unfold iblk2
  rw [View.read_apply]
  show V c main_v52 _ = V c main_v52 _
  congr 1
  funext a
  apply Fin.ext
  match a with
  | ⟨0, _⟩ => show win2_0.index t (0 : Fin 2) * 4096 + 1 * (x 0).val = (k 0).val; rw [e0, hk0]; omega
  | ⟨1, _⟩ => show win2_0.index t (1 : Fin 2) * 256 + 1 * (x 1).val = (k 1).val; rw [e1, hk1]; omega

/-- The mean's window shows the whole row at every step. -/
theorem blkMean (c : Dev nD) (t : Fin cfg2.N) (x : S1x256.Idx) :
    (iblk2 V c 1 t : Vec Ideal S1x256 .f32) x = meanRow V c x := by
  obtain ⟨-, -, e0, e1, -⟩ := walk t
  unfold iblk2
  rw [View.read_apply]
  show V c main_v56 _ = V c main_v56 _
  congr 1
  funext a
  apply Fin.ext
  match a with
  | ⟨0, _⟩ => show win2_1.index t (0 : Fin 2) * 1 + 1 * (x 0).val = (x 0).val; rw [e0]; omega
  | ⟨1, _⟩ => show win2_1.index t (1 : Fin 2) * 256 + 1 * (x 1).val = (x 1).val; rw [e1]; omega

/-- The variance's window shows the whole row at every step. -/
theorem blkVar (c : Dev nD) (t : Fin cfg2.N) (x : S1x256.Idx) :
    (iblk2 V c 2 t : Vec Ideal S1x256 .f32) x = varRow V c x := by
  obtain ⟨-, -, -, -, e0, e1, -⟩ := walk t
  unfold iblk2
  rw [View.read_apply]
  show V c main_v57 _ = V c main_v57 _
  congr 1
  funext a
  apply Fin.ext
  match a with
  | ⟨0, _⟩ => show win2_2.index t (0 : Fin 2) * 1 + 1 * (x 0).val = (x 0).val; rw [e0]; omega
  | ⟨1, _⟩ => show win2_2.index t (1 : Fin 2) * 256 + 1 * (x 1).val = (x 1).val; rw [e1]; omega

/-- The scale's window shows the whole row at every step. -/
theorem blkScale (c : Dev nD) (t : Fin cfg2.N) (x : S1x256.Idx) :
    (iblk2 V c 3 t : Vec Ideal S1x256 .f32) x = scaleRow V c x := by
  obtain ⟨-, -, -, -, -, -, e0, e1, -⟩ := walk t
  unfold iblk2
  rw [View.read_apply]
  show V c main_v58 _ = V c main_v58 _
  congr 1
  funext a
  apply Fin.ext
  match a with
  | ⟨0, _⟩ => show win2_3.index t (0 : Fin 2) * 1 + 1 * (x 0).val = (x 0).val; rw [e0]; omega
  | ⟨1, _⟩ => show win2_3.index t (1 : Fin 2) * 256 + 1 * (x 1).val = (x 1).val; rw [e1]; omega

/-- The shift's window shows the whole row at every step. -/
theorem blkShift (c : Dev nD) (t : Fin cfg2.N) (x : S1x256.Idx) :
    (iblk2 V c 4 t : Vec Ideal S1x256 .f32) x = shiftRow V c x := by
  obtain ⟨-, -, -, -, -, -, -, -, e0, e1, -⟩ := walk t
  unfold iblk2
  rw [View.read_apply]
  show V c main_v59 _ = V c main_v59 _
  congr 1
  funext a
  apply Fin.ext
  match a with
  | ⟨0, _⟩ => show win2_4.index t (0 : Fin 2) * 1 + 1 * (x 0).val = (x 0).val; rw [e0]; omega
  | ⟨1, _⟩ => show win2_4.index t (1 : Fin 2) * 256 + 1 * (x 1).val = (x 1).val; rw [e1]; omega

/-- What step `t` writes back is slab `t` of the formula: entry `(r, d)` of the slab is entry `(4096 t + r, d)` of the
    array, the activations' slab is read at the same place, and the four rows do not depend on the row. -/
theorem flushed_eq (c : Dev nD) (t : Fin cfg2.N) :
    (dat2 (F := Ideal) V c).flushed 5 t = ((cfg2.win 5).blk t).view.read (Elt Ideal) (resultArr V c) := by
  show (cfg2.win 5).cut (grid2.coords t) ((dat2 (F := Ideal) V c).after 5 t) = _
  rw [after2_5]
  unfold out2_5
  rw [View.canon_unit_zero zeroOff]
  simp only [View.ld_unit_zero (S := S4096x256) zeroOff, View.ld_unit_zero (S := S1x256) zeroOff]
  obtain ⟨-, -, -, -, -, -, -, -, -, -, e0, e1⟩ := walk t
  funext j
  show (k2_pay1 (F := Ideal) (iblk2 V c 2 t) (iblk2 V c 0 t) (iblk2 V c 1 t) (iblk2 V c 3 t) (iblk2 V c 4 t) : S4096x256.Idx → EReal) j
    = resultArr V c (((cfg2.win 5).blk t).view.emb j)
  rw [slab_apply]
  have hj0 : ((((cfg2.win 5).blk t).view.emb j : S16384x256.Idx) 0).val = t.val * 4096 + (j 0).val := by
    show win2_5.index t (0 : Fin 2) * 4096 + 1 * (j 0).val = _; rw [e0]; omega
  have hj1 : ((((cfg2.win 5).blk t).view.emb j : S16384x256.Idx) 1).val = (j 1).val := by
    show win2_5.index t (1 : Fin 2) * 256 + 1 * (j 1).val = _; rw [e1]; omega
  have hd : (((cfg2.win 5).blk t).view.emb j : S16384x256.Idx) 1 = j 1 := Fin.ext hj1
  rw [blkPre V c t j _ hj0 hj1, blkMean, blkVar, blkScale, blkShift]
  show _ = bnReluAt _ _ _ _ _ _
  unfold bnReluAt
  rw [hd]

/-- An entry of the array is in slab `t` iff each coordinate is in the slab's range on its axis. -/
theorem mem_blk (t : Fin cfg2.N) (i : S16384x256.Idx) :
    i ∈ ((cfg2.win 5).blk t).view.set ↔ ∀ a : Fin 2, win2_5.index t a * S4096x256.size a ≤ (i a).val ∧ (i a).val < win2_5.index t a * S4096x256.size a + S4096x256.size a := by
  show i ∈ ((View.whole main_v60).slice (win2_5.rect t)).set ↔ _
  rw [View.set_slice_whole, Rect.mem_set_unit]
  exact Iff.rfl

/-- Every entry is written: row `n` is in slab `n / 4096`, and each of the four steps writes its slab back. -/
theorem cover (i : S16384x256.Idx) : ∃ t : Fin cfg2.N, (cfg2.win 5).flush t = true ∧ i ∈ ((cfg2.win 5).blk t).view.set := by
  have hi0 : (i 0).val < 16384 := (i 0).isLt
  have hi1 : (i 1).val < 256 := (i 1).isLt
  have hN : cfg2.N = 4 := N_2
  let t : Fin cfg2.N := ⟨(i 0).val / 4096, by rw [hN]; omega⟩
  obtain ⟨-, -, -, -, -, -, -, -, -, -, e0, e1⟩ := walk t
  have ht : t.val = (i 0).val / 4096 := rfl
  refine ⟨t, flush2_5 t, ?_⟩
  rw [mem_blk]
  intro a
  match a with
  | ⟨0, _⟩ => show win2_5.index t (0 : Fin 2) * 4096 ≤ (i 0).val ∧ (i 0).val < win2_5.index t (0 : Fin 2) * 4096 + 4096; rw [e0, ht]; omega
  | ⟨1, _⟩ => show win2_5.index t (1 : Fin 2) * 256 ≤ (i 1).val ∧ (i 1).val < win2_5.index t (1 : Fin 2) * 256 + 256; rw [e1]; omega

/-! ## The whole array -/

/-- After the walk the result array is the formula of the arrays found at entry. -/
theorem arr_eq (c : Dev nD) : (dat2 (F := Ideal) V c).arrAt 5 cfg2.N = resultArr V c :=
  (dat2 (F := Ideal) V c).arrAt_eq_of_cover 5 (resultArr V c) (fun t _ => flushed_eq V c t) cover

/-- The result at node `n`, feature `d`. -/
theorem region_value (c : Dev nD) (n : Fin 16384) (d : Fin 256) :
    ((dat2 (F := Ideal) V c).arrAt 5 cfg2.N : S16384x256.Idx → EReal) (ix2 n d)
      = max ((((preAct V c (ix2 n d) - meanRow V c (ix2 (0 : Fin 1) d))
                * Ideal.rsqrt (varRow V c (ix2 (0 : Fin 1) d) + Ideal.ofBits .f32 0x3727C5AC#32))
              * scaleRow V c (ix2 (0 : Fin 1) d)) + shiftRow V c (ix2 (0 : Fin 1) d))
          (Ideal.ofBits .f32 0x00000000#32) :=
  congrFun (arr_eq V c) (ix2 n d)

/-- The same with the five arrays named by the caller: whatever the entry contents are known to be. -/
theorem region_value_of (c : Dev nD) (Pp : S16384x256.Idx → EReal) (Mu Vr Gm Bt : S1x256.Idx → EReal)
    (hPp : V c main_v52 = Pp) (hMu : V c main_v56 = Mu) (hVr : V c main_v57 = Vr) (hGm : V c main_v58 = Gm)
    (hBt : V c main_v59 = Bt) (n : Fin 16384) (d : Fin 256) :
    ((dat2 (F := Ideal) V c).arrAt 5 cfg2.N : S16384x256.Idx → EReal) (ix2 n d)
      = max ((((Pp (ix2 n d) - Mu (ix2 (0 : Fin 1) d)) * Ideal.rsqrt (Vr (ix2 (0 : Fin 1) d) + Ideal.ofBits .f32 0x3727C5AC#32))
              * Gm (ix2 (0 : Fin 1) d)) + Bt (ix2 (0 : Fin 1) d)) (Ideal.ofBits .f32 0x00000000#32) := by
  subst hPp hMu hVr hGm hBt
  exact region_value V c n d

end Cert.KernelIdeal.RegC2

end
-- ==== Proof.KRegC5.lean ====
/-
  The normalise-and-rectify stage of a layer, read entry by entry.

  The stage takes an array of pre-normalisation activations, one row of 256 features for each of the 16384 nodes, and
  four rows of 256 numbers: the per-feature mean, the per-feature variance, a per-feature scale and a per-feature
  shift. It walks the nodes in four slabs of 4096 rows; at each slab it sees that slab of the activations and the four
  rows whole, and writes the same slab of the result. What it writes at node `n`, feature `d` is

      max ((((pre n d - mean d) * rsqrt (var d + eps)) * scale d) + shift d) 0,

  with `eps` and `0` the stage's own two constants, kept as the words it spells them with. Every entry of the result
  lies in exactly one slab (the slab of row `n` is `n / 4096`), and the value written there depends on the arrays the
  stage finds at entry only; so after the last slab the result array holds that formula at every entry.

  The arrays are those the stage finds at entry (`V`, kept a variable); the result is the array the stage's last window
  writes back, after the walk.
-/
import proofs.«410086_j81595788689991_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal

noncomputable section

namespace Cert.KernelIdeal.RegC5

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## Which array each window walks -/

theorem arrRef_pre : Pipeline.arrRef spec5 0 = main_v92 := rfl
theorem arrRef_mean : Pipeline.arrRef spec5 1 = main_v96 := rfl
theorem arrRef_var : Pipeline.arrRef spec5 2 = main_v97 := rfl
theorem arrRef_scale : Pipeline.arrRef spec5 3 = main_v98 := rfl
theorem arrRef_shift : Pipeline.arrRef spec5 4 = main_v99 := rfl
theorem arrRef_result : Pipeline.arrRef spec5 5 = main_v100 := rfl

/-- The activations before normalisation, as the stage finds them: nodes by features. -/
abbrev preAct (c : Dev nD) : S16384x256.Idx → EReal := V c main_v92
/-- The per-feature mean, one row. -/
abbrev meanRow (c : Dev nD) : S1x256.Idx → EReal := V c main_v96
/-- The per-feature variance, one row. -/
abbrev varRow (c : Dev nD) : S1x256.Idx → EReal := V c main_v97
/-- The per-feature scale, one row. -/
abbrev scaleRow (c : Dev nD) : S1x256.Idx → EReal := V c main_v98
/-- The per-feature shift, one row. -/
abbrev shiftRow (c : Dev nD) : S1x256.Idx → EReal := V c main_v99

/-! ## The formula -/

/-- Normalise, scale, shift, rectify: the whole result array as one function of the five arrays, entry by entry.
    The feature of entry `i` is its second coordinate; the four rows are read at that feature. -/
abbrev bnReluAt (Pp : S16384x256.Idx → EReal) (Mu Vr Gm Bt : S1x256.Idx → EReal) : S16384x256.Idx → EReal := fun i =>
  max ((((Pp i - Mu (ix2 (0 : Fin 1) (i 1))) * Ideal.rsqrt (Vr (ix2 (0 : Fin 1) (i 1)) + Ideal.ofBits .f32 0x3727C5AC#32))
          * Gm (ix2 (0 : Fin 1) (i 1))) + Bt (ix2 (0 : Fin 1) (i 1))) (Ideal.ofBits .f32 0x00000000#32)

/-- The formula at the arrays the stage finds at entry. -/
abbrev resultArr (c : Dev nD) : S16384x256.Idx → EReal :=
  bnReluAt (preAct V c) (meanRow V c) (varRow V c) (scaleRow V c) (shiftRow V c)

/-! ## One slab -/

/-- What the stage computes on one slab, read at an entry of the slab: each of the four rows is spread over the
    4096 rows of the slab, so an entry sees the rows at its own feature; the casts are between equal shapes. -/
theorem slab_apply (vr : Vec Ideal S1x256 .f32) (pp : Vec Ideal S4096x256 .f32) (mu gm bt : Vec Ideal S1x256 .f32)
    (j : S4096x256.Idx) :
    (k5_pay1 (F := Ideal) vr pp mu gm bt : S4096x256.Idx → EReal) j
      = max ((((pp j - mu (ix2 (0 : Fin 1) (j 1))) * Ideal.rsqrt (vr (ix2 (0 : Fin 1) (j 1)) + Ideal.ofBits .f32 0x3727C5AC#32))
              * gm (ix2 (0 : Fin 1) (j 1))) + bt (ix2 (0 : Fin 1) (j 1))) (Ideal.ofBits .f32 0x00000000#32) := by
  obtain ⟨r, d, rfl⟩ : ∃ (r : Fin 4096) (d : Fin 256), j = ix2 r d := ⟨j 0, j 1, eq_ix2 j⟩
  unfold k5_pay1
  simp only [shapeCast_self]
  rw [maximumf_apply, addf_apply, mulf_apply, mulf_apply, subf_apply]
  rw [broadcastTo_1b_ab_apply, broadcastTo_1b_ab_apply, broadcastTo_1b_ab_apply, broadcastTo_1b_ab_apply]
  rfl

/-- A slab is read and written from its first entry on. -/
theorem zeroOff : (![0, 0] : Fin 2 → Nat) = fun _ => 0 := funext fun a => by fin_cases a <;> rfl

/-- Where each window stands at step `t` of the walk: the activations' window and the result's window stand at
    slab `t`; the four rows' windows never move. -/
theorem walk : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- Slab `t` of the activations: its row `r` is row `4096 t + r` of the array. -/
theorem blkPre (c : Dev nD) (t : Fin cfg5.N) (x : S4096x256.Idx) (k : S16384x256.Idx)
    (hk0 : (k 0).val = t.val * 4096 + (x 0).val) (hk1 : (k 1).val = (x 1).val) :
    (iblk5 V c 0 t : Vec Ideal S4096x256 .f32) x = preAct V c k := by
  obtain ⟨e0, e1, -⟩ := walk t
  unfold iblk5
  rw [View.read_apply]
  show V c main_v92 _ = V c main_v92 _
  congr 1
  funext a
  apply Fin.ext
  match a with
  | ⟨0, _⟩ => show win5_0.index t (0 : Fin 2) * 4096 + 1 * (x 0).val = (k 0).val; rw [e0, hk0]; omega
  | ⟨1, _⟩ => show win5_0.index t (1 : Fin 2) * 256 + 1 * (x 1).val = (k 1).val; rw [e1, hk1]; omega

/-- The mean's window shows the whole row at every step. -/
theorem blkMean (c : Dev nD) (t : Fin cfg5.N) (x : S1x256.Idx) :
    (iblk5 V c 1 t : Vec Ideal S1x256 .f32) x = meanRow V c x := by
  obtain ⟨-, -, e0, e1, -⟩ := walk t
  unfold iblk5
  rw [View.read_apply]
  show V c main_v96 _ = V c main_v96 _
  congr 1
  funext a
  apply Fin.ext
  match a with
  | ⟨0, _⟩ => show win5_1.index t (0 : Fin 2) * 1 + 1 * (x 0).val = (x 0).val; rw [e0]; omega
  | ⟨1, _⟩ => show win5_1.index t (1 : Fin 2) * 256 + 1 * (x 1).val = (x 1).val; rw [e1]; omega

/-- The variance's window shows the whole row at every step. -/
theorem blkVar (c : Dev nD) (t : Fin cfg5.N) (x : S1x256.Idx) :
    (iblk5 V c 2 t : Vec Ideal S1x256 .f32) x = varRow V c x := by
  obtain ⟨-, -, -, -, e0, e1, -⟩ := walk t
  unfold iblk5
  rw [View.read_apply]
  show V c main_v97 _ = V c main_v97 _
  congr 1
  funext a
  apply Fin.ext
  match a with
  | ⟨0, _⟩ => show win5_2.index t (0 : Fin 2) * 1 + 1 * (x 0).val = (x 0).val; rw [e0]; omega
  | ⟨1, _⟩ => show win5_2.index t (1 : Fin 2) * 256 + 1 * (x 1).val = (x 1).val; rw [e1]; omega

/-- The scale's window shows the whole row at every step. -/
theorem blkScale (c : Dev nD) (t : Fin cfg5.N) (x : S1x256.Idx) :
    (iblk5 V c 3 t : Vec Ideal S1x256 .f32) x = scaleRow V c x := by
  obtain ⟨-, -, -, -, -, -, e0, e1, -⟩ := walk t
  unfold iblk5
  rw [View.read_apply]
  show V c main_v98 _ = V c main_v98 _
  congr 1
  funext a
  apply Fin.ext
  match a with
  | ⟨0, _⟩ => show win5_3.index t (0 : Fin 2) * 1 + 1 * (x 0).val = (x 0).val; rw [e0]; omega
  | ⟨1, _⟩ => show win5_3.index t (1 : Fin 2) * 256 + 1 * (x 1).val = (x 1).val; rw [e1]; omega

/-- The shift's window shows the whole row at every step. -/
theorem blkShift (c : Dev nD) (t : Fin cfg5.N) (x : S1x256.Idx) :
    (iblk5 V c 4 t : Vec Ideal S1x256 .f32) x = shiftRow V c x := by
  obtain ⟨-, -, -, -, -, -, -, -, e0, e1, -⟩ := walk t
  unfold iblk5
  rw [View.read_apply]
  show V c main_v99 _ = V c main_v99 _
  congr 1
  funext a
  apply Fin.ext
  match a with
  | ⟨0, _⟩ => show win5_4.index t (0 : Fin 2) * 1 + 1 * (x 0).val = (x 0).val; rw [e0]; omega
  | ⟨1, _⟩ => show win5_4.index t (1 : Fin 2) * 256 + 1 * (x 1).val = (x 1).val; rw [e1]; omega

/-- What step `t` writes back is slab `t` of the formula: entry `(r, d)` of the slab is entry `(4096 t + r, d)` of the
    array, the activations' slab is read at the same place, and the four rows do not depend on the row. -/
theorem flushed_eq (c : Dev nD) (t : Fin cfg5.N) :
    (dat5 (F := Ideal) V c).flushed 5 t = ((cfg5.win 5).blk t).view.read (Elt Ideal) (resultArr V c) := by
  show (cfg5.win 5).cut (grid5.coords t) ((dat5 (F := Ideal) V c).after 5 t) = _
  rw [after5_5]
  unfold out5_5
  rw [View.canon_unit_zero zeroOff]
  simp only [View.ld_unit_zero (S := S4096x256) zeroOff, View.ld_unit_zero (S := S1x256) zeroOff]
  obtain ⟨-, -, -, -, -, -, -, -, -, -, e0, e1⟩ := walk t
  funext j
  show (k5_pay1 (F := Ideal) (iblk5 V c 2 t) (iblk5 V c 0 t) (iblk5 V c 1 t) (iblk5 V c 3 t) (iblk5 V c 4 t) : S4096x256.Idx → EReal) j
    = resultArr V c (((cfg5.win 5).blk t).view.emb j)
  rw [slab_apply]
  have hj0 : ((((cfg5.win 5).blk t).view.emb j : S16384x256.Idx) 0).val = t.val * 4096 + (j 0).val := by
    show win5_5.index t (0 : Fin 2) * 4096 + 1 * (j 0).val = _; rw [e0]; omega
  have hj1 : ((((cfg5.win 5).blk t).view.emb j : S16384x256.Idx) 1).val = (j 1).val := by
    show win5_5.index t (1 : Fin 2) * 256 + 1 * (j 1).val = _; rw [e1]; omega
  have hd : (((cfg5.win 5).blk t).view.emb j : S16384x256.Idx) 1 = j 1 := Fin.ext hj1
  rw [blkPre V c t j _ hj0 hj1, blkMean, blkVar, blkScale, blkShift]
  show _ = bnReluAt _ _ _ _ _ _
  unfold bnReluAt
  rw [hd]

/-- An entry of the array is in slab `t` iff each coordinate is in the slab's range on its axis. -/
theorem mem_blk (t : Fin cfg5.N) (i : S16384x256.Idx) :
    i ∈ ((cfg5.win 5).blk t).view.set ↔ ∀ a : Fin 2, win5_5.index t a * S4096x256.size a ≤ (i a).val ∧ (i a).val < win5_5.index t a * S4096x256.size a + S4096x256.size a := by
  show i ∈ ((View.whole main_v100).slice (win5_5.rect t)).set ↔ _
  rw [View.set_slice_whole, Rect.mem_set_unit]
  exact Iff.rfl

/-- Every entry is written: row `n` is in slab `n / 4096`, and each of the four steps writes its slab back. -/
theorem cover (i : S16384x256.Idx) : ∃ t : Fin cfg5.N, (cfg5.win 5).flush t = true ∧ i ∈ ((cfg5.win 5).blk t).view.set := by
  have hi0 : (i 0).val < 16384 := (i 0).isLt
  have hi1 : (i 1).val < 256 := (i 1).isLt
  have hN : cfg5.N = 4 := N_5
  let t : Fin cfg5.N := ⟨(i 0).val / 4096, by rw [hN]; omega⟩
  obtain ⟨-, -, -, -, -, -, -, -, -, -, e0, e1⟩ := walk t
  have ht : t.val = (i 0).val / 4096 := rfl
  refine ⟨t, flush5_5 t, ?_⟩
  rw [mem_blk]
  intro a
  match a with
  | ⟨0, _⟩ => show win5_5.index t (0 : Fin 2) * 4096 ≤ (i 0).val ∧ (i 0).val < win5_5.index t (0 : Fin 2) * 4096 + 4096; rw [e0, ht]; omega
  | ⟨1, _⟩ => show win5_5.index t (1 : Fin 2) * 256 ≤ (i 1).val ∧ (i 1).val < win5_5.index t (1 : Fin 2) * 256 + 256; rw [e1]; omega

/-! ## The whole array -/

/-- After the walk the result array is the formula of the arrays found at entry. -/
theorem arr_eq (c : Dev nD) : (dat5 (F := Ideal) V c).arrAt 5 cfg5.N = resultArr V c :=
  (dat5 (F := Ideal) V c).arrAt_eq_of_cover 5 (resultArr V c) (fun t _ => flushed_eq V c t) cover

/-- The result at node `n`, feature `d`. -/
theorem region_value (c : Dev nD) (n : Fin 16384) (d : Fin 256) :
    ((dat5 (F := Ideal) V c).arrAt 5 cfg5.N : S16384x256.Idx → EReal) (ix2 n d)
      = max ((((preAct V c (ix2 n d) - meanRow V c (ix2 (0 : Fin 1) d))
                * Ideal.rsqrt (varRow V c (ix2 (0 : Fin 1) d) + Ideal.ofBits .f32 0x3727C5AC#32))
              * scaleRow V c (ix2 (0 : Fin 1) d)) + shiftRow V c (ix2 (0 : Fin 1) d))
          (Ideal.ofBits .f32 0x00000000#32) :=
  congrFun (arr_eq V c) (ix2 n d)

/-- The same with the five arrays named by the caller: whatever the entry contents are known to be. -/
theorem region_value_of (c : Dev nD) (Pp : S16384x256.Idx → EReal) (Mu Vr Gm Bt : S1x256.Idx → EReal)
    (hPp : V c main_v92 = Pp) (hMu : V c main_v96 = Mu) (hVr : V c main_v97 = Vr) (hGm : V c main_v98 = Gm)
    (hBt : V c main_v99 = Bt) (n : Fin 16384) (d : Fin 256) :
    ((dat5 (F := Ideal) V c).arrAt 5 cfg5.N : S16384x256.Idx → EReal) (ix2 n d)
      = max ((((Pp (ix2 n d) - Mu (ix2 (0 : Fin 1) d)) * Ideal.rsqrt (Vr (ix2 (0 : Fin 1) d) + Ideal.ofBits .f32 0x3727C5AC#32))
              * Gm (ix2 (0 : Fin 1) d)) + Bt (ix2 (0 : Fin 1) d)) (Ideal.ofBits .f32 0x00000000#32) := by
  subst hPp hMu hVr hGm hBt
  exact region_value V c n d

end Cert.KernelIdeal.RegC5

end
-- ==== Proof.Consts.lean ====
/-
  The two float words the programs use as the numbers zero and one, as the extended reals they denote.

  A 32-bit float word is a sign bit, eight exponent bits (bias 127) and twenty-three fraction bits. The all-zero word
  has exponent field 0 and fraction 0: it denotes `0 · 2^(-149) = 0`. The word `0x3F800000` has sign 0, exponent
  field 127 and fraction 0: it denotes `(2^23 + 0) · 2^(127 - 127 - 23) = 1`.
-/
import Idealize.ShloMosaic.PureOps.Ideal

noncomputable section

namespace Cert.Gnn

open Idealize.ShloMosaic

/-- The all-zero 32-bit float word denotes the number zero. -/
theorem ofBits_zero : Ideal.ofBits .f32 0x00000000#32 = (0 : EReal) := by
  show Ideal.ieee 8 23 (0x00000000#32) = 0
  unfold Ideal.ieee
  have hs : ((0x00000000#32 : BitVec 32).extractLsb' (8 + 23) 1 == 1#1) = false := by rfl
  have he : ((0x00000000#32 : BitVec 32).extractLsb' 23 8).toNat = 0 := by rfl
  have hf : ((0x00000000#32 : BitVec 32).extractLsb' 0 23).toNat = 0 := by rfl
  simp only [hs, he, hf]
  norm_num

/-- The 32-bit float word with sign 0, exponent field 127 and fraction 0 denotes the number one. -/
theorem ofBits_one : Ideal.ofBits .f32 0x3F800000#32 = (1 : EReal) := by
  show Ideal.ieee 8 23 (0x3F800000#32) = 1
  unfold Ideal.ieee
  have hs : ((0x3F800000#32 : BitVec 32).extractLsb' (8 + 23) 1 == 1#1) = false := by rfl
  have he : ((0x3F800000#32 : BitVec 32).extractLsb' 23 8).toNat = 127 := by rfl
  have hf : ((0x3F800000#32 : BitVec 32).extractLsb' 0 23).toNat = 0 := by rfl
  simp only [hs, he, hf]
  norm_num

end Cert.Gnn

end
-- ==== Proof.LibVecScatter.lean ====
/-
  A vector scattered-and-added at a column of integer indices, read at one entry.

  The operand is a vector of `N` entries, the indices are an `E × 1` column of machine integers, the updates are a
  vector of `E` entries: update `e` is added to the operand's entry that index `e` names. This is the rank-1 sibling
  of the accumulating scatter of rows (no window axis is left: the operand's one axis is the one the indices address).

  At the ideal values the result's entry `i` is the operand's entry `i` plus the sum of the updates `e` whose index,
  read as a SIGNED integer and NOT clamped, is `i`; an index that names no entry (negative, or `N` and beyond)
  contributes nowhere.
-/
import Idealize.ShloMosaic.PureOps.Ideal
import Idealize.ShloMosaic.Lib.ValueIdx

noncomputable section

namespace Cert.Gcn

open Idealize.ShloMosaic Idealize.ShloMosaic.ValueIdx
open scoped BigOperators

/-- A sum over the index set of a vector shape is the sum over its one coordinate. -/
theorem sum_vecIdx {M : Type*} [AddCommMonoid M] {n : Nat} (f : (⟨1, ![n]⟩ : Shape).Idx → M) :
    ∑ j, f j = ∑ a : Fin n, f (ix1 a) :=
  Fintype.sum_equiv ⟨fun j => j 0, ix1, fun j => (eq_ix1 j).symm, fun _ => rfl⟩ f (fun a => f (ix1 a))
    fun j => congrArg f (eq_ix1 j)

/-- The dimension numbers of a vector scatter: operand `[N]`, scatter indices `E × 1`, updates `[E]` (what a segment sum
    of a vector lowers to: no update-window axis, the one operand axis inserted). -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section
variable {N E w : Nat} (wf : ScatterDims.WF ⟨1, ![N]⟩ ⟨2, ![E, 1]⟩ ⟨1, ![E]⟩ [] [0] [0] 1)
  (idx : IVec ⟨2, ![E, 1]⟩ w)

/-- On the operand's one axis the update `e` lands at the signed value of index `e`: the window coordinate there is
    zero (the axis is inserted), the start is the index read signed. -/
theorem vecScatter_pos (e : Fin E) :
    (vecScatterDims N E wf).start (ix1 e) idx (0 : Fin 1) + ((vecScatterDims N E wf).window (ix1 e) (0 : Fin 1) : ℤ)
      = (idx (ix2 e (0 : Fin 1))).toInt := by
  have hw : (vecScatterDims N E wf).window (ix1 e) (0 : Fin 1) = 0 := by
    have h0 : (0 : Fin 1) ∉ (vecScatterDims N E wf).sKept := show (0 : Fin 1) ∉ ([] : List (Fin 1)) from List.not_mem_nil
    unfold ScatterDims.window
    rw [dif_neg h0]
  rw [hw]
  unfold ScatterDims.start
  rw [dif_pos (show (0 : Fin 1) ∈ ([0] : List (Fin 1)) from by decide)]
  have hsi : (vecScatterDims N E wf).siIdx (ix1 e) ⟨List.idxOf (0 : Fin 1) (vecScatterDims N E wf).scatterDimsToOperandDims,
      List.idxOf_lt_length_iff.2 (show (0 : Fin 1) ∈ ([0] : List (Fin 1)) from by decide)⟩ = ix2 e (0 : Fin 1) := by
    funext b; refine Fin.ext ?_
    match b with
    | ⟨0, _⟩ => rfl
    | ⟨1, _⟩ => rfl
  rw [hsi]
  simp

/-- The update `e` lands on the entry `i` exactly when index `e`, read signed, is `i`. -/
theorem vecScatter_resultIdx (e : Fin E) (i : Fin N) :
    (vecScatterDims N E wf).resultIdx? (ix1 e) idx = some (ix1 i)
      ↔ (idx (ix2 e (0 : Fin 1))).toInt = (i.val : ℤ) := by
  have p0 := vecScatter_pos wf idx e
  unfold ScatterDims.resultIdx?
  constructor
  · intro h
    split at h
    · rename_i hb
      have hf := Option.some.inj h
      have h0 : ((vecScatterDims N E wf).start (ix1 e) idx (0 : Fin 1)
          + ((vecScatterDims N E wf).window (ix1 e) (0 : Fin 1) : ℤ)).toNat = i.val :=
        congrArg (fun f => (f (0 : Fin 1)).val) hf
      have b0 := (hb (0 : Fin 1)).1
      rw [p0] at h0 b0
      omega
    · exact absurd h (by simp)
  · intro h0
    have hb : ∀ a : Fin 1, 0 ≤ (vecScatterDims N E wf).start (ix1 e) idx a + ((vecScatterDims N E wf).window (ix1 e) a : ℤ)
        ∧ (vecScatterDims N E wf).start (ix1 e) idx a + ((vecScatterDims N E wf).window (ix1 e) a : ℤ)
          < (((⟨1, ![N]⟩ : Shape).size a : ℕ) : ℤ) := by
      intro a
      match a with
      | ⟨0, _⟩ =>
        show 0 ≤ (vecScatterDims N E wf).start (ix1 e) idx (0 : Fin 1) + ((vecScatterDims N E wf).window (ix1 e) (0 : Fin 1) : ℤ)
          ∧ (vecScatterDims N E wf).start (ix1 e) idx (0 : Fin 1) + ((vecScatterDims N E wf).window (ix1 e) (0 : Fin 1) : ℤ) < ((N : ℕ) : ℤ)
        rw [p0, h0]
        exact ⟨by omega, by exact_mod_cast i.isLt⟩
    rw [dif_pos hb]
    congr 1
    funext a
    refine Fin.ext ?_
    match a with
    | ⟨0, _⟩ =>
      show ((vecScatterDims N E wf).start (ix1 e) idx (0 : Fin 1) + ((vecScatterDims N E wf).window (ix1 e) (0 : Fin 1) : ℤ)).toNat = i.val
      rw [p0, h0]; simp

/-- THE ACCUMULATING VECTOR SCATTER READ AT `i`, at the ideal values: the operand's entry plus the sum of the updates
    `e` whose index, read signed and not clamped, is `i`. -/
theorem scatterAdd_vec_apply (x : (⟨1, ![N]⟩ : Shape).Idx → EReal) (upd : (⟨1, ![E]⟩ : Shape).Idx → EReal) (i : Fin N) :
    Ideal.hostScatterAdd (vecScatterDims N E wf) x idx upd (ix1 i)
      = x (ix1 i) + ∑ e ∈ Finset.univ.filter (fun e : Fin E => (idx (ix2 e (0 : Fin 1))).toInt = (i.val : ℤ)), upd (ix1 e) := by
  unfold Ideal.hostScatterAdd
  congr 1
  rw [Finset.sum_filter, sum_vecIdx, Finset.sum_filter]
  refine Finset.sum_congr rfl fun e _ => ?_
  simp only [vecScatter_resultIdx wf idx e i]

end

end Cert.Gcn

end
-- ==== Proof.KHost0.lean ====
/-
  What the operations before the first kernel launch leave in the buffers the later stages read, entry by entry, in
  terms of the twelve argument arrays.

  The node features are the 32 slabs of 512 rows laid out as 16384 rows. The two rows of the edge array are the
  source words and the destination words. A vector of ones scattered-and-added onto zeros at the source words counts,
  for each node, the edges that leave it; one over the larger of that count and one is the factor a mean multiplies
  by. The same scatter at the flat words `64 · source + feature` onto `16384 · 64` zeros, laid out as 16384 rows of
  64, is the histogram of (source, feature) pairs. A layer's parameters are slab `l` of each stacked array; the
  embedded table is the embedding table times the layer's edge weights, and the bias the node transform adds is the
  message bias plus the edge bias.

  First each step is read at an entry over arbitrary arrays of the literal shapes; then the contents of each buffer
  are written as the operations' composed term of the argument buffers, and the two are put together.
-/
import proofs.«410086_j81595788689991_2_alg».proof.Proof.Gen.KernelIdeal.Launch
import proofs.«410086_j81595788689991_2_alg».proof.Proof.KIn
import proofs.«410086_j81595788689991_2_alg».proof.Proof.Consts
import proofs.«410086_j81595788689991_2_alg».proof.Proof.LibVecScatter
import Idealize.ShloMosaic.Lib.StableHlo.Run
import Idealize.ShloMosaic.Lib.ValueLayout
import Idealize.ShloMosaic.Lib.StackMember
import Idealize.ShloMosaic.PureOps.Ideal.Laws

noncomputable section

namespace Cert.KernelIdeal.Host0

open Cert.KernelIdeal Cert.KernelIdeal.Gen Cert.KernelIdeal.Val Cert.Gnn Idealize.ShloMosaic Idealize.ShloMosaic.ValueIdx
open scoped BigOperators

/-! ## Layout operations at the literal shapes, read at an entry -/

section Layout
variable {α : Type}

/-- Thirty-two slabs of 512 rows laid out as 16384 rows: row `n` is row `n % 512` of slab `n / 512`. -/
theorem rows_flat_apply (x : (⟨3, ![32, 512, 256]⟩ : Shape).Idx → α)
    (h : (⟨3, ![32, 512, 256]⟩ : Shape).ShapeCasts ⟨2, ![16384, 256]⟩) (n : Fin 16384) (d : Fin 256) :
    shapeCast ⟨2, ![16384, 256]⟩ x h (ix2 n d)
      = x (ix3 (⟨n.val / 512, by have h : n.val < 16384 := n.isLt; omega⟩ : Fin 32)
          (⟨n.val % 512, Nat.mod_lt _ (by decide)⟩ : Fin 512) d) :=
  shapeCast_apply x h _ _ (by
    rw [Shape.rowMajor_val_three, Shape.rowMajor_val_two]
    show (n.val / 512 * 512 + n.val % 512) * 256 + d.val = n.val * 256 + d.val
    omega)

/-- Row `r` of a two-row array, cut out as a one-row array and flattened to a vector. -/
theorem row_of_two_apply {n : Nat} (o : Nat) (x : (⟨2, ![2, n]⟩ : Shape).Idx → α)
    (h : (⟨2, ![2, n]⟩ : Shape).Slices ![o, 0] ⟨2, ![1, n]⟩) (hc : (⟨2, ![1, n]⟩ : Shape).ShapeCasts ⟨1, ![n]⟩)
    (r : Fin 2) (hr : r.val = o) (e : Fin n) :
    shapeCast ⟨1, ![n]⟩ (extractStridedSlice ⟨2, ![1, n]⟩ ![o, 0] x h) hc (ix1 e) = x (ix2 r e) :=
  (shapeCast_1a_a_apply _ hc e).trans
    (extractStridedSlice_apply _ x h _ _ fun a => by
      match a with
      | ⟨0, _⟩ => show r.val = o + 0; omega
      | ⟨1, _⟩ => exact (Nat.zero_add _).symm)

/-- Slab `l` of a two-slab array, cut out as a one-slab array and flattened to a matrix. -/
theorem slab_of_two_apply {a b : Nat} (o : Nat) (x : (⟨3, ![2, a, b]⟩ : Shape).Idx → α)
    (h : (⟨3, ![2, a, b]⟩ : Shape).Slices ![o, 0, 0] ⟨3, ![1, a, b]⟩)
    (hc : (⟨3, ![1, a, b]⟩ : Shape).ShapeCasts ⟨2, ![a, b]⟩)
    (l : Fin 2) (hl : l.val = o) (j : Fin a) (d : Fin b) :
    shapeCast ⟨2, ![a, b]⟩ (extractStridedSlice ⟨3, ![1, a, b]⟩ ![o, 0, 0] x h) hc (ix2 j d) = x (ix3 l j d) :=
  (shapeCast_1ab_ab_apply _ hc j d).trans
    (extractStridedSlice_apply _ x h _ _ fun ax => by
      match ax with
      | ⟨0, _⟩ => show l.val = o + 0; omega
      | ⟨1, _⟩ => exact (Nat.zero_add _).symm
      | ⟨2, _⟩ => exact (Nat.zero_add _).symm)

/-- A scalar spread over a whole array reads the scalar everywhere. -/
theorem splat_apply {t : Shape} (h : S0.BroadcastsInDim t (![] : Fin 0 → Fin t.rank)) (c : S0.Idx → α) (j : t.Idx) :
    broadcastInDim t ![] h c j = c ix0 :=
  broadcastInDim_apply _ h c j ix0 (fun a => a.elim0)

/-- A vector stood up as a one-column array reads the vector's entry in each row. -/
theorem column_apply {n : Nat} (h : (⟨1, ![n]⟩ : Shape).BroadcastsInDim ⟨2, ![n, 1]⟩ (![0] : Fin 1 → Fin 2))
    (v : (⟨1, ![n]⟩ : Shape).Idx → α) (e : Fin n) :
    broadcastInDim ⟨2, ![n, 1]⟩ ![0] h v (ix2 e (0 : Fin 1)) = v (ix1 e) :=
  broadcastInDim_apply _ h v _ _ fun a => by
    match a with
    | ⟨0, _⟩ =>
      show e.val = if n = 1 then 0 else e.val
      have he : e.val < n := e.isLt
      split
      · omega
      · rfl

/-- A flat vector of `16384 · 64` entries laid out as 16384 rows of 64: entry `(n, k)` is flat entry `64 n + k`. -/
theorem pairs_flat_apply (x : (⟨1, ![1048576]⟩ : Shape).Idx → α)
    (h : (⟨1, ![1048576]⟩ : Shape).ShapeCasts ⟨2, ![16384, 64]⟩) (n : Fin 16384) (k : Fin 64) :
    shapeCast ⟨2, ![16384, 64]⟩ x h (ix2 n k)
      = x (ix1 (⟨n.val * 64 + k.val, by have hn : n.val < 16384 := n.isLt; have hk : k.val < 64 := k.isLt; omega⟩ : Fin 1048576)) :=
  shapeCast_apply x h _ _ (by
    rw [Shape.rowMajor_val_one, Shape.rowMajor_val_two]
    rfl)

end Layout

/-! ## Counting by an accumulating scatter of ones onto zeros -/

/-- Ones scattered-and-added onto zeros at a column of integer indices count, at entry `i`, the indices whose signed
    value is `i`. -/
theorem count_apply {N E w : Nat} (wf : ScatterDims.WF ⟨1, ![N]⟩ ⟨2, ![E, 1]⟩ ⟨1, ![E]⟩ [] [0] [0] 1)
    (h0 : S0.BroadcastsInDim ⟨1, ![N]⟩ (![] : Fin 0 → Fin 1)) (h1 : S0.BroadcastsInDim ⟨1, ![E]⟩ (![] : Fin 0 → Fin 1))
    (idx : IVec ⟨2, ![E, 1]⟩ w) (z : Fin E → ℤ) (hz : ∀ e : Fin E, (idx (ix2 e (0 : Fin 1))).toInt = z e) (i : Fin N) :
    Host.scatterAdd (F := Ideal) (Cert.Gcn.vecScatterDims N E wf)
        (broadcastInDim ⟨1, ![N]⟩ ![] h0 (constant (F := Ideal) S0 .f32 0x00000000#32)) idx
        (broadcastInDim ⟨1, ![E]⟩ ![] h1 (constant (F := Ideal) S0 .f32 0x3F800000#32)) (ix1 i)
      = ∑ _e ∈ Finset.univ.filter (fun e : Fin E => z e = (i.val : ℤ)), (1 : EReal) := by
  show Ideal.hostScatterAdd (Cert.Gcn.vecScatterDims N E wf) _ idx _ (ix1 i) = _
  rw [Cert.Gcn.scatterAdd_vec_apply, splat_apply, constant_apply, ofBits_zero, zero_add]
  refine Finset.sum_congr (Finset.filter_congr fun e _ => by rw [hz e]) fun e _ => ?_
  rw [splat_apply, constant_apply, ofBits_one]

/-- One over the larger of a count and one, entry by entry. -/
theorem recip_apply {N : Nat} (h1 : S0.BroadcastsInDim ⟨1, ![N]⟩ (![] : Fin 0 → Fin 1))
    (c : FVec Ideal ⟨1, ![N]⟩ .f32) (i : Fin N) :
    Host.divf (F := Ideal) (broadcastInDim ⟨1, ![N]⟩ ![] h1 (constant (F := Ideal) S0 .f32 0x3F800000#32))
        (maximumf c (broadcastInDim ⟨1, ![N]⟩ ![] h1 (constant (F := Ideal) S0 .f32 0x3F800000#32))) (ix1 i)
      = Ideal.div 1 (max (c (ix1 i)) 1) := by
  show Ideal.div (broadcastInDim ⟨1, ![N]⟩ ![] h1 (constant (F := Ideal) S0 .f32 0x3F800000#32) (ix1 i))
      (max (c (ix1 i)) (broadcastInDim ⟨1, ![N]⟩ ![] h1 (constant (F := Ideal) S0 .f32 0x3F800000#32) (ix1 i))) = _
  rw [splat_apply, constant_apply, ofBits_one]

/-- The flat index word of an edge: its source word times 64 plus its feature word, as machine integers. -/
theorem flat_word_apply {E : Nat} (h : S0.BroadcastsInDim ⟨1, ![E]⟩ (![] : Fin 0 → Fin 1))
    (s f : IVec ⟨1, ![E]⟩ 32) (e : Fin E) :
    addi (muli s (broadcastInDim ⟨1, ![E]⟩ ![] h (constantI S0 32 64#32))) f (ix1 e)
      = IntOp.addi (IntOp.muli (s (ix1 e)) 64#32) (f (ix1 e)) := by
  show IntOp.addi (IntOp.muli (s (ix1 e)) (broadcastInDim ⟨1, ![E]⟩ ![] h (constantI S0 32 64#32) (ix1 e))) (f (ix1 e)) = _
  rw [splat_apply, constantI_apply]

/-! ## The embedded table and the summed bias -/

/-- A 64 × 64 table times a 64 × 256 matrix, entry by entry. -/
theorem table_apply (wf : DotDims.WF ⟨2, ![64, 64]⟩ ⟨2, ![64, 256]⟩ ⟨2, ![64, 256]⟩ [1] [0] [0] [1] [] [])
    (A : FVec Ideal ⟨2, ![64, 64]⟩ .f32) (B : FVec Ideal ⟨2, ![64, 256]⟩ .f32) (k : Fin 64) (d : Fin 256) :
    Host.dotGeneral (⟨[1], [0], [0], [1], [], [], wf⟩ : DotDims _ _ _) none A B (ix2 k d)
      = ∑ j : Fin 64, A (ix2 k j) * B (ix2 j d) :=
  StackMember.dotGeneral_plain_apply (m := 64) (n := 256) (k := 64) none A B k d

/-- Two vectors added and laid out as a one-row array. -/
theorem sum_row_apply {n : Nat} (h : (⟨1, ![n]⟩ : Shape).ShapeCasts ⟨2, ![1, n]⟩) (a b : FVec Ideal ⟨1, ![n]⟩ .f32) (d : Fin n) :
    shapeCast ⟨2, ![1, n]⟩ (addf a b) h (ix2 (0 : Fin 1) d) = a (ix1 d) + b (ix1 d) :=
  shapeCast_a_1a_apply _ h 0 d

/-! ## Counting the edges of a node, and of a (node, feature) pair, from the argument arrays -/

section Counts
variable (I : Inputs)

/-- The source words: row 0 of the edge array as a vector. -/
theorem src_row_apply (hs : (⟨2, ![2, 524288]⟩ : Shape).Slices ![0, 0] ⟨2, ![1, 524288]⟩)
    (hc : (⟨2, ![1, 524288]⟩ : Shape).ShapeCasts ⟨1, ![524288]⟩) (e : Fin 524288) :
    shapeCast ⟨1, ![524288]⟩ (extractStridedSlice ⟨2, ![1, 524288]⟩ ![0, 0] I.edge hs) hc (ix1 e) = I.srcW e :=
  row_of_two_apply 0 I.edge hs hc 0 rfl e

/-- The destination words: row 1 of the edge array as a vector. -/
theorem dst_row_apply (hs : (⟨2, ![2, 524288]⟩ : Shape).Slices ![1, 0] ⟨2, ![1, 524288]⟩)
    (hc : (⟨2, ![1, 524288]⟩ : Shape).ShapeCasts ⟨1, ![524288]⟩) (e : Fin 524288) :
    shapeCast ⟨1, ![524288]⟩ (extractStridedSlice ⟨2, ![1, 524288]⟩ ![1, 0] I.edge hs) hc (ix1 e) = I.dstW e :=
  row_of_two_apply 1 I.edge hs hc 1 rfl e

/-- One over the larger of a node's edge count and one: ones are added onto zeros at the source words, so entry `n`
    counts the edges whose source, read signed, is `n`. -/
theorem inv_count_apply (hs : (⟨2, ![2, 524288]⟩ : Shape).Slices ![0, 0] ⟨2, ![1, 524288]⟩)
    (hc : (⟨2, ![1, 524288]⟩ : Shape).ShapeCasts ⟨1, ![524288]⟩)
    (hcol : (⟨1, ![524288]⟩ : Shape).BroadcastsInDim ⟨2, ![524288, 1]⟩ (![0] : Fin 1 → Fin 2))
    (hN : S0.BroadcastsInDim ⟨1, ![16384]⟩ (![] : Fin 0 → Fin 1)) (hE : S0.BroadcastsInDim ⟨1, ![524288]⟩ (![] : Fin 0 → Fin 1))
    (wf : ScatterDims.WF ⟨1, ![16384]⟩ ⟨2, ![524288, 1]⟩ ⟨1, ![524288]⟩ [] [0] [0] 1) (n : Fin 16384) :
    Host.divf (F := Ideal) (broadcastInDim ⟨1, ![16384]⟩ ![] hN (constant (F := Ideal) S0 .f32 0x3F800000#32))
        (maximumf
          (Host.scatterAdd (F := Ideal) (Cert.Gcn.vecScatterDims 16384 524288 wf)
            (broadcastInDim ⟨1, ![16384]⟩ ![] hN (constant (F := Ideal) S0 .f32 0x00000000#32))
            (broadcastInDim ⟨2, ![524288, 1]⟩ ![0] hcol
              (shapeCast ⟨1, ![524288]⟩ (extractStridedSlice ⟨2, ![1, 524288]⟩ ![0, 0] I.edge hs) hc))
            (broadcastInDim ⟨1, ![524288]⟩ ![] hE (constant (F := Ideal) S0 .f32 0x3F800000#32)))
          (broadcastInDim ⟨1, ![16384]⟩ ![] hN (constant (F := Ideal) S0 .f32 0x3F800000#32))) (ix1 n)
      = Ideal.div 1 (den I.graph n) := by
  refine (recip_apply hN _ n).trans ?_
  rw [count_apply wf hN hE _ I.graph.srcZ (fun e => by rw [column_apply, src_row_apply]; rfl) n]
  rfl

/-- The histogram of (source, feature) pairs: ones are added onto `16384 · 64` zeros at the flat words
    `64 · source + feature`, and entry `(n, k)` of the 16384 × 64 layout is flat entry `64 n + k`. -/
theorem hist_apply (hs : (⟨2, ![2, 524288]⟩ : Shape).Slices ![0, 0] ⟨2, ![1, 524288]⟩)
    (hc : (⟨2, ![1, 524288]⟩ : Shape).ShapeCasts ⟨1, ![524288]⟩)
    (hcol : (⟨1, ![524288]⟩ : Shape).BroadcastsInDim ⟨2, ![524288, 1]⟩ (![0] : Fin 1 → Fin 2))
    (hM : S0.BroadcastsInDim ⟨1, ![1048576]⟩ (![] : Fin 0 → Fin 1)) (hE : S0.BroadcastsInDim ⟨1, ![524288]⟩ (![] : Fin 0 → Fin 1))
    (wf : ScatterDims.WF ⟨1, ![1048576]⟩ ⟨2, ![524288, 1]⟩ ⟨1, ![524288]⟩ [] [0] [0] 1)
    (hr : (⟨1, ![1048576]⟩ : Shape).ShapeCasts ⟨2, ![16384, 64]⟩) (n : Fin 16384) (k : Fin 64) :
    shapeCast ⟨2, ![16384, 64]⟩
        (Host.scatterAdd (F := Ideal) (Cert.Gcn.vecScatterDims 1048576 524288 wf)
          (broadcastInDim ⟨1, ![1048576]⟩ ![] hM (constant (F := Ideal) S0 .f32 0x00000000#32))
          (broadcastInDim ⟨2, ![524288, 1]⟩ ![0] hcol
            (addi
              (muli (shapeCast ⟨1, ![524288]⟩ (extractStridedSlice ⟨2, ![1, 524288]⟩ ![0, 0] I.edge hs) hc)
                (broadcastInDim ⟨1, ![524288]⟩ ![] hE (constantI S0 32 64#32)))
              I.ef))
          (broadcastInDim ⟨1, ![524288]⟩ ![] hE (constant (F := Ideal) S0 .f32 0x3F800000#32))) hr (ix2 n k)
      = hist I.graph n k := by
  refine (pairs_flat_apply _ hr n k).trans ?_
  rw [count_apply wf hM hE _ I.graph.flatZ (fun e => by rw [column_apply, flat_word_apply, src_row_apply]; rfl) _]
  rfl

end Counts

/-! ## The buffers after the stretch, as the operations' composed terms of the argument buffers -/

section Terms
variable (W : Valuation τ sig (Elt Ideal))

theorem term_v0 : (StableHlo.after hostOps0 W (Proc.devRef .tc main_v0) : S16384x256.Idx → EReal)
    = shapeCast S16384x256 (W (Proc.devRef .tc main_arg0) : S32x512x256.Idx → EReal) shapeCasts_S32x512x256_S16384x256 := by
  after_results_simp
  rfl

theorem term_v2 : (StableHlo.after hostOps0 W (Proc.devRef .tc main_v2) : IVec S524288 32)
    = shapeCast S524288 (extractStridedSlice S1x524288 ![0, 0] (W (Proc.devRef .tc main_arg10) : IVec S2x524288 32)
        slices_S2x524288_S1x524288_0_0) shapeCasts_S1x524288_S524288 := by
  after_results_simp
  rfl

theorem term_v4 : (StableHlo.after hostOps0 W (Proc.devRef .tc main_v4) : IVec S524288 32)
    = shapeCast S524288 (extractStridedSlice S1x524288 ![1, 0] (W (Proc.devRef .tc main_arg10) : IVec S2x524288 32)
        slices_S2x524288_S1x524288_1_0) shapeCasts_S1x524288_S524288 := by
  after_results_simp
  rfl

theorem term_v12 : (StableHlo.after hostOps0 W (Proc.devRef .tc main_v12) : S16384.Idx → EReal)
    = Host.divf (F := Ideal) (broadcastInDim S16384 ![] bcast_S_S16384 (constant (F := Ideal) S_ .f32 0x3F800000#32))
        (maximumf
          (Host.scatterAdd (F := Ideal) scatter_S16384_S524288x1_S524288_n_0_0_1
            (broadcastInDim S16384 ![] bcast_S_S16384 (constant (F := Ideal) S_ .f32 0x00000000#32))
            (broadcastInDim S524288x1 ![0] bcast_S524288_S524288x1_0
              (shapeCast S524288 (extractStridedSlice S1x524288 ![0, 0] (W (Proc.devRef .tc main_arg10) : IVec S2x524288 32)
                slices_S2x524288_S1x524288_0_0) shapeCasts_S1x524288_S524288))
            (broadcastInDim S524288 ![] bcast_S_S524288 (constant (F := Ideal) S_ .f32 0x3F800000#32)))
          (broadcastInDim S16384 ![] bcast_S_S16384 (constant (F := Ideal) S_ .f32 0x3F800000#32))) := by
  after_results_simp
  rfl

theorem term_v20 : (StableHlo.after hostOps0 W (Proc.devRef .tc main_v20) : S16384x64.Idx → EReal)
    = shapeCast S16384x64
        (Host.scatterAdd (F := Ideal) scatter_S1048576_S524288x1_S524288_n_0_0_1
          (broadcastInDim S1048576 ![] bcast_S_S1048576 (constant (F := Ideal) S_ .f32 0x00000000#32))
          (broadcastInDim S524288x1 ![0] bcast_S524288_S524288x1_0
            (addi
              (muli
                (shapeCast S524288 (extractStridedSlice S1x524288 ![0, 0] (W (Proc.devRef .tc main_arg10) : IVec S2x524288 32)
                  slices_S2x524288_S1x524288_0_0) shapeCasts_S1x524288_S524288)
                (broadcastInDim S524288 ![] bcast_S_S524288 (constantI S_ 32 64#32)))
              (W (Proc.devRef .tc main_arg11) : IVec S524288 32)))
          (broadcastInDim S524288 ![] bcast_S_S524288 (constant (F := Ideal) S_ .f32 0x3F800000#32)))
        shapeCasts_S1048576_S16384x64 := by
  after_results_simp
  rfl

theorem term_v22 : (StableHlo.after hostOps0 W (Proc.devRef .tc main_v22) : S256x256.Idx → EReal)
    = shapeCast S256x256 (extractStridedSlice S1x256x256 ![0, 0, 0] (W (Proc.devRef .tc main_arg2) : S2x256x256.Idx → EReal)
        slices_S2x256x256_S1x256x256_0_0_0) shapeCasts_S1x256x256_S256x256 := by
  after_results_simp
  rfl

theorem term_v26 : (StableHlo.after hostOps0 W (Proc.devRef .tc main_v26) : S256x256.Idx → EReal)
    = shapeCast S256x256 (extractStridedSlice S1x256x256 ![0, 0, 0] (W (Proc.devRef .tc main_arg4) : S2x256x256.Idx → EReal)
        slices_S2x256x256_S1x256x256_0_0_0) shapeCasts_S1x256x256_S256x256 := by
  after_results_simp
  rfl

theorem term_v28 : (StableHlo.after hostOps0 W (Proc.devRef .tc main_v28) : S256.Idx → EReal)
    = shapeCast S256 (extractStridedSlice S1x256 ![0, 0] (W (Proc.devRef .tc main_arg5) : S2x256.Idx → EReal)
        slices_S2x256_S1x256_0_0) shapeCasts_S1x256_S256 := by
  after_results_simp
  rfl

theorem term_v34 : (StableHlo.after hostOps0 W (Proc.devRef .tc main_v34) : S256.Idx → EReal)
    = shapeCast S256 (extractStridedSlice S1x256 ![0, 0] (W (Proc.devRef .tc main_arg8) : S2x256.Idx → EReal)
        slices_S2x256_S1x256_0_0) shapeCasts_S1x256_S256 := by
  after_results_simp
  rfl

theorem term_v36 : (StableHlo.after hostOps0 W (Proc.devRef .tc main_v36) : S256.Idx → EReal)
    = shapeCast S256 (extractStridedSlice S1x256 ![0, 0] (W (Proc.devRef .tc main_arg9) : S2x256.Idx → EReal)
        slices_S2x256_S1x256_0_0) shapeCasts_S1x256_S256 := by
  after_results_simp
  rfl

theorem term_v37 : (StableHlo.after hostOps0 W (Proc.devRef .tc main_v37) : S64x256.Idx → EReal)
    = Host.dotGeneral (F := Ideal) (φ₁ := .f32) (φ₂ := .f32) dot_S64x64_S64x256_S64x256_1_0_0_1_n_n none
        (W (Proc.devRef .tc main_arg1) : S64x64.Idx → EReal)
        (shapeCast S64x256 (extractStridedSlice S1x64x256 ![0, 0, 0] (W (Proc.devRef .tc main_arg6) : S2x64x256.Idx → EReal)
          slices_S2x64x256_S1x64x256_0_0_0) shapeCasts_S1x64x256_S64x256) := by
  after_results_simp
  rfl

theorem term_v39 : (StableHlo.after hostOps0 W (Proc.devRef .tc main_v39) : S1x256.Idx → EReal)
    = shapeCast S1x256
        (addf (F := Ideal) (φ := .f32)
          (shapeCast S256 (extractStridedSlice S1x256 ![0, 0] (W (Proc.devRef .tc main_arg3) : S2x256.Idx → EReal)
            slices_S2x256_S1x256_0_0) shapeCasts_S1x256_S256)
          (shapeCast S256 (extractStridedSlice S1x256 ![0, 0] (W (Proc.devRef .tc main_arg7) : S2x256.Idx → EReal)
            slices_S2x256_S1x256_0_0) shapeCasts_S1x256_S256))
        shapeCasts_S256_S1x256 := by
  after_results_simp
  rfl

end Terms

/-! ## The buffers after the stretch, entry by entry -/

section Entries
variable (W : Valuation τ sig (Elt Ideal)) (I : Inputs) (hW : Holds W I)
include hW

/-- The node features the first layer starts from. -/
theorem h0_x0 : ∀ (n : Fin 16384) (d : Fin 256),
    (StableHlo.after hostOps0 W (Proc.devRef .tc main_v0) : S16384x256.Idx → EReal) (ix2 n d) = I.x0 n d := by
  intro n d
  rw [term_v0, hW.data]
  exact rows_flat_apply I.data _ n d

/-- The source words. -/
theorem h0_src : ∀ e : Fin 524288,
    (StableHlo.after hostOps0 W (Proc.devRef .tc main_v2) : IVec S524288 32) (ix1 e) = I.srcW e := by
  intro e
  rw [term_v2, hW.edge]
  exact src_row_apply I _ _ e

/-- The destination words. -/
theorem h0_dst : ∀ e : Fin 524288,
    (StableHlo.after hostOps0 W (Proc.devRef .tc main_v4) : IVec S524288 32) (ix1 e) = I.dstW e := by
  intro e
  rw [term_v4, hW.edge]
  exact dst_row_apply I _ _ e

/-- One over the larger of a node's edge count and one. -/
theorem h0_inv : ∀ n : Fin 16384,
    (StableHlo.after hostOps0 W (Proc.devRef .tc main_v12) : S16384.Idx → EReal) (ix1 n) = Ideal.div 1 (den I.graph n) := by
  intro n
  rw [term_v12, hW.edge]
  exact inv_count_apply I _ _ _ _ _ scatter_S16384_S524288x1_S524288_n_0_0_1_wf n

/-- The histogram of (source, feature) pairs. -/
theorem h0_hist : ∀ (n : Fin 16384) (k : Fin 64),
    (StableHlo.after hostOps0 W (Proc.devRef .tc main_v20) : S16384x64.Idx → EReal) (ix2 n k) = hist I.graph n k := by
  intro n k
  rw [term_v20, hW.edge, hW.ef]
  exact hist_apply I _ _ _ _ _ scatter_S1048576_S524288x1_S524288_n_0_0_1_wf _ n k

/-- The first layer's message weights. -/
theorem h0_Wm : ∀ (j d : Fin 256),
    (StableHlo.after hostOps0 W (Proc.devRef .tc main_v22) : S256x256.Idx → EReal) (ix2 j d) = (I.params 0).Wm j d := by
  intro j d
  rw [term_v22, hW.Wmsg]
  exact slab_of_two_apply 0 I.Wmsg _ _ 0 rfl j d

/-- The first layer's self weights. -/
theorem h0_Ws : ∀ (j d : Fin 256),
    (StableHlo.after hostOps0 W (Proc.devRef .tc main_v26) : S256x256.Idx → EReal) (ix2 j d) = (I.params 0).Ws j d := by
  intro j d
  rw [term_v26, hW.Wself]
  exact slab_of_two_apply 0 I.Wself _ _ 0 rfl j d

/-- The first layer's self bias. -/
theorem h0_bs : ∀ d : Fin 256,
    (StableHlo.after hostOps0 W (Proc.devRef .tc main_v28) : S256.Idx → EReal) (ix1 d) = (I.params 0).bs d := by
  intro d
  rw [term_v28, hW.bself]
  exact row_of_two_apply 0 I.bself _ _ 0 rfl d

/-- The first layer's scale. -/
theorem h0_gam : ∀ d : Fin 256,
    (StableHlo.after hostOps0 W (Proc.devRef .tc main_v34) : S256.Idx → EReal) (ix1 d) = (I.params 0).gam d := by
  intro d
  rw [term_v34, hW.gamma]
  exact row_of_two_apply 0 I.gamma _ _ 0 rfl d

/-- The first layer's shift. -/
theorem h0_bet : ∀ d : Fin 256,
    (StableHlo.after hostOps0 W (Proc.devRef .tc main_v36) : S256.Idx → EReal) (ix1 d) = (I.params 0).bet d := by
  intro d
  rw [term_v36, hW.beta]
  exact row_of_two_apply 0 I.beta _ _ 0 rfl d

/-- The embedding table times the first layer's edge weights. -/
theorem h0_CE : ∀ (k : Fin 64) (d : Fin 256),
    (StableHlo.after hostOps0 W (Proc.devRef .tc main_v37) : S64x256.Idx → EReal) (ix2 k d) = embW I.embT (I.params 0) k d := by
  intro k d
  rw [term_v37, hW.emb, hW.Wedge]
  refine (table_apply dot_S64x64_S64x256_S64x256_1_0_0_1_n_n_wf _ _ k d).trans ?_
  refine Finset.sum_congr rfl fun j _ => ?_
  rw [slab_of_two_apply 0 I.Wedge _ _ 0 rfl j d]
  rfl

/-- The first layer's message bias plus its edge bias. -/
theorem h0_bias : ∀ d : Fin 256,
    (StableHlo.after hostOps0 W (Proc.devRef .tc main_v39) : S1x256.Idx → EReal) (ix2 (0 : Fin 1) d)
      = (I.params 0).bm d + (I.params 0).be d := by
  intro d
  rw [term_v39, hW.bmsg, hW.bedge]
  refine (sum_row_apply _ _ _ d).trans ?_
  rw [row_of_two_apply 0 I.bmsg _ _ 0 rfl d, row_of_two_apply 0 I.bedge _ _ 0 rfl d]
  rfl

end Entries

end Cert.KernelIdeal.Host0

end
-- ==== Proof.LibRowGatherScatter.lean ====
/-
  Rows of a table gathered by, and scattered-and-added at, a column of integer indices, read at one element.

  The table has `N` rows of `C` entries; the indices are an `E × 1` column of machine integers.

  * The gather of rows (what `table[idx]` lowers to: one collapsed axis, one offset axis, the start index naming a
    row) reads, at `(e, k)`, the table's entry `k` of the row the index `e` names — the index read as a signed
    integer and clamped into `[0, N - 1]`.
  * The accumulating scatter of rows (what `segment_sum` / `.at[idx].add` lowers to), at the ideal values, leaves at
    `(i, k)` the operand's entry plus the sum of the updates' entries `k` over the rows `e` whose index, read as a
    signed integer and NOT clamped, is `i`; an index that names no row contributes nowhere.
-/
import Idealize.ShloMosaic.PureOps.Ideal
import Idealize.ShloMosaic.Lib.ValueIdx

noncomputable section

namespace Cert.Gcn

open Idealize.ShloMosaic Idealize.ShloMosaic.ValueIdx
open scoped BigOperators

/-! ## The gather of rows -/

/-- The dimension numbers of a row gather: operand `N × C`, start indices `E × 1`, result `E × C`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, k)`: entry `k` of the row that index `e` names, read signed and clamped into
    `[0, N - 1]`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 ⟨min (idx (ix2 e (0 : Fin 1))).toInt.toNat (N - 1), by omega⟩ k) := by
  unfold Host.gather
  congr 1
  funext a
  refine Fin.ext ?_
  show (rowGatherDims N E C wf).start (ix2 e k) idx a + (rowGatherDims N E C wf).batchCoord (ix2 e k) a
      + (rowGatherDims N E C wf).offCoord (ix2 e k) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (rowGatherDims N E C wf).startIndexMap from List.mem_singleton.mpr rfl)]
    have hsi : (rowGatherDims N E C wf).siIdx (ix2 e k) ⟨List.idxOf (⟨0, by decide⟩ : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e k) idx (1 : Fin 2) + 0
        + (rowGatherDims N E C wf).offCoord (ix2 e k) (1 : Fin 2) = k.val
    have hs : (rowGatherDims N E C wf).start (ix2 e k) idx (1 : Fin 2) = 0 := by
      unfold GatherDims.start
      rw [dif_neg (show (1 : Fin 2) ∉ ([0] : List (Fin 2)) from by decide)]
    have hm : (1 : Fin 2) ∈ (rowGatherDims N E C wf).sKept :=
      (GatherDims.mem_sKept _ _).mpr ⟨show (1 : Fin 2) ∉ ([0] : List (Fin 2)) from by decide, List.not_mem_nil⟩
    rw [hs]
    unfold GatherDims.offCoord
    rw [dif_pos hm]
    simp only [Nat.zero_add]
    rfl

/-! ## The accumulating scatter of rows -/

/-- The dimension numbers of a row scatter: operand `N × C`, scatter indices `E × 1`, updates `E × C`. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section
variable {N E C w : Nat} (wf : ScatterDims.WF ⟨2, ![N, C]⟩ ⟨2, ![E, 1]⟩ ⟨2, ![E, C]⟩ [1] [0] [0] 1)
  (idx : IVec ⟨2, ![E, 1]⟩ w) (e : Fin E) (k : Fin C)

/-- On the row axis the update `(e, k)` lands at the signed value of index `e`. -/
theorem rowScatter_pos0 :
    (rowScatterDims N E C wf).start (ix2 e k) idx (0 : Fin 2) + ((rowScatterDims N E C wf).window (ix2 e k) (0 : Fin 2) : ℤ)
      = (idx (ix2 e (0 : Fin 1))).toInt := by
  have hw : (rowScatterDims N E C wf).window (ix2 e k) (0 : Fin 2) = 0 := by
    have h0 : (0 : Fin 2) ∉ (rowScatterDims N E C wf).sKept := show (0 : Fin 2) ∉ ([1] : List (Fin 2)) from by decide
    unfold ScatterDims.window
    rw [dif_neg h0]
  rw [hw]
  unfold ScatterDims.start
  rw [dif_pos (show (0 : Fin 2) ∈ ([0] : List (Fin 2)) from by decide)]
  have hsi : (rowScatterDims N E C wf).siIdx (ix2 e k) ⟨List.idxOf (0 : Fin 2) (rowScatterDims N E C wf).scatterDimsToOperandDims,
      List.idxOf_lt_length_iff.2 (show (0 : Fin 2) ∈ ([0] : List (Fin 2)) from by decide)⟩ = ix2 e (0 : Fin 1) := by
    funext b; refine Fin.ext ?_
    match b with
    | ⟨0, _⟩ => rfl
    | ⟨1, _⟩ => rfl
  rw [hsi]
  simp

/-- On the column axis the update `(e, k)` lands at `k`. -/
theorem rowScatter_pos1 :
    (rowScatterDims N E C wf).start (ix2 e k) idx (1 : Fin 2) + ((rowScatterDims N E C wf).window (ix2 e k) (1 : Fin 2) : ℤ)
      = (k.val : ℤ) := by
  have hs : (rowScatterDims N E C wf).start (ix2 e k) idx (1 : Fin 2) = 0 := by
    unfold ScatterDims.start
    rw [dif_neg (show (1 : Fin 2) ∉ ([0] : List (Fin 2)) from by decide)]
  have hw : (rowScatterDims N E C wf).window (ix2 e k) (1 : Fin 2) = k.val := by
    have h1 : (1 : Fin 2) ∈ (rowScatterDims N E C wf).sKept := show (1 : Fin 2) ∈ ([1] : List (Fin 2)) from by decide
    unfold ScatterDims.window
    rw [dif_pos h1]
    rfl
  rw [hs, hw, zero_add]

end

section
variable {N E C w : Nat} (wf : ScatterDims.WF ⟨2, ![N, C]⟩ ⟨2, ![E, 1]⟩ ⟨2, ![E, C]⟩ [1] [0] [0] 1)
  (idx : IVec ⟨2, ![E, 1]⟩ w)

/-- The update `(e, b)` lands on `(i, k)` exactly when index `e`, read signed, is `i` and `b = k`. -/
theorem rowScatter_resultIdx (e : Fin E) (b : Fin C) (i : Fin N) (k : Fin C) :
    (rowScatterDims N E C wf).resultIdx? (ix2 e b) idx = some (ix2 i k)
      ↔ (idx (ix2 e (0 : Fin 1))).toInt = (i.val : ℤ) ∧ b = k := by
  have p0 := rowScatter_pos0 wf idx e b
  have p1 := rowScatter_pos1 wf idx e b
  unfold ScatterDims.resultIdx?
  constructor
  · intro h
    split at h
    · rename_i hb
      have hf := Option.some.inj h
      have h0 : ((rowScatterDims N E C wf).start (ix2 e b) idx (0 : Fin 2)
          + ((rowScatterDims N E C wf).window (ix2 e b) (0 : Fin 2) : ℤ)).toNat = i.val :=
        congrArg (fun f => (f (0 : Fin 2)).val) hf
      have h1 : ((rowScatterDims N E C wf).start (ix2 e b) idx (1 : Fin 2)
          + ((rowScatterDims N E C wf).window (ix2 e b) (1 : Fin 2) : ℤ)).toNat = k.val :=
        congrArg (fun f => (f (1 : Fin 2)).val) hf
      have b0 := (hb (0 : Fin 2)).1
      rw [p0] at h0 b0
      rw [p1] at h1
      exact ⟨by omega, Fin.ext (by omega)⟩
    · exact absurd h (by simp)
  · rintro ⟨h0, rfl⟩
    have hb : ∀ a : Fin 2, 0 ≤ (rowScatterDims N E C wf).start (ix2 e b) idx a + ((rowScatterDims N E C wf).window (ix2 e b) a : ℤ)
        ∧ (rowScatterDims N E C wf).start (ix2 e b) idx a + ((rowScatterDims N E C wf).window (ix2 e b) a : ℤ)
          < (((⟨2, ![N, C]⟩ : Shape).size a : ℕ) : ℤ) := by
      intro a
      match a with
      | ⟨0, _⟩ =>
        show 0 ≤ (rowScatterDims N E C wf).start (ix2 e b) idx (0 : Fin 2) + ((rowScatterDims N E C wf).window (ix2 e b) (0 : Fin 2) : ℤ)
          ∧ (rowScatterDims N E C wf).start (ix2 e b) idx (0 : Fin 2) + ((rowScatterDims N E C wf).window (ix2 e b) (0 : Fin 2) : ℤ) < ((N : ℕ) : ℤ)
        rw [p0, h0]
        exact ⟨by omega, by exact_mod_cast i.isLt⟩
      | ⟨1, _⟩ =>
        show 0 ≤ (rowScatterDims N E C wf).start (ix2 e b) idx (1 : Fin 2) + ((rowScatterDims N E C wf).window (ix2 e b) (1 : Fin 2) : ℤ)
          ∧ (rowScatterDims N E C wf).start (ix2 e b) idx (1 : Fin 2) + ((rowScatterDims N E C wf).window (ix2 e b) (1 : Fin 2) : ℤ) < ((C : ℕ) : ℤ)
        rw [p1]
        exact ⟨by omega, by exact_mod_cast b.isLt⟩
    rw [dif_pos hb]
    congr 1
    funext a
    refine Fin.ext ?_
    match a with
    | ⟨0, _⟩ =>
      show ((rowScatterDims N E C wf).start (ix2 e b) idx (0 : Fin 2) + ((rowScatterDims N E C wf).window (ix2 e b) (0 : Fin 2) : ℤ)).toNat = i.val
      rw [p0, h0]; simp
    | ⟨1, _⟩ =>
      show ((rowScatterDims N E C wf).start (ix2 e b) idx (1 : Fin 2) + ((rowScatterDims N E C wf).window (ix2 e b) (1 : Fin 2) : ℤ)).toNat = b.val
      rw [p1]; simp

/-- THE ACCUMULATING ROW SCATTER READ AT `(i, k)`, at the ideal values: the operand's entry plus the sum of the
    updates' entries `k` over the rows `e` whose index, read signed, is `i`. -/
theorem scatterAdd_rows_apply (x : (⟨2, ![N, C]⟩ : Shape).Idx → EReal) (upd : (⟨2, ![E, C]⟩ : Shape).Idx → EReal)
    (i : Fin N) (k : Fin C) :
    Ideal.hostScatterAdd (rowScatterDims N E C wf) x idx upd (ix2 i k)
      = x (ix2 i k) + ∑ e ∈ Finset.univ.filter (fun e : Fin E => (idx (ix2 e (0 : Fin 1))).toInt = (i.val : ℤ)), upd (ix2 e k) := by
  unfold Ideal.hostScatterAdd
  congr 1
  rw [Finset.sum_filter, sum_idx2, Finset.sum_filter]
  refine Finset.sum_congr rfl fun e _ => ?_
  simp only [rowScatter_resultIdx wf idx e _ i k]
  by_cases h : (idx (ix2 e (0 : Fin 1))).toInt = (i.val : ℤ)
  · simp [h]
  · simp [h]

end

end Cert.Gcn

end
-- ==== Proof.KHost1.lean ====
/-
  The message aggregation between a layer's first and second kernel, read entry by entry.

  The stretch takes the node transform (16384 rows of 256 entries), the edges' destination words and the edges'
  source words. A destination word that is negative as a signed integer is counted from the end (16384 is added);
  the words are laid out as a column, and each edge takes the row of the node transform its column entry names
  (read signed, clamped to a row that exists). The rows taken are then added, edge by edge, into a table of zeros
  at the row the edge's SOURCE word names, read signed and not clamped: a source that names no row adds nowhere.
  So entry (n, d) of the result is the sum, over the edges whose source is n, of entry d of the row of the node
  transform the edge's destination names. The stretch's other result is the self bias laid out as a row.
-/
import proofs.«410086_j81595788689991_2_alg».proof.Proof.Gen.KernelIdeal.Launch
import proofs.«410086_j81595788689991_2_alg».proof.Proof.KIn
import proofs.«410086_j81595788689991_2_alg».proof.Proof.Consts
import proofs.«410086_j81595788689991_2_alg».proof.Proof.LibRowGatherScatter
import Idealize.ShloMosaic.Lib.StableHlo.Run
import Idealize.ShloMosaic.Lib.ValueLayout
import Idealize.ShloMosaic.Lib.Pipeline.Value

noncomputable section

namespace Cert.KernelIdeal.Host1

open Cert.KernelIdeal Cert.KernelIdeal.Gen Cert.KernelIdeal.Val Cert.Gnn Idealize.ShloMosaic Idealize.ShloMosaic.ValueIdx
open scoped BigOperators

/-! ## Vectors over the edges as columns, and the wrapped destination -/

section Columns
variable (hb0 : S_.BroadcastsInDim S524288 (![] : Fin 0 → Fin S524288.rank))
  (hb1 : S524288.BroadcastsInDim S524288x1 (![0] : Fin 1 → Fin S524288x1.rank))

/-- A scalar spread over the edges reads the scalar at every edge. -/
theorem h1_spread_apply {α : Type} (c : S_.Idx → α) (i : S524288.Idx) :
    broadcastInDim S524288 ![] hb0 c i = c ix0 :=
  broadcastInDim_apply _ hb0 c i ix0 fun a => a.elim0

/-- A vector over the edges laid out as a column reads, at `(e, 0)`, the vector's entry `e`. -/
theorem h1_column_apply {α : Type} (v : S524288.Idx → α) (e : Fin 524288) :
    broadcastInDim S524288x1 ![0] hb1 v (ix2 e (0 : Fin 1)) = v (ix1 e) :=
  broadcastInDim_apply _ hb1 v _ (ix1 e) fun a => by
    match a with
    | ⟨0, _⟩ =>
      rw [if_neg (show ¬ S524288.size ⟨0, by decide⟩ = 1 by decide)]
      rfl

/-- The destination words, the negative ones counted from the end, as a column: at `(e, 0)` the wrapped word of
    edge `e`. -/
theorem h1_wrapColumn_apply (dst : IVec S524288 32) (e : Fin 524288) :
    broadcastInDim S524288x1 ![0] hb1
        (select (cmpi .slt dst (broadcastInDim S524288 ![] hb0 (constantI S_ 32 0#32)))
          (addi dst (broadcastInDim S524288 ![] hb0 (constantI S_ 32 16384#32))) dst) (ix2 e (0 : Fin 1))
      = wrapW 16384#32 (dst (ix1 e)) := by
  rw [h1_column_apply]
  show Scalar.select (IntOp.cmpi .slt (dst (ix1 e)) (broadcastInDim S524288 ![] hb0 (constantI S_ 32 0#32) (ix1 e)))
      (IntOp.addi (dst (ix1 e)) (broadcastInDim S524288 ![] hb0 (constantI S_ 32 16384#32) (ix1 e))) (dst (ix1 e)) = _
  rw [h1_spread_apply, h1_spread_apply]
  rfl

end Columns

/-! ## The aggregation over variables -/

section Aggregate
variable (hb0 : S_.BroadcastsInDim S524288 (![] : Fin 0 → Fin S524288.rank))
  (hb1 : S524288.BroadcastsInDim S524288x1 (![0] : Fin 1 → Fin S524288x1.rank))
  (hbz : S_.BroadcastsInDim S16384x256 (![] : Fin 0 → Fin S16384x256.rank))
  (wfG : GatherDims.WF S16384x256 S524288x1 S524288x256 [1] [0] [] [0] [] 1 ![1, 256])
  (wfS : ScatterDims.WF S16384x256 S524288x1 S524288x256 [1] [0] [0] 1)

/-- Rows taken by the wrapped destination column and added into zeros at the source column: entry `(n, d)` is the
    sum, over the edges whose source word is `n` as a signed integer, of entry `d` of the row the edge's
    destination names. -/
theorem h1_aggregate_apply (x : S16384x256.Idx → EReal) (src dst : IVec S524288 32) (n : Fin 16384) (d : Fin 256) :
    Ideal.hostScatterAdd (Cert.Gcn.rowScatterDims 16384 524288 256 wfS)
        (broadcastInDim S16384x256 ![] hbz (constant (F := Ideal) S_ .f32 0x00000000#32))
        (broadcastInDim S524288x1 ![0] hb1 src)
        (Host.gather (Cert.Gcn.rowGatherDims 16384 524288 256 wfG) x
          (broadcastInDim S524288x1 ![0] hb1
            (select (cmpi .slt dst (broadcastInDim S524288 ![] hb0 (constantI S_ 32 0#32)))
              (addi dst (broadcastInDim S524288 ![] hb0 (constantI S_ 32 16384#32))) dst))) (ix2 n d)
      = ∑ e ∈ Finset.univ.filter (fun e : Fin 524288 => (src (ix1 e)).toInt = (n.val : ℤ)),
          x (ix2 (⟨min (wrapW 16384#32 (dst (ix1 e))).toInt.toNat (16384 - 1), by omega⟩ : Fin 16384) d) := by
  have hz : broadcastInDim S16384x256 ![] hbz (constant (F := Ideal) S_ .f32 0x00000000#32) (ix2 n d) = 0 := by
    rw [broadcastInDim_apply _ hbz _ _ ix0 fun a => a.elim0]
    exact ofBits_zero
  rw [Cert.Gcn.scatterAdd_rows_apply, hz, zero_add]
  refine Finset.sum_congr (Finset.filter_congr fun e _ => by rw [h1_column_apply hb1]) fun e _ => ?_
  rw [Cert.Gcn.gather_rows_apply (by decide : 0 < 16384) wfG]
  simp only [h1_wrapColumn_apply hb0 hb1]

end Aggregate

/-! ## The stretch -/

/-- The printed dimension records of the row gather and of the accumulating row scatter are the row forms. -/
theorem h1_gatherDims :
    gather_S16384x256_S524288x1_S524288x256_1_0_n_n_0_1_1256
      = Cert.Gcn.rowGatherDims 16384 524288 256 gather_S16384x256_S524288x1_S524288x256_1_0_n_n_0_1_1256_wf := rfl
theorem h1_scatterDims :
    scatter_S16384x256_S524288x1_S524288x256_1_0_0_1
      = Cert.Gcn.rowScatterDims 16384 524288 256 scatter_S16384x256_S524288x1_S524288x256_1_0_0_1_wf := rfl

variable (W : Valuation τ sig (Elt Ideal))

/-- The aggregate the stretch leaves, as the operations' composed term of the buffers it reads. -/
theorem h1_v50_eq :
    (StableHlo.after hostOps1 W (Proc.devRef .tc main_v50) : S16384x256.Idx → EReal)
      = Host.scatterAdd (F := Ideal) scatter_S16384x256_S524288x1_S524288x256_1_0_0_1
          (broadcastInDim S16384x256 ![] bcast_S_S16384x256 (constant (F := Ideal) S_ .f32 0x00000000#32))
          (broadcastInDim S524288x1 ![0] bcast_S524288_S524288x1_0 (W (Proc.devRef .tc main_v2) : IVec S524288 32))
          (Host.gather gather_S16384x256_S524288x1_S524288x256_1_0_n_n_0_1_1256
            (W (Proc.devRef .tc main_v40) : S16384x256.Idx → EReal)
            (broadcastInDim S524288x1 ![0] bcast_S524288_S524288x1_0
              (select (cmpi .slt (W (Proc.devRef .tc main_v4) : IVec S524288 32) (broadcastInDim S524288 ![] bcast_S_S524288 (constantI S_ 32 0#32)))
                (addi (W (Proc.devRef .tc main_v4) : IVec S524288 32) (broadcastInDim S524288 ![] bcast_S_S524288 (constantI S_ 32 16384#32)))
                (W (Proc.devRef .tc main_v4) : IVec S524288 32)))) := by
  after_results_simp

/-- THE AGGREGATE: entry `(n, d)` after the stretch is the sum, over the edges that leave node `n`, of entry `d` of
    the row of the node transform the edge carries. -/
theorem h1_agg (I : Inputs)
    (h2 : ∀ e : Fin 524288, (W (Proc.devRef .tc main_v2) : IVec S524288 32) (ix1 e) = I.srcW e)
    (h4 : ∀ e : Fin 524288, (W (Proc.devRef .tc main_v4) : IVec S524288 32) (ix1 e) = I.dstW e)
    (n : Fin 16384) (d : Fin 256) :
    (StableHlo.after hostOps1 W (Proc.devRef .tc main_v50) : S16384x256.Idx → EReal) (ix2 n d)
      = (∑ e ∈ seg I.graph n, (W (Proc.devRef .tc main_v40) : S16384x256.Idx → EReal) (ix2 (I.graph.dstRow e) d) : EReal) := by
  rw [h1_v50_eq]
  show Ideal.hostScatterAdd scatter_S16384x256_S524288x1_S524288x256_1_0_0_1 _ _ _ (ix2 n d) = _
  rw [h1_scatterDims, h1_gatherDims, h1_aggregate_apply]
  refine Finset.sum_congr (Finset.filter_congr fun e _ => by rw [h2 e]; rfl) fun e _ => ?_
  simp only [h4 e]
  rfl

/-- The self bias as a row: entry `(0, d)` after the stretch is the bias's entry `d`. -/
theorem h1_bs (d : Fin 256) :
    (StableHlo.after hostOps1 W (Proc.devRef .tc main_v51) : S1x256.Idx → EReal) (ix2 (0 : Fin 1) d)
      = (W (Proc.devRef .tc main_v28) : S256.Idx → EReal) (ix1 d) := by
  have e : (StableHlo.after hostOps1 W (Proc.devRef .tc main_v51) : S1x256.Idx → EReal)
      = shapeCast S1x256 (W (Proc.devRef .tc main_v28) : S256.Idx → EReal) shapeCasts_S256_S1x256 := by
    after_results
    rfl
  rw [e]
  exact shapeCast_a_1a_apply _ _ (0 : Fin 1) d

/-! ## What the stretch leaves alone

The stretch writes its own fourteen results and nothing else: every other buffer holds afterwards what it held
before. Stated for the buffers the layer's second kernel reads besides the two results above. -/

/-- No operation of the stretch writes the buffer `r`, given that `r` is none of the fourteen results. -/
theorem h1_untouched (r : Ref sig .tc)
    (hr : r ≠ main_c_5 ∧ r ≠ main_v41 ∧ r ≠ main_v42 ∧ r ≠ main_c_6 ∧ r ≠ main_v43 ∧ r ≠ main_v44 ∧ r ≠ main_v45
      ∧ r ≠ main_v46 ∧ r ≠ main_v47 ∧ r ≠ main_cst_7 ∧ r ≠ main_v48 ∧ r ≠ main_v49 ∧ r ≠ main_v50 ∧ r ≠ main_v51) :
    StableHlo.after hostOps1 W (Proc.devRef .tc r) = W (Proc.devRef .tc r) := by
  obtain ⟨r1, r2, r3, r4, r5, r6, r7, r8, r9, r10, r11, r12, r13, r14⟩ := hr
  refine StableHlo.after_of_forall_not_mem (b := Proc.devRef .tc r) _ _ (List.forall_iff_forall_mem.mp ?_)
  simp only [hostOps1, List.Forall, StableHlo.nullary_writes, StableHlo.unary_writes, StableHlo.binary_writes,
    StableHlo.ternary_writes, StableHlo.reshape_writes, Finset.mem_singleton]
  exact ⟨StableHlo.devRef_ne_of_ne r1, StableHlo.devRef_ne_of_ne r2, StableHlo.devRef_ne_of_ne r3,
    StableHlo.devRef_ne_of_ne r4, StableHlo.devRef_ne_of_ne r5, StableHlo.devRef_ne_of_ne r6,
    StableHlo.devRef_ne_of_ne r7, StableHlo.devRef_ne_of_ne r8, StableHlo.devRef_ne_of_ne r9,
    StableHlo.devRef_ne_of_ne r10, StableHlo.devRef_ne_of_ne r11, StableHlo.devRef_ne_of_ne r12,
    StableHlo.devRef_ne_of_ne r13, StableHlo.devRef_ne_of_ne r14⟩

/-- The node transform, the node features, the histogram, the embedded table, the reciprocal counts and the self
    weights are as the stretch found them. -/
theorem h1_keep40 : StableHlo.after hostOps1 W (Proc.devRef .tc main_v40) = W (Proc.devRef .tc main_v40) :=
  h1_untouched W main_v40 (by decide)
theorem h1_keep0 : StableHlo.after hostOps1 W (Proc.devRef .tc main_v0) = W (Proc.devRef .tc main_v0) :=
  h1_untouched W main_v0 (by decide)
theorem h1_keep20 : StableHlo.after hostOps1 W (Proc.devRef .tc main_v20) = W (Proc.devRef .tc main_v20) :=
  h1_untouched W main_v20 (by decide)
theorem h1_keep37 : StableHlo.after hostOps1 W (Proc.devRef .tc main_v37) = W (Proc.devRef .tc main_v37) :=
  h1_untouched W main_v37 (by decide)
theorem h1_keep12 : StableHlo.after hostOps1 W (Proc.devRef .tc main_v12) = W (Proc.devRef .tc main_v12) :=
  h1_untouched W main_v12 (by decide)
theorem h1_keep26 : StableHlo.after hostOps1 W (Proc.devRef .tc main_v26) = W (Proc.devRef .tc main_v26) :=
  h1_untouched W main_v26 (by decide)

end Cert.KernelIdeal.Host1

end
-- ==== Proof.KHost2.lean ====
/-
  The normalisation's statistics, as the host computes them between the layer's pre-normalisation kernel and the
  kernel that normalises.

  From the array `y` of 16384 rows and 256 columns the host forms, per column `d`: the mean (the column's sum divided
  by the number of rows, a float constant); the variance (the sum over the rows of the squared deviation from that
  mean, divided by the same constant minus a converted integer zero, and kept only where that divisor is positive:
  elsewhere a fixed constant stands in); and it lays the scale and the shift of the normalisation, two vectors of 256
  entries, out as rows. Read at a column, the first two are the specification's `colMean` and `colVar` of `y`: the
  scalar constants are the very terms the specification names and are never evaluated. The array `y` itself is
  left as it was.
-/
import proofs.«410086_j81595788689991_2_alg».proof.Proof.Gen.KernelIdeal.Launch
import proofs.«410086_j81595788689991_2_alg».proof.Proof.KIn
import proofs.«410086_j81595788689991_2_alg».proof.Proof.Spec
import proofs.«410086_j81595788689991_2_alg».proof.Proof.Consts
import Idealize.ShloMosaic.Lib.StableHlo.Run
import Idealize.ShloMosaic.Lib.IdealHost
import Idealize.ShloMosaic.Lib.Pipeline.Value
import Idealize.ShloMosaic.PureOps.Ideal.Laws

noncomputable section

namespace Cert.KernelIdeal.Host2

open Cert.KernelIdeal Cert.KernelIdeal.Gen Cert.KernelIdeal.Val Cert.Gnn Idealize.ShloMosaic Idealize.ShloMosaic.ValueIdx
open scoped BigOperators

/-! ## The operations' terms, named, and read at an index over arbitrary arrays -/

/-- The column means laid out as a row: each column's sum over the rows, from the zero word, divided by the row count. -/
def meanRow (x : FVec Ideal S16384x256 .f32) : FVec Ideal S1x256 .f32 :=
  Host.divf (F := Ideal)
    (broadcastInDim S1x256 ![1] bcast_S256_S1x256_1
      (Host.reduceAdd (F := Ideal) x (constant (F := Ideal) S_ .f32 0x00000000#32) reducesTo_S16384x256_S256_d0 h_S_))
    (broadcastInDim S1x256 ![] bcast_S_S1x256 (constant (F := Ideal) S_ .f32 0x46800000#32))

/-- Every entry minus its column's mean. -/
def devs (x : FVec Ideal S16384x256 .f32) : FVec Ideal S16384x256 .f32 :=
  subf x (broadcastInDim S16384x256 ![0, 1] bcast_S1x256_S16384x256_0_1 (meanRow x))

/-- The variance's divisor as a scalar array: the row count minus the converted integer `z`. -/
def offV (z : IVec S_ 32) : FVec Ideal S_ .f32 :=
  subf (constant (F := Ideal) S_ .f32 0x46800000#32) (sitofp .f32 z)

/-- The column variances laid out as a row: the sum of the squared deviations over the divisor where the divisor is
    positive, a fixed constant elsewhere. -/
def varRow (x : FVec Ideal S16384x256 .f32) (z : IVec S_ 32) : FVec Ideal S1x256 .f32 :=
  select
    (broadcastInDim S1x256 ![] bcast_S_S1x256 (cmpf .ogt (offV z) (constant (F := Ideal) S_ .f32 0x00000000#32)))
    (Host.divf (F := Ideal)
      (broadcastInDim S1x256 ![1] bcast_S256_S1x256_1
        (Host.reduceAdd (F := Ideal) (mulf (devs x) (devs x)) (constant (F := Ideal) S_ .f32 0x00000000#32)
          reducesTo_S16384x256_S256_d0 h_S_))
      (broadcastInDim S1x256 ![] bcast_S_S1x256 (offV z)))
    (broadcastInDim S1x256 ![] bcast_S_S1x256 (id (constant (F := Ideal) S_ .f32 0x7FC00000#32)))

/-- The host's sum over the rows, from the zero word, read at column `d`: the plain sum of the column. -/
theorem colSum_apply (x : FVec Ideal S16384x256 .f32) (d : Fin 256) :
    Host.reduceAdd (F := Ideal) x (constant (F := Ideal) S_ .f32 0x00000000#32) reducesTo_S16384x256_S256_d0 h_S_ (ix1 d)
      = ∑ n : Fin 16384, x (ix2 n d) := by
  have hR : S16384x256.Reduces [0] S256 := by decide
  rw [hostReduceAdd_apply, Ideal.hostReduceAdd_single reducesTo_S16384x256_S256_d0 hR, constant_apply, ofBits_zero, zero_add]
  refine Finset.sum_congr rfl fun k _ => congrArg x (funext fun a => Fin.ext ?_)
  match a with
  | ⟨0, _⟩ => rfl
  | ⟨1, _⟩ => rfl

/-- A vector of 256 entries laid out as a row, read at column `d`. -/
theorem row_apply {α : Type} (v : S256.Idx → α) (d : Fin 256) :
    broadcastInDim S1x256 ![1] bcast_S256_S1x256_1 v (ix2 (0 : Fin 1) d) = v (ix1 d) := by
  refine broadcastInDim_apply _ _ _ _ (ix1 d) fun a => ?_
  match a with
  | ⟨0, _⟩ => rfl

/-- A row repeated down the 16384 rows, read at row `n` and column `d`. -/
theorem rows_apply {α : Type} (v : S1x256.Idx → α) (n : Fin 16384) (d : Fin 256) :
    broadcastInDim S16384x256 ![0, 1] bcast_S1x256_S16384x256_0_1 v (ix2 n d) = v (ix2 (0 : Fin 1) d) := by
  refine broadcastInDim_apply _ _ _ _ (ix2 (0 : Fin 1) d) fun a => ?_
  match a with
  | ⟨0, _⟩ => rfl
  | ⟨1, _⟩ => rfl

/-- The row of means at column `d` is the specification's column mean. -/
theorem meanRow_apply (x : FVec Ideal S16384x256 .f32) (d : Fin 256) :
    meanRow x (ix2 (0 : Fin 1) d) = colMean (fun n d => x (ix2 n d)) d := by
  unfold meanRow
  rw [hostDivf_apply, row_apply, colSum_apply, broadcastInDim_scalar_apply, constant_apply]
  rfl

/-- A deviation at row `n` and column `d`. -/
theorem devs_apply (x : FVec Ideal S16384x256 .f32) (n : Fin 16384) (d : Fin 256) :
    devs x (ix2 n d) = x (ix2 n d) - colMean (fun n d => x (ix2 n d)) d := by
  unfold devs
  rw [subf_apply, rows_apply, meanRow_apply]

/-- The row of variances at column `d`, with the integer zero converted in the divisor, is the specification's column
    variance: the divisor and the guard are the specification's own scalar terms. -/
theorem varRow_apply (x : FVec Ideal S16384x256 .f32) (d : Fin 256) :
    varRow x (constantI S_ 32 0#32) (ix2 (0 : Fin 1) d) = colVar (fun n d => x (ix2 n d)) d := by
  unfold varRow
  rw [select_apply, hostDivf_apply, row_apply, colSum_apply, broadcastInDim_scalar_apply, broadcastInDim_scalar_apply,
    broadcastInDim_scalar_apply]
  simp only [mulf_apply, devs_apply]
  rfl

/-! ## The three stretches, from arbitrary entry contents -/

section Stage
variable (W : Valuation τ sig (Elt Ideal))

/-- The contents after the three stretches. -/
abbrev after2 : Valuation τ sig (Elt Ideal) :=
  StableHlo.after hostOps2_2 (StableHlo.after hostOps2_1 (StableHlo.after hostOps2 W))

/-- The means' buffer holds the row of means of the entry array. -/
theorem v56_eq : (after2 W (Proc.devRef .tc main_v56) : S1x256.Idx → EReal)
    = meanRow (W (Proc.devRef .tc main_v52) : S16384x256.Idx → EReal) := by
  show StableHlo.after hostOps2_2 _ (Proc.devRef .tc main_v56) = _
  after_results_simp
  rfl

/-- The variances' buffer holds the row of variances of the entry array, the converted integer being the zero the
    first stretch wrote. -/
theorem v57_eq : (after2 W (Proc.devRef .tc main_v57) : S1x256.Idx → EReal)
    = varRow (W (Proc.devRef .tc main_v52) : S16384x256.Idx → EReal) (constantI S_ 32 0#32) := by
  show StableHlo.after hostOps2_2 _ (Proc.devRef .tc main_v57) = _
  after_results_simp
  rfl

/-- The scale's and the shift's buffers hold the two vectors reshaped to rows. -/
theorem v58_eq : (after2 W (Proc.devRef .tc main_v58) : S1x256.Idx → EReal)
    = shapeCast S1x256 (W (Proc.devRef .tc main_v34) : S256.Idx → EReal) shapeCasts_S256_S1x256 := by
  show StableHlo.after hostOps2_2 _ (Proc.devRef .tc main_v58) = _
  after_results_simp
  rfl

theorem v59_eq : (after2 W (Proc.devRef .tc main_v59) : S1x256.Idx → EReal)
    = shapeCast S1x256 (W (Proc.devRef .tc main_v36) : S256.Idx → EReal) shapeCasts_S256_S1x256 := by
  show StableHlo.after hostOps2_2 _ (Proc.devRef .tc main_v59) = _
  after_results_simp
  rfl

/-- A vector of 256 entries reshaped to a row, read at column `d`. -/
theorem reshapeRow_apply {α : Type} (v : S256.Idx → α) (d : Fin 256) :
    shapeCast S1x256 v shapeCasts_S256_S1x256 (ix2 (0 : Fin 1) d) = v (ix1 d) := by
  refine shapeCast_apply _ _ _ (ix1 d) ?_
  rw [Shape.rowMajor_val_one, Shape.rowMajor_val_two]
  show d.val = 0 * 256 + d.val
  omega

/-- The column means. -/
theorem h2_mean (d : Fin 256) :
    (after2 W (Proc.devRef .tc main_v56) : S1x256.Idx → EReal) (ix2 (0 : Fin 1) d)
      = colMean (fun n d => (W (Proc.devRef .tc main_v52) : S16384x256.Idx → EReal) (ix2 n d)) d := by
  rw [v56_eq]; exact meanRow_apply _ d

/-- The column variances. -/
theorem h2_var (d : Fin 256) :
    (after2 W (Proc.devRef .tc main_v57) : S1x256.Idx → EReal) (ix2 (0 : Fin 1) d)
      = colVar (fun n d => (W (Proc.devRef .tc main_v52) : S16384x256.Idx → EReal) (ix2 n d)) d := by
  rw [v57_eq]; exact varRow_apply _ d

/-- The scale as a row. -/
theorem h2_gam (d : Fin 256) :
    (after2 W (Proc.devRef .tc main_v58) : S1x256.Idx → EReal) (ix2 (0 : Fin 1) d)
      = (W (Proc.devRef .tc main_v34) : S256.Idx → EReal) (ix1 d) := by
  rw [v58_eq]; exact reshapeRow_apply _ d

/-- The shift as a row. -/
theorem h2_bet (d : Fin 256) :
    (after2 W (Proc.devRef .tc main_v59) : S1x256.Idx → EReal) (ix2 (0 : Fin 1) d)
      = (W (Proc.devRef .tc main_v36) : S256.Idx → EReal) (ix1 d) := by
  rw [v59_eq]; exact reshapeRow_apply _ d

/-- None of the three stretches writes the array the statistics are taken of. -/
theorem h2_keep52 : after2 W (Proc.devRef .tc main_v52) = W (Proc.devRef .tc main_v52) := by
  show StableHlo.after hostOps2_2 _ (Proc.devRef .tc main_v52) = _
  after_results_simp

end Stage

end Cert.KernelIdeal.Host2
end
-- ==== Proof.KHost3.lean ====
/-
  What the operations before the second layer's node transform leave in the buffers that layer reads, entry by entry:
  slab 1 of each stacked parameter array, the embedding table times the second layer's edge weights, and the second
  layer's message bias plus its edge bias. The steps are the ones before the first launch, read at slab 1.
-/
import proofs.«410086_j81595788689991_2_alg».proof.Proof.KHost0

noncomputable section

namespace Cert.KernelIdeal.Host3

open Cert.KernelIdeal Cert.KernelIdeal.Gen Cert.KernelIdeal.Val Cert.KernelIdeal.Host0 Cert.Gnn Idealize.ShloMosaic Idealize.ShloMosaic.ValueIdx
open scoped BigOperators

/-! ## The buffers after the stretch, as the operations' composed terms of the argument buffers -/

section Terms
variable (W : Valuation τ sig (Elt Ideal))

theorem term_v62 : (StableHlo.after hostOps3 W (Proc.devRef .tc main_v62) : S256x256.Idx → EReal)
    = shapeCast S256x256 (extractStridedSlice S1x256x256 ![1, 0, 0] (W (Proc.devRef .tc main_arg2) : S2x256x256.Idx → EReal)
        slices_S2x256x256_S1x256x256_1_0_0) shapeCasts_S1x256x256_S256x256 := by
  after_results_simp
  rfl

theorem term_v66 : (StableHlo.after hostOps3 W (Proc.devRef .tc main_v66) : S256x256.Idx → EReal)
    = shapeCast S256x256 (extractStridedSlice S1x256x256 ![1, 0, 0] (W (Proc.devRef .tc main_arg4) : S2x256x256.Idx → EReal)
        slices_S2x256x256_S1x256x256_1_0_0) shapeCasts_S1x256x256_S256x256 := by
  after_results_simp
  rfl

theorem term_v68 : (StableHlo.after hostOps3 W (Proc.devRef .tc main_v68) : S256.Idx → EReal)
    = shapeCast S256 (extractStridedSlice S1x256 ![1, 0] (W (Proc.devRef .tc main_arg5) : S2x256.Idx → EReal)
        slices_S2x256_S1x256_1_0) shapeCasts_S1x256_S256 := by
  after_results_simp
  rfl

theorem term_v74 : (StableHlo.after hostOps3 W (Proc.devRef .tc main_v74) : S256.Idx → EReal)
    = shapeCast S256 (extractStridedSlice S1x256 ![1, 0] (W (Proc.devRef .tc main_arg8) : S2x256.Idx → EReal)
        slices_S2x256_S1x256_1_0) shapeCasts_S1x256_S256 := by
  after_results_simp
  rfl

theorem term_v76 : (StableHlo.after hostOps3 W (Proc.devRef .tc main_v76) : S256.Idx → EReal)
    = shapeCast S256 (extractStridedSlice S1x256 ![1, 0] (W (Proc.devRef .tc main_arg9) : S2x256.Idx → EReal)
        slices_S2x256_S1x256_1_0) shapeCasts_S1x256_S256 := by
  after_results_simp
  rfl

theorem term_v77 : (StableHlo.after hostOps3 W (Proc.devRef .tc main_v77) : S64x256.Idx → EReal)
    = Host.dotGeneral (F := Ideal) (φ₁ := .f32) (φ₂ := .f32) dot_S64x64_S64x256_S64x256_1_0_0_1_n_n none
        (W (Proc.devRef .tc main_arg1) : S64x64.Idx → EReal)
        (shapeCast S64x256 (extractStridedSlice S1x64x256 ![1, 0, 0] (W (Proc.devRef .tc main_arg6) : S2x64x256.Idx → EReal)
          slices_S2x64x256_S1x64x256_1_0_0) shapeCasts_S1x64x256_S64x256) := by
  after_results_simp
  rfl

theorem term_v79 : (StableHlo.after hostOps3 W (Proc.devRef .tc main_v79) : S1x256.Idx → EReal)
    = shapeCast S1x256
        (addf (F := Ideal) (φ := .f32)
          (shapeCast S256 (extractStridedSlice S1x256 ![1, 0] (W (Proc.devRef .tc main_arg3) : S2x256.Idx → EReal)
            slices_S2x256_S1x256_1_0) shapeCasts_S1x256_S256)
          (shapeCast S256 (extractStridedSlice S1x256 ![1, 0] (W (Proc.devRef .tc main_arg7) : S2x256.Idx → EReal)
            slices_S2x256_S1x256_1_0) shapeCasts_S1x256_S256))
        shapeCasts_S256_S1x256 := by
  after_results_simp
  rfl

end Terms

/-! ## The buffers after the stretch, entry by entry -/

section Entries
variable (W : Valuation τ sig (Elt Ideal)) (I : Inputs) (hW : Holds W I)
include hW

/-- The second layer's message weights. -/
theorem h3_Wm : ∀ (j d : Fin 256),
    (StableHlo.after hostOps3 W (Proc.devRef .tc main_v62) : S256x256.Idx → EReal) (ix2 j d) = (I.params 1).Wm j d := by
  intro j d
  rw [term_v62, hW.Wmsg]
  exact slab_of_two_apply 1 I.Wmsg _ _ 1 rfl j d

/-- The second layer's self weights. -/
theorem h3_Ws : ∀ (j d : Fin 256),
    (StableHlo.after hostOps3 W (Proc.devRef .tc main_v66) : S256x256.Idx → EReal) (ix2 j d) = (I.params 1).Ws j d := by
  intro j d
  rw [term_v66, hW.Wself]
  exact slab_of_two_apply 1 I.Wself _ _ 1 rfl j d

/-- The second layer's self bias. -/
theorem h3_bs : ∀ d : Fin 256,
    (StableHlo.after hostOps3 W (Proc.devRef .tc main_v68) : S256.Idx → EReal) (ix1 d) = (I.params 1).bs d := by
  intro d
  rw [term_v68, hW.bself]
  exact row_of_two_apply 1 I.bself _ _ 1 rfl d

/-- The second layer's scale. -/
theorem h3_gam : ∀ d : Fin 256,
    (StableHlo.after hostOps3 W (Proc.devRef .tc main_v74) : S256.Idx → EReal) (ix1 d) = (I.params 1).gam d := by
  intro d
  rw [term_v74, hW.gamma]
  exact row_of_two_apply 1 I.gamma _ _ 1 rfl d

/-- The second layer's shift. -/
theorem h3_bet : ∀ d : Fin 256,
    (StableHlo.after hostOps3 W (Proc.devRef .tc main_v76) : S256.Idx → EReal) (ix1 d) = (I.params 1).bet d := by
  intro d
  rw [term_v76, hW.beta]
  exact row_of_two_apply 1 I.beta _ _ 1 rfl d

/-- The embedding table times the second layer's edge weights. -/
theorem h3_CE : ∀ (k : Fin 64) (d : Fin 256),
    (StableHlo.after hostOps3 W (Proc.devRef .tc main_v77) : S64x256.Idx → EReal) (ix2 k d) = embW I.embT (I.params 1) k d := by
  intro k d
  rw [term_v77, hW.emb, hW.Wedge]
  refine (table_apply dot_S64x64_S64x256_S64x256_1_0_0_1_n_n_wf _ _ k d).trans ?_
  refine Finset.sum_congr rfl fun j _ => ?_
  rw [slab_of_two_apply 1 I.Wedge _ _ 1 rfl j d]
  rfl

/-- The second layer's message bias plus its edge bias. -/
theorem h3_bias : ∀ d : Fin 256,
    (StableHlo.after hostOps3 W (Proc.devRef .tc main_v79) : S1x256.Idx → EReal) (ix2 (0 : Fin 1) d)
      = (I.params 1).bm d + (I.params 1).be d := by
  intro d
  rw [term_v79, hW.bmsg, hW.bedge]
  refine (sum_row_apply _ _ _ d).trans ?_
  rw [row_of_two_apply 1 I.bmsg _ _ 1 rfl d, row_of_two_apply 1 I.bedge _ _ 1 rfl d]
  rfl

end Entries

end Cert.KernelIdeal.Host3

end
-- ==== Proof.KHost4.lean ====
/-
  The message aggregation between a layer's first and second kernel, read entry by entry.

  The stretch takes the node transform (16384 rows of 256 entries), the edges' destination words and the edges'
  source words. A destination word that is negative as a signed integer is counted from the end (16384 is added);
  the words are laid out as a column, and each edge takes the row of the node transform its column entry names
  (read signed, clamped to a row that exists). The rows taken are then added, edge by edge, into a table of zeros
  at the row the edge's SOURCE word names, read signed and not clamped: a source that names no row adds nowhere.
  So entry (n, d) of the result is the sum, over the edges whose source is n, of entry d of the row of the node
  transform the edge's destination names. The stretch's other result is the self bias laid out as a row.
-/
import proofs.«410086_j81595788689991_2_alg».proof.Proof.Gen.KernelIdeal.Launch
import proofs.«410086_j81595788689991_2_alg».proof.Proof.KIn
import proofs.«410086_j81595788689991_2_alg».proof.Proof.Consts
import proofs.«410086_j81595788689991_2_alg».proof.Proof.LibRowGatherScatter
import Idealize.ShloMosaic.Lib.StableHlo.Run
import Idealize.ShloMosaic.Lib.ValueLayout
import Idealize.ShloMosaic.Lib.Pipeline.Value

noncomputable section

namespace Cert.KernelIdeal.Host4

open Cert.KernelIdeal Cert.KernelIdeal.Gen Cert.KernelIdeal.Val Cert.Gnn Idealize.ShloMosaic Idealize.ShloMosaic.ValueIdx
open scoped BigOperators

/-! ## Vectors over the edges as columns, and the wrapped destination -/

section Columns
variable (hb0 : S_.BroadcastsInDim S524288 (![] : Fin 0 → Fin S524288.rank))
  (hb1 : S524288.BroadcastsInDim S524288x1 (![0] : Fin 1 → Fin S524288x1.rank))

/-- A scalar spread over the edges reads the scalar at every edge. -/
theorem h4_spread_apply {α : Type} (c : S_.Idx → α) (i : S524288.Idx) :
    broadcastInDim S524288 ![] hb0 c i = c ix0 :=
  broadcastInDim_apply _ hb0 c i ix0 fun a => a.elim0

/-- A vector over the edges laid out as a column reads, at `(e, 0)`, the vector's entry `e`. -/
theorem h4_column_apply {α : Type} (v : S524288.Idx → α) (e : Fin 524288) :
    broadcastInDim S524288x1 ![0] hb1 v (ix2 e (0 : Fin 1)) = v (ix1 e) :=
  broadcastInDim_apply _ hb1 v _ (ix1 e) fun a => by
    match a with
    | ⟨0, _⟩ =>
      rw [if_neg (show ¬ S524288.size ⟨0, by decide⟩ = 1 by decide)]
      rfl

/-- The destination words, the negative ones counted from the end, as a column: at `(e, 0)` the wrapped word of
    edge `e`. -/
theorem h4_wrapColumn_apply (dst : IVec S524288 32) (e : Fin 524288) :
    broadcastInDim S524288x1 ![0] hb1
        (select (cmpi .slt dst (broadcastInDim S524288 ![] hb0 (constantI S_ 32 0#32)))
          (addi dst (broadcastInDim S524288 ![] hb0 (constantI S_ 32 16384#32))) dst) (ix2 e (0 : Fin 1))
      = wrapW 16384#32 (dst (ix1 e)) := by
  rw [h4_column_apply]
  show Scalar.select (IntOp.cmpi .slt (dst (ix1 e)) (broadcastInDim S524288 ![] hb0 (constantI S_ 32 0#32) (ix1 e)))
      (IntOp.addi (dst (ix1 e)) (broadcastInDim S524288 ![] hb0 (constantI S_ 32 16384#32) (ix1 e))) (dst (ix1 e)) = _
  rw [h4_spread_apply, h4_spread_apply]
  rfl

end Columns

/-! ## The aggregation over variables -/

section Aggregate
variable (hb0 : S_.BroadcastsInDim S524288 (![] : Fin 0 → Fin S524288.rank))
  (hb1 : S524288.BroadcastsInDim S524288x1 (![0] : Fin 1 → Fin S524288x1.rank))
  (hbz : S_.BroadcastsInDim S16384x256 (![] : Fin 0 → Fin S16384x256.rank))
  (wfG : GatherDims.WF S16384x256 S524288x1 S524288x256 [1] [0] [] [0] [] 1 ![1, 256])
  (wfS : ScatterDims.WF S16384x256 S524288x1 S524288x256 [1] [0] [0] 1)

/-- Rows taken by the wrapped destination column and added into zeros at the source column: entry `(n, d)` is the
    sum, over the edges whose source word is `n` as a signed integer, of entry `d` of the row the edge's
    destination names. -/
theorem h4_aggregate_apply (x : S16384x256.Idx → EReal) (src dst : IVec S524288 32) (n : Fin 16384) (d : Fin 256) :
    Ideal.hostScatterAdd (Cert.Gcn.rowScatterDims 16384 524288 256 wfS)
        (broadcastInDim S16384x256 ![] hbz (constant (F := Ideal) S_ .f32 0x00000000#32))
        (broadcastInDim S524288x1 ![0] hb1 src)
        (Host.gather (Cert.Gcn.rowGatherDims 16384 524288 256 wfG) x
          (broadcastInDim S524288x1 ![0] hb1
            (select (cmpi .slt dst (broadcastInDim S524288 ![] hb0 (constantI S_ 32 0#32)))
              (addi dst (broadcastInDim S524288 ![] hb0 (constantI S_ 32 16384#32))) dst))) (ix2 n d)
      = ∑ e ∈ Finset.univ.filter (fun e : Fin 524288 => (src (ix1 e)).toInt = (n.val : ℤ)),
          x (ix2 (⟨min (wrapW 16384#32 (dst (ix1 e))).toInt.toNat (16384 - 1), by omega⟩ : Fin 16384) d) := by
  have hz : broadcastInDim S16384x256 ![] hbz (constant (F := Ideal) S_ .f32 0x00000000#32) (ix2 n d) = 0 := by
    rw [broadcastInDim_apply _ hbz _ _ ix0 fun a => a.elim0]
    exact ofBits_zero
  rw [Cert.Gcn.scatterAdd_rows_apply, hz, zero_add]
  refine Finset.sum_congr (Finset.filter_congr fun e _ => by rw [h4_column_apply hb1]) fun e _ => ?_
  rw [Cert.Gcn.gather_rows_apply (by decide : 0 < 16384) wfG]
  simp only [h4_wrapColumn_apply hb0 hb1]

end Aggregate

/-! ## The stretch -/

/-- The printed dimension records of the row gather and of the accumulating row scatter are the row forms. -/
theorem h4_gatherDims :
    gather_S16384x256_S524288x1_S524288x256_1_0_n_n_0_1_1256
      = Cert.Gcn.rowGatherDims 16384 524288 256 gather_S16384x256_S524288x1_S524288x256_1_0_n_n_0_1_1256_wf := rfl
theorem h4_scatterDims :
    scatter_S16384x256_S524288x1_S524288x256_1_0_0_1
      = Cert.Gcn.rowScatterDims 16384 524288 256 scatter_S16384x256_S524288x1_S524288x256_1_0_0_1_wf := rfl

variable (W : Valuation τ sig (Elt Ideal))

/-- The aggregate the stretch leaves, as the operations' composed term of the buffers it reads. -/
theorem h4_v90_eq :
    (StableHlo.after hostOps4 W (Proc.devRef .tc main_v90) : S16384x256.Idx → EReal)
      = Host.scatterAdd (F := Ideal) scatter_S16384x256_S524288x1_S524288x256_1_0_0_1
          (broadcastInDim S16384x256 ![] bcast_S_S16384x256 (constant (F := Ideal) S_ .f32 0x00000000#32))
          (broadcastInDim S524288x1 ![0] bcast_S524288_S524288x1_0 (W (Proc.devRef .tc main_v2) : IVec S524288 32))
          (Host.gather gather_S16384x256_S524288x1_S524288x256_1_0_n_n_0_1_1256
            (W (Proc.devRef .tc main_v80) : S16384x256.Idx → EReal)
            (broadcastInDim S524288x1 ![0] bcast_S524288_S524288x1_0
              (select (cmpi .slt (W (Proc.devRef .tc main_v4) : IVec S524288 32) (broadcastInDim S524288 ![] bcast_S_S524288 (constantI S_ 32 0#32)))
                (addi (W (Proc.devRef .tc main_v4) : IVec S524288 32) (broadcastInDim S524288 ![] bcast_S_S524288 (constantI S_ 32 16384#32)))
                (W (Proc.devRef .tc main_v4) : IVec S524288 32)))) := by
  after_results_simp

/-- THE AGGREGATE: entry `(n, d)` after the stretch is the sum, over the edges that leave node `n`, of entry `d` of
    the row of the node transform the edge carries. -/
theorem h4_agg (I : Inputs)
    (h2 : ∀ e : Fin 524288, (W (Proc.devRef .tc main_v2) : IVec S524288 32) (ix1 e) = I.srcW e)
    (h4 : ∀ e : Fin 524288, (W (Proc.devRef .tc main_v4) : IVec S524288 32) (ix1 e) = I.dstW e)
    (n : Fin 16384) (d : Fin 256) :
    (StableHlo.after hostOps4 W (Proc.devRef .tc main_v90) : S16384x256.Idx → EReal) (ix2 n d)
      = (∑ e ∈ seg I.graph n, (W (Proc.devRef .tc main_v80) : S16384x256.Idx → EReal) (ix2 (I.graph.dstRow e) d) : EReal) := by
  rw [h4_v90_eq]
  show Ideal.hostScatterAdd scatter_S16384x256_S524288x1_S524288x256_1_0_0_1 _ _ _ (ix2 n d) = _
  rw [h4_scatterDims, h4_gatherDims, h4_aggregate_apply]
  refine Finset.sum_congr (Finset.filter_congr fun e _ => by rw [h2 e]; rfl) fun e _ => ?_
  simp only [h4 e]
  rfl

/-- The self bias as a row: entry `(0, d)` after the stretch is the bias's entry `d`. -/
theorem h4_bs (d : Fin 256) :
    (StableHlo.after hostOps4 W (Proc.devRef .tc main_v91) : S1x256.Idx → EReal) (ix2 (0 : Fin 1) d)
      = (W (Proc.devRef .tc main_v68) : S256.Idx → EReal) (ix1 d) := by
  have e : (StableHlo.after hostOps4 W (Proc.devRef .tc main_v91) : S1x256.Idx → EReal)
      = shapeCast S1x256 (W (Proc.devRef .tc main_v68) : S256.Idx → EReal) shapeCasts_S256_S1x256 := by
    after_results
    rfl
  rw [e]
  exact shapeCast_a_1a_apply _ _ (0 : Fin 1) d

/-! ## What the stretch leaves alone

The stretch writes its own fourteen results and nothing else: every other buffer holds afterwards what it held
before. Stated for the buffers the layer's second kernel reads besides the two results above. -/

/-- No operation of the stretch writes the buffer `r`, given that `r` is none of the fourteen results. -/
theorem h4_untouched (r : Ref sig .tc)
    (hr : r ≠ main_c_11 ∧ r ≠ main_v81 ∧ r ≠ main_v82 ∧ r ≠ main_c_12 ∧ r ≠ main_v83 ∧ r ≠ main_v84 ∧ r ≠ main_v85
      ∧ r ≠ main_v86 ∧ r ≠ main_v87 ∧ r ≠ main_cst_13 ∧ r ≠ main_v88 ∧ r ≠ main_v89 ∧ r ≠ main_v90 ∧ r ≠ main_v91) :
    StableHlo.after hostOps4 W (Proc.devRef .tc r) = W (Proc.devRef .tc r) := by
  obtain ⟨r1, r2, r3, r4, r5, r6, r7, r8, r9, r10, r11, r12, r13, r14⟩ := hr
  refine StableHlo.after_of_forall_not_mem (b := Proc.devRef .tc r) _ _ (List.forall_iff_forall_mem.mp ?_)
  simp only [hostOps4, List.Forall, StableHlo.nullary_writes, StableHlo.unary_writes, StableHlo.binary_writes,
    StableHlo.ternary_writes, StableHlo.reshape_writes, Finset.mem_singleton]
  exact ⟨StableHlo.devRef_ne_of_ne r1, StableHlo.devRef_ne_of_ne r2, StableHlo.devRef_ne_of_ne r3,
    StableHlo.devRef_ne_of_ne r4, StableHlo.devRef_ne_of_ne r5, StableHlo.devRef_ne_of_ne r6,
    StableHlo.devRef_ne_of_ne r7, StableHlo.devRef_ne_of_ne r8, StableHlo.devRef_ne_of_ne r9,
    StableHlo.devRef_ne_of_ne r10, StableHlo.devRef_ne_of_ne r11, StableHlo.devRef_ne_of_ne r12,
    StableHlo.devRef_ne_of_ne r13, StableHlo.devRef_ne_of_ne r14⟩

/-- The node transform, the node features, the histogram, the embedded table, the reciprocal counts and the self
    weights are as the stretch found them. -/
theorem h4_keep80 : StableHlo.after hostOps4 W (Proc.devRef .tc main_v80) = W (Proc.devRef .tc main_v80) :=
  h4_untouched W main_v80 (by decide)
theorem h4_keep60 : StableHlo.after hostOps4 W (Proc.devRef .tc main_v60) = W (Proc.devRef .tc main_v60) :=
  h4_untouched W main_v60 (by decide)
theorem h4_keep20 : StableHlo.after hostOps4 W (Proc.devRef .tc main_v20) = W (Proc.devRef .tc main_v20) :=
  h4_untouched W main_v20 (by decide)
theorem h4_keep77 : StableHlo.after hostOps4 W (Proc.devRef .tc main_v77) = W (Proc.devRef .tc main_v77) :=
  h4_untouched W main_v77 (by decide)
theorem h4_keep12 : StableHlo.after hostOps4 W (Proc.devRef .tc main_v12) = W (Proc.devRef .tc main_v12) :=
  h4_untouched W main_v12 (by decide)
theorem h4_keep66 : StableHlo.after hostOps4 W (Proc.devRef .tc main_v66) = W (Proc.devRef .tc main_v66) :=
  h4_untouched W main_v66 (by decide)

end Cert.KernelIdeal.Host4

end
-- ==== Proof.KHost5.lean ====
/-
  The normalisation's statistics, as the host computes them between the layer's pre-normalisation kernel and the
  kernel that normalises.

  From the array `y` of 16384 rows and 256 columns the host forms, per column `d`: the mean (the column's sum divided
  by the number of rows, a float constant); the variance (the sum over the rows of the squared deviation from that
  mean, divided by the same constant minus a converted integer zero, and kept only where that divisor is positive:
  elsewhere a fixed constant stands in); and it lays the scale and the shift of the normalisation, two vectors of 256
  entries, out as rows. Read at a column, the first two are the specification's `colMean` and `colVar` of `y`: the
  scalar constants are the very terms the specification names and are never evaluated. The array `y` itself is
  left as it was.
-/
import proofs.«410086_j81595788689991_2_alg».proof.Proof.Gen.KernelIdeal.Launch
import proofs.«410086_j81595788689991_2_alg».proof.Proof.KIn
import proofs.«410086_j81595788689991_2_alg».proof.Proof.Spec
import proofs.«410086_j81595788689991_2_alg».proof.Proof.Consts
import Idealize.ShloMosaic.Lib.StableHlo.Run
import Idealize.ShloMosaic.Lib.IdealHost
import Idealize.ShloMosaic.Lib.Pipeline.Value
import Idealize.ShloMosaic.PureOps.Ideal.Laws

noncomputable section

namespace Cert.KernelIdeal.Host5

open Cert.KernelIdeal Cert.KernelIdeal.Gen Cert.KernelIdeal.Val Cert.Gnn Idealize.ShloMosaic Idealize.ShloMosaic.ValueIdx
open scoped BigOperators

/-! ## The operations' terms, named, and read at an index over arbitrary arrays -/

/-- The column means laid out as a row: each column's sum over the rows, from the zero word, divided by the row count. -/
def meanRow (x : FVec Ideal S16384x256 .f32) : FVec Ideal S1x256 .f32 :=
  Host.divf (F := Ideal)
    (broadcastInDim S1x256 ![1] bcast_S256_S1x256_1
      (Host.reduceAdd (F := Ideal) x (constant (F := Ideal) S_ .f32 0x00000000#32) reducesTo_S16384x256_S256_d0 h_S_))
    (broadcastInDim S1x256 ![] bcast_S_S1x256 (constant (F := Ideal) S_ .f32 0x46800000#32))

/-- Every entry minus its column's mean. -/
def devs (x : FVec Ideal S16384x256 .f32) : FVec Ideal S16384x256 .f32 :=
  subf x (broadcastInDim S16384x256 ![0, 1] bcast_S1x256_S16384x256_0_1 (meanRow x))

/-- The variance's divisor as a scalar array: the row count minus the converted integer `z`. -/
def offV (z : IVec S_ 32) : FVec Ideal S_ .f32 :=
  subf (constant (F := Ideal) S_ .f32 0x46800000#32) (sitofp .f32 z)

/-- The column variances laid out as a row: the sum of the squared deviations over the divisor where the divisor is
    positive, a fixed constant elsewhere. -/
def varRow (x : FVec Ideal S16384x256 .f32) (z : IVec S_ 32) : FVec Ideal S1x256 .f32 :=
  select
    (broadcastInDim S1x256 ![] bcast_S_S1x256 (cmpf .ogt (offV z) (constant (F := Ideal) S_ .f32 0x00000000#32)))
    (Host.divf (F := Ideal)
      (broadcastInDim S1x256 ![1] bcast_S256_S1x256_1
        (Host.reduceAdd (F := Ideal) (mulf (devs x) (devs x)) (constant (F := Ideal) S_ .f32 0x00000000#32)
          reducesTo_S16384x256_S256_d0 h_S_))
      (broadcastInDim S1x256 ![] bcast_S_S1x256 (offV z)))
    (broadcastInDim S1x256 ![] bcast_S_S1x256 (id (constant (F := Ideal) S_ .f32 0x7FC00000#32)))

/-- The host's sum over the rows, from the zero word, read at column `d`: the plain sum of the column. -/
theorem colSum_apply (x : FVec Ideal S16384x256 .f32) (d : Fin 256) :
    Host.reduceAdd (F := Ideal) x (constant (F := Ideal) S_ .f32 0x00000000#32) reducesTo_S16384x256_S256_d0 h_S_ (ix1 d)
      = ∑ n : Fin 16384, x (ix2 n d) := by
  have hR : S16384x256.Reduces [0] S256 := by decide
  rw [hostReduceAdd_apply, Ideal.hostReduceAdd_single reducesTo_S16384x256_S256_d0 hR, constant_apply, ofBits_zero, zero_add]
  refine Finset.sum_congr rfl fun k _ => congrArg x (funext fun a => Fin.ext ?_)
  match a with
  | ⟨0, _⟩ => rfl
  | ⟨1, _⟩ => rfl

/-- A vector of 256 entries laid out as a row, read at column `d`. -/
theorem row_apply {α : Type} (v : S256.Idx → α) (d : Fin 256) :
    broadcastInDim S1x256 ![1] bcast_S256_S1x256_1 v (ix2 (0 : Fin 1) d) = v (ix1 d) := by
  refine broadcastInDim_apply _ _ _ _ (ix1 d) fun a => ?_
  match a with
  | ⟨0, _⟩ => rfl

/-- A row repeated down the 16384 rows, read at row `n` and column `d`. -/
theorem rows_apply {α : Type} (v : S1x256.Idx → α) (n : Fin 16384) (d : Fin 256) :
    broadcastInDim S16384x256 ![0, 1] bcast_S1x256_S16384x256_0_1 v (ix2 n d) = v (ix2 (0 : Fin 1) d) := by
  refine broadcastInDim_apply _ _ _ _ (ix2 (0 : Fin 1) d) fun a => ?_
  match a with
  | ⟨0, _⟩ => rfl
  | ⟨1, _⟩ => rfl

/-- The row of means at column `d` is the specification's column mean. -/
theorem meanRow_apply (x : FVec Ideal S16384x256 .f32) (d : Fin 256) :
    meanRow x (ix2 (0 : Fin 1) d) = colMean (fun n d => x (ix2 n d)) d := by
  unfold meanRow
  rw [hostDivf_apply, row_apply, colSum_apply, broadcastInDim_scalar_apply, constant_apply]
  rfl

/-- A deviation at row `n` and column `d`. -/
theorem devs_apply (x : FVec Ideal S16384x256 .f32) (n : Fin 16384) (d : Fin 256) :
    devs x (ix2 n d) = x (ix2 n d) - colMean (fun n d => x (ix2 n d)) d := by
  unfold devs
  rw [subf_apply, rows_apply, meanRow_apply]

/-- The row of variances at column `d`, with the integer zero converted in the divisor, is the specification's column
    variance: the divisor and the guard are the specification's own scalar terms. -/
theorem varRow_apply (x : FVec Ideal S16384x256 .f32) (d : Fin 256) :
    varRow x (constantI S_ 32 0#32) (ix2 (0 : Fin 1) d) = colVar (fun n d => x (ix2 n d)) d := by
  unfold varRow
  rw [select_apply, hostDivf_apply, row_apply, colSum_apply, broadcastInDim_scalar_apply, broadcastInDim_scalar_apply,
    broadcastInDim_scalar_apply]
  simp only [mulf_apply, devs_apply]
  rfl

/-! ## The three stretches, from arbitrary entry contents -/

section Stage
variable (W : Valuation τ sig (Elt Ideal))

/-- The contents after the three stretches. -/
abbrev after5 : Valuation τ sig (Elt Ideal) :=
  StableHlo.after hostOps5_2 (StableHlo.after hostOps5_1 (StableHlo.after hostOps5 W))

/-- The means' buffer holds the row of means of the entry array. -/
theorem v96_eq : (after5 W (Proc.devRef .tc main_v96) : S1x256.Idx → EReal)
    = meanRow (W (Proc.devRef .tc main_v92) : S16384x256.Idx → EReal) := by
  show StableHlo.after hostOps5_2 _ (Proc.devRef .tc main_v96) = _
  after_results_simp
  rfl

/-- The variances' buffer holds the row of variances of the entry array, the converted integer being the zero the
    first stretch wrote. -/
theorem v97_eq : (after5 W (Proc.devRef .tc main_v97) : S1x256.Idx → EReal)
    = varRow (W (Proc.devRef .tc main_v92) : S16384x256.Idx → EReal) (constantI S_ 32 0#32) := by
  show StableHlo.after hostOps5_2 _ (Proc.devRef .tc main_v97) = _
  after_results_simp
  rfl

/-- The scale's and the shift's buffers hold the two vectors reshaped to rows. -/
theorem v98_eq : (after5 W (Proc.devRef .tc main_v98) : S1x256.Idx → EReal)
    = shapeCast S1x256 (W (Proc.devRef .tc main_v74) : S256.Idx → EReal) shapeCasts_S256_S1x256 := by
  show StableHlo.after hostOps5_2 _ (Proc.devRef .tc main_v98) = _
  after_results_simp
  rfl

theorem v99_eq : (after5 W (Proc.devRef .tc main_v99) : S1x256.Idx → EReal)
    = shapeCast S1x256 (W (Proc.devRef .tc main_v76) : S256.Idx → EReal) shapeCasts_S256_S1x256 := by
  show StableHlo.after hostOps5_2 _ (Proc.devRef .tc main_v99) = _
  after_results_simp
  rfl

/-- A vector of 256 entries reshaped to a row, read at column `d`. -/
theorem reshapeRow_apply {α : Type} (v : S256.Idx → α) (d : Fin 256) :
    shapeCast S1x256 v shapeCasts_S256_S1x256 (ix2 (0 : Fin 1) d) = v (ix1 d) := by
  refine shapeCast_apply _ _ _ (ix1 d) ?_
  rw [Shape.rowMajor_val_one, Shape.rowMajor_val_two]
  show d.val = 0 * 256 + d.val
  omega

/-- The column means. -/
theorem h5_mean (d : Fin 256) :
    (after5 W (Proc.devRef .tc main_v96) : S1x256.Idx → EReal) (ix2 (0 : Fin 1) d)
      = colMean (fun n d => (W (Proc.devRef .tc main_v92) : S16384x256.Idx → EReal) (ix2 n d)) d := by
  rw [v96_eq]; exact meanRow_apply _ d

/-- The column variances. -/
theorem h5_var (d : Fin 256) :
    (after5 W (Proc.devRef .tc main_v97) : S1x256.Idx → EReal) (ix2 (0 : Fin 1) d)
      = colVar (fun n d => (W (Proc.devRef .tc main_v92) : S16384x256.Idx → EReal) (ix2 n d)) d := by
  rw [v97_eq]; exact varRow_apply _ d

/-- The scale as a row. -/
theorem h5_gam (d : Fin 256) :
    (after5 W (Proc.devRef .tc main_v98) : S1x256.Idx → EReal) (ix2 (0 : Fin 1) d)
      = (W (Proc.devRef .tc main_v74) : S256.Idx → EReal) (ix1 d) := by
  rw [v98_eq]; exact reshapeRow_apply _ d

/-- The shift as a row. -/
theorem h5_bet (d : Fin 256) :
    (after5 W (Proc.devRef .tc main_v99) : S1x256.Idx → EReal) (ix2 (0 : Fin 1) d)
      = (W (Proc.devRef .tc main_v76) : S256.Idx → EReal) (ix1 d) := by
  rw [v99_eq]; exact reshapeRow_apply _ d

/-- None of the three stretches writes the array the statistics are taken of. -/
theorem h5_keep92 : after5 W (Proc.devRef .tc main_v92) = W (Proc.devRef .tc main_v92) := by
  show StableHlo.after hostOps5_2 _ (Proc.devRef .tc main_v92) = _
  after_results_simp

end Stage

end Cert.KernelIdeal.Host5
end
-- ==== Proof.KHost6.lean ====
/-
  The network's result laid back out by batch: the last stretch regroups the 16384 rows of the second layer's
  result as 32 groups of 512 rows. Row-major positions are kept, so entry (b, s, d) of the regrouped array is entry
  (512 b + s, d) of the matrix.
-/
import proofs.«410086_j81595788689991_2_alg».proof.Proof.Gen.KernelIdeal.Launch
import proofs.«410086_j81595788689991_2_alg».proof.Proof.KIn
import Idealize.ShloMosaic.Lib.StableHlo.Run
import Idealize.ShloMosaic.Lib.Pipeline.Value

noncomputable section

namespace Cert.KernelIdeal.Host6

open Cert.KernelIdeal Cert.KernelIdeal.Gen Cert.KernelIdeal.Val Cert.Gnn Idealize.ShloMosaic Idealize.ShloMosaic.ValueIdx

/-- A matrix of 16384 rows regrouped as 32 groups of 512 rows reads, at `(b, s, d)`, the matrix at
    `(512 b + s, d)`. -/
theorem h6_regroup_apply (h : S16384x256.ShapeCasts S32x512x256) (x : S16384x256.Idx → EReal) (i : S32x512x256.Idx) :
    shapeCast S32x512x256 x h i
      = x (ix2 (⟨(i 0).val * 512 + (i 1).val, by
              have h0 : (i 0).val < 32 := idx3_lt0 i
              have h1 : (i 1).val < 512 := idx3_lt1 i
              show _ < 16384; omega⟩ : Fin Nn)
            (⟨(i 2).val, (idx3_lt2 i : (i 2).val < 256)⟩ : Fin Dd)) := by
  refine shapeCast_apply x h i _ ?_
  rw [Shape.rowMajor_val_two, Shape.rowMajor_val_three]
  rfl

variable (W : Valuation τ sig (Elt Ideal))

/-- THE RESULT: entry `(b, s, d)` after the last stretch is entry `(512 b + s, d)` of the second layer's result. -/
theorem h6_out (i : S32x512x256.Idx) :
    (StableHlo.after hostOps6 W (Proc.devRef .tc main_v101) : S32x512x256.Idx → EReal) i
      = (W (Proc.devRef .tc main_v100) : S16384x256.Idx → EReal)
          (ix2 (⟨(i 0).val * 512 + (i 1).val, by
                  have h0 : (i 0).val < 32 := idx3_lt0 i
                  have h1 : (i 1).val < 512 := idx3_lt1 i
                  show _ < 16384; omega⟩ : Fin Nn)
                (⟨(i 2).val, (idx3_lt2 i : (i 2).val < 256)⟩ : Fin Dd)) := by
  have e : (StableHlo.after hostOps6 W (Proc.devRef .tc main_v101) : S32x512x256.Idx → EReal)
      = shapeCast S32x512x256 (W (Proc.devRef .tc main_v100) : S16384x256.Idx → EReal) shapeCasts_S16384x256_S32x512x256 := by
    after_results
    rfl
  rw [e]
  exact h6_regroup_apply _ _ i

end Cert.KernelIdeal.Host6

end
-- ==== Proof.KValue.lean ====
/-
  What the kernel program leaves in its result: the network of Spec.lean, computed the kernel's way, applied to the
  argument arrays.

  The program alternates host stretches and kernel regions; the contents of a core's buffers are followed from
  boundary to boundary. Layer one: the first host stretch lays out the node features, the edge rows, the reciprocal
  edge counts, the (source, feature) histogram, the layer's parameter slices, the embedded table and the summed
  bias; region 0 applies the per-node affine map; the next stretch gathers its rows by destination and sums them
  per source; region 1 adds the histogram times the embedded table, multiplies by the reciprocal count and adds the
  self term: the layer before its normalisation; the next stretches take its column means and variances; region 2
  normalises and takes the maximum with zero. Layer two repeats this from layer one's output with the second set of
  parameters, and the last stretch lays the 16384 × 256 result out as 32 × 512 × 256. A buffer that a later step
  reads and no step in between writes keeps its contents (the table of carries).
-/
import proofs.«410086_j81595788689991_2_alg».proof.Proof.KIn
import proofs.«410086_j81595788689991_2_alg».proof.Proof.KKeep
import proofs.«410086_j81595788689991_2_alg».proof.Proof.KRegA0
import proofs.«410086_j81595788689991_2_alg».proof.Proof.KRegA3
import proofs.«410086_j81595788689991_2_alg».proof.Proof.KRegB1
import proofs.«410086_j81595788689991_2_alg».proof.Proof.KRegB4
import proofs.«410086_j81595788689991_2_alg».proof.Proof.KRegC2
import proofs.«410086_j81595788689991_2_alg».proof.Proof.KRegC5
import proofs.«410086_j81595788689991_2_alg».proof.Proof.KHost0
import proofs.«410086_j81595788689991_2_alg».proof.Proof.KHost1
import proofs.«410086_j81595788689991_2_alg».proof.Proof.KHost2
import proofs.«410086_j81595788689991_2_alg».proof.Proof.KHost3
import proofs.«410086_j81595788689991_2_alg».proof.Proof.KHost4
import proofs.«410086_j81595788689991_2_alg».proof.Proof.KHost5
import proofs.«410086_j81595788689991_2_alg».proof.Proof.KHost6

noncomputable section

namespace Cert.KernelIdeal.Whole

open Cert.KernelIdeal Cert.KernelIdeal.Gen Cert.KernelIdeal.Val Cert.KernelIdeal.Keep Cert.Gnn
open Idealize.ShloMosaic Idealize.ShloMosaic.TcCoe Idealize.ShloMosaic.ValueIdx
open scoped BigOperators

variable (m : (ℓ : Loc nD τ sig) → Buf (Elt Ideal) ℓ) (ρ : Dev nD → PrngReg) (c : Dev nD)

/-- The argument arrays core `c` is launched with. -/
abbrev inp : Inputs := inputsOf (W0 m ρ c)

theorem holds0 : Holds (W0 m ρ c) (inp m ρ c) := holds_inputsOf _

/-- No step up to the end of layer one writes an argument. -/
theorem holds8 : Holds (W8 m ρ c) (inp m ρ c) :=
  ⟨keep_arg0_W0_W8 m ρ c, keep_arg1_W0_W8 m ρ c, keep_arg2_W0_W8 m ρ c, keep_arg3_W0_W8 m ρ c,
   keep_arg4_W0_W8 m ρ c, keep_arg5_W0_W8 m ρ c, keep_arg6_W0_W8 m ρ c, keep_arg7_W0_W8 m ρ c,
   keep_arg8_W0_W8 m ρ c, keep_arg9_W0_W8 m ρ c, keep_arg10_W0_W8 m ρ c, keep_arg11_W0_W8 m ρ c⟩

/-! ## Each region's output array when the region exits -/

theorem out0 : (dat0 (F := Ideal) (V1 m ρ) c).arrAt 3 cfg0.N = W2 m ρ c (Proc.devRef .tc main_v40) := (W2_arr m ρ c 3).symm
theorem out1 : (dat1 (F := Ideal) (V3 m ρ) c).arrAt 7 cfg1.N = W4 m ρ c (Proc.devRef .tc main_v52) := (W4_arr m ρ c 7).symm
theorem out2 : (dat2 (F := Ideal) (V7 m ρ) c).arrAt 5 cfg2.N = W8 m ρ c (Proc.devRef .tc main_v60) := (W8_arr m ρ c 5).symm
theorem out3 : (dat3 (F := Ideal) (V9 m ρ) c).arrAt 3 cfg3.N = W10 m ρ c (Proc.devRef .tc main_v80) := (W10_arr m ρ c 3).symm
theorem out4 : (dat4 (F := Ideal) (V11 m ρ) c).arrAt 7 cfg4.N = W12 m ρ c (Proc.devRef .tc main_v92) := (W12_arr m ρ c 7).symm
theorem out5 : (dat5 (F := Ideal) (V15 m ρ) c).arrAt 5 cfg5.N = W16 m ρ c (Proc.devRef .tc main_v100) := (W16_arr m ρ c 5).symm

/-! ## Layer one -/

/-- Region 0: the per-node affine map of the node features. -/
theorem v40_at (n : Fin 16384) (d : Fin 256) :
    (W2 m ρ c (Proc.devRef .tc main_v40) : S16384x256.Idx → EReal) (ix2 n d)
      = nodeT ((inp m ρ c).params 0) (inp m ρ c).x0 n d := by
  refine (RegA0.nodeTransform0_apply_of (V1 m ρ) c (W1 m ρ c (Proc.devRef .tc main_v0))
    (W1 m ρ c (Proc.devRef .tc main_v22)) (W1 m ρ c (Proc.devRef .tc main_v39)) (W2 m ρ c (Proc.devRef .tc main_v40))
    rfl rfl rfl (out0 m ρ c) n d).trans ?_
  unfold nodeT lin
  refine congrArg₂ (· + ·) (Finset.sum_congr rfl fun j _ => congrArg₂ (· * ·) ?_ ?_) ?_
  · exact Host0.h0_x0 (W0 m ρ c) (inp m ρ c) (holds0 m ρ c) n j
  · exact Host0.h0_Wm (W0 m ρ c) (inp m ρ c) (holds0 m ρ c) j d
  · exact Host0.h0_bias (W0 m ρ c) (inp m ρ c) (holds0 m ρ c) d

theorem src2 (e : Fin 524288) : (W2 m ρ c (Proc.devRef .tc main_v2) : IVec S524288 32) (ix1 e) = (inp m ρ c).srcW e :=
  (congrFun (keep_v2_W1_W2 m ρ c) (ix1 e)).trans (Host0.h0_src (W0 m ρ c) (inp m ρ c) (holds0 m ρ c) e)
theorem dst2 (e : Fin 524288) : (W2 m ρ c (Proc.devRef .tc main_v4) : IVec S524288 32) (ix1 e) = (inp m ρ c).dstW e :=
  (congrFun (keep_v4_W1_W2 m ρ c) (ix1 e)).trans (Host0.h0_dst (W0 m ρ c) (inp m ρ c) (holds0 m ρ c) e)

/-- The affine map's rows gathered by destination and summed per source. -/
theorem v50_at (n : Fin 16384) (d : Fin 256) :
    (W3 m ρ c (Proc.devRef .tc main_v50) : S16384x256.Idx → EReal) (ix2 n d)
      = ∑ e ∈ seg (inp m ρ c).graph n, nodeT ((inp m ρ c).params 0) (inp m ρ c).x0 ((inp m ρ c).graph.dstRow e) d :=
  (Host1.h1_agg (W2 m ρ c) (inp m ρ c) (src2 m ρ c) (dst2 m ρ c) n d).trans
    (Finset.sum_congr (M := EReal) rfl fun e _ => v40_at m ρ c _ d)

theorem v51_at (d : Fin 256) :
    (W3 m ρ c (Proc.devRef .tc main_v51) : S1x256.Idx → EReal) (ix2 (0 : Fin 1) d) = ((inp m ρ c).params 0).bs d :=
  ((Host1.h1_bs (W2 m ρ c) d).trans (congrFun (keep_v28_W1_W2 m ρ c) (ix1 d))).trans
    (Host0.h0_bs (W0 m ρ c) (inp m ρ c) (holds0 m ρ c) d)

/-- Region 1: the layer before its normalisation. -/
theorem v52_at (n : Fin 16384) (d : Fin 256) :
    (W4 m ρ c (Proc.devRef .tc main_v52) : S16384x256.Idx → EReal) (ix2 n d)
      = preKer (inp m ρ c).graph (inp m ρ c).embT ((inp m ρ c).params 0) (inp m ρ c).x0 n d := by
  refine ((congrFun (out1 m ρ c).symm (ix2 n d)).trans (PreBN1.preBN_entry (V3 m ρ) c n d)).trans ?_
  have hA : ∀ n d, PreBN1.aggArr (V3 m ρ) c (ix2 n d) = _ := v50_at m ρ c
  have hH : ∀ (n : Fin 16384) (k : Fin 64), PreBN1.histArr (V3 m ρ) c (ix2 n k) = hist (inp m ρ c).graph n k := fun n k =>
    (congrFun (keep_v20_W1_W3 m ρ c) (ix2 n k)).trans (Host0.h0_hist (W0 m ρ c) (inp m ρ c) (holds0 m ρ c) n k)
  have hE : ∀ (k : Fin 64) (d : Fin 256), PreBN1.edgeArr (V3 m ρ) c (ix2 k d) = embW (inp m ρ c).embT ((inp m ρ c).params 0) k d := fun k d =>
    (congrFun (keep_v37_W1_W3 m ρ c) (ix2 k d)).trans (Host0.h0_CE (W0 m ρ c) (inp m ρ c) (holds0 m ρ c) k d)
  have hR : ∀ n : Fin 16384, PreBN1.recipArr (V3 m ρ) c (ix1 n) = Ideal.div 1 (den (inp m ρ c).graph n) := fun n =>
    (congrFun (keep_v12_W1_W3 m ρ c) (ix1 n)).trans (Host0.h0_inv (W0 m ρ c) (inp m ρ c) (holds0 m ρ c) n)
  have hX : ∀ (n : Fin 16384) (j : Fin 256), PreBN1.nodeArr (V3 m ρ) c (ix2 n j) = (inp m ρ c).x0 n j := fun n j =>
    (congrFun (keep_v0_W1_W3 m ρ c) (ix2 n j)).trans (Host0.h0_x0 (W0 m ρ c) (inp m ρ c) (holds0 m ρ c) n j)
  have hS : ∀ (j d : Fin 256), PreBN1.selfWArr (V3 m ρ) c (ix2 j d) = ((inp m ρ c).params 0).Ws j d := fun j d =>
    (congrFun (keep_v26_W1_W3 m ρ c) (ix2 j d)).trans (Host0.h0_Ws (W0 m ρ c) (inp m ρ c) (holds0 m ρ c) j d)
  have hB : ∀ d : Fin 256, PreBN1.biasArr (V3 m ρ) c (ix2 (0 : Fin 1) d) = ((inp m ρ c).params 0).bs d := v51_at m ρ c
  simp only [hA, hH, hE, hR, hX, hS, hB]
  rfl

/-- The layer before its normalisation, as a function. -/
theorem pre0_fun : (fun (n : Fin 16384) (d : Fin 256) => (W4 m ρ c (Proc.devRef .tc main_v52) : S16384x256.Idx → EReal) (ix2 n d))
    = preKer (inp m ρ c).graph (inp m ρ c).embT ((inp m ρ c).params 0) (inp m ρ c).x0 :=
  funext fun n => funext fun d => v52_at m ρ c n d

/-- Region 2: layer one's output. -/
theorem v60_at (n : Fin 16384) (d : Fin 256) :
    (W8 m ρ c (Proc.devRef .tc main_v60) : S16384x256.Idx → EReal) (ix2 n d)
      = layerKer (inp m ρ c).graph (inp m ρ c).embT ((inp m ρ c).params 0) (inp m ρ c).x0 n d := by
  refine ((congrFun (out2 m ρ c).symm (ix2 n d)).trans (RegC2.region_value_of (V7 m ρ) c
    (W7 m ρ c (Proc.devRef .tc main_v52)) (W7 m ρ c (Proc.devRef .tc main_v56)) (W7 m ρ c (Proc.devRef .tc main_v57))
    (W7 m ρ c (Proc.devRef .tc main_v58)) (W7 m ρ c (Proc.devRef .tc main_v59)) rfl rfl rfl rfl rfl n d)).trans ?_
  have e1 : (W7 m ρ c (Proc.devRef .tc main_v52) : S16384x256.Idx → EReal) (ix2 n d)
      = preKer (inp m ρ c).graph (inp m ρ c).embT ((inp m ρ c).params 0) (inp m ρ c).x0 n d :=
    (congrFun (Host2.h2_keep52 (W4 m ρ c)) (ix2 n d)).trans (v52_at m ρ c n d)
  have e2 : (W7 m ρ c (Proc.devRef .tc main_v56) : S1x256.Idx → EReal) (ix2 (0 : Fin 1) d)
      = colMean (preKer (inp m ρ c).graph (inp m ρ c).embT ((inp m ρ c).params 0) (inp m ρ c).x0) d :=
    (Host2.h2_mean (W4 m ρ c) d).trans (by rw [pre0_fun m ρ c])
  have e3 : (W7 m ρ c (Proc.devRef .tc main_v57) : S1x256.Idx → EReal) (ix2 (0 : Fin 1) d)
      = colVar (preKer (inp m ρ c).graph (inp m ρ c).embT ((inp m ρ c).params 0) (inp m ρ c).x0) d :=
    (Host2.h2_var (W4 m ρ c) d).trans (by rw [pre0_fun m ρ c])
  have e4 : (W7 m ρ c (Proc.devRef .tc main_v58) : S1x256.Idx → EReal) (ix2 (0 : Fin 1) d) = ((inp m ρ c).params 0).gam d :=
    ((Host2.h2_gam (W4 m ρ c) d).trans (congrFun (keep_v34_W1_W4 m ρ c) (ix1 d))).trans
      (Host0.h0_gam (W0 m ρ c) (inp m ρ c) (holds0 m ρ c) d)
  have e5 : (W7 m ρ c (Proc.devRef .tc main_v59) : S1x256.Idx → EReal) (ix2 (0 : Fin 1) d) = ((inp m ρ c).params 0).bet d :=
    ((Host2.h2_bet (W4 m ρ c) d).trans (congrFun (keep_v36_W1_W4 m ρ c) (ix1 d))).trans
      (Host0.h0_bet (W0 m ρ c) (inp m ρ c) (holds0 m ρ c) d)
  rw [e1, e2, e3, e4, e5]
  rfl

/-- Layer one's output, as a function. -/
abbrev x1 : Fin 16384 → Fin 256 → EReal :=
  layerKer (inp m ρ c).graph (inp m ρ c).embT ((inp m ρ c).params 0) (inp m ρ c).x0

/-! ## Layer two -/

theorem x1_9 (n : Fin 16384) (j : Fin 256) :
    (W9 m ρ c (Proc.devRef .tc main_v60) : S16384x256.Idx → EReal) (ix2 n j) = x1 m ρ c n j :=
  (congrFun (keep_v60_W8_W9 m ρ c) (ix2 n j)).trans (v60_at m ρ c n j)

/-- Region 3: the per-node affine map of layer one's output. -/
theorem v80_at (n : Fin 16384) (d : Fin 256) :
    (W10 m ρ c (Proc.devRef .tc main_v80) : S16384x256.Idx → EReal) (ix2 n d)
      = nodeT ((inp m ρ c).params 1) (x1 m ρ c) n d := by
  refine (RegA3.nodeTransform3_apply_of (V9 m ρ) c (W9 m ρ c (Proc.devRef .tc main_v60))
    (W9 m ρ c (Proc.devRef .tc main_v62)) (W9 m ρ c (Proc.devRef .tc main_v79)) (W10 m ρ c (Proc.devRef .tc main_v80))
    rfl rfl rfl (out3 m ρ c) n d).trans ?_
  unfold nodeT lin
  refine congrArg₂ (· + ·) (Finset.sum_congr rfl fun j _ => congrArg₂ (· * ·) ?_ ?_) ?_
  · exact x1_9 m ρ c n j
  · exact Host3.h3_Wm (W8 m ρ c) (inp m ρ c) (holds8 m ρ c) j d
  · exact Host3.h3_bias (W8 m ρ c) (inp m ρ c) (holds8 m ρ c) d

theorem src10 (e : Fin 524288) : (W10 m ρ c (Proc.devRef .tc main_v2) : IVec S524288 32) (ix1 e) = (inp m ρ c).srcW e :=
  (congrFun (keep_v2_W1_W10 m ρ c) (ix1 e)).trans (Host0.h0_src (W0 m ρ c) (inp m ρ c) (holds0 m ρ c) e)
theorem dst10 (e : Fin 524288) : (W10 m ρ c (Proc.devRef .tc main_v4) : IVec S524288 32) (ix1 e) = (inp m ρ c).dstW e :=
  (congrFun (keep_v4_W1_W10 m ρ c) (ix1 e)).trans (Host0.h0_dst (W0 m ρ c) (inp m ρ c) (holds0 m ρ c) e)

theorem v90_at (n : Fin 16384) (d : Fin 256) :
    (W11 m ρ c (Proc.devRef .tc main_v90) : S16384x256.Idx → EReal) (ix2 n d)
      = ∑ e ∈ seg (inp m ρ c).graph n, nodeT ((inp m ρ c).params 1) (x1 m ρ c) ((inp m ρ c).graph.dstRow e) d :=
  (Host4.h4_agg (W10 m ρ c) (inp m ρ c) (src10 m ρ c) (dst10 m ρ c) n d).trans
    (Finset.sum_congr (M := EReal) rfl fun e _ => v80_at m ρ c _ d)

theorem v91_at (d : Fin 256) :
    (W11 m ρ c (Proc.devRef .tc main_v91) : S1x256.Idx → EReal) (ix2 (0 : Fin 1) d) = ((inp m ρ c).params 1).bs d :=
  ((Host4.h4_bs (W10 m ρ c) d).trans (congrFun (keep_v68_W9_W10 m ρ c) (ix1 d))).trans
    (Host3.h3_bs (W8 m ρ c) (inp m ρ c) (holds8 m ρ c) d)

/-- Region 4: layer two before its normalisation. -/
theorem v92_at (n : Fin 16384) (d : Fin 256) :
    (W12 m ρ c (Proc.devRef .tc main_v92) : S16384x256.Idx → EReal) (ix2 n d)
      = preKer (inp m ρ c).graph (inp m ρ c).embT ((inp m ρ c).params 1) (x1 m ρ c) n d := by
  refine ((congrFun (out4 m ρ c).symm (ix2 n d)).trans (PreBN4.preBN_entry (V11 m ρ) c n d)).trans ?_
  have hA : ∀ n d, PreBN4.aggArr (V11 m ρ) c (ix2 n d) = _ := v90_at m ρ c
  have hH : ∀ (n : Fin 16384) (k : Fin 64), PreBN4.histArr (V11 m ρ) c (ix2 n k) = hist (inp m ρ c).graph n k := fun n k =>
    (congrFun (keep_v20_W1_W11 m ρ c) (ix2 n k)).trans (Host0.h0_hist (W0 m ρ c) (inp m ρ c) (holds0 m ρ c) n k)
  have hE : ∀ (k : Fin 64) (d : Fin 256), PreBN4.edgeArr (V11 m ρ) c (ix2 k d) = embW (inp m ρ c).embT ((inp m ρ c).params 1) k d := fun k d =>
    (congrFun (keep_v77_W9_W11 m ρ c) (ix2 k d)).trans (Host3.h3_CE (W8 m ρ c) (inp m ρ c) (holds8 m ρ c) k d)
  have hR : ∀ n : Fin 16384, PreBN4.recipArr (V11 m ρ) c (ix1 n) = Ideal.div 1 (den (inp m ρ c).graph n) := fun n =>
    (congrFun (keep_v12_W1_W11 m ρ c) (ix1 n)).trans (Host0.h0_inv (W0 m ρ c) (inp m ρ c) (holds0 m ρ c) n)
  have hX : ∀ (n : Fin 16384) (j : Fin 256), PreBN4.nodeArr (V11 m ρ) c (ix2 n j) = x1 m ρ c n j := fun n j =>
    (congrFun (keep_v60_W8_W11 m ρ c) (ix2 n j)).trans (v60_at m ρ c n j)
  have hS : ∀ (j d : Fin 256), PreBN4.selfWArr (V11 m ρ) c (ix2 j d) = ((inp m ρ c).params 1).Ws j d := fun j d =>
    (congrFun (keep_v66_W9_W11 m ρ c) (ix2 j d)).trans (Host3.h3_Ws (W8 m ρ c) (inp m ρ c) (holds8 m ρ c) j d)
  have hB : ∀ d : Fin 256, PreBN4.biasArr (V11 m ρ) c (ix2 (0 : Fin 1) d) = ((inp m ρ c).params 1).bs d := v91_at m ρ c
  simp only [hA, hH, hE, hR, hX, hS, hB]
  rfl

theorem pre1_fun : (fun (n : Fin 16384) (d : Fin 256) => (W12 m ρ c (Proc.devRef .tc main_v92) : S16384x256.Idx → EReal) (ix2 n d))
    = preKer (inp m ρ c).graph (inp m ρ c).embT ((inp m ρ c).params 1) (x1 m ρ c) :=
  funext fun n => funext fun d => v92_at m ρ c n d

/-- Region 5: layer two's output. -/
theorem v100_at (n : Fin 16384) (d : Fin 256) :
    (W16 m ρ c (Proc.devRef .tc main_v100) : S16384x256.Idx → EReal) (ix2 n d)
      = layerKer (inp m ρ c).graph (inp m ρ c).embT ((inp m ρ c).params 1) (x1 m ρ c) n d := by
  refine ((congrFun (out5 m ρ c).symm (ix2 n d)).trans (RegC5.region_value_of (V15 m ρ) c
    (W15 m ρ c (Proc.devRef .tc main_v92)) (W15 m ρ c (Proc.devRef .tc main_v96)) (W15 m ρ c (Proc.devRef .tc main_v97))
    (W15 m ρ c (Proc.devRef .tc main_v98)) (W15 m ρ c (Proc.devRef .tc main_v99)) rfl rfl rfl rfl rfl n d)).trans ?_
  have e1 : (W15 m ρ c (Proc.devRef .tc main_v92) : S16384x256.Idx → EReal) (ix2 n d)
      = preKer (inp m ρ c).graph (inp m ρ c).embT ((inp m ρ c).params 1) (x1 m ρ c) n d :=
    (congrFun (Host5.h5_keep92 (W12 m ρ c)) (ix2 n d)).trans (v92_at m ρ c n d)
  have e2 : (W15 m ρ c (Proc.devRef .tc main_v96) : S1x256.Idx → EReal) (ix2 (0 : Fin 1) d)
      = colMean (preKer (inp m ρ c).graph (inp m ρ c).embT ((inp m ρ c).params 1) (x1 m ρ c)) d :=
    (Host5.h5_mean (W12 m ρ c) d).trans (by rw [pre1_fun m ρ c])
  have e3 : (W15 m ρ c (Proc.devRef .tc main_v97) : S1x256.Idx → EReal) (ix2 (0 : Fin 1) d)
      = colVar (preKer (inp m ρ c).graph (inp m ρ c).embT ((inp m ρ c).params 1) (x1 m ρ c)) d :=
    (Host5.h5_var (W12 m ρ c) d).trans (by rw [pre1_fun m ρ c])
  have e4 : (W15 m ρ c (Proc.devRef .tc main_v98) : S1x256.Idx → EReal) (ix2 (0 : Fin 1) d) = ((inp m ρ c).params 1).gam d :=
    ((Host5.h5_gam (W12 m ρ c) d).trans (congrFun (keep_v74_W9_W12 m ρ c) (ix1 d))).trans
      (Host3.h3_gam (W8 m ρ c) (inp m ρ c) (holds8 m ρ c) d)
  have e5 : (W15 m ρ c (Proc.devRef .tc main_v99) : S1x256.Idx → EReal) (ix2 (0 : Fin 1) d) = ((inp m ρ c).params 1).bet d :=
    ((Host5.h5_bet (W12 m ρ c) d).trans (congrFun (keep_v76_W9_W12 m ρ c) (ix1 d))).trans
      (Host3.h3_bet (W8 m ρ c) (inp m ρ c) (holds8 m ρ c) d)
  rw [e1, e2, e3, e4, e5]
  rfl

/-! ## The result -/

/-- The kernel program's result array is the network, computed the kernel's way, of the arguments. -/
theorem kernel_value :
    (W17 m ρ c (Proc.devRef .tc main_v101) : S32x512x256.Idx → EReal) = (inp m ρ c).netKer :=
  funext fun i => (Host6.h6_out (W16 m ρ c) i).trans (v100_at m ρ c _ _)

end Cert.KernelIdeal.Whole

end
-- ==== Proof.ROps.lean ====
/-
  The reference program's straight line as a list: every operation of its main function in program order, the
  operations of the two routines it calls (a column variance, which itself calls a select-with-default, and a positive
  part) listed at each call site over that call's own buffers. The list is cut into five stretches that follow the
  computation: first layer up to its pre-normalisation value, first layer's normalisation, second layer likewise twice,
  and the final change of shape. Also: the contents of one core's buffers at launch as a valuation, which at each
  argument buffer is the launch memory there.
-/
import proofs.«410086_j81595788689991_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- First stretch of the straight line, values %0 … %60: the node features flattened to a matrix, the two rows of the
    edge table, the edge-feature index wrapped into range and the embedding rows it selects, the first layer's
    parameter slices, the per-edge message (gathered source row times the message weights, plus the embedded edge
    feature times the edge weights, plus the two biases), its sum over the edges that share a destination, the number
    of such edges clamped below by one, their quotient, and the self term added with its bias. -/
abbrev ops1 : List (HloOp τ sig (Elt F)) :=
  [ StableHlo.reshape main_arg0 main_v0 rfl shapeCasts_S32x512x256_S16384x256,
    StableHlo.unary main_arg10 main_v1 ((extractStridedSlice S1x524288 ![0, 0] · slices_S2x524288_S1x524288_0_0) : (⟨S2x524288, .i32⟩ : BufTy).Contents (Elt F) → (⟨S1x524288, .i32⟩ : BufTy).Contents (Elt F)),
    StableHlo.reshape main_v1 main_v2 rfl shapeCasts_S1x524288_S524288,
    StableHlo.unary main_arg10 main_v3 ((extractStridedSlice S1x524288 ![1, 0] · slices_S2x524288_S1x524288_1_0) : (⟨S2x524288, .i32⟩ : BufTy).Contents (Elt F) → (⟨S1x524288, .i32⟩ : BufTy).Contents (Elt F)),
    StableHlo.reshape main_v3 main_v4 rfl shapeCasts_S1x524288_S524288,
    StableHlo.nullary main_c (constantI S_ 32 0#32),
    StableHlo.unary main_c main_v5 (broadcastInDim S524288 ![] bcast_S_S524288 : (⟨S_, .i32⟩ : BufTy).Contents (Elt F) → (⟨S524288, .i32⟩ : BufTy).Contents (Elt F)),
    StableHlo.binary main_arg11 main_v5 main_v6 (cmpi .slt : (⟨S524288, .i32⟩ : BufTy).Contents (Elt F) → (⟨S524288, .i32⟩ : BufTy).Contents (Elt F) → (⟨S524288, .i1⟩ : BufTy).Contents (Elt F)),
    StableHlo.nullary main_c_0 (constantI S_ 32 64#32),
    StableHlo.unary main_c_0 main_v7 (broadcastInDim S524288 ![] bcast_S_S524288 : (⟨S_, .i32⟩ : BufTy).Contents (Elt F) → (⟨S524288, .i32⟩ : BufTy).Contents (Elt F)),
    StableHlo.binary main_arg11 main_v7 main_v8 (addi : (⟨S524288, .i32⟩ : BufTy).Contents (Elt F) → (⟨S524288, .i32⟩ : BufTy).Contents (Elt F) → (⟨S524288, .i32⟩ : BufTy).Contents (Elt F)),
    StableHlo.ternary main_v6 main_v8 main_arg11 main_v9 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v9 main_v10 (broadcastInDim S524288x1 ![0] bcast_S524288_S524288x1_0 : (⟨S524288, .i32⟩ : BufTy).Contents (Elt F) → (⟨S524288x1, .i32⟩ : BufTy).Contents (Elt F)),
    StableHlo.binary main_arg1 main_v10 main_v11 ((fun x i => Host.gather gather_S64x64_S524288x1_S524288x64_1_0_n_n_0_1_164 x i) : (⟨S64x64, .f32⟩ : BufTy).Contents (Elt F) → (⟨S524288x1, .i32⟩ : BufTy).Contents (Elt F) → (⟨S524288x64, .f32⟩ : BufTy).Contents (Elt F)),
    StableHlo.unary main_arg2 main_v12 ((extractStridedSlice S1x256x256 ![0, 0, 0] · slices_S2x256x256_S1x256x256_0_0_0) : (⟨S2x256x256, .f32⟩ : BufTy).Contents (Elt F) → (⟨S1x256x256, .f32⟩ : BufTy).Contents (Elt F)),
    StableHlo.reshape main_v12 main_v13 rfl shapeCasts_S1x256x256_S256x256,
    StableHlo.unary main_arg3 main_v14 ((extractStridedSlice S1x256 ![0, 0] · slices_S2x256_S1x256_0_0) : (⟨S2x256, .f32⟩ : BufTy).Contents (Elt F) → (⟨S1x256, .f32⟩ : BufTy).Contents (Elt F)),
    StableHlo.reshape main_v14 main_v15 rfl shapeCasts_S1x256_S256,
    StableHlo.unary main_arg4 main_v16 ((extractStridedSlice S1x256x256 ![0, 0, 0] · slices_S2x256x256_S1x256x256_0_0_0) : (⟨S2x256x256, .f32⟩ : BufTy).Contents (Elt F) → (⟨S1x256x256, .f32⟩ : BufTy).Contents (Elt F)),
    StableHlo.reshape main_v16 main_v17 rfl shapeCasts_S1x256x256_S256x256,
    StableHlo.unary main_arg5 main_v18 ((extractStridedSlice S1x256 ![0, 0] · slices_S2x256_S1x256_0_0) : (⟨S2x256, .f32⟩ : BufTy).Contents (Elt F) → (⟨S1x256, .f32⟩ : BufTy).Contents (Elt F)),
    StableHlo.reshape main_v18 main_v19 rfl shapeCasts_S1x256_S256,
    StableHlo.unary main_arg6 main_v20 ((extractStridedSlice S1x64x256 ![0, 0, 0] · slices_S2x64x256_S1x64x256_0_0_0) : (⟨S2x64x256, .f32⟩ : BufTy).Contents (Elt F) → (⟨S1x64x256, .f32⟩ : BufTy).Contents (Elt F)),
    StableHlo.reshape main_v20 main_v21 rfl shapeCasts_S1x64x256_S64x256,
    StableHlo.unary main_arg7 main_v22 ((extractStridedSlice S1x256 ![0, 0] · slices_S2x256_S1x256_0_0) : (⟨S2x256, .f32⟩ : BufTy).Contents (Elt F) → (⟨S1x256, .f32⟩ : BufTy).Contents (Elt F)),
    StableHlo.reshape main_v22 main_v23 rfl shapeCasts_S1x256_S256,
    StableHlo.unary main_arg8 main_v24 ((extractStridedSlice S1x256 ![0, 0] · slices_S2x256_S1x256_0_0) : (⟨S2x256, .f32⟩ : BufTy).Contents (Elt F) → (⟨S1x256, .f32⟩ : BufTy).Contents (Elt F)),
    StableHlo.reshape main_v24 main_v25 rfl shapeCasts_S1x256_S256,
    StableHlo.unary main_arg9 main_v26 ((extractStridedSlice S1x256 ![0, 0] · slices_S2x256_S1x256_0_0) : (⟨S2x256, .f32⟩ : BufTy).Contents (Elt F) → (⟨S1x256, .f32⟩ : BufTy).Contents (Elt F)),
    StableHlo.reshape main_v26 main_v27 rfl shapeCasts_S1x256_S256,
    StableHlo.nullary main_c_1 (constantI S_ 32 0#32),
    StableHlo.unary main_c_1 main_v28 (broadcastInDim S524288 ![] bcast_S_S524288 : (⟨S_, .i32⟩ : BufTy).Contents (Elt F) → (⟨S524288, .i32⟩ : BufTy).Contents (Elt F)),
    StableHlo.binary main_v4 main_v28 main_v29 (cmpi .slt : (⟨S524288, .i32⟩ : BufTy).Contents (Elt F) → (⟨S524288, .i32⟩ : BufTy).Contents (Elt F) → (⟨S524288, .i1⟩ : BufTy).Contents (Elt F)),
    StableHlo.nullary main_c_2 (constantI S_ 32 16384#32),
    StableHlo.unary main_c_2 main_v30 (broadcastInDim S524288 ![] bcast_S_S524288 : (⟨S_, .i32⟩ : BufTy).Contents (Elt F) → (⟨S524288, .i32⟩ : BufTy).Contents (Elt F)),
    StableHlo.binary main_v4 main_v30 main_v31 (addi : (⟨S524288, .i32⟩ : BufTy).Contents (Elt F) → (⟨S524288, .i32⟩ : BufTy).Contents (Elt F) → (⟨S524288, .i32⟩ : BufTy).Contents (Elt F)),
    StableHlo.ternary main_v29 main_v31 main_v4 main_v32 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v32 main_v33 (broadcastInDim S524288x1 ![0] bcast_S524288_S524288x1_0 : (⟨S524288, .i32⟩ : BufTy).Contents (Elt F) → (⟨S524288x1, .i32⟩ : BufTy).Contents (Elt F)),
    StableHlo.binary main_v0 main_v33 main_v34 ((fun x i => Host.gather gather_S16384x256_S524288x1_S524288x256_1_0_n_n_0_1_1256 x i) : (⟨S16384x256, .f32⟩ : BufTy).Contents (Elt F) → (⟨S524288x1, .i32⟩ : BufTy).Contents (Elt F) → (⟨S524288x256, .f32⟩ : BufTy).Contents (Elt F)),
    StableHlo.binary main_v34 main_v13 main_v35 ((fun l r => Host.dotGeneral dot_S524288x256_S256x256_S524288x256_1_0_0_1_n_n none l r) : (⟨S524288x256, .f32⟩ : BufTy).Contents (Elt F) → (⟨S256x256, .f32⟩ : BufTy).Contents (Elt F) → (⟨S524288x256, .f32⟩ : BufTy).Contents (Elt F)),
    StableHlo.unary main_v15 main_v36 (broadcastInDim S1x256 ![1] bcast_S256_S1x256_1 : (⟨S256, .f32⟩ : BufTy).Contents (Elt F) → (⟨S1x256, .f32⟩ : BufTy).Contents (Elt F)),
    StableHlo.unary main_v36 main_v37 (broadcastInDim S524288x256 ![0, 1] bcast_S1x256_S524288x256_0_1 : (⟨S1x256, .f32⟩ : BufTy).Contents (Elt F) → (⟨S524288x256, .f32⟩ : BufTy).Contents (Elt F)),
    StableHlo.binary main_v35 main_v37 main_v38 (addf : (⟨S524288x256, .f32⟩ : BufTy).Contents (Elt F) → (⟨S524288x256, .f32⟩ : BufTy).Contents (Elt F) → (⟨S524288x256, .f32⟩ : BufTy).Contents (Elt F)),
    StableHlo.binary main_v11 main_v21 main_v39 ((fun l r => Host.dotGeneral dot_S524288x64_S64x256_S524288x256_1_0_0_1_n_n none l r) : (⟨S524288x64, .f32⟩ : BufTy).Contents (Elt F) → (⟨S64x256, .f32⟩ : BufTy).Contents (Elt F) → (⟨S524288x256, .f32⟩ : BufTy).Contents (Elt F)),
    StableHlo.binary main_v38 main_v39 main_v40 (addf : (⟨S524288x256, .f32⟩ : BufTy).Contents (Elt F) → (⟨S524288x256, .f32⟩ : BufTy).Contents (Elt F) → (⟨S524288x256, .f32⟩ : BufTy).Contents (Elt F)),
    StableHlo.unary main_v23 main_v41 (broadcastInDim S1x256 ![1] bcast_S256_S1x256_1 : (⟨S256, .f32⟩ : BufTy).Contents (Elt F) → (⟨S1x256, .f32⟩ : BufTy).Contents (Elt F)),
    StableHlo.unary main_v41 main_v42 (broadcastInDim S524288x256 ![0, 1] bcast_S1x256_S524288x256_0_1 : (⟨S1x256, .f32⟩ : BufTy).Contents (Elt F) → (⟨S524288x256, .f32⟩ : BufTy).Contents (Elt F)),
    StableHlo.binary main_v40 main_v42 main_v43 (addf : (⟨S524288x256, .f32⟩ : BufTy).Contents (Elt F) → (⟨S524288x256, .f32⟩ : BufTy).Contents (Elt F) → (⟨S524288x256, .f32⟩ : BufTy).Contents (Elt F)),
    StableHlo.nullary main_cst (constant S_ .f32 0x00000000#32),
    StableHlo.unary main_cst main_v44 (broadcastInDim S16384x256 ![] bcast_S_S16384x256 : (⟨S_, .f32⟩ : BufTy).Contents (Elt F) → (⟨S16384x256, .f32⟩ : BufTy).Contents (Elt F)),
    StableHlo.unary main_v2 main_v45 (broadcastInDim S524288x1 ![0] bcast_S524288_S524288x1_0 : (⟨S524288, .i32⟩ : BufTy).Contents (Elt F) → (⟨S524288x1, .i32⟩ : BufTy).Contents (Elt F)),
    StableHlo.ternary main_v44 main_v45 main_v43 main_v46 ((fun x i u => Host.scatterAdd scatter_S16384x256_S524288x1_S524288x256_1_0_0_1 x i u) : (⟨S16384x256, .f32⟩ : BufTy).Contents (Elt F) → (⟨S524288x1, .i32⟩ : BufTy).Contents (Elt F) → (⟨S524288x256, .f32⟩ : BufTy).Contents (Elt F) → (⟨S16384x256, .f32⟩ : BufTy).Contents (Elt F)),
    StableHlo.nullary main_cst_3 (constant S_ .f32 0x3F800000#32),
    StableHlo.unary main_cst_3 main_v47 (broadcastInDim S524288 ![] bcast_S_S524288 : (⟨S_, .f32⟩ : BufTy).Contents (Elt F) → (⟨S524288, .f32⟩ : BufTy).Contents (Elt F)),
    StableHlo.nullary main_cst_4 (constant S_ .f32 0x00000000#32),
    StableHlo.unary main_cst_4 main_v48 (broadcastInDim S16384 ![] bcast_S_S16384 : (⟨S_, .f32⟩ : BufTy).Contents (Elt F) → (⟨S16384, .f32⟩ : BufTy).Contents (Elt F)),
    StableHlo.unary main_v2 main_v49 (broadcastInDim S524288x1 ![0] bcast_S524288_S524288x1_0 : (⟨S524288, .i32⟩ : BufTy).Contents (Elt F) → (⟨S524288x1, .i32⟩ : BufTy).Contents (Elt F)),
    StableHlo.ternary main_v48 main_v49 main_v47 main_v50 ((fun x i u => Host.scatterAdd scatter_S16384_S524288x1_S524288_n_0_0_1 x i u) : (⟨S16384, .f32⟩ : BufTy).Contents (Elt F) → (⟨S524288x1, .i32⟩ : BufTy).Contents (Elt F) → (⟨S524288, .f32⟩ : BufTy).Contents (Elt F) → (⟨S16384, .f32⟩ : BufTy).Contents (Elt F)),
    StableHlo.nullary main_cst_5 (constant S_ .f32 0x3F800000#32),
    StableHlo.unary main_cst_5 main_v51 (broadcastInDim S16384 ![] bcast_S_S16384 : (⟨S_, .f32⟩ : BufTy).Contents (Elt F) → (⟨S16384, .f32⟩ : BufTy).Contents (Elt F)),
    StableHlo.binary main_v50 main_v51 main_v52 (maximumf : (⟨S16384, .f32⟩ : BufTy).Contents (Elt F) → (⟨S16384, .f32⟩ : BufTy).Contents (Elt F) → (⟨S16384, .f32⟩ : BufTy).Contents (Elt F)),
    StableHlo.unary main_v52 main_v53 (broadcastInDim S16384x1 ![0] bcast_S16384_S16384x1_0 : (⟨S16384, .f32⟩ : BufTy).Contents (Elt F) → (⟨S16384x1, .f32⟩ : BufTy).Contents (Elt F)),
    StableHlo.unary main_v53 main_v54 (broadcastInDim S16384x256 ![0, 1] bcast_S16384x1_S16384x256_0_1 : (⟨S16384x1, .f32⟩ : BufTy).Contents (Elt F) → (⟨S16384x256, .f32⟩ : BufTy).Contents (Elt F)),
    StableHlo.binary main_v46 main_v54 main_v55 (Host.divf : (⟨S16384x256, .f32⟩ : BufTy).Contents (Elt F) → (⟨S16384x256, .f32⟩ : BufTy).Contents (Elt F) → (⟨S16384x256, .f32⟩ : BufTy).Contents (Elt F)),
    StableHlo.binary main_v0 main_v17 main_v56 ((fun l r => Host.dotGeneral dot_S16384x256_S256x256_S16384x256_1_0_0_1_n_n none l r) : (⟨S16384x256, .f32⟩ : BufTy).Contents (Elt F) → (⟨S256x256, .f32⟩ : BufTy).Contents (Elt F) → (⟨S16384x256, .f32⟩ : BufTy).Contents (Elt F)),
    StableHlo.binary main_v55 main_v56 main_v57 (addf : (⟨S16384x256, .f32⟩ : BufTy).Contents (Elt F) → (⟨S16384x256, .f32⟩ : BufTy).Contents (Elt F) → (⟨S16384x256, .f32⟩ : BufTy).Contents (Elt F)),
    StableHlo.unary main_v19 main_v58 (broadcastInDim S1x256 ![1] bcast_S256_S1x256_1 : (⟨S256, .f32⟩ : BufTy).Contents (Elt F) → (⟨S1x256, .f32⟩ : BufTy).Contents (Elt F)),
    StableHlo.unary main_v58 main_v59 (broadcastInDim S16384x256 ![0, 1] bcast_S1x256_S16384x256_0_1 : (⟨S1x256, .f32⟩ : BufTy).Contents (Elt F) → (⟨S16384x256, .f32⟩ : BufTy).Contents (Elt F)),
    StableHlo.binary main_v57 main_v59 main_v60 (addf : (⟨S16384x256, .f32⟩ : BufTy).Contents (Elt F) → (⟨S16384x256, .f32⟩ : BufTy).Contents (Elt F) → (⟨S16384x256, .f32⟩ : BufTy).Contents (Elt F)) ]

/-- Second stretch, values %61 … %80: the column mean over the nodes; the column variance, computed by the variance
    routine written out in place over its own buffers (sum, divide by the node count, centre, square, sum, divide by
    the count less the correction, keep the quotient where that divisor is positive and a not-a-number otherwise); the
    centred value times the inverse square root of variance plus a small constant, scaled and shifted per column; and
    the positive part, written out in place as a maximum against a zero matrix. -/
abbrev ops2 : List (HloOp τ sig (Elt F)) :=
  [ StableHlo.nullary main_cst_6 (constant S_ .f32 0x00000000#32),
    StableHlo.binary main_v60 main_cst_6 main_v61 ((fun x v => Host.reduceAdd x v reducesTo_S16384x256_S256_d0 h_S_) : (⟨S16384x256, .f32⟩ : BufTy).Contents (Elt F) → (⟨S_, .f32⟩ : BufTy).Contents (Elt F) → (⟨S256, .f32⟩ : BufTy).Contents (Elt F)),
    StableHlo.nullary main_cst_7 (constant S_ .f32 0x46800000#32),
    StableHlo.unary main_cst_7 main_v62 (broadcastInDim S256 ![] bcast_S_S256 : (⟨S_, .f32⟩ : BufTy).Contents (Elt F) → (⟨S256, .f32⟩ : BufTy).Contents (Elt F)),
    StableHlo.binary main_v61 main_v62 main_v63 (Host.divf : (⟨S256, .f32⟩ : BufTy).Contents (Elt F) → (⟨S256, .f32⟩ : BufTy).Contents (Elt F) → (⟨S256, .f32⟩ : BufTy).Contents (Elt F)),
    StableHlo.nullary main_c_8 (constantI S_ 32 0#32),
    StableHlo.TRef.nullary main_call0.cst (constant S_ .f32 0x00000000#32),
    StableHlo.TRef.binary (StableHlo.TRef.of main_v60 : StableHlo.TRef sig ⟨S16384x256, .f32⟩) main_call0.cst main_call0.v0 (fun x v => Host.reduceAdd x v reducesTo_S16384x256_S256_d0 h_S_),
    StableHlo.TRef.unary main_call0.v0 main_call0.v1 (broadcastInDim S1x256 ![1] bcast_S256_S1x256_1),
    StableHlo.TRef.nullary main_call0.cst_0 (constant S_ .f32 0x46800000#32),
    StableHlo.TRef.unary main_call0.cst_0 main_call0.v2 (broadcastInDim S1x256 ![] bcast_S_S1x256),
    StableHlo.TRef.binary main_call0.v1 main_call0.v2 main_call0.v3 Host.divf,
    StableHlo.TRef.unary main_call0.v3 main_call0.v4 (broadcastInDim S16384x256 ![0, 1] bcast_S1x256_S16384x256_0_1),
    StableHlo.TRef.binary (StableHlo.TRef.of main_v60 : StableHlo.TRef sig ⟨S16384x256, .f32⟩) main_call0.v4 main_call0.v5 subf,
    StableHlo.TRef.binary main_call0.v5 main_call0.v5 main_call0.v6 mulf,
    StableHlo.TRef.unary (StableHlo.TRef.of main_c_8 : StableHlo.TRef sig ⟨S_, .i32⟩) main_call0.v7 (sitofp .f32),
    StableHlo.TRef.nullary main_call0.cst_1 (constant S_ .f32 0x46800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S16384x256_S256_d0 h_S_),
    StableHlo.TRef.unary main_call0.v8 main_call0.v10 (broadcastInDim S256 ![] bcast_S_S256),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S256 ![] bcast_S_S256),
    StableHlo.TRef.ternary main_call0.v12 main_call0.v11 main_call0.call0.v1 main_call0.call0.v2 (fun p a b => select (broadcastInDim S256 ![] bcast_S_S256 p) a b),
    StableHlo.unary main_v63 main_v65 (broadcastInDim S1x256 ![1] bcast_S256_S1x256_1 : (⟨S256, .f32⟩ : BufTy).Contents (Elt F) → (⟨S1x256, .f32⟩ : BufTy).Contents (Elt F)),
    StableHlo.unary main_v65 main_v66 (broadcastInDim S16384x256 ![0, 1] bcast_S1x256_S16384x256_0_1 : (⟨S1x256, .f32⟩ : BufTy).Contents (Elt F) → (⟨S16384x256, .f32⟩ : BufTy).Contents (Elt F)),
    StableHlo.binary main_v60 main_v66 main_v67 (subf : (⟨S16384x256, .f32⟩ : BufTy).Contents (Elt F) → (⟨S16384x256, .f32⟩ : BufTy).Contents (Elt F) → (⟨S16384x256, .f32⟩ : BufTy).Contents (Elt F)),
    StableHlo.nullary main_cst_9 (constant S_ .f32 0x3727C5AC#32),
    StableHlo.unary main_cst_9 main_v68 (broadcastInDim S256 ![] bcast_S_S256 : (⟨S_, .f32⟩ : BufTy).Contents (Elt F) → (⟨S256, .f32⟩ : BufTy).Contents (Elt F)),
    StableHlo.binary main_v64 main_v68 main_v69 (addf : (⟨S256, .f32⟩ : BufTy).Contents (Elt F) → (⟨S256, .f32⟩ : BufTy).Contents (Elt F) → (⟨S256, .f32⟩ : BufTy).Contents (Elt F)),
    StableHlo.unary main_v69 main_v70 (Host.rsqrt : (⟨S256, .f32⟩ : BufTy).Contents (Elt F) → (⟨S256, .f32⟩ : BufTy).Contents (Elt F)),
    StableHlo.unary main_v70 main_v71 (broadcastInDim S1x256 ![1] bcast_S256_S1x256_1 : (⟨S256, .f32⟩ : BufTy).Contents (Elt F) → (⟨S1x256, .f32⟩ : BufTy).Contents (Elt F)),
    StableHlo.unary main_v71 main_v72 (broadcastInDim S16384x256 ![0, 1] bcast_S1x256_S16384x256_0_1 : (⟨S1x256, .f32⟩ : BufTy).Contents (Elt F) → (⟨S16384x256, .f32⟩ : BufTy).Contents (Elt F)),
    StableHlo.binary main_v67 main_v72 main_v73 (mulf : (⟨S16384x256, .f32⟩ : BufTy).Contents (Elt F) → (⟨S16384x256, .f32⟩ : BufTy).Contents (Elt F) → (⟨S16384x256, .f32⟩ : BufTy).Contents (Elt F)),
    StableHlo.unary main_v25 main_v74 (broadcastInDim S1x256 ![1] bcast_S256_S1x256_1 : (⟨S256, .f32⟩ : BufTy).Contents (Elt F) → (⟨S1x256, .f32⟩ : BufTy).Contents (Elt F)),
    StableHlo.unary main_v74 main_v75 (broadcastInDim S16384x256 ![0, 1] bcast_S1x256_S16384x256_0_1 : (⟨S1x256, .f32⟩ : BufTy).Contents (Elt F) → (⟨S16384x256, .f32⟩ : BufTy).Contents (Elt F)),
    StableHlo.binary main_v73 main_v75 main_v76 (mulf : (⟨S16384x256, .f32⟩ : BufTy).Contents (Elt F) → (⟨S16384x256, .f32⟩ : BufTy).Contents (Elt F) → (⟨S16384x256, .f32⟩ : BufTy).Contents (Elt F)),
    StableHlo.unary main_v27 main_v77 (broadcastInDim S1x256 ![1] bcast_S256_S1x256_1 : (⟨S256, .f32⟩ : BufTy).Contents (Elt F) → (⟨S1x256, .f32⟩ : BufTy).Contents (Elt F)),
    StableHlo.unary main_v77 main_v78 (broadcastInDim S16384x256 ![0, 1] bcast_S1x256_S16384x256_0_1 : (⟨S1x256, .f32⟩ : BufTy).Contents (Elt F) → (⟨S16384x256, .f32⟩ : BufTy).Contents (Elt F)),
    StableHlo.binary main_v76 main_v78 main_v79 (addf : (⟨S16384x256, .f32⟩ : BufTy).Contents (Elt F) → (⟨S16384x256, .f32⟩ : BufTy).Contents (Elt F) → (⟨S16384x256, .f32⟩ : BufTy).Contents (Elt F)),
    StableHlo.TRef.nullary main_call1.cst (constant S_ .f32 0x00000000#32),
    StableHlo.TRef.unary main_call1.cst main_call1.v0 (broadcastInDim S16384x256 ![] bcast_S_S16384x256),
    StableHlo.TRef.binary (StableHlo.TRef.of main_v79 : StableHlo.TRef sig ⟨S16384x256, .f32⟩) main_call1.v0 main_call1.v1 maximumf ]

/-- Third stretch, values %81 … %129: the second layer's parameter slices and the same message, segment sum, mean
    and self term, now on the first layer's output and reusing the edge rows and the embedded edge features. -/
abbrev ops3 : List (HloOp τ sig (Elt F)) :=
  [ StableHlo.unary main_arg2 main_v81 ((extractStridedSlice S1x256x256 ![1, 0, 0] · slices_S2x256x256_S1x256x256_1_0_0) : (⟨S2x256x256, .f32⟩ : BufTy).Contents (Elt F) → (⟨S1x256x256, .f32⟩ : BufTy).Contents (Elt F)),
    StableHlo.reshape main_v81 main_v82 rfl shapeCasts_S1x256x256_S256x256,
    StableHlo.unary main_arg3 main_v83 ((extractStridedSlice S1x256 ![1, 0] · slices_S2x256_S1x256_1_0) : (⟨S2x256, .f32⟩ : BufTy).Contents (Elt F) → (⟨S1x256, .f32⟩ : BufTy).Contents (Elt F)),
    StableHlo.reshape main_v83 main_v84 rfl shapeCasts_S1x256_S256,
    StableHlo.unary main_arg4 main_v85 ((extractStridedSlice S1x256x256 ![1, 0, 0] · slices_S2x256x256_S1x256x256_1_0_0) : (⟨S2x256x256, .f32⟩ : BufTy).Contents (Elt F) → (⟨S1x256x256, .f32⟩ : BufTy).Contents (Elt F)),
    StableHlo.reshape main_v85 main_v86 rfl shapeCasts_S1x256x256_S256x256,
    StableHlo.unary main_arg5 main_v87 ((extractStridedSlice S1x256 ![1, 0] · slices_S2x256_S1x256_1_0) : (⟨S2x256, .f32⟩ : BufTy).Contents (Elt F) → (⟨S1x256, .f32⟩ : BufTy).Contents (Elt F)),
    StableHlo.reshape main_v87 main_v88 rfl shapeCasts_S1x256_S256,
    StableHlo.unary main_arg6 main_v89 ((extractStridedSlice S1x64x256 ![1, 0, 0] · slices_S2x64x256_S1x64x256_1_0_0) : (⟨S2x64x256, .f32⟩ : BufTy).Contents (Elt F) → (⟨S1x64x256, .f32⟩ : BufTy).Contents (Elt F)),
    StableHlo.reshape main_v89 main_v90 rfl shapeCasts_S1x64x256_S64x256,
    StableHlo.unary main_arg7 main_v91 ((extractStridedSlice S1x256 ![1, 0] · slices_S2x256_S1x256_1_0) : (⟨S2x256, .f32⟩ : BufTy).Contents (Elt F) → (⟨S1x256, .f32⟩ : BufTy).Contents (Elt F)),
    StableHlo.reshape main_v91 main_v92 rfl shapeCasts_S1x256_S256,
    StableHlo.unary main_arg8 main_v93 ((extractStridedSlice S1x256 ![1, 0] · slices_S2x256_S1x256_1_0) : (⟨S2x256, .f32⟩ : BufTy).Contents (Elt F) → (⟨S1x256, .f32⟩ : BufTy).Contents (Elt F)),
    StableHlo.reshape main_v93 main_v94 rfl shapeCasts_S1x256_S256,
    StableHlo.unary main_arg9 main_v95 ((extractStridedSlice S1x256 ![1, 0] · slices_S2x256_S1x256_1_0) : (⟨S2x256, .f32⟩ : BufTy).Contents (Elt F) → (⟨S1x256, .f32⟩ : BufTy).Contents (Elt F)),
    StableHlo.reshape main_v95 main_v96 rfl shapeCasts_S1x256_S256,
    StableHlo.nullary main_c_10 (constantI S_ 32 0#32),
    StableHlo.unary main_c_10 main_v97 (broadcastInDim S524288 ![] bcast_S_S524288 : (⟨S_, .i32⟩ : BufTy).Contents (Elt F) → (⟨S524288, .i32⟩ : BufTy).Contents (Elt F)),
    StableHlo.binary main_v4 main_v97 main_v98 (cmpi .slt : (⟨S524288, .i32⟩ : BufTy).Contents (Elt F) → (⟨S524288, .i32⟩ : BufTy).Contents (Elt F) → (⟨S524288, .i1⟩ : BufTy).Contents (Elt F)),
    StableHlo.nullary main_c_11 (constantI S_ 32 16384#32),
    StableHlo.unary main_c_11 main_v99 (broadcastInDim S524288 ![] bcast_S_S524288 : (⟨S_, .i32⟩ : BufTy).Contents (Elt F) → (⟨S524288, .i32⟩ : BufTy).Contents (Elt F)),
    StableHlo.binary main_v4 main_v99 main_v100 (addi : (⟨S524288, .i32⟩ : BufTy).Contents (Elt F) → (⟨S524288, .i32⟩ : BufTy).Contents (Elt F) → (⟨S524288, .i32⟩ : BufTy).Contents (Elt F)),
    StableHlo.ternary main_v98 main_v100 main_v4 main_v101 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v101 main_v102 (broadcastInDim S524288x1 ![0] bcast_S524288_S524288x1_0 : (⟨S524288, .i32⟩ : BufTy).Contents (Elt F) → (⟨S524288x1, .i32⟩ : BufTy).Contents (Elt F)),
    StableHlo.binary main_v80 main_v102 main_v103 ((fun x i => Host.gather gather_S16384x256_S524288x1_S524288x256_1_0_n_n_0_1_1256 x i) : (⟨S16384x256, .f32⟩ : BufTy).Contents (Elt F) → (⟨S524288x1, .i32⟩ : BufTy).Contents (Elt F) → (⟨S524288x256, .f32⟩ : BufTy).Contents (Elt F)),
    StableHlo.binary main_v103 main_v82 main_v104 ((fun l r => Host.dotGeneral dot_S524288x256_S256x256_S524288x256_1_0_0_1_n_n none l r) : (⟨S524288x256, .f32⟩ : BufTy).Contents (Elt F) → (⟨S256x256, .f32⟩ : BufTy).Contents (Elt F) → (⟨S524288x256, .f32⟩ : BufTy).Contents (Elt F)),
    StableHlo.unary main_v84 main_v105 (broadcastInDim S1x256 ![1] bcast_S256_S1x256_1 : (⟨S256, .f32⟩ : BufTy).Contents (Elt F) → (⟨S1x256, .f32⟩ : BufTy).Contents (Elt F)),
    StableHlo.unary main_v105 main_v106 (broadcastInDim S524288x256 ![0, 1] bcast_S1x256_S524288x256_0_1 : (⟨S1x256, .f32⟩ : BufTy).Contents (Elt F) → (⟨S524288x256, .f32⟩ : BufTy).Contents (Elt F)),
    StableHlo.binary main_v104 main_v106 main_v107 (addf : (⟨S524288x256, .f32⟩ : BufTy).Contents (Elt F) → (⟨S524288x256, .f32⟩ : BufTy).Contents (Elt F) → (⟨S524288x256, .f32⟩ : BufTy).Contents (Elt F)),
    StableHlo.binary main_v11 main_v90 main_v108 ((fun l r => Host.dotGeneral dot_S524288x64_S64x256_S524288x256_1_0_0_1_n_n none l r) : (⟨S524288x64, .f32⟩ : BufTy).Contents (Elt F) → (⟨S64x256, .f32⟩ : BufTy).Contents (Elt F) → (⟨S524288x256, .f32⟩ : BufTy).Contents (Elt F)),
    StableHlo.binary main_v107 main_v108 main_v109 (addf : (⟨S524288x256, .f32⟩ : BufTy).Contents (Elt F) → (⟨S524288x256, .f32⟩ : BufTy).Contents (Elt F) → (⟨S524288x256, .f32⟩ : BufTy).Contents (Elt F)),
    StableHlo.unary main_v92 main_v110 (broadcastInDim S1x256 ![1] bcast_S256_S1x256_1 : (⟨S256, .f32⟩ : BufTy).Contents (Elt F) → (⟨S1x256, .f32⟩ : BufTy).Contents (Elt F)),
    StableHlo.unary main_v110 main_v111 (broadcastInDim S524288x256 ![0, 1] bcast_S1x256_S524288x256_0_1 : (⟨S1x256, .f32⟩ : BufTy).Contents (Elt F) → (⟨S524288x256, .f32⟩ : BufTy).Contents (Elt F)),
    StableHlo.binary main_v109 main_v111 main_v112 (addf : (⟨S524288x256, .f32⟩ : BufTy).Contents (Elt F) → (⟨S524288x256, .f32⟩ : BufTy).Contents (Elt F) → (⟨S524288x256, .f32⟩ : BufTy).Contents (Elt F)),
    StableHlo.nullary main_cst_12 (constant S_ .f32 0x00000000#32),
    StableHlo.unary main_cst_12 main_v113 (broadcastInDim S16384x256 ![] bcast_S_S16384x256 : (⟨S_, .f32⟩ : BufTy).Contents (Elt F) → (⟨S16384x256, .f32⟩ : BufTy).Contents (Elt F)),
    StableHlo.unary main_v2 main_v114 (broadcastInDim S524288x1 ![0] bcast_S524288_S524288x1_0 : (⟨S524288, .i32⟩ : BufTy).Contents (Elt F) → (⟨S524288x1, .i32⟩ : BufTy).Contents (Elt F)),
    StableHlo.ternary main_v113 main_v114 main_v112 main_v115 ((fun x i u => Host.scatterAdd scatter_S16384x256_S524288x1_S524288x256_1_0_0_1 x i u) : (⟨S16384x256, .f32⟩ : BufTy).Contents (Elt F) → (⟨S524288x1, .i32⟩ : BufTy).Contents (Elt F) → (⟨S524288x256, .f32⟩ : BufTy).Contents (Elt F) → (⟨S16384x256, .f32⟩ : BufTy).Contents (Elt F)),
    StableHlo.nullary main_cst_13 (constant S_ .f32 0x3F800000#32),
    StableHlo.unary main_cst_13 main_v116 (broadcastInDim S524288 ![] bcast_S_S524288 : (⟨S_, .f32⟩ : BufTy).Contents (Elt F) → (⟨S524288, .f32⟩ : BufTy).Contents (Elt F)),
    StableHlo.nullary main_cst_14 (constant S_ .f32 0x00000000#32),
    StableHlo.unary main_cst_14 main_v117 (broadcastInDim S16384 ![] bcast_S_S16384 : (⟨S_, .f32⟩ : BufTy).Contents (Elt F) → (⟨S16384, .f32⟩ : BufTy).Contents (Elt F)),
    StableHlo.unary main_v2 main_v118 (broadcastInDim S524288x1 ![0] bcast_S524288_S524288x1_0 : (⟨S524288, .i32⟩ : BufTy).Contents (Elt F) → (⟨S524288x1, .i32⟩ : BufTy).Contents (Elt F)),
    StableHlo.ternary main_v117 main_v118 main_v116 main_v119 ((fun x i u => Host.scatterAdd scatter_S16384_S524288x1_S524288_n_0_0_1 x i u) : (⟨S16384, .f32⟩ : BufTy).Contents (Elt F) → (⟨S524288x1, .i32⟩ : BufTy).Contents (Elt F) → (⟨S524288, .f32⟩ : BufTy).Contents (Elt F) → (⟨S16384, .f32⟩ : BufTy).Contents (Elt F)),
    StableHlo.nullary main_cst_15 (constant S_ .f32 0x3F800000#32),
    StableHlo.unary main_cst_15 main_v120 (broadcastInDim S16384 ![] bcast_S_S16384 : (⟨S_, .f32⟩ : BufTy).Contents (Elt F) → (⟨S16384, .f32⟩ : BufTy).Contents (Elt F)),
    StableHlo.binary main_v119 main_v120 main_v121 (maximumf : (⟨S16384, .f32⟩ : BufTy).Contents (Elt F) → (⟨S16384, .f32⟩ : BufTy).Contents (Elt F) → (⟨S16384, .f32⟩ : BufTy).Contents (Elt F)),
    StableHlo.unary main_v121 main_v122 (broadcastInDim S16384x1 ![0] bcast_S16384_S16384x1_0 : (⟨S16384, .f32⟩ : BufTy).Contents (Elt F) → (⟨S16384x1, .f32⟩ : BufTy).Contents (Elt F)),
    StableHlo.unary main_v122 main_v123 (broadcastInDim S16384x256 ![0, 1] bcast_S16384x1_S16384x256_0_1 : (⟨S16384x1, .f32⟩ : BufTy).Contents (Elt F) → (⟨S16384x256, .f32⟩ : BufTy).Contents (Elt F)),
    StableHlo.binary main_v115 main_v123 main_v124 (Host.divf : (⟨S16384x256, .f32⟩ : BufTy).Contents (Elt F) → (⟨S16384x256, .f32⟩ : BufTy).Contents (Elt F) → (⟨S16384x256, .f32⟩ : BufTy).Contents (Elt F)),
    StableHlo.binary main_v80 main_v86 main_v125 ((fun l r => Host.dotGeneral dot_S16384x256_S256x256_S16384x256_1_0_0_1_n_n none l r) : (⟨S16384x256, .f32⟩ : BufTy).Contents (Elt F) → (⟨S256x256, .f32⟩ : BufTy).Contents (Elt F) → (⟨S16384x256, .f32⟩ : BufTy).Contents (Elt F)),
    StableHlo.binary main_v124 main_v125 main_v126 (addf : (⟨S16384x256, .f32⟩ : BufTy).Contents (Elt F) → (⟨S16384x256, .f32⟩ : BufTy).Contents (Elt F) → (⟨S16384x256, .f32⟩ : BufTy).Contents (Elt F)),
    StableHlo.unary main_v88 main_v127 (broadcastInDim S1x256 ![1] bcast_S256_S1x256_1 : (⟨S256, .f32⟩ : BufTy).Contents (Elt F) → (⟨S1x256, .f32⟩ : BufTy).Contents (Elt F)),
    StableHlo.unary main_v127 main_v128 (broadcastInDim S16384x256 ![0, 1] bcast_S1x256_S16384x256_0_1 : (⟨S1x256, .f32⟩ : BufTy).Contents (Elt F) → (⟨S16384x256, .f32⟩ : BufTy).Contents (Elt F)),
    StableHlo.binary main_v126 main_v128 main_v129 (addf : (⟨S16384x256, .f32⟩ : BufTy).Contents (Elt F) → (⟨S16384x256, .f32⟩ : BufTy).Contents (Elt F) → (⟨S16384x256, .f32⟩ : BufTy).Contents (Elt F)) ]

/-- Fourth stretch, values %130 … %149: the second layer's column mean, variance, normalisation, scale, shift and
    positive part, the two routines again written out in place over the second pair of buffer records. -/
abbrev ops4 : List (HloOp τ sig (Elt F)) :=
  [ StableHlo.nullary main_cst_16 (constant S_ .f32 0x00000000#32),
    StableHlo.binary main_v129 main_cst_16 main_v130 ((fun x v => Host.reduceAdd x v reducesTo_S16384x256_S256_d0 h_S_) : (⟨S16384x256, .f32⟩ : BufTy).Contents (Elt F) → (⟨S_, .f32⟩ : BufTy).Contents (Elt F) → (⟨S256, .f32⟩ : BufTy).Contents (Elt F)),
    StableHlo.nullary main_cst_17 (constant S_ .f32 0x46800000#32),
    StableHlo.unary main_cst_17 main_v131 (broadcastInDim S256 ![] bcast_S_S256 : (⟨S_, .f32⟩ : BufTy).Contents (Elt F) → (⟨S256, .f32⟩ : BufTy).Contents (Elt F)),
    StableHlo.binary main_v130 main_v131 main_v132 (Host.divf : (⟨S256, .f32⟩ : BufTy).Contents (Elt F) → (⟨S256, .f32⟩ : BufTy).Contents (Elt F) → (⟨S256, .f32⟩ : BufTy).Contents (Elt F)),
    StableHlo.nullary main_c_18 (constantI S_ 32 0#32),
    StableHlo.TRef.nullary main_call2.cst (constant S_ .f32 0x00000000#32),
    StableHlo.TRef.binary (StableHlo.TRef.of main_v129 : StableHlo.TRef sig ⟨S16384x256, .f32⟩) main_call2.cst main_call2.v0 (fun x v => Host.reduceAdd x v reducesTo_S16384x256_S256_d0 h_S_),
    StableHlo.TRef.unary main_call2.v0 main_call2.v1 (broadcastInDim S1x256 ![1] bcast_S256_S1x256_1),
    StableHlo.TRef.nullary main_call2.cst_0 (constant S_ .f32 0x46800000#32),
    StableHlo.TRef.unary main_call2.cst_0 main_call2.v2 (broadcastInDim S1x256 ![] bcast_S_S1x256),
    StableHlo.TRef.binary main_call2.v1 main_call2.v2 main_call2.v3 Host.divf,
    StableHlo.TRef.unary main_call2.v3 main_call2.v4 (broadcastInDim S16384x256 ![0, 1] bcast_S1x256_S16384x256_0_1),
    StableHlo.TRef.binary (StableHlo.TRef.of main_v129 : StableHlo.TRef sig ⟨S16384x256, .f32⟩) main_call2.v4 main_call2.v5 subf,
    StableHlo.TRef.binary main_call2.v5 main_call2.v5 main_call2.v6 mulf,
    StableHlo.TRef.unary (StableHlo.TRef.of main_c_18 : StableHlo.TRef sig ⟨S_, .i32⟩) main_call2.v7 (sitofp .f32),
    StableHlo.TRef.nullary main_call2.cst_1 (constant S_ .f32 0x46800000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S16384x256_S256_d0 h_S_),
    StableHlo.TRef.unary main_call2.v8 main_call2.v10 (broadcastInDim S256 ![] bcast_S_S256),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S256 ![] bcast_S_S256),
    StableHlo.TRef.ternary main_call2.v12 main_call2.v11 main_call2.call0.v1 main_call2.call0.v2 (fun p a b => select (broadcastInDim S256 ![] bcast_S_S256 p) a b),
    StableHlo.unary main_v132 main_v134 (broadcastInDim S1x256 ![1] bcast_S256_S1x256_1 : (⟨S256, .f32⟩ : BufTy).Contents (Elt F) → (⟨S1x256, .f32⟩ : BufTy).Contents (Elt F)),
    StableHlo.unary main_v134 main_v135 (broadcastInDim S16384x256 ![0, 1] bcast_S1x256_S16384x256_0_1 : (⟨S1x256, .f32⟩ : BufTy).Contents (Elt F) → (⟨S16384x256, .f32⟩ : BufTy).Contents (Elt F)),
    StableHlo.binary main_v129 main_v135 main_v136 (subf : (⟨S16384x256, .f32⟩ : BufTy).Contents (Elt F) → (⟨S16384x256, .f32⟩ : BufTy).Contents (Elt F) → (⟨S16384x256, .f32⟩ : BufTy).Contents (Elt F)),
    StableHlo.nullary main_cst_19 (constant S_ .f32 0x3727C5AC#32),
    StableHlo.unary main_cst_19 main_v137 (broadcastInDim S256 ![] bcast_S_S256 : (⟨S_, .f32⟩ : BufTy).Contents (Elt F) → (⟨S256, .f32⟩ : BufTy).Contents (Elt F)),
    StableHlo.binary main_v133 main_v137 main_v138 (addf : (⟨S256, .f32⟩ : BufTy).Contents (Elt F) → (⟨S256, .f32⟩ : BufTy).Contents (Elt F) → (⟨S256, .f32⟩ : BufTy).Contents (Elt F)),
    StableHlo.unary main_v138 main_v139 (Host.rsqrt : (⟨S256, .f32⟩ : BufTy).Contents (Elt F) → (⟨S256, .f32⟩ : BufTy).Contents (Elt F)),
    StableHlo.unary main_v139 main_v140 (broadcastInDim S1x256 ![1] bcast_S256_S1x256_1 : (⟨S256, .f32⟩ : BufTy).Contents (Elt F) → (⟨S1x256, .f32⟩ : BufTy).Contents (Elt F)),
    StableHlo.unary main_v140 main_v141 (broadcastInDim S16384x256 ![0, 1] bcast_S1x256_S16384x256_0_1 : (⟨S1x256, .f32⟩ : BufTy).Contents (Elt F) → (⟨S16384x256, .f32⟩ : BufTy).Contents (Elt F)),
    StableHlo.binary main_v136 main_v141 main_v142 (mulf : (⟨S16384x256, .f32⟩ : BufTy).Contents (Elt F) → (⟨S16384x256, .f32⟩ : BufTy).Contents (Elt F) → (⟨S16384x256, .f32⟩ : BufTy).Contents (Elt F)),
    StableHlo.unary main_v94 main_v143 (broadcastInDim S1x256 ![1] bcast_S256_S1x256_1 : (⟨S256, .f32⟩ : BufTy).Contents (Elt F) → (⟨S1x256, .f32⟩ : BufTy).Contents (Elt F)),
    StableHlo.unary main_v143 main_v144 (broadcastInDim S16384x256 ![0, 1] bcast_S1x256_S16384x256_0_1 : (⟨S1x256, .f32⟩ : BufTy).Contents (Elt F) → (⟨S16384x256, .f32⟩ : BufTy).Contents (Elt F)),
    StableHlo.binary main_v142 main_v144 main_v145 (mulf : (⟨S16384x256, .f32⟩ : BufTy).Contents (Elt F) → (⟨S16384x256, .f32⟩ : BufTy).Contents (Elt F) → (⟨S16384x256, .f32⟩ : BufTy).Contents (Elt F)),
    StableHlo.unary main_v96 main_v146 (broadcastInDim S1x256 ![1] bcast_S256_S1x256_1 : (⟨S256, .f32⟩ : BufTy).Contents (Elt F) → (⟨S1x256, .f32⟩ : BufTy).Contents (Elt F)),
    StableHlo.unary main_v146 main_v147 (broadcastInDim S16384x256 ![0, 1] bcast_S1x256_S16384x256_0_1 : (⟨S1x256, .f32⟩ : BufTy).Contents (Elt F) → (⟨S16384x256, .f32⟩ : BufTy).Contents (Elt F)),
    StableHlo.binary main_v145 main_v147 main_v148 (addf : (⟨S16384x256, .f32⟩ : BufTy).Contents (Elt F) → (⟨S16384x256, .f32⟩ : BufTy).Contents (Elt F) → (⟨S16384x256, .f32⟩ : BufTy).Contents (Elt F)),
    StableHlo.TRef.nullary main_call3.cst (constant S_ .f32 0x00000000#32),
    StableHlo.TRef.unary main_call3.cst main_call3.v0 (broadcastInDim S16384x256 ![] bcast_S_S16384x256),
    StableHlo.TRef.binary (StableHlo.TRef.of main_v148 : StableHlo.TRef sig ⟨S16384x256, .f32⟩) main_call3.v0 main_call3.v1 maximumf ]

/-- Last stretch, value %150: the matrix read back at the three-axis shape of the input. -/
abbrev ops5 : List (HloOp τ sig (Elt F)) :=
  [ StableHlo.reshape main_v149 main_v150 rfl shapeCasts_S16384x256_S32x512x256 ]

/-- The whole straight line: the five stretches one after the other. -/
abbrev ops : List (HloOp τ sig (Elt F)) := ops1 ++ ops2 ++ ops3 ++ ops4 ++ ops5

/-- What core `c`'s buffers hold at launch, from the launch memory `m`. -/
abbrev launch (m : (ℓ : Loc nD τ sig) → Buf (Elt F) ℓ) (c : Dev nD) : Valuation τ sig (Elt F) :=
  launchContents m c

theorem launch_arg0 (m : (ℓ : Loc nD τ sig) → Buf (Elt F) ℓ) (c : Dev nD) :
    launch m c (Proc.devRef .tc main_arg0) = m ((c.tc : Thread nD τ).loc main_arg0) := rfl
theorem launch_arg1 (m : (ℓ : Loc nD τ sig) → Buf (Elt F) ℓ) (c : Dev nD) :
    launch m c (Proc.devRef .tc main_arg1) = m ((c.tc : Thread nD τ).loc main_arg1) := rfl
theorem launch_arg2 (m : (ℓ : Loc nD τ sig) → Buf (Elt F) ℓ) (c : Dev nD) :
    launch m c (Proc.devRef .tc main_arg2) = m ((c.tc : Thread nD τ).loc main_arg2) := rfl
theorem launch_arg3 (m : (ℓ : Loc nD τ sig) → Buf (Elt F) ℓ) (c : Dev nD) :
    launch m c (Proc.devRef .tc main_arg3) = m ((c.tc : Thread nD τ).loc main_arg3) := rfl
theorem launch_arg4 (m : (ℓ : Loc nD τ sig) → Buf (Elt F) ℓ) (c : Dev nD) :
    launch m c (Proc.devRef .tc main_arg4) = m ((c.tc : Thread nD τ).loc main_arg4) := rfl
theorem launch_arg5 (m : (ℓ : Loc nD τ sig) → Buf (Elt F) ℓ) (c : Dev nD) :
    launch m c (Proc.devRef .tc main_arg5) = m ((c.tc : Thread nD τ).loc main_arg5) := rfl
theorem launch_arg6 (m : (ℓ : Loc nD τ sig) → Buf (Elt F) ℓ) (c : Dev nD) :
    launch m c (Proc.devRef .tc main_arg6) = m ((c.tc : Thread nD τ).loc main_arg6) := rfl
theorem launch_arg7 (m : (ℓ : Loc nD τ sig) → Buf (Elt F) ℓ) (c : Dev nD) :
    launch m c (Proc.devRef .tc main_arg7) = m ((c.tc : Thread nD τ).loc main_arg7) := rfl
theorem launch_arg8 (m : (ℓ : Loc nD τ sig) → Buf (Elt F) ℓ) (c : Dev nD) :
    launch m c (Proc.devRef .tc main_arg8) = m ((c.tc : Thread nD τ).loc main_arg8) := rfl
theorem launch_arg9 (m : (ℓ : Loc nD τ sig) → Buf (Elt F) ℓ) (c : Dev nD) :
    launch m c (Proc.devRef .tc main_arg9) = m ((c.tc : Thread nD τ).loc main_arg9) := rfl
theorem launch_arg10 (m : (ℓ : Loc nD τ sig) → Buf (Elt F) ℓ) (c : Dev nD) :
    launch m c (Proc.devRef .tc main_arg10) = m ((c.tc : Thread nD τ).loc main_arg10) := rfl
theorem launch_arg11 (m : (ℓ : Loc nD τ sig) → Buf (Elt F) ℓ) (c : Dev nD) :
    launch m c (Proc.devRef .tc main_arg11) = m ((c.tc : Thread nD τ).loc main_arg11) := rfl

end Cert.ReferenceIdeal.HandRun

end
-- ==== Proof.RRun.lean ====
/-
  The reference program runs as its straight line: its main function, with the four calls it makes unfolded at their
  sites, is the list of operations executed in order; every operation touches only the core's own buffers, determines
  everything it writes, and writes none of the twelve argument buffers (each argument sits at one of the first twelve
  places of the buffer table and every operation writes at a later place). Hence every fair execution from any launch
  memory terminates with the result buffer at the list's fold over the launch contents and the arguments as launched.
-/
import proofs.«410086_j81595788689991_2_alg».proof.Proof.ROps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The program is the list -/

set_option maxRecDepth 65536 in
set_option maxHeartbeats 4000000 in
/-- The main function is the straight line: its three windows in order, the variance routine (with its inner select)
    and the positive part unfolded where they are called, sequencing reassociated to one chain. -/
theorem main_eq (c : Dev nD) : main (F := F) c = seq ops := by
  simp only [main, main_part0, main_part1, main_part2, fn_var.body, fn_where.body, fn_relu.body,
    ops, ops1, ops2, ops3, ops4, ops5, seq_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-! ## Every operation stays on the core's buffers -/

theorem ops1_sub : (ops1 : List (HloOp τ sig (Elt F))).Forall fun op => op.bufs ⊆ tcRefs τ sig :=
  ⟨reshape_bufs_sub .., unary_bufs_sub .., reshape_bufs_sub .., unary_bufs_sub .., reshape_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., reshape_bufs_sub .., unary_bufs_sub .., reshape_bufs_sub ..,
    unary_bufs_sub .., reshape_bufs_sub .., unary_bufs_sub .., reshape_bufs_sub .., unary_bufs_sub .., reshape_bufs_sub ..,
    unary_bufs_sub .., reshape_bufs_sub .., unary_bufs_sub .., reshape_bufs_sub .., unary_bufs_sub .., reshape_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., unary_bufs_sub .., unary_bufs_sub ..,
    binary_bufs_sub .., binary_bufs_sub .., binary_bufs_sub .., unary_bufs_sub .., unary_bufs_sub .., binary_bufs_sub ..,
    nullary_bufs_sub .., unary_bufs_sub .., unary_bufs_sub .., ternary_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., unary_bufs_sub .., binary_bufs_sub .., binary_bufs_sub .., binary_bufs_sub ..,
    unary_bufs_sub .., unary_bufs_sub .., binary_bufs_sub ..⟩

theorem ops2_sub : (ops2 : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub ..⟩

theorem ops3_sub : (ops3 : List (HloOp τ sig (Elt F))).Forall fun op => op.bufs ⊆ tcRefs τ sig :=
  ⟨unary_bufs_sub .., reshape_bufs_sub .., unary_bufs_sub .., reshape_bufs_sub .., unary_bufs_sub .., reshape_bufs_sub ..,
    unary_bufs_sub .., reshape_bufs_sub .., unary_bufs_sub .., reshape_bufs_sub .., unary_bufs_sub .., reshape_bufs_sub ..,
    unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., unary_bufs_sub .., unary_bufs_sub .., binary_bufs_sub .., binary_bufs_sub ..,
    binary_bufs_sub .., unary_bufs_sub .., unary_bufs_sub .., binary_bufs_sub .., nullary_bufs_sub .., unary_bufs_sub ..,
    unary_bufs_sub .., ternary_bufs_sub .., nullary_bufs_sub .., unary_bufs_sub .., nullary_bufs_sub .., unary_bufs_sub ..,
    unary_bufs_sub .., ternary_bufs_sub .., nullary_bufs_sub .., unary_bufs_sub .., binary_bufs_sub .., unary_bufs_sub ..,
    unary_bufs_sub .., binary_bufs_sub .., binary_bufs_sub .., binary_bufs_sub .., unary_bufs_sub .., unary_bufs_sub ..,
    binary_bufs_sub ..⟩

theorem ops4_sub : (ops4 : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub ..⟩

theorem ops5_sub : (ops5 : List (HloOp τ sig (Elt F))).Forall fun op => op.bufs ⊆ tcRefs τ sig :=
  reshape_bufs_sub ..

theorem ops_sub : (ops : List (HloOp τ sig (Elt F))).Forall fun op => op.bufs ⊆ tcRefs τ sig :=
  List.forall_append.mpr ⟨List.forall_append.mpr ⟨List.forall_append.mpr ⟨List.forall_append.mpr ⟨ops1_sub, ops2_sub⟩, ops3_sub⟩, ops4_sub⟩, ops5_sub⟩

/-! ## Every operation determines what it writes -/

theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl⟩

theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl⟩

theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl⟩

theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl⟩

theorem ops5_fresh : (ops5 : List (HloOp τ sig (Elt F))).Forall fun op => op.fresh = ∅ :=
  rfl

theorem ops_fresh : ∀ op ∈ (ops : List (HloOp τ sig (Elt F))), op.fresh = ∅ :=
  List.forall_iff_forall_mem.mp
    (List.forall_append.mpr ⟨List.forall_append.mpr ⟨List.forall_append.mpr ⟨List.forall_append.mpr ⟨ops1_fresh, ops2_fresh⟩, ops3_fresh⟩, ops4_fresh⟩, ops5_fresh⟩)

/-! ## No operation writes an argument

The twelve arguments are the buffers at places 0 … 11 of the table; each operation writes one buffer, at place 12 or
later. A buffer at a place below every written place keeps its contents through the whole line. -/

/-- A buffer whose place in its table is below the place of every buffer the line writes keeps its contents. -/
theorem after_of_lt_writes (n : Nat) :
    ∀ (l : List (HloOp τ sig (Elt F))) (V : Valuation τ sig (Elt F)),
      (l.Forall fun op => ∀ b ∈ op.writes, n ≤ b.idx.val) → ∀ {b : DevRef τ sig}, b.idx.val < n → after l V b = V b :=
  fun l V h b hb => after_of_forall_not_mem l V fun op hop hmem =>
    absurd (List.forall_iff_forall_mem.mp h op hop b hmem) (Nat.not_le.mpr hb)

section Writes
variable {x a b c y : Ref sig .tc} {n : Nat}

theorem nullary_wr {v : y.ty.Contents (Elt F)} {hy} (h : n ≤ (Proc.devRef (τ := τ) .tc y).idx.val) :
    ∀ r ∈ (nullary (τ := τ) y v hy).writes, n ≤ r.idx.val := by
  intro r hr; rw [nullary_writes] at hr; rw [Finset.mem_singleton.mp hr]; exact h
theorem unary_wr {f : x.ty.Contents (Elt F) → y.ty.Contents (Elt F)} {hx hy} (h : n ≤ (Proc.devRef (τ := τ) .tc y).idx.val) :
    ∀ r ∈ (unary (τ := τ) x y f hx hy).writes, n ≤ r.idx.val := by
  intro r hr; rw [unary_writes] at hr; rw [Finset.mem_singleton.mp hr]; exact h
theorem binary_wr {f : a.ty.Contents (Elt F) → b.ty.Contents (Elt F) → y.ty.Contents (Elt F)} {ha hb hy}
    (h : n ≤ (Proc.devRef (τ := τ) .tc y).idx.val) : ∀ r ∈ (binary (τ := τ) a b y f ha hb hy).writes, n ≤ r.idx.val := by
  intro r hr; rw [binary_writes] at hr; rw [Finset.mem_singleton.mp hr]; exact h
theorem ternary_wr {f : c.ty.Contents (Elt F) → a.ty.Contents (Elt F) → b.ty.Contents (Elt F) → y.ty.Contents (Elt F)} {hc ha hb hy}
    (h : n ≤ (Proc.devRef (τ := τ) .tc y).idx.val) : ∀ r ∈ (ternary (τ := τ) c a b y f hc ha hb hy).writes, n ≤ r.idx.val := by
  intro r hr; rw [ternary_writes] at hr; rw [Finset.mem_singleton.mp hr]; exact h
theorem reshape_wr {he hn hx hy} (h : n ≤ (Proc.devRef (τ := τ) .tc y).idx.val) :
    ∀ r ∈ (reshape (τ := τ) (Val := Elt F) x y he hn hx hy).writes, n ≤ r.idx.val := by
  intro r hr; rw [reshape_writes] at hr; rw [Finset.mem_singleton.mp hr]; exact h
end Writes

theorem ops1_wr : (ops1 : List (HloOp τ sig (Elt F))).Forall fun op => ∀ r ∈ op.writes, 12 ≤ r.idx.val :=
  ⟨reshape_wr (by decide), unary_wr (by decide), reshape_wr (by decide), unary_wr (by decide), reshape_wr (by decide),
    nullary_wr (by decide), unary_wr (by decide), binary_wr (by decide), nullary_wr (by decide), unary_wr (by decide),
    binary_wr (by decide), ternary_wr (by decide), unary_wr (by decide), binary_wr (by decide), unary_wr (by decide),
    reshape_wr (by decide), unary_wr (by decide), reshape_wr (by decide), unary_wr (by decide), reshape_wr (by decide),
    unary_wr (by decide), reshape_wr (by decide), unary_wr (by decide), reshape_wr (by decide), unary_wr (by decide),
    reshape_wr (by decide), unary_wr (by decide), reshape_wr (by decide), unary_wr (by decide), reshape_wr (by decide),
    nullary_wr (by decide), unary_wr (by decide), binary_wr (by decide), nullary_wr (by decide), unary_wr (by decide),
    binary_wr (by decide), ternary_wr (by decide), unary_wr (by decide), binary_wr (by decide), binary_wr (by decide),
    unary_wr (by decide), unary_wr (by decide), binary_wr (by decide), binary_wr (by decide), binary_wr (by decide),
    unary_wr (by decide), unary_wr (by decide), binary_wr (by decide), nullary_wr (by decide), unary_wr (by decide),
    unary_wr (by decide), ternary_wr (by decide), nullary_wr (by decide), unary_wr (by decide), nullary_wr (by decide),
    unary_wr (by decide), unary_wr (by decide), ternary_wr (by decide), nullary_wr (by decide), unary_wr (by decide),
    binary_wr (by decide), unary_wr (by decide), unary_wr (by decide), binary_wr (by decide), binary_wr (by decide),
    binary_wr (by decide), unary_wr (by decide), unary_wr (by decide), binary_wr (by decide)⟩

theorem ops2_wr : (ops2 : List (HloOp τ sig (Elt F))).Forall fun op => ∀ r ∈ op.writes, 12 ≤ r.idx.val :=
  ⟨nullary_wr (by decide), binary_wr (by decide), nullary_wr (by decide), unary_wr (by decide), binary_wr (by decide),
    nullary_wr (by decide), nullary_wr (by decide), binary_wr (by decide), unary_wr (by decide), nullary_wr (by decide),
    unary_wr (by decide), binary_wr (by decide), unary_wr (by decide), binary_wr (by decide), binary_wr (by decide),
    unary_wr (by decide), nullary_wr (by decide), binary_wr (by decide), nullary_wr (by decide), binary_wr (by decide),
    unary_wr (by decide), binary_wr (by decide), nullary_wr (by decide), binary_wr (by decide), nullary_wr (by decide),
    unary_wr (by decide), unary_wr (by decide), ternary_wr (by decide), unary_wr (by decide), unary_wr (by decide),
    binary_wr (by decide), nullary_wr (by decide), unary_wr (by decide), binary_wr (by decide), unary_wr (by decide),
    unary_wr (by decide), unary_wr (by decide), binary_wr (by decide), unary_wr (by decide), unary_wr (by decide),
    binary_wr (by decide), unary_wr (by decide), unary_wr (by decide), binary_wr (by decide), nullary_wr (by decide),
    unary_wr (by decide), binary_wr (by decide)⟩

theorem ops3_wr : (ops3 : List (HloOp τ sig (Elt F))).Forall fun op => ∀ r ∈ op.writes, 12 ≤ r.idx.val :=
  ⟨unary_wr (by decide), reshape_wr (by decide), unary_wr (by decide), reshape_wr (by decide), unary_wr (by decide),
    reshape_wr (by decide), unary_wr (by decide), reshape_wr (by decide), unary_wr (by decide), reshape_wr (by decide),
    unary_wr (by decide), reshape_wr (by decide), unary_wr (by decide), reshape_wr (by decide), unary_wr (by decide),
    reshape_wr (by decide), nullary_wr (by decide), unary_wr (by decide), binary_wr (by decide), nullary_wr (by decide),
    unary_wr (by decide), binary_wr (by decide), ternary_wr (by decide), unary_wr (by decide), binary_wr (by decide),
    binary_wr (by decide), unary_wr (by decide), unary_wr (by decide), binary_wr (by decide), binary_wr (by decide),
    binary_wr (by decide), unary_wr (by decide), unary_wr (by decide), binary_wr (by decide), nullary_wr (by decide),
    unary_wr (by decide), unary_wr (by decide), ternary_wr (by decide), nullary_wr (by decide), unary_wr (by decide),
    nullary_wr (by decide), unary_wr (by decide), unary_wr (by decide), ternary_wr (by decide), nullary_wr (by decide),
    unary_wr (by decide), binary_wr (by decide), unary_wr (by decide), unary_wr (by decide), binary_wr (by decide),
    binary_wr (by decide), binary_wr (by decide), unary_wr (by decide), unary_wr (by decide), binary_wr (by decide)⟩

theorem ops4_wr : (ops4 : List (HloOp τ sig (Elt F))).Forall fun op => ∀ r ∈ op.writes, 12 ≤ r.idx.val :=
  ⟨nullary_wr (by decide), binary_wr (by decide), nullary_wr (by decide), unary_wr (by decide), binary_wr (by decide),
    nullary_wr (by decide), nullary_wr (by decide), binary_wr (by decide), unary_wr (by decide), nullary_wr (by decide),
    unary_wr (by decide), binary_wr (by decide), unary_wr (by decide), binary_wr (by decide), binary_wr (by decide),
    unary_wr (by decide), nullary_wr (by decide), binary_wr (by decide), nullary_wr (by decide), binary_wr (by decide),
    unary_wr (by decide), binary_wr (by decide), nullary_wr (by decide), binary_wr (by decide), nullary_wr (by decide),
    unary_wr (by decide), unary_wr (by decide), ternary_wr (by decide), unary_wr (by decide), unary_wr (by decide),
    binary_wr (by decide), nullary_wr (by decide), unary_wr (by decide), binary_wr (by decide), unary_wr (by decide),
    unary_wr (by decide), unary_wr (by decide), binary_wr (by decide), unary_wr (by decide), unary_wr (by decide),
    binary_wr (by decide), unary_wr (by decide), unary_wr (by decide), binary_wr (by decide), nullary_wr (by decide),
    unary_wr (by decide), binary_wr (by decide)⟩

theorem ops5_wr : (ops5 : List (HloOp τ sig (Elt F))).Forall fun op => ∀ r ∈ op.writes, 12 ≤ r.idx.val :=
  reshape_wr (by decide)

theorem ops_wr : (ops : List (HloOp τ sig (Elt F))).Forall fun op => ∀ r ∈ op.writes, 12 ≤ r.idx.val :=
  List.forall_append.mpr ⟨List.forall_append.mpr ⟨List.forall_append.mpr ⟨List.forall_append.mpr ⟨ops1_wr, ops2_wr⟩, ops3_wr⟩, ops4_wr⟩, ops5_wr⟩

/-- Through the whole line a buffer at one of the first twelve places keeps its contents. -/
theorem after_ops_arg (V : Valuation τ sig (Elt F)) {b : DevRef τ sig} (hb : b.idx.val < 12) : after ops V b = V b :=
  after_of_lt_writes 12 ops V ops_wr hb

/-! ## The run -/

/-- From any launch memory with zero counters every weakly fair execution of the main function terminates; at the end
    each core's result buffer holds the straight line's fold over that core's launch contents, read at the result, and
    each of the twelve argument buffers what it held at launch. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v150) = StableHlo.after ops (launch m c) (Proc.devRef .tc main_v150)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨h c main_v150,
      (h c main_arg0).trans (after_ops_arg _ (by decide)),
      (h c main_arg1).trans (after_ops_arg _ (by decide)),
      (h c main_arg2).trans (after_ops_arg _ (by decide)),
      (h c main_arg3).trans (after_ops_arg _ (by decide)),
      (h c main_arg4).trans (after_ops_arg _ (by decide)),
      (h c main_arg5).trans (after_ops_arg _ (by decide)),
      (h c main_arg6).trans (after_ops_arg _ (by decide)),
      (h c main_arg7).trans (after_ops_arg _ (by decide)),
      (h c main_arg8).trans (after_ops_arg _ (by decide)),
      (h c main_arg9).trans (after_ops_arg _ (by decide)),
      (h c main_arg10).trans (after_ops_arg _ (by decide)),
      (h c main_arg11).trans (after_ops_arg _ (by decide))⟩)
    (run_seq scopedRefs_eq scopedSems_eq defs main (fun _ => ops) main_eq (fun _ => ops_sub) m ρ (fun _ => ops_fresh))

end Cert.ReferenceIdeal.HandRun

end
-- ==== Proof.RIn.lean ====
/-
  When a core's buffers hold the twelve argument arrays: the link between the reference program's buffer contents and
  the arrays the network is a function of.
-/
import proofs.«410086_j81595788689991_2_alg».proof.ReferenceIdeal
import proofs.«410086_j81595788689991_2_alg».proof.Proof.Arrays
import Idealize.ShloMosaic.Lib.StableHlo.Run

noncomputable section

namespace Cert.ReferenceIdeal.Val

open Idealize.ShloMosaic Idealize.ShloMosaic.ValueIdx Cert.ReferenceIdeal Cert.Gnn

/-- The contents `W` of one core's buffers hold the argument arrays `I`, each argument buffer the array of its
    position. -/
structure Holds (W : Valuation τ sig (Elt Ideal)) (I : Inputs) : Prop where
  data : (W (Proc.devRef .tc main_arg0) : S32x512x256.Idx → EReal) = I.data
  emb : (W (Proc.devRef .tc main_arg1) : S64x64.Idx → EReal) = I.emb
  Wmsg : (W (Proc.devRef .tc main_arg2) : S2x256x256.Idx → EReal) = I.Wmsg
  bmsg : (W (Proc.devRef .tc main_arg3) : S2x256.Idx → EReal) = I.bmsg
  Wself : (W (Proc.devRef .tc main_arg4) : S2x256x256.Idx → EReal) = I.Wself
  bself : (W (Proc.devRef .tc main_arg5) : S2x256.Idx → EReal) = I.bself
  Wedge : (W (Proc.devRef .tc main_arg6) : S2x64x256.Idx → EReal) = I.Wedge
  bedge : (W (Proc.devRef .tc main_arg7) : S2x256.Idx → EReal) = I.bedge
  gamma : (W (Proc.devRef .tc main_arg8) : S2x256.Idx → EReal) = I.gamma
  beta : (W (Proc.devRef .tc main_arg9) : S2x256.Idx → EReal) = I.beta
  edge : (W (Proc.devRef .tc main_arg10) : IVec S2x524288 32) = I.edge
  ef : (W (Proc.devRef .tc main_arg11) : IVec S524288 32) = I.ef

/-- The argument arrays a core's buffer contents hold. -/
def inputsOf (W : Valuation τ sig (Elt Ideal)) : Inputs where
  data := (W (Proc.devRef .tc main_arg0) : S32x512x256.Idx → EReal)
  emb := (W (Proc.devRef .tc main_arg1) : S64x64.Idx → EReal)
  Wmsg := (W (Proc.devRef .tc main_arg2) : S2x256x256.Idx → EReal)
  bmsg := (W (Proc.devRef .tc main_arg3) : S2x256.Idx → EReal)
  Wself := (W (Proc.devRef .tc main_arg4) : S2x256x256.Idx → EReal)
  bself := (W (Proc.devRef .tc main_arg5) : S2x256.Idx → EReal)
  Wedge := (W (Proc.devRef .tc main_arg6) : S2x64x256.Idx → EReal)
  bedge := (W (Proc.devRef .tc main_arg7) : S2x256.Idx → EReal)
  gamma := (W (Proc.devRef .tc main_arg8) : S2x256.Idx → EReal)
  beta := (W (Proc.devRef .tc main_arg9) : S2x256.Idx → EReal)
  edge := (W (Proc.devRef .tc main_arg10) : IVec S2x524288 32)
  ef := (W (Proc.devRef .tc main_arg11) : IVec S524288 32)

theorem holds_inputsOf (W : Valuation τ sig (Elt Ideal)) : Holds W (inputsOf W) :=
  ⟨rfl, rfl, rfl, rfl, rfl, rfl, rfl, rfl, rfl, rfl, rfl, rfl⟩

end Cert.ReferenceIdeal.Val

end
-- ==== Proof.RKeep.lean ====
/-
  Which buffers each stretch of the reference program's straight line leaves alone. Buffers are numbered by their place
  in the table in the order the program defines its values, so each stretch writes a contiguous range of places: the
  first writes places 12 … 80, the second 81 … 127, the third 128 … 182, the fourth 183 … 229, the last 230. A buffer
  whose place lies below a stretch's first written place — the twelve arguments always, and every value an earlier
  stretch defined — holds after the stretch what it held before.
-/
import proofs.«410086_j81595788689991_2_alg».proof.Proof.ROps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- A buffer whose place in its table is below the place of every buffer a line writes keeps its contents through it. -/
private theorem keep_below (n : Nat) (l : List (HloOp τ sig (Elt F))) (V : Valuation τ sig (Elt F))
    (h : l.Forall fun op => ∀ r ∈ op.writes, n ≤ r.idx.val) {b : DevRef τ sig} (hb : b.idx.val < n) : after l V b = V b :=
  after_of_forall_not_mem l V fun op hop hmem =>
    absurd (List.forall_iff_forall_mem.mp h op hop b hmem) (Nat.not_le.mpr hb)

section Writes
variable {x a b c y : Ref sig .tc} {n : Nat}

/-! Each kind of operation writes exactly its result buffer, so a lower bound on that buffer's place bounds every place
    the operation writes. -/

private theorem nullary_ge {v : y.ty.Contents (Elt F)} {hy} (h : n ≤ (Proc.devRef (τ := τ) .tc y).idx.val) :
    ∀ r ∈ (nullary (τ := τ) y v hy).writes, n ≤ r.idx.val := by
  intro r hr; rw [nullary_writes] at hr; rw [Finset.mem_singleton.mp hr]; exact h
private theorem unary_ge {f : x.ty.Contents (Elt F) → y.ty.Contents (Elt F)} {hx hy} (h : n ≤ (Proc.devRef (τ := τ) .tc y).idx.val) :
    ∀ r ∈ (unary (τ := τ) x y f hx hy).writes, n ≤ r.idx.val := by
  intro r hr; rw [unary_writes] at hr; rw [Finset.mem_singleton.mp hr]; exact h
private theorem binary_ge {f : a.ty.Contents (Elt F) → b.ty.Contents (Elt F) → y.ty.Contents (Elt F)} {ha hb hy}
    (h : n ≤ (Proc.devRef (τ := τ) .tc y).idx.val) : ∀ r ∈ (binary (τ := τ) a b y f ha hb hy).writes, n ≤ r.idx.val := by
  intro r hr; rw [binary_writes] at hr; rw [Finset.mem_singleton.mp hr]; exact h
private theorem ternary_ge {f : c.ty.Contents (Elt F) → a.ty.Contents (Elt F) → b.ty.Contents (Elt F) → y.ty.Contents (Elt F)} {hc ha hb hy}
    (h : n ≤ (Proc.devRef (τ := τ) .tc y).idx.val) : ∀ r ∈ (ternary (τ := τ) c a b y f hc ha hb hy).writes, n ≤ r.idx.val := by
  intro r hr; rw [ternary_writes] at hr; rw [Finset.mem_singleton.mp hr]; exact h
private theorem reshape_ge {he hn hx hy} (h : n ≤ (Proc.devRef (τ := τ) .tc y).idx.val) :
    ∀ r ∈ (reshape (τ := τ) (Val := Elt F) x y he hn hx hy).writes, n ≤ r.idx.val := by
  intro r hr; rw [reshape_writes] at hr; rw [Finset.mem_singleton.mp hr]; exact h
end Writes

private theorem ops1_ge : (ops1 : List (HloOp τ sig (Elt F))).Forall fun op => ∀ r ∈ op.writes, 12 ≤ r.idx.val :=
  ⟨reshape_ge (by decide), unary_ge (by decide), reshape_ge (by decide), unary_ge (by decide), reshape_ge (by decide),
    nullary_ge (by decide), unary_ge (by decide), binary_ge (by decide), nullary_ge (by decide), unary_ge (by decide),
    binary_ge (by decide), ternary_ge (by decide), unary_ge (by decide), binary_ge (by decide), unary_ge (by decide),
    reshape_ge (by decide), unary_ge (by decide), reshape_ge (by decide), unary_ge (by decide), reshape_ge (by decide),
    unary_ge (by decide), reshape_ge (by decide), unary_ge (by decide), reshape_ge (by decide), unary_ge (by decide),
    reshape_ge (by decide), unary_ge (by decide), reshape_ge (by decide), unary_ge (by decide), reshape_ge (by decide),
    nullary_ge (by decide), unary_ge (by decide), binary_ge (by decide), nullary_ge (by decide), unary_ge (by decide),
    binary_ge (by decide), ternary_ge (by decide), unary_ge (by decide), binary_ge (by decide), binary_ge (by decide),
    unary_ge (by decide), unary_ge (by decide), binary_ge (by decide), binary_ge (by decide), binary_ge (by decide),
    unary_ge (by decide), unary_ge (by decide), binary_ge (by decide), nullary_ge (by decide), unary_ge (by decide),
    unary_ge (by decide), ternary_ge (by decide), nullary_ge (by decide), unary_ge (by decide), nullary_ge (by decide),
    unary_ge (by decide), unary_ge (by decide), ternary_ge (by decide), nullary_ge (by decide), unary_ge (by decide),
    binary_ge (by decide), unary_ge (by decide), unary_ge (by decide), binary_ge (by decide), binary_ge (by decide),
    binary_ge (by decide), unary_ge (by decide), unary_ge (by decide), binary_ge (by decide)⟩

private theorem ops2_ge : (ops2 : List (HloOp τ sig (Elt F))).Forall fun op => ∀ r ∈ op.writes, 81 ≤ r.idx.val :=
  ⟨nullary_ge (by decide), binary_ge (by decide), nullary_ge (by decide), unary_ge (by decide), binary_ge (by decide),
    nullary_ge (by decide), nullary_ge (by decide), binary_ge (by decide), unary_ge (by decide), nullary_ge (by decide),
    unary_ge (by decide), binary_ge (by decide), unary_ge (by decide), binary_ge (by decide), binary_ge (by decide),
    unary_ge (by decide), nullary_ge (by decide), binary_ge (by decide), nullary_ge (by decide), binary_ge (by decide),
    unary_ge (by decide), binary_ge (by decide), nullary_ge (by decide), binary_ge (by decide), nullary_ge (by decide),
    unary_ge (by decide), unary_ge (by decide), ternary_ge (by decide), unary_ge (by decide), unary_ge (by decide),
    binary_ge (by decide), nullary_ge (by decide), unary_ge (by decide), binary_ge (by decide), unary_ge (by decide),
    unary_ge (by decide), unary_ge (by decide), binary_ge (by decide), unary_ge (by decide), unary_ge (by decide),
    binary_ge (by decide), unary_ge (by decide), unary_ge (by decide), binary_ge (by decide), nullary_ge (by decide),
    unary_ge (by decide), binary_ge (by decide)⟩

private theorem ops3_ge : (ops3 : List (HloOp τ sig (Elt F))).Forall fun op => ∀ r ∈ op.writes, 128 ≤ r.idx.val :=
  ⟨unary_ge (by decide), reshape_ge (by decide), unary_ge (by decide), reshape_ge (by decide), unary_ge (by decide),
    reshape_ge (by decide), unary_ge (by decide), reshape_ge (by decide), unary_ge (by decide), reshape_ge (by decide),
    unary_ge (by decide), reshape_ge (by decide), unary_ge (by decide), reshape_ge (by decide), unary_ge (by decide),
    reshape_ge (by decide), nullary_ge (by decide), unary_ge (by decide), binary_ge (by decide), nullary_ge (by decide),
    unary_ge (by decide), binary_ge (by decide), ternary_ge (by decide), unary_ge (by decide), binary_ge (by decide),
    binary_ge (by decide), unary_ge (by decide), unary_ge (by decide), binary_ge (by decide), binary_ge (by decide),
    binary_ge (by decide), unary_ge (by decide), unary_ge (by decide), binary_ge (by decide), nullary_ge (by decide),
    unary_ge (by decide), unary_ge (by decide), ternary_ge (by decide), nullary_ge (by decide), unary_ge (by decide),
    nullary_ge (by decide), unary_ge (by decide), unary_ge (by decide), ternary_ge (by decide), nullary_ge (by decide),
    unary_ge (by decide), binary_ge (by decide), unary_ge (by decide), unary_ge (by decide), binary_ge (by decide),
    binary_ge (by decide), binary_ge (by decide), unary_ge (by decide), unary_ge (by decide), binary_ge (by decide)⟩

private theorem ops4_ge : (ops4 : List (HloOp τ sig (Elt F))).Forall fun op => ∀ r ∈ op.writes, 183 ≤ r.idx.val :=
  ⟨nullary_ge (by decide), binary_ge (by decide), nullary_ge (by decide), unary_ge (by decide), binary_ge (by decide),
    nullary_ge (by decide), nullary_ge (by decide), binary_ge (by decide), unary_ge (by decide), nullary_ge (by decide),
    unary_ge (by decide), binary_ge (by decide), unary_ge (by decide), binary_ge (by decide), binary_ge (by decide),
    unary_ge (by decide), nullary_ge (by decide), binary_ge (by decide), nullary_ge (by decide), binary_ge (by decide),
    unary_ge (by decide), binary_ge (by decide), nullary_ge (by decide), binary_ge (by decide), nullary_ge (by decide),
    unary_ge (by decide), unary_ge (by decide), ternary_ge (by decide), unary_ge (by decide), unary_ge (by decide),
    binary_ge (by decide), nullary_ge (by decide), unary_ge (by decide), binary_ge (by decide), unary_ge (by decide),
    unary_ge (by decide), unary_ge (by decide), binary_ge (by decide), unary_ge (by decide), unary_ge (by decide),
    binary_ge (by decide), unary_ge (by decide), unary_ge (by decide), binary_ge (by decide), nullary_ge (by decide),
    unary_ge (by decide), binary_ge (by decide)⟩

private theorem ops5_ge : (ops5 : List (HloOp τ sig (Elt F))).Forall fun op => ∀ r ∈ op.writes, 230 ≤ r.idx.val :=
  reshape_ge (by decide)

/-- The first stretch writes no argument: a buffer at one of the first twelve places keeps its contents. -/
theorem after_ops1_arg (V : Valuation τ sig (Elt F)) {b : DevRef τ sig} (hb : b.idx.val < 12) : StableHlo.after ops1 V b = V b :=
  keep_below 12 ops1 V ops1_ge hb

/-- The second stretch writes only places 81 and up: the arguments and every value of the first stretch keep theirs. -/
theorem after_ops2_low (V : Valuation τ sig (Elt F)) {b : DevRef τ sig} (hb : b.idx.val < 81) : StableHlo.after ops2 V b = V b :=
  keep_below 81 ops2 V ops2_ge hb

/-- The third stretch writes only places 128 and up: the arguments and every value of the first two stretches keep theirs. -/
theorem after_ops3_low (V : Valuation τ sig (Elt F)) {b : DevRef τ sig} (hb : b.idx.val < 128) : StableHlo.after ops3 V b = V b :=
  keep_below 128 ops3 V ops3_ge hb

/-- The fourth stretch writes only places 183 and up. -/
theorem after_ops4_low (V : Valuation τ sig (Elt F)) {b : DevRef τ sig} (hb : b.idx.val < 183) : StableHlo.after ops4 V b = V b :=
  keep_below 183 ops4 V ops4_ge hb

/-- The last stretch writes only the result, at place 230. -/
theorem after_ops5_low (V : Valuation τ sig (Elt F)) {b : DevRef τ sig} (hb : b.idx.val < 230) : StableHlo.after ops5 V b = V b :=
  keep_below 230 ops5 V ops5_ge hb

end Cert.ReferenceIdeal.HandRun

end
-- ==== Proof.RPre.lean ====
/-
  The reference program's layer before the normalisation, read at one entry.

  Both layers apply the same chain of operations to their node features, their parameter slices, the gathered
  embedding rows and the two index columns: the destination's row is gathered (a negative index counted from the
  end, then clamped), multiplied by the message weights and shifted by their bias, the edge's embedding row times the
  edge weights and their bias are added, the rows are summed per source, divided by the number of edges per source
  (at least one), and the node's own affine image is added. Each operation is read at an entry, the chain is written
  once over arbitrary arrays and read at an entry as the specification's per-entry formula, and the two layers are its
  two instances: the first over slices of the arguments, the second over the first layer's output and the buffers the
  first layer left.
-/
import proofs.«410086_j81595788689991_2_alg».proof.Proof.ROps
import proofs.«410086_j81595788689991_2_alg».proof.Proof.RIn
import proofs.«410086_j81595788689991_2_alg».proof.Proof.Consts
import proofs.«410086_j81595788689991_2_alg».proof.Proof.LibRowGatherScatter
import proofs.«410086_j81595788689991_2_alg».proof.Proof.LibVecScatter
import Idealize.ShloMosaic.Lib.StackMember
import Idealize.ShloMosaic.Lib.Pipeline.Value
import Idealize.ShloMosaic.Lib.ValueLayout

noncomputable section

namespace Cert.ReferenceIdeal.RefVal

open Cert.ReferenceIdeal Cert.Gnn Idealize.ShloMosaic Idealize.ShloMosaic.ValueIdx
open Cert.ReferenceIdeal.Facts₀
open scoped BigOperators

set_option maxHeartbeats 400000

section Stages
variable [Facts₀]

/-! ## The layer's operations, each read at one entry -/

/-- An index counted from the end when negative, entry by entry. -/
theorem wrap_apply (ext : BitVec 32) (v : IVec S524288 32) (e : Fin 524288) :
    select (cmpi .slt v (broadcastInDim S524288 ![] bcast_S_S524288 (constantI S_ 32 0#32)))
      (addi v (broadcastInDim S524288 ![] bcast_S_S524288 (constantI S_ 32 ext))) v (ix1 e)
      = wrapW ext (v (ix1 e)) := rfl

/-- A vector of indices as a one-column matrix. -/
theorem col_apply {w : Nat} (v : IVec S524288 w) (e : Fin 524288) :
    broadcastInDim S524288x1 ![0] bcast_S524288_S524288x1_0 v (ix2 e (0 : Fin 1)) = v (ix1 e) := by
  refine broadcastInDim_apply _ _ v _ (ix1 e) fun a => ?_
  match a with
  | ⟨0, _⟩ => rfl

/-- A bias row repeated down the edges. -/
theorem biasE_apply (b : FVec Ideal S256 .f32) (e : Fin 524288) (d : Fin 256) :
    broadcastInDim S524288x256 ![0, 1] bcast_S1x256_S524288x256_0_1
      (broadcastInDim S1x256 ![1] bcast_S256_S1x256_1 b) (ix2 e d) = b (ix1 d) := by
  rw [broadcastInDim_apply _ _ _ (ix2 e d) (ix2 (0 : Fin 1) d) (fun a => by
    match a with
    | ⟨0, _⟩ => rfl
    | ⟨1, _⟩ => rfl)]
  refine broadcastInDim_apply _ _ b _ (ix1 d) fun a => ?_
  match a with
  | ⟨0, _⟩ => rfl

/-- A bias row repeated down the nodes. -/
theorem biasN_apply (b : FVec Ideal S256 .f32) (n : Fin 16384) (d : Fin 256) :
    broadcastInDim S16384x256 ![0, 1] bcast_S1x256_S16384x256_0_1
      (broadcastInDim S1x256 ![1] bcast_S256_S1x256_1 b) (ix2 n d) = b (ix1 d) := by
  rw [broadcastInDim_apply _ _ _ (ix2 n d) (ix2 (0 : Fin 1) d) (fun a => by
    match a with
    | ⟨0, _⟩ => rfl
    | ⟨1, _⟩ => rfl)]
  refine broadcastInDim_apply _ _ b _ (ix1 d) fun a => ?_
  match a with
  | ⟨0, _⟩ => rfl

/-- A per-node column repeated across the features. -/
theorem keep_apply (v : FVec Ideal S16384 .f32) (n : Fin 16384) (d : Fin 256) :
    broadcastInDim S16384x256 ![0, 1] bcast_S16384x1_S16384x256_0_1
      (broadcastInDim S16384x1 ![0] bcast_S16384_S16384x1_0 v) (ix2 n d) = v (ix1 n) := by
  rw [broadcastInDim_apply _ _ _ (ix2 n d) (ix2 n (0 : Fin 1)) (fun a => by
    match a with
    | ⟨0, _⟩ => rfl
    | ⟨1, _⟩ => rfl)]
  refine broadcastInDim_apply _ _ v _ (ix1 n) fun a => ?_
  match a with
  | ⟨0, _⟩ => rfl

/-- The zero matrix the messages are summed into. -/
theorem zerosND_apply (i : S16384x256.Idx) :
    broadcastInDim S16384x256 ![] bcast_S_S16384x256 (constant (F := Ideal) S_ .f32 0x00000000#32) i = (0 : EReal) := by
  show Ideal.ofBits .f32 0x00000000#32 = 0
  exact ofBits_zero

/-- The zero vector the ones are summed into. -/
theorem zerosN_apply (i : S16384.Idx) :
    broadcastInDim S16384 ![] bcast_S_S16384 (constant (F := Ideal) S_ .f32 0x00000000#32) i = (0 : EReal) := by
  show Ideal.ofBits .f32 0x00000000#32 = 0
  exact ofBits_zero

/-- One per edge. -/
theorem onesE_apply (i : S524288.Idx) :
    broadcastInDim S524288 ![] bcast_S_S524288 (constant (F := Ideal) S_ .f32 0x3F800000#32) i = (1 : EReal) := by
  show Ideal.ofBits .f32 0x3F800000#32 = 1
  exact ofBits_one

/-- One per node. -/
theorem onesN_apply (i : S16384.Idx) :
    broadcastInDim S16384 ![] bcast_S_S16384 (constant (F := Ideal) S_ .f32 0x3F800000#32) i = (1 : EReal) := by
  show Ideal.ofBits .f32 0x3F800000#32 = 1
  exact ofBits_one

/-- The host's quotient, entry by entry. -/
theorem hostDivf_apply {s : Shape} (a b : FVec Ideal s .f32) (i : s.Idx) : Host.divf a b i = Ideal.div (a i) (b i) := rfl

/-- Rows of the node features gathered by a column of indices. -/
theorem gatherX_apply (x : FVec Ideal S16384x256 .f32) (idx : IVec S524288x1 32) (e : Fin 524288) (j : Fin 256) :
    Host.gather gather_S16384x256_S524288x1_S524288x256_1_0_n_n_0_1_1256 x idx (ix2 e j)
      = x (ix2 ⟨min (idx (ix2 e (0 : Fin 1))).toInt.toNat (16384 - 1), by omega⟩ j) :=
  Cert.Gcn.gather_rows_apply (by decide) gather_S16384x256_S524288x1_S524288x256_1_0_n_n_0_1_1256_wf x idx e j

/-- Rows of the embedding table gathered by a column of indices. -/
theorem gatherE_apply (x : FVec Ideal S64x64 .f32) (idx : IVec S524288x1 32) (e : Fin 524288) (j : Fin 64) :
    Host.gather gather_S64x64_S524288x1_S524288x64_1_0_n_n_0_1_164 x idx (ix2 e j)
      = x (ix2 ⟨min (idx (ix2 e (0 : Fin 1))).toInt.toNat (64 - 1), by omega⟩ j) :=
  Cert.Gcn.gather_rows_apply (by decide) gather_S64x64_S524288x1_S524288x64_1_0_n_n_0_1_164_wf x idx e j

/-- The per-edge product with a square matrix. -/
theorem dotE256_apply (A : FVec Ideal S524288x256 .f32) (B : FVec Ideal S256x256 .f32) (e : Fin 524288) (d : Fin 256) :
    Host.dotGeneral dot_S524288x256_S256x256_S524288x256_1_0_0_1_n_n none A B (ix2 e d)
      = ∑ j : Fin 256, A (ix2 e j) * B (ix2 j d) :=
  StackMember.dotGeneral_plain_apply (m := 524288) (n := 256) (k := 256) none A B e d

/-- The per-edge product of the embedding rows with the edge weights. -/
theorem dotE64_apply (A : FVec Ideal S524288x64 .f32) (B : FVec Ideal S64x256 .f32) (e : Fin 524288) (d : Fin 256) :
    Host.dotGeneral dot_S524288x64_S64x256_S524288x256_1_0_0_1_n_n none A B (ix2 e d)
      = ∑ j : Fin 64, A (ix2 e j) * B (ix2 j d) :=
  StackMember.dotGeneral_plain_apply (m := 524288) (n := 256) (k := 64) none A B e d

/-- The per-node product with a square matrix. -/
theorem dotN_apply (A : FVec Ideal S16384x256 .f32) (B : FVec Ideal S256x256 .f32) (n : Fin 16384) (d : Fin 256) :
    Host.dotGeneral dot_S16384x256_S256x256_S16384x256_1_0_0_1_n_n none A B (ix2 n d)
      = ∑ j : Fin 256, A (ix2 n j) * B (ix2 j d) :=
  StackMember.dotGeneral_plain_apply (m := 16384) (n := 256) (k := 256) none A B n d

/-- At the exact values the host's accumulating scatter is the exact sum. -/
theorem hostScatterAdd_eq {s si u : Shape} {w : Nat} (dn : ScatterDims s si u) (x : FVec Ideal s .f32) (idx : IVec si w)
    (upd : FVec Ideal u .f32) : Host.scatterAdd dn x idx upd = Ideal.hostScatterAdd dn x idx upd := rfl

theorem scatterRows_eq : scatter_S16384x256_S524288x1_S524288x256_1_0_0_1
    = Cert.Gcn.rowScatterDims 16384 524288 256 scatter_S16384x256_S524288x1_S524288x256_1_0_0_1_wf := rfl

theorem scatterVec_eq : scatter_S16384_S524288x1_S524288_n_0_0_1
    = Cert.Gcn.vecScatterDims 16384 524288 scatter_S16384_S524288x1_S524288_n_0_0_1_wf := rfl

/-- The rows summed per source: the operand's entry plus the sum over the edges whose source is the node. -/
theorem segRows_apply (z : FVec Ideal S16384x256 .f32) (src : IVec S524288 32) (u : FVec Ideal S524288x256 .f32)
    (n : Fin 16384) (d : Fin 256) :
    Host.scatterAdd scatter_S16384x256_S524288x1_S524288x256_1_0_0_1 z
        (broadcastInDim S524288x1 ![0] bcast_S524288_S524288x1_0 src) u (ix2 n d)
      = z (ix2 n d) + ∑ e ∈ Finset.univ.filter (fun e : Fin 524288 => (src (ix1 e)).toInt = (n.val : ℤ)), u (ix2 e d) := by
  rw [hostScatterAdd_eq, scatterRows_eq, Cert.Gcn.scatterAdd_rows_apply]
  exact congrArg (z (ix2 n d) + ·)
    (Finset.sum_congr (Finset.filter_congr fun e _ => by rw [col_apply]) fun _ _ => rfl)

/-- A vector summed per source. -/
theorem segVec_apply (z : FVec Ideal S16384 .f32) (src : IVec S524288 32) (u : FVec Ideal S524288 .f32) (n : Fin 16384) :
    Host.scatterAdd scatter_S16384_S524288x1_S524288_n_0_0_1 z
        (broadcastInDim S524288x1 ![0] bcast_S524288_S524288x1_0 src) u (ix1 n)
      = z (ix1 n) + ∑ e ∈ Finset.univ.filter (fun e : Fin 524288 => (src (ix1 e)).toInt = (n.val : ℤ)), u (ix1 e) := by
  rw [hostScatterAdd_eq, scatterVec_eq, Cert.Gcn.scatterAdd_vec_apply]
  exact congrArg (z (ix1 n) + ·)
    (Finset.sum_congr (Finset.filter_congr fun e _ => by rw [col_apply]) fun _ _ => rfl)

end Stages

/-! ## The layer before the normalisation, as the operations compose, read at one entry -/

section Layer
variable [Facts₀]

/-- A vector of signed indices, the negative ones counted from the end, as a one-column matrix. -/
def wrapCol (ext : BitVec 32) (v : IVec S524288 32) : IVec S524288x1 32 :=
  broadcastInDim S524288x1 ![0] bcast_S524288_S524288x1_0
    (select (cmpi .slt v (broadcastInDim S524288 ![] bcast_S_S524288 (constantI S_ 32 0#32)))
      (addi v (broadcastInDim S524288 ![] bcast_S_S524288 (constantI S_ 32 ext))) v)

theorem wrapCol_apply (ext : BitVec 32) (v : IVec S524288 32) (e : Fin 524288) :
    wrapCol ext v (ix2 e (0 : Fin 1)) = wrapW ext (v (ix1 e)) := by
  unfold wrapCol
  rw [col_apply, wrap_apply]

/-- The messages: one row per edge. -/
def msgTerm (x : FVec Ideal S16384x256 .f32) (Wm : FVec Ideal S256x256 .f32) (bm : FVec Ideal S256 .f32)
    (We : FVec Ideal S64x256 .f32) (be : FVec Ideal S256 .f32) (Er : FVec Ideal S524288x64 .f32)
    (dst : IVec S524288 32) : FVec Ideal S524288x256 .f32 :=
  addf
    (addf
      (addf
        (Host.dotGeneral dot_S524288x256_S256x256_S524288x256_1_0_0_1_n_n none
          (Host.gather gather_S16384x256_S524288x1_S524288x256_1_0_n_n_0_1_1256 x (wrapCol 16384#32 dst)) Wm)
        (broadcastInDim S524288x256 ![0, 1] bcast_S1x256_S524288x256_0_1
          (broadcastInDim S1x256 ![1] bcast_S256_S1x256_1 bm)))
      (Host.dotGeneral dot_S524288x64_S64x256_S524288x256_1_0_0_1_n_n none Er We))
    (broadcastInDim S524288x256 ![0, 1] bcast_S1x256_S524288x256_0_1
      (broadcastInDim S1x256 ![1] bcast_S256_S1x256_1 be))

/-- The layer before the normalisation. -/
def preTerm (x : FVec Ideal S16384x256 .f32) (Wm : FVec Ideal S256x256 .f32) (bm : FVec Ideal S256 .f32)
    (Ws : FVec Ideal S256x256 .f32) (bs : FVec Ideal S256 .f32)
    (We : FVec Ideal S64x256 .f32) (be : FVec Ideal S256 .f32) (Er : FVec Ideal S524288x64 .f32)
    (src dst : IVec S524288 32) : FVec Ideal S16384x256 .f32 :=
  addf
    (addf
      (Host.divf
        (Host.scatterAdd scatter_S16384x256_S524288x1_S524288x256_1_0_0_1
          (broadcastInDim S16384x256 ![] bcast_S_S16384x256 (constant S_ .f32 0x00000000#32))
          (broadcastInDim S524288x1 ![0] bcast_S524288_S524288x1_0 src)
          (msgTerm x Wm bm We be Er dst))
        (broadcastInDim S16384x256 ![0, 1] bcast_S16384x1_S16384x256_0_1
          (broadcastInDim S16384x1 ![0] bcast_S16384_S16384x1_0
            (maximumf
              (Host.scatterAdd scatter_S16384_S524288x1_S524288_n_0_0_1
                (broadcastInDim S16384 ![] bcast_S_S16384 (constant S_ .f32 0x00000000#32))
                (broadcastInDim S524288x1 ![0] bcast_S524288_S524288x1_0 src)
                (broadcastInDim S524288 ![] bcast_S_S524288 (constant S_ .f32 0x3F800000#32)))
              (broadcastInDim S16384 ![] bcast_S_S16384 (constant S_ .f32 0x3F800000#32))))))
      (Host.dotGeneral dot_S16384x256_S256x256_S16384x256_1_0_0_1_n_n none x Ws))
    (broadcastInDim S16384x256 ![0, 1] bcast_S1x256_S16384x256_0_1
      (broadcastInDim S1x256 ![1] bcast_S256_S1x256_1 bs))

variable (x : FVec Ideal S16384x256 .f32) (Wm : FVec Ideal S256x256 .f32) (bm : FVec Ideal S256 .f32)
  (Ws : FVec Ideal S256x256 .f32) (bs : FVec Ideal S256 .f32)
  (We : FVec Ideal S64x256 .f32) (be : FVec Ideal S256 .f32) (Er : FVec Ideal S524288x64 .f32)
  (src dst : IVec S524288 32)
  (G : Graph) (emb : Fin Kk → Fin Kk → EReal) (P : Params) (xs : Fin Nn → Fin Dd → EReal)

/-- An edge's message, read at a feature: the destination row's affine image plus the embedding row's. -/
theorem msg_apply
    (hx : ∀ n j, x (ix2 n j) = xs n j) (hWm : ∀ j d, Wm (ix2 j d) = P.Wm j d) (hbm : ∀ d, bm (ix1 d) = P.bm d)
    (hWe : ∀ k d, We (ix2 k d) = P.We k d) (hbe : ∀ d, be (ix1 d) = P.be d)
    (hEr : ∀ e j, Er (ix2 e j) = emb (G.efRow e) j)
    (hdst : ∀ e, min (wrapW 16384#32 (dst (ix1 e))).toInt.toNat (16384 - 1) = (G.dstRow e).val)
    (e : Fin Ne) (d : Fin Dd) :
    msgTerm x Wm bm We be Er dst (ix2 e d) = msgRef G emb P xs e d := by
  unfold msgTerm msgRef lin embW
  rw [addf_apply, addf_apply, addf_apply, biasE_apply, biasE_apply, dotE256_apply, dotE64_apply, hbm, hbe]
  have h1 : ∀ j : Fin 256,
      Host.gather gather_S16384x256_S524288x1_S524288x256_1_0_n_n_0_1_1256 x (wrapCol 16384#32 dst) (ix2 e j)
        = xs (G.dstRow e) j := by
    intro j
    rw [gatherX_apply, ← hx]
    exact congrArg (fun r : Fin 16384 => x (ix2 r j)) (Fin.ext (by
      show min ((wrapCol 16384#32 dst) (ix2 e (0 : Fin 1))).toInt.toNat (16384 - 1) = (G.dstRow e).val
      rw [wrapCol_apply]
      exact hdst e))
  have s1 : (∑ j : Fin 256,
        Host.gather gather_S16384x256_S524288x1_S524288x256_1_0_n_n_0_1_1256 x (wrapCol 16384#32 dst) (ix2 e j)
          * Wm (ix2 j d)) = ∑ j : Fin Dd, xs (G.dstRow e) j * P.Wm j d :=
    Finset.sum_congr rfl fun j _ => by rw [h1 j, hWm j d]
  have s2 : (∑ j : Fin 64, Er (ix2 e j) * We (ix2 j d)) = ∑ j : Fin Kk, emb (G.efRow e) j * P.We j d :=
    Finset.sum_congr rfl fun j _ => by rw [hEr e j, hWe j d]
  rw [s1, s2]

/-- The number of edges leaving a node, as the ones summed per source. -/
theorem cnt_apply (hsrc : ∀ e, (src (ix1 e)).toInt = G.srcZ e) (n : Fin Nn) :
    Host.scatterAdd scatter_S16384_S524288x1_S524288_n_0_0_1
        (broadcastInDim S16384 ![] bcast_S_S16384 (constant (F := Ideal) S_ .f32 0x00000000#32))
        (broadcastInDim S524288x1 ![0] bcast_S524288_S524288x1_0 src)
        (broadcastInDim S524288 ![] bcast_S_S524288 (constant (F := Ideal) S_ .f32 0x3F800000#32)) (ix1 n)
      = cnt G n := by
  rw [segVec_apply, zerosN_apply, zero_add]
  unfold cnt seg
  exact Finset.sum_congr (Finset.filter_congr fun e _ => by rw [hsrc e]) fun e _ => onesE_apply (ix1 e)

/-- THE LAYER BEFORE THE NORMALISATION READ AT ONE ENTRY: the mean over the edges leaving the node of their messages,
    plus the node's own affine image. -/
theorem preTerm_apply
    (hx : ∀ n j, x (ix2 n j) = xs n j) (hWm : ∀ j d, Wm (ix2 j d) = P.Wm j d) (hbm : ∀ d, bm (ix1 d) = P.bm d)
    (hWs : ∀ j d, Ws (ix2 j d) = P.Ws j d) (hbs : ∀ d, bs (ix1 d) = P.bs d)
    (hWe : ∀ k d, We (ix2 k d) = P.We k d) (hbe : ∀ d, be (ix1 d) = P.be d)
    (hEr : ∀ e j, Er (ix2 e j) = emb (G.efRow e) j)
    (hsrc : ∀ e, (src (ix1 e)).toInt = G.srcZ e)
    (hdst : ∀ e, min (wrapW 16384#32 (dst (ix1 e))).toInt.toNat (16384 - 1) = (G.dstRow e).val)
    (n : Fin Nn) (d : Fin Dd) :
    preTerm x Wm bm Ws bs We be Er src dst (ix2 n d) = preRef G emb P xs n d := by
  unfold preTerm preRef den lin
  rw [addf_apply, addf_apply, biasN_apply, dotN_apply, hostDivf_apply, keep_apply, maximumf_apply, onesN_apply,
    cnt_apply src G hsrc n, segRows_apply, zerosND_apply, zero_add, hbs]
  have hsum : (∑ e ∈ Finset.univ.filter (fun e : Fin 524288 => (src (ix1 e)).toInt = (n.val : ℤ)),
        msgTerm x Wm bm We be Er dst (ix2 e d)) = ∑ e ∈ seg G n, msgRef G emb P xs e d := by
    unfold seg
    exact Finset.sum_congr (Finset.filter_congr fun e _ => by rw [hsrc e])
      fun e _ => msg_apply x Wm bm We be Er dst G emb P xs hx hWm hbm hWe hbe hEr hdst e d
  have s3 : (∑ j : Fin 256, x (ix2 n j) * Ws (ix2 j d)) = ∑ j : Fin Dd, xs n j * P.Ws j d :=
    Finset.sum_congr rfl fun j _ => by rw [hx n j, hWs j d]
  rw [hsum, s3]

end Layer

/-! ## The arguments' slices read at one entry -/

section Leaves
variable {α : Type}

/-- The node features as a matrix: node 512 b + s is row s of batch b. -/
theorem flat_apply (A : S32x512x256.Idx → α) (h : S32x512x256.ShapeCasts S16384x256) (n : Fin 16384) (d : Fin 256) :
    shapeCast S16384x256 A h (ix2 n d)
      = A (ix3 (⟨n.val / 512, by have := n.isLt; omega⟩ : Fin 32) (⟨n.val % 512, Nat.mod_lt _ (by decide)⟩ : Fin 512) d) :=
  shapeCast_apply A h _ _ (by
    rw [Shape.rowMajor_val_three, Shape.rowMajor_val_two]
    show (n.val / 512 * 512 + n.val % 512) * 256 + d.val = n.val * 256 + d.val
    omega)

/-- One layer's matrix out of a stack of two. -/
theorem sliceMat_apply {K : Nat} (o : Nat) (A : (⟨3, ![2, K, 256]⟩ : Shape).Idx → α)
    (h1 : (⟨3, ![2, K, 256]⟩ : Shape).Slices (![o, 0, 0] : Fin 3 → Nat) ⟨3, ![1, K, 256]⟩)
    (h2 : (⟨3, ![1, K, 256]⟩ : Shape).ShapeCasts ⟨2, ![K, 256]⟩) (l : Fin 2) (hl : l.val = o) (j : Fin K) (d : Fin 256) :
    shapeCast ⟨2, ![K, 256]⟩ (extractStridedSlice ⟨3, ![1, K, 256]⟩ (![o, 0, 0] : Fin 3 → Nat) A h1) h2 (ix2 j d)
      = A (ix3 l j d) := by
  rw [shapeCast_1ab_ab_apply]
  refine extractStridedSlice_apply _ A h1 _ (ix3 l j d) fun a => ?_
  match a with
  | ⟨0, _⟩ => show l.val = o + 0; omega
  | ⟨1, _⟩ => show j.val = 0 + j.val; omega
  | ⟨2, _⟩ => show d.val = 0 + d.val; omega

/-- One row out of a two-row array. -/
theorem sliceVec_apply {C : Nat} (o : Nat) (A : (⟨2, ![2, C]⟩ : Shape).Idx → α)
    (h1 : (⟨2, ![2, C]⟩ : Shape).Slices (![o, 0] : Fin 2 → Nat) ⟨2, ![1, C]⟩)
    (h2 : (⟨2, ![1, C]⟩ : Shape).ShapeCasts ⟨1, ![C]⟩) (l : Fin 2) (hl : l.val = o) (d : Fin C) :
    shapeCast ⟨1, ![C]⟩ (extractStridedSlice ⟨2, ![1, C]⟩ (![o, 0] : Fin 2 → Nat) A h1) h2 (ix1 d) = A (ix2 l d) := by
  rw [shapeCast_1a_a_apply]
  refine extractStridedSlice_apply _ A h1 _ (ix2 l d) fun a => ?_
  match a with
  | ⟨0, _⟩ => show l.val = o + 0; omega
  | ⟨1, _⟩ => show d.val = 0 + d.val; omega

end Leaves

/-! ## The two layers: the chain over the program's buffers -/

section Run
open Cert.ReferenceIdeal.Val Idealize.ShloMosaic.TcCoe Idealize.SL.Sem Idealize.ShloMosaic.StableHlo

variable (W : Valuation τ sig (Elt Ideal)) (I : Inputs) (hW : Holds W I)
include hW

/-- A layer's message weights are its slice of the stacked argument. -/
theorem leaf_Wm (o : Nat) (l : Fin 2) (hl : l.val = o)
    (h1 : S2x256x256.Slices (![o, 0, 0] : Fin 3 → Nat) S1x256x256) (h2 : S1x256x256.ShapeCasts S256x256) (j d : Fin 256) :
    shapeCast S256x256 (extractStridedSlice S1x256x256 (![o, 0, 0] : Fin 3 → Nat)
      (W (Proc.devRef .tc main_arg2) : S2x256x256.Idx → EReal) h1) h2 (ix2 j d) = (I.params l).Wm j d :=
  (sliceMat_apply o _ h1 h2 l hl j d).trans (congrFun hW.Wmsg (ix3 l j d))

theorem leaf_bm (o : Nat) (l : Fin 2) (hl : l.val = o)
    (h1 : S2x256.Slices (![o, 0] : Fin 2 → Nat) S1x256) (h2 : S1x256.ShapeCasts S256) (d : Fin 256) :
    shapeCast S256 (extractStridedSlice S1x256 (![o, 0] : Fin 2 → Nat)
      (W (Proc.devRef .tc main_arg3) : S2x256.Idx → EReal) h1) h2 (ix1 d) = (I.params l).bm d :=
  (sliceVec_apply o _ h1 h2 l hl d).trans (congrFun hW.bmsg (ix2 l d))

theorem leaf_Ws (o : Nat) (l : Fin 2) (hl : l.val = o)
    (h1 : S2x256x256.Slices (![o, 0, 0] : Fin 3 → Nat) S1x256x256) (h2 : S1x256x256.ShapeCasts S256x256) (j d : Fin 256) :
    shapeCast S256x256 (extractStridedSlice S1x256x256 (![o, 0, 0] : Fin 3 → Nat)
      (W (Proc.devRef .tc main_arg4) : S2x256x256.Idx → EReal) h1) h2 (ix2 j d) = (I.params l).Ws j d :=
  (sliceMat_apply o _ h1 h2 l hl j d).trans (congrFun hW.Wself (ix3 l j d))

theorem leaf_bs (o : Nat) (l : Fin 2) (hl : l.val = o)
    (h1 : S2x256.Slices (![o, 0] : Fin 2 → Nat) S1x256) (h2 : S1x256.ShapeCasts S256) (d : Fin 256) :
    shapeCast S256 (extractStridedSlice S1x256 (![o, 0] : Fin 2 → Nat)
      (W (Proc.devRef .tc main_arg5) : S2x256.Idx → EReal) h1) h2 (ix1 d) = (I.params l).bs d :=
  (sliceVec_apply o _ h1 h2 l hl d).trans (congrFun hW.bself (ix2 l d))

theorem leaf_We (o : Nat) (l : Fin 2) (hl : l.val = o)
    (h1 : S2x64x256.Slices (![o, 0, 0] : Fin 3 → Nat) S1x64x256) (h2 : S1x64x256.ShapeCasts S64x256) (k : Fin 64) (d : Fin 256) :
    shapeCast S64x256 (extractStridedSlice S1x64x256 (![o, 0, 0] : Fin 3 → Nat)
      (W (Proc.devRef .tc main_arg6) : S2x64x256.Idx → EReal) h1) h2 (ix2 k d) = (I.params l).We k d :=
  (sliceMat_apply o _ h1 h2 l hl k d).trans (congrFun hW.Wedge (ix3 l k d))

theorem leaf_be (o : Nat) (l : Fin 2) (hl : l.val = o)
    (h1 : S2x256.Slices (![o, 0] : Fin 2 → Nat) S1x256) (h2 : S1x256.ShapeCasts S256) (d : Fin 256) :
    shapeCast S256 (extractStridedSlice S1x256 (![o, 0] : Fin 2 → Nat)
      (W (Proc.devRef .tc main_arg7) : S2x256.Idx → EReal) h1) h2 (ix1 d) = (I.params l).be d :=
  (sliceVec_apply o _ h1 h2 l hl d).trans (congrFun hW.bedge (ix2 l d))

theorem leaf_gam (o : Nat) (l : Fin 2) (hl : l.val = o)
    (h1 : S2x256.Slices (![o, 0] : Fin 2 → Nat) S1x256) (h2 : S1x256.ShapeCasts S256) (d : Fin 256) :
    shapeCast S256 (extractStridedSlice S1x256 (![o, 0] : Fin 2 → Nat)
      (W (Proc.devRef .tc main_arg8) : S2x256.Idx → EReal) h1) h2 (ix1 d) = (I.params l).gam d :=
  (sliceVec_apply o _ h1 h2 l hl d).trans (congrFun hW.gamma (ix2 l d))

theorem leaf_bet (o : Nat) (l : Fin 2) (hl : l.val = o)
    (h1 : S2x256.Slices (![o, 0] : Fin 2 → Nat) S1x256) (h2 : S1x256.ShapeCasts S256) (d : Fin 256) :
    shapeCast S256 (extractStridedSlice S1x256 (![o, 0] : Fin 2 → Nat)
      (W (Proc.devRef .tc main_arg9) : S2x256.Idx → EReal) h1) h2 (ix1 d) = (I.params l).bet d :=
  (sliceVec_apply o _ h1 h2 l hl d).trans (congrFun hW.beta (ix2 l d))

/-- The node features the first layer starts from. -/
theorem leaf_x0 (h : S32x512x256.ShapeCasts S16384x256) (n : Fin 16384) (j : Fin 256) :
    shapeCast S16384x256 (W (Proc.devRef .tc main_arg0) : S32x512x256.Idx → EReal) h (ix2 n j) = I.x0 n j :=
  (flat_apply _ h n j).trans (congrFun hW.data _)

/-- The source words and the destination words are the two rows of the edge array. -/
theorem leaf_src (h1 : S2x524288.Slices (![0, 0] : Fin 2 → Nat) S1x524288) (h2 : S1x524288.ShapeCasts S524288) (e : Fin 524288) :
    shapeCast S524288 (extractStridedSlice S1x524288 (![0, 0] : Fin 2 → Nat)
      (W (Proc.devRef .tc main_arg10) : IVec S2x524288 32) h1) h2 (ix1 e) = I.srcW e :=
  (sliceVec_apply 0 _ h1 h2 (0 : Fin 2) rfl e).trans (congrFun hW.edge (ix2 (0 : Fin 2) e))

theorem leaf_dst (h1 : S2x524288.Slices (![1, 0] : Fin 2 → Nat) S1x524288) (h2 : S1x524288.ShapeCasts S524288) (e : Fin 524288) :
    shapeCast S524288 (extractStridedSlice S1x524288 (![1, 0] : Fin 2 → Nat)
      (W (Proc.devRef .tc main_arg10) : IVec S2x524288 32) h1) h2 (ix1 e) = I.dstW e :=
  (sliceVec_apply 1 _ h1 h2 (1 : Fin 2) rfl e).trans (congrFun hW.edge (ix2 (1 : Fin 2) e))

/-- The embedding rows the edges read. -/
theorem leaf_emb (e : Fin 524288) (j : Fin 64) :
    Host.gather gather_S64x64_S524288x1_S524288x64_1_0_n_n_0_1_164 (W (Proc.devRef .tc main_arg1) : S64x64.Idx → EReal)
      (wrapCol 64#32 (W (Proc.devRef .tc main_arg11) : IVec S524288 32)) (ix2 e j) = I.embT (I.graph.efRow e) j := by
  rw [gatherE_apply]
  have hr : (⟨min ((wrapCol 64#32 (W (Proc.devRef .tc main_arg11) : IVec S524288 32)) (ix2 e (0 : Fin 1))).toInt.toNat (64 - 1),
      by omega⟩ : Fin 64) = I.graph.efRow e :=
    Fin.ext (by
      show min ((wrapCol 64#32 (W (Proc.devRef .tc main_arg11) : IVec S524288 32)) (ix2 e (0 : Fin 1))).toInt.toNat (64 - 1)
        = min (wrapW 64#32 (I.efW e)).toInt.toNat (64 - 1)
      rw [wrapCol_apply]
      exact congrArg (fun w : BitVec 32 => min (wrapW 64#32 w).toInt.toNat (64 - 1)) (congrFun hW.ef (ix1 e)))
  exact (congrArg (fun r : Fin 64 => (W (Proc.devRef .tc main_arg1) : S64x64.Idx → EReal) (ix2 r j)) hr).trans
    (congrFun hW.emb (ix2 (I.graph.efRow e) j))

/-! ### First layer -/

theorem r1_src : ∀ e : Fin 524288,
    (StableHlo.after (HandRun.ops1 (F := Ideal)) W (Proc.devRef .tc main_v2) : IVec S524288 32) (ix1 e) = I.srcW e := by
  intro e
  after_results_simp
  exact leaf_src W I hW _ _ e

theorem r1_dst : ∀ e : Fin 524288,
    (StableHlo.after (HandRun.ops1 (F := Ideal)) W (Proc.devRef .tc main_v4) : IVec S524288 32) (ix1 e) = I.dstW e := by
  intro e
  after_results_simp
  exact leaf_dst W I hW _ _ e

theorem r1_emb : ∀ (e : Fin 524288) (j : Fin 64),
    (StableHlo.after (HandRun.ops1 (F := Ideal)) W (Proc.devRef .tc main_v11) : S524288x64.Idx → EReal) (ix2 e j)
      = I.embT (I.graph.efRow e) j := by
  intro e j
  after_results_simp
  exact leaf_emb W I hW e j

theorem r1_gam : ∀ d : Fin 256,
    (StableHlo.after (HandRun.ops1 (F := Ideal)) W (Proc.devRef .tc main_v25) : S256.Idx → EReal) (ix1 d) = (I.params 0).gam d := by
  intro d
  after_results_simp
  exact leaf_gam W I hW 0 0 rfl _ _ d

theorem r1_bet : ∀ d : Fin 256,
    (StableHlo.after (HandRun.ops1 (F := Ideal)) W (Proc.devRef .tc main_v27) : S256.Idx → EReal) (ix1 d) = (I.params 0).bet d := by
  intro d
  after_results_simp
  exact leaf_bet W I hW 0 0 rfl _ _ d

theorem r1_pre : ∀ (n : Fin 16384) (d : Fin 256),
    (StableHlo.after (HandRun.ops1 (F := Ideal)) W (Proc.devRef .tc main_v60) : S16384x256.Idx → EReal) (ix2 n d)
      = preRef I.graph I.embT (I.params 0) I.x0 n d := by
  intro n d
  after_results_simp
  exact preTerm_apply
    (shapeCast S16384x256 (W (Proc.devRef .tc main_arg0) : S32x512x256.Idx → EReal) shapeCasts_S32x512x256_S16384x256)
    (shapeCast S256x256 (extractStridedSlice S1x256x256 (![0, 0, 0] : Fin 3 → Nat)
      (W (Proc.devRef .tc main_arg2) : S2x256x256.Idx → EReal) slices_S2x256x256_S1x256x256_0_0_0) shapeCasts_S1x256x256_S256x256)
    (shapeCast S256 (extractStridedSlice S1x256 (![0, 0] : Fin 2 → Nat)
      (W (Proc.devRef .tc main_arg3) : S2x256.Idx → EReal) slices_S2x256_S1x256_0_0) shapeCasts_S1x256_S256)
    (shapeCast S256x256 (extractStridedSlice S1x256x256 (![0, 0, 0] : Fin 3 → Nat)
      (W (Proc.devRef .tc main_arg4) : S2x256x256.Idx → EReal) slices_S2x256x256_S1x256x256_0_0_0) shapeCasts_S1x256x256_S256x256)
    (shapeCast S256 (extractStridedSlice S1x256 (![0, 0] : Fin 2 → Nat)
      (W (Proc.devRef .tc main_arg5) : S2x256.Idx → EReal) slices_S2x256_S1x256_0_0) shapeCasts_S1x256_S256)
    (shapeCast S64x256 (extractStridedSlice S1x64x256 (![0, 0, 0] : Fin 3 → Nat)
      (W (Proc.devRef .tc main_arg6) : S2x64x256.Idx → EReal) slices_S2x64x256_S1x64x256_0_0_0) shapeCasts_S1x64x256_S64x256)
    (shapeCast S256 (extractStridedSlice S1x256 (![0, 0] : Fin 2 → Nat)
      (W (Proc.devRef .tc main_arg7) : S2x256.Idx → EReal) slices_S2x256_S1x256_0_0) shapeCasts_S1x256_S256)
    (Host.gather gather_S64x64_S524288x1_S524288x64_1_0_n_n_0_1_164 (W (Proc.devRef .tc main_arg1) : S64x64.Idx → EReal)
      (wrapCol 64#32 (W (Proc.devRef .tc main_arg11) : IVec S524288 32)))
    (shapeCast S524288 (extractStridedSlice S1x524288 (![0, 0] : Fin 2 → Nat)
      (W (Proc.devRef .tc main_arg10) : IVec S2x524288 32) slices_S2x524288_S1x524288_0_0) shapeCasts_S1x524288_S524288)
    (shapeCast S524288 (extractStridedSlice S1x524288 (![1, 0] : Fin 2 → Nat)
      (W (Proc.devRef .tc main_arg10) : IVec S2x524288 32) slices_S2x524288_S1x524288_1_0) shapeCasts_S1x524288_S524288)
    I.graph I.embT (I.params 0) I.x0
    (fun n j => leaf_x0 W I hW _ n j)
    (fun j d => leaf_Wm W I hW 0 0 rfl _ _ j d)
    (fun d => leaf_bm W I hW 0 0 rfl _ _ d)
    (fun j d => leaf_Ws W I hW 0 0 rfl _ _ j d)
    (fun d => leaf_bs W I hW 0 0 rfl _ _ d)
    (fun k d => leaf_We W I hW 0 0 rfl _ _ k d)
    (fun d => leaf_be W I hW 0 0 rfl _ _ d)
    (fun e j => leaf_emb W I hW e j)
    (fun e => congrArg BitVec.toInt (leaf_src W I hW _ _ e))
    (fun e => congrArg (fun w : BitVec 32 => min (wrapW 16384#32 w).toInt.toNat (16384 - 1)) (leaf_dst W I hW _ _ e))
    n d

/-! ### Second layer -/

theorem r3_gam : ∀ d : Fin 256,
    (StableHlo.after (HandRun.ops3 (F := Ideal)) W (Proc.devRef .tc main_v94) : S256.Idx → EReal) (ix1 d) = (I.params 1).gam d := by
  intro d
  after_results_simp
  exact leaf_gam W I hW 1 1 rfl _ _ d

theorem r3_bet : ∀ d : Fin 256,
    (StableHlo.after (HandRun.ops3 (F := Ideal)) W (Proc.devRef .tc main_v96) : S256.Idx → EReal) (ix1 d) = (I.params 1).bet d := by
  intro d
  after_results_simp
  exact leaf_bet W I hW 1 1 rfl _ _ d

theorem r3_pre
    (h2 : ∀ e : Fin 524288, (W (Proc.devRef .tc main_v2) : IVec S524288 32) (ix1 e) = I.srcW e)
    (h4 : ∀ e : Fin 524288, (W (Proc.devRef .tc main_v4) : IVec S524288 32) (ix1 e) = I.dstW e)
    (h11 : ∀ (e : Fin 524288) (j : Fin 64),
      (W (Proc.devRef .tc main_v11) : S524288x64.Idx → EReal) (ix2 e j) = I.embT (I.graph.efRow e) j) :
    ∀ (n : Fin 16384) (d : Fin 256),
    (StableHlo.after (HandRun.ops3 (F := Ideal)) W (Proc.devRef .tc main_v129) : S16384x256.Idx → EReal) (ix2 n d)
      = preRef I.graph I.embT (I.params 1)
          (fun n d => (W (Proc.devRef .tc main_v80) : S16384x256.Idx → EReal) (ix2 n d)) n d := by
  intro n d
  after_results_simp
  exact preTerm_apply
    (W (Proc.devRef .tc main_v80) : S16384x256.Idx → EReal)
    (shapeCast S256x256 (extractStridedSlice S1x256x256 (![1, 0, 0] : Fin 3 → Nat)
      (W (Proc.devRef .tc main_arg2) : S2x256x256.Idx → EReal) slices_S2x256x256_S1x256x256_1_0_0) shapeCasts_S1x256x256_S256x256)
    (shapeCast S256 (extractStridedSlice S1x256 (![1, 0] : Fin 2 → Nat)
      (W (Proc.devRef .tc main_arg3) : S2x256.Idx → EReal) slices_S2x256_S1x256_1_0) shapeCasts_S1x256_S256)
    (shapeCast S256x256 (extractStridedSlice S1x256x256 (![1, 0, 0] : Fin 3 → Nat)
      (W (Proc.devRef .tc main_arg4) : S2x256x256.Idx → EReal) slices_S2x256x256_S1x256x256_1_0_0) shapeCasts_S1x256x256_S256x256)
    (shapeCast S256 (extractStridedSlice S1x256 (![1, 0] : Fin 2 → Nat)
      (W (Proc.devRef .tc main_arg5) : S2x256.Idx → EReal) slices_S2x256_S1x256_1_0) shapeCasts_S1x256_S256)
    (shapeCast S64x256 (extractStridedSlice S1x64x256 (![1, 0, 0] : Fin 3 → Nat)
      (W (Proc.devRef .tc main_arg6) : S2x64x256.Idx → EReal) slices_S2x64x256_S1x64x256_1_0_0) shapeCasts_S1x64x256_S64x256)
    (shapeCast S256 (extractStridedSlice S1x256 (![1, 0] : Fin 2 → Nat)
      (W (Proc.devRef .tc main_arg7) : S2x256.Idx → EReal) slices_S2x256_S1x256_1_0) shapeCasts_S1x256_S256)
    (W (Proc.devRef .tc main_v11) : S524288x64.Idx → EReal)
    (W (Proc.devRef .tc main_v2) : IVec S524288 32)
    (W (Proc.devRef .tc main_v4) : IVec S524288 32)
    I.graph I.embT (I.params 1)
    (fun n d => (W (Proc.devRef .tc main_v80) : S16384x256.Idx → EReal) (ix2 n d))
    (fun _ _ => rfl)
    (fun j d => leaf_Wm W I hW 1 1 rfl _ _ j d)
    (fun d => leaf_bm W I hW 1 1 rfl _ _ d)
    (fun j d => leaf_Ws W I hW 1 1 rfl _ _ j d)
    (fun d => leaf_bs W I hW 1 1 rfl _ _ d)
    (fun k d => leaf_We W I hW 1 1 rfl _ _ k d)
    (fun d => leaf_be W I hW 1 1 rfl _ _ d)
    h11
    (fun e => congrArg BitVec.toInt (h2 e))
    (fun e => congrArg (fun w : BitVec 32 => min (wrapW 16384#32 w).toInt.toNat (16384 - 1)) (h4 e))
    n d

end Run

end Cert.ReferenceIdeal.RefVal

end
-- ==== Proof.RNorm.lean ====
/-
  The reference program's normalisation and positive part, read entry by entry, and its final change of shape.

  Both layers end the same way on a matrix `y` of 16384 rows and 256 columns, a scale `g` and a shift `b` of 256
  entries each. The column means are the column sums divided by the node count. The column variances are computed
  apart: the column sums again, divided by the count and kept as one row, the deviations of `y` from that row, their
  squares as products of a deviation with itself, the sums of the squares divided by "count minus the converted
  integer zero", and a guard "that divisor is positive" choosing between the quotient and a fixed word. Then each entry
  is its deviation from the column mean times the reciprocal square root of variance plus a small constant, times the
  column's scale, plus the column's shift, and last the maximum with the zero word.

  Read at entry `(n, d)`, every broadcast reads its operand at the column `d` (or at the one scalar index), a sum down
  the rows from the zero word is the plain sum of the column, and the arithmetic is the extended reals'. The scalar
  pieces (the count, the divisor, the guard, the fixed word, the small constant) stay as the words they are written
  with: nothing is evaluated, so the term met here is literally the specification's `normRelu`.

  The final change of shape reads the matrix at row `512 b + s`, column `c` for the entry `(b, s, c)`: both have
  the same place in row-major order.
-/
import proofs.«410086_j81595788689991_2_alg».proof.Proof.ROps
import proofs.«410086_j81595788689991_2_alg».proof.Proof.RIn
import proofs.«410086_j81595788689991_2_alg».proof.Proof.Spec
import proofs.«410086_j81595788689991_2_alg».proof.Proof.Consts
import Idealize.ShloMosaic.PureOps.Ideal.Laws
import Idealize.ShloMosaic.Lib.IdealHost
import Idealize.ShloMosaic.Lib.Pipeline.Value
import Idealize.ShloMosaic.Lib.ValueIdx

noncomputable section

namespace Cert.ReferenceIdeal.RefVal2

open Cert.ReferenceIdeal Cert.ReferenceIdeal.Val Cert.ReferenceIdeal.HandRun Cert.Gnn Idealize.ShloMosaic Idealize.ShloMosaic.ValueIdx
open scoped BigOperators

/-! ## Broadcasts read at an index -/

/-- A vector of 256 entries laid out as one row: the row's entry `d` is the vector's entry `d`. -/
theorem bcRow_apply {α : Type} (h : S256.BroadcastsInDim S1x256 (![1] : Fin 1 → Fin S1x256.rank))
    (x : S256.Idx → α) (z : Fin 1) (d : Fin 256) :
    broadcastInDim S1x256 ![1] h x (ix2 z d) = x (ix1 d) :=
  broadcastInDim_apply _ h x _ _ (fun a => match a with | ⟨0, _⟩ => rfl)

/-- One row repeated down 16384 rows: entry `(n, d)` is the row's entry `d`. -/
theorem bcRows_apply {α : Type} (h : S1x256.BroadcastsInDim S16384x256 (![0, 1] : Fin 2 → Fin S16384x256.rank))
    (x : S1x256.Idx → α) (n : Fin 16384) (d : Fin 256) :
    broadcastInDim S16384x256 ![0, 1] h x (ix2 n d) = x (ix2 (0 : Fin 1) d) :=
  broadcastInDim_apply _ h x _ _ (fun a => match a with | ⟨0, _⟩ => rfl | ⟨1, _⟩ => rfl)

/-- The sum down the rows of a column, from the zero word: the plain sum of the column. -/
theorem colSum_apply (hr : S16384x256.ReducesTo [0] S256) (hu : 0 < S_.numel)
    (x : FVec Ideal S16384x256 .f32) (d : Fin 256) :
    Host.reduceAdd x (constant S_ .f32 0x00000000#32) hr hu (ix1 d) = ∑ n : Fin 16384, x (ix2 n d) := by
  have h : S16384x256.Reduces [0] S256 := by decide
  rw [hostReduceAdd_apply, Ideal.hostReduceAdd_single hr h, constant_apply, ofBits_zero, zero_add]
  refine Finset.sum_congr rfl fun k _ => congrArg x ?_
  funext a; match a with | ⟨0, _⟩ => rfl | ⟨1, _⟩ => rfl

/-! ## The normalisation as the reference program composes it -/

theorem redF : S16384x256.ReducesTo [0] S256 := by decide
theorem posF : 0 < S_.numel := by decide
theorem b0_D : S_.BroadcastsInDim S256 (![] : Fin 0 → Fin S256.rank) := by decide
theorem b0_1D : S_.BroadcastsInDim S1x256 (![] : Fin 0 → Fin S1x256.rank) := by decide
theorem b0_ND : S_.BroadcastsInDim S16384x256 (![] : Fin 0 → Fin S16384x256.rank) := by decide
theorem bRow : S256.BroadcastsInDim S1x256 (![1] : Fin 1 → Fin S1x256.rank) := by decide
theorem bRows : S1x256.BroadcastsInDim S16384x256 (![0, 1] : Fin 2 → Fin S16384x256.rank) := by decide

section Term
variable (y : FVec Ideal S16384x256 .f32) (g b : FVec Ideal S256 .f32)

/-- The column means: column sums from the zero word, divided by the broadcast node count. -/
def meanV : FVec Ideal S256 .f32 :=
  Host.divf (Host.reduceAdd y (constant S_ .f32 0x00000000#32) redF posF)
    (broadcastInDim S256 ![] b0_D (constant S_ .f32 0x46800000#32))

/-- The variance's own mean, kept as one row. -/
def meanRowV : FVec Ideal S1x256 .f32 :=
  Host.divf (broadcastInDim S1x256 ![1] bRow (Host.reduceAdd y (constant S_ .f32 0x00000000#32) redF posF))
    (broadcastInDim S1x256 ![] b0_1D (constant S_ .f32 0x46800000#32))

/-- The deviations from the column means. -/
def devV : FVec Ideal S16384x256 .f32 :=
  subf y (broadcastInDim S16384x256 ![0, 1] bRows (meanRowV y))

/-- The column variances with divisor "count minus zero degrees of freedom", guarded by "divisor positive". -/
def varV : FVec Ideal S256 .f32 :=
  select (broadcastInDim S256 ![] b0_D guardV)
    (Host.divf (Host.reduceAdd (mulf (devV y) (devV y)) (constant S_ .f32 0x00000000#32) redF posF)
      (broadcastInDim S256 ![] b0_D nOffV))
    (broadcastInDim S256 ![] b0_D (id (constant S_ .f32 0x7FC00000#32)))

/-- Normalised, scaled and shifted. -/
def affV : FVec Ideal S16384x256 .f32 :=
  addf
    (mulf
      (mulf (subf y (broadcastInDim S16384x256 ![0, 1] bRows (broadcastInDim S1x256 ![1] bRow (meanV y))))
        (broadcastInDim S16384x256 ![0, 1] bRows (broadcastInDim S1x256 ![1] bRow
          (Host.rsqrt (addf (varV y) (broadcastInDim S256 ![] b0_D (constant S_ .f32 0x3727C5AC#32)))))))
      (broadcastInDim S16384x256 ![0, 1] bRows (broadcastInDim S1x256 ![1] bRow g)))
    (broadcastInDim S16384x256 ![0, 1] bRows (broadcastInDim S1x256 ![1] bRow b))

/-- The layer's output: the maximum with the broadcast zero word. -/
def normTerm : S16384x256.Idx → EReal :=
  maximumf (affV y g b) (broadcastInDim S16384x256 ![] b0_ND (constant S_ .f32 0x00000000#32))

end Term

section Read
variable (P : Params) (Y : Fin Nn → Fin Dd → EReal)
variable (y : FVec Ideal S16384x256 .f32) (g b : FVec Ideal S256 .f32)

theorem meanV_apply (hY : ∀ n d, y (ix2 n d) = Y n d) (d : Fin 256) : meanV y (ix1 d) = colMean Y d := by
  unfold meanV colMean nAll
  rw [hostDivf_apply, colSum_apply, broadcastInDim_scalar_apply, constant_apply]
  simp only [hY]

theorem meanRowV_apply (hY : ∀ n d, y (ix2 n d) = Y n d) (d : Fin 256) :
    meanRowV y (ix2 (0 : Fin 1) d) = colMean Y d := by
  unfold meanRowV colMean nAll
  rw [hostDivf_apply, bcRow_apply, colSum_apply, broadcastInDim_scalar_apply, constant_apply]
  simp only [hY]

theorem devV_apply (hY : ∀ n d, y (ix2 n d) = Y n d) (n : Fin 16384) (d : Fin 256) :
    devV y (ix2 n d) = Y n d - colMean Y d := by
  unfold devV
  rw [subf_apply, bcRows_apply, meanRowV_apply Y y hY, hY]

theorem varV_apply (hY : ∀ n d, y (ix2 n d) = Y n d) (d : Fin 256) : varV y (ix1 d) = colVar Y d := by
  unfold varV colVar guarded nOff
  rw [select_apply, hostDivf_apply, colSum_apply]
  rw [broadcastInDim_scalar_apply, broadcastInDim_scalar_apply, broadcastInDim_scalar_apply]
  simp only [mulf_apply, devV_apply Y y hY]
  rfl

theorem normTerm_apply (hY : ∀ n d, y (ix2 n d) = Y n d) (hg : ∀ d, g (ix1 d) = P.gam d)
    (hb : ∀ d, b (ix1 d) = P.bet d) (n : Fin 16384) (d : Fin 256) :
    normTerm y g b (ix2 n d) = normRelu P Y n d := by
  unfold normTerm normRelu affV epsC
  rw [maximumf_apply, addf_apply, mulf_apply, mulf_apply, subf_apply]
  rw [bcRows_apply, bcRows_apply, bcRows_apply, bcRows_apply, bcRow_apply, bcRow_apply, bcRow_apply, bcRow_apply,
    broadcastInDim_scalar_apply, constant_apply]
  rw [meanV_apply Y y hY, hY, hg, hb]
  show max (((Y n d - colMean Y d) * FloatOps.hostUnary .rsqrt (varV y (ix1 d) + Ideal.ofBits .f32 0x3727C5AC#32)) * P.gam d + P.bet d) _ = _
  rw [varV_apply Y y hY, Ideal.hostUnary_rsqrt_def]

end Read

/-! ## The two normalisation stretches and the final reshape, in the program's buffers -/

section Run
variable (W : Valuation τ sig (Elt Ideal))

attribute [local irreducible] Host.reduceAdd broadcastInDim Host.divf Host.rsqrt in
set_option maxRecDepth 8192 in
set_option maxHeartbeats 400000 in
/-- After the first layer's normalisation stretch, its output buffer holds the composed term of the
    pre-normalisation buffer and the layer's scale and shift buffers. -/
theorem r2_term :
    (StableHlo.after (ops2 (F := Ideal)) W (Proc.devRef .tc main_v80) : S16384x256.Idx → EReal)
      = normTerm (W (Proc.devRef .tc main_v60)) (W (Proc.devRef .tc main_v25)) (W (Proc.devRef .tc main_v27)) := by
  simp only [StableHlo.after_cons, StableHlo.after_nil]
  unfold normTerm affV varV devV meanRowV meanV guardV nOffV
  rfl

attribute [local irreducible] Host.reduceAdd broadcastInDim Host.divf Host.rsqrt in
set_option maxRecDepth 8192 in
set_option maxHeartbeats 400000 in
/-- The same for the second layer's normalisation stretch. -/
theorem r4_term :
    (StableHlo.after (ops4 (F := Ideal)) W (Proc.devRef .tc main_v149) : S16384x256.Idx → EReal)
      = normTerm (W (Proc.devRef .tc main_v129)) (W (Proc.devRef .tc main_v94)) (W (Proc.devRef .tc main_v96)) := by
  simp only [StableHlo.after_cons, StableHlo.after_nil]
  unfold normTerm affV varV devV meanRowV meanV guardV nOffV
  rfl

/-- The first layer's output, entry by entry: the specification's normalisation of the pre-normalisation buffer. -/
theorem r2_out (P : Params)
    (hg : ∀ d : Fin 256, (W (Proc.devRef .tc main_v25) : S256.Idx → EReal) (ix1 d) = P.gam d)
    (hb : ∀ d : Fin 256, (W (Proc.devRef .tc main_v27) : S256.Idx → EReal) (ix1 d) = P.bet d)
    (n : Fin 16384) (d : Fin 256) :
    (StableHlo.after ops2 W (Proc.devRef .tc main_v80) : S16384x256.Idx → EReal) (ix2 n d)
      = normRelu P (fun n d => (W (Proc.devRef .tc main_v60) : S16384x256.Idx → EReal) (ix2 n d)) n d := by
  rw [r2_term]
  exact normTerm_apply P _ _ _ _ (fun _ _ => rfl) hg hb n d

/-- The second layer's output, entry by entry. -/
theorem r4_out (P : Params)
    (hg : ∀ d : Fin 256, (W (Proc.devRef .tc main_v94) : S256.Idx → EReal) (ix1 d) = P.gam d)
    (hb : ∀ d : Fin 256, (W (Proc.devRef .tc main_v96) : S256.Idx → EReal) (ix1 d) = P.bet d)
    (n : Fin 16384) (d : Fin 256) :
    (StableHlo.after ops4 W (Proc.devRef .tc main_v149) : S16384x256.Idx → EReal) (ix2 n d)
      = normRelu P (fun n d => (W (Proc.devRef .tc main_v129) : S16384x256.Idx → EReal) (ix2 n d)) n d := by
  rw [r4_term]
  exact normTerm_apply P _ _ _ _ (fun _ _ => rfl) hg hb n d

/-- The result: entry `(b, s, c)` is the second layer's output at row `512 b + s`, column `c`. -/
theorem r5_out (i : S32x512x256.Idx) :
    (StableHlo.after ops5 W (Proc.devRef .tc main_v150) : S32x512x256.Idx → EReal) i
      = (W (Proc.devRef .tc main_v149) : S16384x256.Idx → EReal)
          (ix2 (⟨(i 0).val * 512 + (i 1).val, by
              have h0 : (i 0).val < 32 := idx3_lt0 i
              have h1 : (i 1).val < 512 := idx3_lt1 i
              show _ < 16384; omega⟩ : Fin 16384)
            (⟨(i 2).val, (idx3_lt2 i : (i 2).val < 256)⟩ : Fin 256)) := by
  simp only [StableHlo.after_cons, StableHlo.after_nil]
  rw [StableHlo.reshape_result]
  show shapeCast S32x512x256 (W (Proc.devRef .tc main_v149) : S16384x256.Idx → EReal) Gen.shapeCasts_S16384x256_S32x512x256 i = _
  refine shapeCast_apply (s := S16384x256) (t := S32x512x256) _ _ i _ ?_
  show (S16384x256.rowMajor _).val = (S32x512x256.rowMajor i).val
  rw [Shape.rowMajor_val_two, Shape.rowMajor_val_three]
  rfl

end Run

end Cert.ReferenceIdeal.RefVal2

end
-- ==== Proof.RValue.lean ====
/-
  What the reference leaves in its result: the network of Spec.lean, computed the reference's way, applied to the
  argument arrays.

  The reference's operations fall into five stretches. The first forms the layer before its normalisation from the
  node features the arguments give; the second normalises it and takes the maximum with zero: that is layer one.
  The third and fourth do the same from layer one's output with the second set of parameters; the fifth lays the
  16384 × 256 result out as 32 × 512 × 256. The buffers a later stretch reads and an earlier one wrote (the
  arguments, the two edge rows, the gathered embedding rows) are not written in between, so they keep their contents.
-/
import proofs.«410086_j81595788689991_2_alg».proof.Proof.RIn
import proofs.«410086_j81595788689991_2_alg».proof.Proof.ROps
import proofs.«410086_j81595788689991_2_alg».proof.Proof.RKeep
import proofs.«410086_j81595788689991_2_alg».proof.Proof.RPre
import proofs.«410086_j81595788689991_2_alg».proof.Proof.RNorm

noncomputable section

namespace Cert.ReferenceIdeal.Whole

open Cert.ReferenceIdeal Cert.ReferenceIdeal.Val Cert.ReferenceIdeal.HandRun Cert.Gnn
open Idealize.ShloMosaic Idealize.ShloMosaic.ValueIdx Idealize.ShloMosaic.StableHlo
open scoped BigOperators

/-- The contents after two stretches in a row are the contents after the second, from those after the first. -/
theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih _

section Keep
variable (U : Valuation τ sig (Elt Ideal)) (I : Inputs)

/-- The first stretch writes no argument. -/
theorem holds_after1 (h : Holds U I) : Holds (StableHlo.after ops1 U) I :=
  ⟨(after_ops1_arg U (b := Proc.devRef .tc main_arg0) (by decide)).trans h.data,
   (after_ops1_arg U (b := Proc.devRef .tc main_arg1) (by decide)).trans h.emb,
   (after_ops1_arg U (b := Proc.devRef .tc main_arg2) (by decide)).trans h.Wmsg,
   (after_ops1_arg U (b := Proc.devRef .tc main_arg3) (by decide)).trans h.bmsg,
   (after_ops1_arg U (b := Proc.devRef .tc main_arg4) (by decide)).trans h.Wself,
   (after_ops1_arg U (b := Proc.devRef .tc main_arg5) (by decide)).trans h.bself,
   (after_ops1_arg U (b := Proc.devRef .tc main_arg6) (by decide)).trans h.Wedge,
   (after_ops1_arg U (b := Proc.devRef .tc main_arg7) (by decide)).trans h.bedge,
   (after_ops1_arg U (b := Proc.devRef .tc main_arg8) (by decide)).trans h.gamma,
   (after_ops1_arg U (b := Proc.devRef .tc main_arg9) (by decide)).trans h.beta,
   (after_ops1_arg U (b := Proc.devRef .tc main_arg10) (by decide)).trans h.edge,
   (after_ops1_arg U (b := Proc.devRef .tc main_arg11) (by decide)).trans h.ef⟩

/-- Nor does the second. -/
theorem holds_after2 (h : Holds U I) : Holds (StableHlo.after ops2 U) I :=
  ⟨(after_ops2_low U (b := Proc.devRef .tc main_arg0) (by decide)).trans h.data,
   (after_ops2_low U (b := Proc.devRef .tc main_arg1) (by decide)).trans h.emb,
   (after_ops2_low U (b := Proc.devRef .tc main_arg2) (by decide)).trans h.Wmsg,
   (after_ops2_low U (b := Proc.devRef .tc main_arg3) (by decide)).trans h.bmsg,
   (after_ops2_low U (b := Proc.devRef .tc main_arg4) (by decide)).trans h.Wself,
   (after_ops2_low U (b := Proc.devRef .tc main_arg5) (by decide)).trans h.bself,
   (after_ops2_low U (b := Proc.devRef .tc main_arg6) (by decide)).trans h.Wedge,
   (after_ops2_low U (b := Proc.devRef .tc main_arg7) (by decide)).trans h.bedge,
   (after_ops2_low U (b := Proc.devRef .tc main_arg8) (by decide)).trans h.gamma,
   (after_ops2_low U (b := Proc.devRef .tc main_arg9) (by decide)).trans h.beta,
   (after_ops2_low U (b := Proc.devRef .tc main_arg10) (by decide)).trans h.edge,
   (after_ops2_low U (b := Proc.devRef .tc main_arg11) (by decide)).trans h.ef⟩

end Keep

variable (m : (ℓ : Loc nD τ sig) → Buf (Elt Ideal) ℓ) (c : Dev nD)

/-- The argument arrays core `c` is launched with. -/
abbrev inp : Inputs := inputsOf (launch m c)
/-- The contents after each stretch. -/
abbrev U1 : Valuation τ sig (Elt Ideal) := StableHlo.after ops1 (launch m c)
abbrev U2 : Valuation τ sig (Elt Ideal) := StableHlo.after ops2 (U1 m c)
abbrev U3 : Valuation τ sig (Elt Ideal) := StableHlo.after ops3 (U2 m c)
abbrev U4 : Valuation τ sig (Elt Ideal) := StableHlo.after ops4 (U3 m c)
abbrev U5 : Valuation τ sig (Elt Ideal) := StableHlo.after ops5 (U4 m c)

theorem after_ops : StableHlo.after ops (launch m c) = U5 m c := by
  show StableHlo.after ((((ops1 ++ ops2) ++ ops3) ++ ops4) ++ ops5) (launch m c) = _
  rw [after_append, after_append, after_append, after_append]

theorem holds0 : Holds (launch m c) (inp m c) := holds_inputsOf _
theorem holds2 : Holds (U2 m c) (inp m c) := holds_after2 _ _ (holds_after1 _ _ (holds0 m c))

/-- Layer one before its normalisation, as a function. -/
theorem pre0_fun : (fun (n : Fin 16384) (d : Fin 256) => (U1 m c (Proc.devRef .tc main_v60) : S16384x256.Idx → EReal) (ix2 n d))
    = preRef (inp m c).graph (inp m c).embT ((inp m c).params 0) (inp m c).x0 :=
  funext fun n => funext fun d => RefVal.r1_pre (launch m c) (inp m c) (holds0 m c) n d

/-- Layer one's output. -/
abbrev x1 : Fin 16384 → Fin 256 → EReal :=
  layerRef (inp m c).graph (inp m c).embT ((inp m c).params 0) (inp m c).x0

theorem v80_at (n : Fin 16384) (d : Fin 256) :
    (U2 m c (Proc.devRef .tc main_v80) : S16384x256.Idx → EReal) (ix2 n d) = x1 m c n d := by
  refine (RefVal2.r2_out (U1 m c) ((inp m c).params 0)
    (RefVal.r1_gam (launch m c) (inp m c) (holds0 m c)) (RefVal.r1_bet (launch m c) (inp m c) (holds0 m c)) n d).trans ?_
  rw [pre0_fun m c]
  rfl

theorem x1_fun : (fun (n : Fin 16384) (d : Fin 256) => (U2 m c (Proc.devRef .tc main_v80) : S16384x256.Idx → EReal) (ix2 n d))
    = x1 m c := funext fun n => funext fun d => v80_at m c n d

theorem src2 (e : Fin 524288) : (U2 m c (Proc.devRef .tc main_v2) : IVec S524288 32) (ix1 e) = (inp m c).srcW e :=
  (congrFun (after_ops2_low (U1 m c) (b := Proc.devRef .tc main_v2) (by decide)) (ix1 e)).trans
    (RefVal.r1_src (launch m c) (inp m c) (holds0 m c) e)
theorem dst2 (e : Fin 524288) : (U2 m c (Proc.devRef .tc main_v4) : IVec S524288 32) (ix1 e) = (inp m c).dstW e :=
  (congrFun (after_ops2_low (U1 m c) (b := Proc.devRef .tc main_v4) (by decide)) (ix1 e)).trans
    (RefVal.r1_dst (launch m c) (inp m c) (holds0 m c) e)
theorem emb2 (e : Fin 524288) (j : Fin 64) :
    (U2 m c (Proc.devRef .tc main_v11) : S524288x64.Idx → EReal) (ix2 e j) = (inp m c).embT ((inp m c).graph.efRow e) j :=
  (congrFun (after_ops2_low (U1 m c) (b := Proc.devRef .tc main_v11) (by decide)) (ix2 e j)).trans
    (RefVal.r1_emb (launch m c) (inp m c) (holds0 m c) e j)

/-- Layer two before its normalisation, as a function. -/
theorem pre1_fun : (fun (n : Fin 16384) (d : Fin 256) => (U3 m c (Proc.devRef .tc main_v129) : S16384x256.Idx → EReal) (ix2 n d))
    = preRef (inp m c).graph (inp m c).embT ((inp m c).params 1) (x1 m c) := by
  funext n d
  refine (RefVal.r3_pre (U2 m c) (inp m c) (holds2 m c) (src2 m c) (dst2 m c) (emb2 m c) n d).trans ?_
  rw [x1_fun m c]

theorem v149_at (n : Fin 16384) (d : Fin 256) :
    (U4 m c (Proc.devRef .tc main_v149) : S16384x256.Idx → EReal) (ix2 n d)
      = layerRef (inp m c).graph (inp m c).embT ((inp m c).params 1) (x1 m c) n d := by
  refine (RefVal2.r4_out (U3 m c) ((inp m c).params 1)
    (RefVal.r3_gam (U2 m c) (inp m c) (holds2 m c)) (RefVal.r3_bet (U2 m c) (inp m c) (holds2 m c)) n d).trans ?_
  rw [pre1_fun m c]
  rfl

/-- The reference program's result array is the network, computed the reference's way, of the arguments. -/
theorem reference_value :
    (StableHlo.after ops (launch m c) (Proc.devRef .tc main_v150) : S32x512x256.Idx → EReal) = (inp m c).netRef := by
  rw [after_ops m c]
  exact funext fun i => (RefVal2.r5_out (U4 m c) i).trans (v149_at m c _ _)

end Cert.ReferenceIdeal.Whole

end
-- ==== Proof.Bridge.lean ====
/-
  The algebra that joins the two ways of computing a layer before its normalisation.

  Two facts carry it. First, the histogram identity: the number of edges leaving node `n` with embedding
  row `k`, times the embedded row `k`, summed over `k`, is the sum over the edges leaving `n` of the
  embedded row each edge reads. A sum of ones over a finite set times `y` is `y` summed over the set (the
  partial sums of ones are nonnegative, which is where the extended reals do distribute), and the cells of
  the flat index are exactly the fibres of the embedding-row map over the edges leaving `n`. Second, the
  mean by a reciprocal: the divisor `max count 1` is a real number at least one, so dividing by it and
  multiplying by one divided by it are both the product with the same real reciprocal. What remains is a
  regrouping of additions under the sum over the edges.
-/
import proofs.«410086_j81595788689991_2_alg».proof.Proof.Spec
import Mathlib.Data.EReal.Operations
import Mathlib.Algebra.BigOperators.Group.Finset.Basic

noncomputable section

namespace Cert.Gnn

open Idealize.ShloMosaic
open scoped BigOperators

/-- A sum of ones over a finite set, times `y`, is `y` summed over the set. -/
theorem sum_ones_mul {ι : Type*} (S : Finset ι) (y : EReal) :
    (∑ _e ∈ S, (1 : EReal)) * y = ∑ _e ∈ S, y := by
  classical
  induction S using Finset.induction_on with
  | empty => simp
  | insert a s ha ih =>
    rw [Finset.sum_insert ha, Finset.sum_insert ha,
      EReal.right_distrib_of_nonneg zero_le_one (Finset.sum_nonneg (fun _ _ => zero_le_one)),
      one_mul, ih]

/-- A sum of ones over a finite set is the set's size, a real number. -/
theorem sum_ones_eq_coe {ι : Type*} (S : Finset ι) :
    (∑ _e ∈ S, (1 : EReal)) = (((S.card : ℕ) : ℝ) : EReal) := by
  rw [Finset.sum_const, nsmul_one, EReal.coe_natCast]

/-- The cell of the flat index `64 n + k` is the fibre over `k` of the embedding-row map on the edges
    leaving `n`. -/
theorem cell_eq (G : Graph) (hG : G.FlatOk) (n : Fin Nn) (k : Fin Kk) :
    cell G n k = (seg G n).filter (fun e => G.efRow e = k) := by
  ext e
  simp only [cell, seg, Finset.mem_filter, Finset.mem_univ, true_and]
  exact hG e n k

/-- The histogram identity. -/
theorem hist_sum (G : Graph) (hG : G.FlatOk) (emb : Fin Kk → Fin Kk → EReal) (P : Params)
    (n : Fin Nn) (d : Fin Dd) :
    ∑ k, hist G n k * embW emb P k d = ∑ e ∈ seg G n, embW emb P (G.efRow e) d := by
  have h : ∀ k, hist G n k * embW emb P k d
      = ∑ _e ∈ (seg G n).filter (fun e => G.efRow e = k), embW emb P k d := by
    intro k
    rw [hist, cell_eq G hG, sum_ones_mul]
  rw [Finset.sum_congr rfl (fun k _ => h k)]
  exact Finset.sum_fiberwise' (seg G n) G.efRow (fun k => embW emb P k d)

/-- The mean's divisor is a real number other than zero. -/
theorem den_eq_coe (G : Graph) (n : Fin Nn) : ∃ y : ℝ, y ≠ 0 ∧ den G n = (y : EReal) := by
  refine ⟨max (((seg G n).card : ℕ) : ℝ) 1, ?_, ?_⟩
  · exact ne_of_gt (lt_of_lt_of_le zero_lt_one (le_max_right _ _))
  · rw [den, cnt, sum_ones_eq_coe, ← EReal.coe_one]
    exact (EReal.coe_strictMono.monotone.map_max).symm

/-- The two numerators agree: the per-node affine rows summed over the edges plus the histogram part is the
    sum of the edges' messages. -/
theorem numer_eq (G : Graph) (hG : G.FlatOk) (emb : Fin Kk → Fin Kk → EReal) (P : Params)
    (x : Fin Nn → Fin Dd → EReal) (n : Fin Nn) (d : Fin Dd) :
    (∑ e ∈ seg G n, nodeT P x (G.dstRow e) d) + ∑ k, hist G n k * embW emb P k d
      = ∑ e ∈ seg G n, msgRef G emb P x e d := by
  rw [hist_sum G hG, ← Finset.sum_add_distrib]
  refine Finset.sum_congr rfl (fun e _ => ?_)
  rw [nodeT, msgRef]
  ac_rfl

theorem preKer_eq_preRef (G : Graph) (hG : G.FlatOk) (emb : Fin Kk → Fin Kk → EReal) (P : Params)
    (x : Fin Nn → Fin Dd → EReal) :
    preKer G emb P x = preRef G emb P x := by
  funext n d
  obtain ⟨y, hy, hden⟩ := den_eq_coe G n
  rw [preKer, preRef, hden, Ideal.div_coe hy, Ideal.div_coe hy, one_mul, numer_eq G hG]

theorem layerKer_eq_layerRef (G : Graph) (hG : G.FlatOk) (emb : Fin Kk → Fin Kk → EReal) (P : Params)
    (x : Fin Nn → Fin Dd → EReal) :
    layerKer G emb P x = layerRef G emb P x := by
  rw [layerKer, layerRef, preKer_eq_preRef G hG]

end Cert.Gnn

end
-- ==== Proof.Net.lean ====
/-
  The whole network: the kernel's way of computing it and the reference's way give the same array whenever the flat
  index names the pair (source, embedding row). Each of the two layers is the same function either way (the layer
  before its normalisation is, and the normalisation is applied to equal arguments), so their composition is.
-/
import proofs.«410086_j81595788689991_2_alg».proof.Proof.Arrays
import proofs.«410086_j81595788689991_2_alg».proof.Proof.Bridge

noncomputable section

namespace Cert.Gnn

theorem Inputs.netKer_eq_netRef (I : Inputs) (hG : I.graph.FlatOk) : I.netKer = I.netRef := by
  unfold Inputs.netKer Inputs.netRef Inputs.netWith
  funext i
  rw [layerKer_eq_layerRef I.graph hG I.embT (I.params 0) I.x0,
    layerKer_eq_layerRef I.graph hG I.embT (I.params 1) (layerRef I.graph I.embT (I.params 0) I.x0)]

end Cert.Gnn

end
-- ==== Proof.Ints.lean ====
/-
  The integers of the histogram's flat index.

  An edge's source word `s` and feature word `f` are 32-bit machine integers. When the source lies in
  `[0, 16384)` and the feature in `[0, 64)` as signed integers, the machine product `s · 64` and the machine sum
  `s · 64 + f` stay below `2 ^ 20`, far from the word's modulus, so neither wraps: read as a signed integer the
  word is the integer `64 s + f`. A nonnegative feature is not counted from the end, and it is below the clamp, so
  the embedding row read for the edge is `f` itself. Finally `64 s + f = 64 n + k` with `0 ≤ f, k < 64` is division
  with remainder by 64: it forces `s = n` and `f = k`. Together: the flat index names the pair.
-/
import proofs.«410086_j81595788689991_2_alg».proof.Proof.Arrays

namespace Cert.Gnn

open Idealize.ShloMosaic

/-- A word whose signed reading is nonnegative reads the same unsigned. -/
theorem toInt_eq_toNat_of_nonneg (w : BitVec 32) (h : 0 ≤ w.toInt) : w.toInt = (w.toNat : ℤ) := by
  have hlt : w.toNat < 2 ^ 32 := w.isLt
  rw [BitVec.toInt_eq_toNat_cond] at h ⊢
  split at h <;> split <;> omega

/-- Under the two ranges the machine product and sum do not wrap: the word reads `64 s + f`. -/
theorem flat_toInt (s f : BitVec 32)
    (hs0 : 0 ≤ s.toInt) (hs1 : s.toInt < 16384) (hf0 : 0 ≤ f.toInt) (hf1 : f.toInt < 64) :
    (s * 64#32 + f).toInt = s.toInt * 64 + f.toInt := by
  have es := toInt_eq_toNat_of_nonneg s hs0
  have ef := toInt_eq_toNat_of_nonneg f hf0
  have hn : (s * 64#32 + f).toNat = s.toNat * 64 + f.toNat := by
    rw [BitVec.toNat_add, BitVec.toNat_mul]
    simp only [BitVec.toNat_ofNat]
    omega
  have hr : (s * 64#32 + f).toInt = ((s * 64#32 + f).toNat : ℤ) := by
    rw [BitVec.toInt_eq_toNat_cond]
    split <;> omega
  rw [hr, hn, es, ef]
  omega

/-- A nonnegative word is not counted from the end. -/
theorem wrapW_of_nonneg (ext w : BitVec 32) (h : 0 ≤ w.toInt) : wrapW ext w = w := by
  have hs : w.slt 0#32 = false := by
    simp only [BitVec.slt, BitVec.toInt_zero]
    exact decide_eq_false (by omega)
  simp only [wrapW, IntOp.cmpi, hs, Scalar.select]
  simp

/-- The flat index names the pair, at the level of words. -/
theorem flat_iff (s f : BitVec 32)
    (hs0 : 0 ≤ s.toInt) (hs1 : s.toInt < 16384) (hf0 : 0 ≤ f.toInt) (hf1 : f.toInt < 64)
    (n k : ℕ) (hk : k < 64) :
    (IntOp.addi (IntOp.muli s 64#32) f).toInt = ((n * 64 + k : ℕ) : ℤ) ↔
      (s.toInt = (n : ℤ) ∧ min (wrapW 64#32 f).toInt.toNat (64 - 1) = k) := by
  have hflat : (IntOp.addi (IntOp.muli s 64#32) f).toInt = s.toInt * 64 + f.toInt :=
    flat_toInt s f hs0 hs1 hf0 hf1
  rw [hflat, wrapW_of_nonneg 64#32 f hf0]
  constructor
  · intro h
    constructor <;> omega
  · rintro ⟨h1, h2⟩
    omega

/-- Under the ranges of the source row and of the feature word, the kernel's flat index names the pair
    (source, embedding row). -/
theorem Inputs.flatOk (I : Inputs)
    (hsrc : ∀ e : Fin Ne, 0 ≤ (I.srcW e).toInt ∧ (I.srcW e).toInt < 16384)
    (hef : ∀ e : Fin Ne, 0 ≤ (I.efW e).toInt ∧ (I.efW e).toInt < 64) : I.graph.FlatOk := by
  intro e n k
  have hk : k.val < 64 := k.isLt
  have key := flat_iff (I.srcW e) (I.efW e) (hsrc e).1 (hsrc e).2 (hef e).1 (hef e).2 n.val k.val hk
  show (IntOp.addi (IntOp.muli (I.srcW e) 64#32) (I.efW e)).toInt = ((n.val * 64 + k.val : ℕ) : ℤ) ↔
    ((I.srcW e).toInt = (n.val : ℤ) ∧
      (⟨min (wrapW 64#32 (I.efW e)).toInt.toNat (64 - 1), by show _ < 64; omega⟩ : Fin Kk) = k)
  rw [key, Fin.ext_iff]

end Cert.Gnn
-- ==== Proof.PreDecode.lean ====
/-
  From the precondition to the two integer ranges.

  The precondition is a conjunction of twelve "all entries satisfy" tests, nested to the left; the last two are
  about the integer arrays: every source word lies in `[0, 16384)` and every feature word in `[0, 64)`, as signed
  integers. A conjunction of bits is one exactly when both are; an "all" over an array, a fold by "and" starting
  from one, is one exactly when every entry is; the entry is a conjunction of two signed word compares against
  constants spread over the array, and a signed compare that answers one says the order of the signed readings.
  The source row is the first row of the edge array, cut out as a one-row slice and flattened: at entry `e` it is
  the edge array at `(0, e)`. The ten tests of the float arrays are split off and never looked into.
-/
import proofs.«410086_j81595788689991_2_alg».proof.Pre_finite_inputs
import proofs.«410086_j81595788689991_2_alg».proof.Proof.Gen.Pre_finite_inputs
import proofs.«410086_j81595788689991_2_alg».proof.Proof.Arrays
import Idealize.ShloMosaic.Lib.StableHlo.Predicate
import Idealize.ShloMosaic.Lib.ReduceAll
import Idealize.ShloMosaic.Lib.Pipeline.Value

namespace Cert.Gnn.PreDecode

open Idealize.ShloMosaic Idealize.ShloMosaic.ValueIdx
open Cert.Pre_finite_inputs

/-- The scalar shape has one index. -/
local instance : Subsingleton S_.Idx := ⟨fun a b => funext fun d => d.elim0⟩

/-- Two signed compares that both answer one: the word lies between zero and the bound. -/
theorem range_of_cmp (w c : BitVec 32)
    (h : IntOp.andi (IntOp.cmpi .sge w 0#32) (IntOp.cmpi .slt w c) = 1#1) :
    0 ≤ w.toInt ∧ w.toInt < c.toInt := by
  obtain ⟨h0, h1⟩ := IntOp.andi_eq_one.1 h
  unfold IntOp.cmpi at h0 h1
  rw [StableHlo.Predicate.ofBool_eq_one_iff] at h0 h1
  simp only [BitVec.sle, BitVec.slt, decide_eq_true_eq, BitVec.toInt_zero] at h0 h1
  exact ⟨h0, h1⟩

/-- The first row of the edge array, cut out and flattened, read at entry `e`. -/
theorem edge0_apply [Facts] (a10 : IVec S2x524288 32) (e : Fin 524288) :
    shapeCast S524288 (extractStridedSlice S1x524288 ![0, 0] a10 Facts.slices_S2x524288_S1x524288_0_0)
      Facts.shapeCasts_S1x524288_S524288 (ix1 e) = a10 (ix2 (0 : Fin 2) e) := by
  refine (shapeCast_apply _ _ (ix1 e) (ix2 (0 : Fin 1) e) ?_).trans ?_
  · rw [Shape.rowMajor_val_two, Shape.rowMajor_val_one]
    show (0 : ℕ) * 524288 + e.val = e.val
    omega
  · refine extractStridedSlice_apply _ _ _ _ _ (fun a => ?_)
    match a with
    | ⟨0, _⟩ => rfl
    | ⟨1, _⟩ => exact (Nat.zero_add _).symm

/-- The tail of the precondition: when it is all ones, both integer tests hold at every entry. -/
theorem part3_all {F : FTy → Type} [FloatOps F] [Facts]
    (a10 : IVec S2x524288 32) (a11 : IVec S524288 32) (v48 : IVec S_ 1) (v50 : IVec S524288 32) (c18 : IVec S_ 32)
    (h : fn_part3 (F := F) a10 a11 v48 v50 c18 = fun _ => 1#1) :
    (∀ j : S524288.Idx, IntOp.andi (IntOp.cmpi .sge (v50 j) (c18 ix0))
        (IntOp.cmpi .slt (shapeCast S524288 (extractStridedSlice S1x524288 ![0, 0] a10 Facts.slices_S2x524288_S1x524288_0_0)
          Facts.shapeCasts_S1x524288_S524288 j) 16384#32) = 1#1)
    ∧ (∀ j : S524288.Idx, IntOp.andi (IntOp.cmpi .sge (a11 j) 0#32) (IntOp.cmpi .slt (a11 j) 64#32) = 1#1) := by
  have e := congrFun h ix0
  dsimp only [fn_part3, andi, cmpi] at e
  obtain ⟨h12, h3⟩ := IntOp.andi_eq_one.1 e
  obtain ⟨_, h2⟩ := IntOp.andi_eq_one.1 h12
  refine ⟨fun j => ?_, fun j => ?_⟩
  · have t := Host.reduce_andi_all _ _ _ _ ix0 h2 j
    dsimp only [andi, cmpi] at t
    rw [StableHlo.Predicate.bcast_scalar Facts.bcast_S_S524288 Facts.h_S_,
      StableHlo.Predicate.bcast_scalar Facts.bcast_S_S524288 Facts.h_S_,
      eq_ix0 (Shape.Idx.first Facts.h_S_)] at t
    exact t
  · have t := Host.reduce_andi_all _ _ _ _ ix0 h3 j
    dsimp only [andi, cmpi] at t
    rw [StableHlo.Predicate.bcast_scalar Facts.bcast_S_S524288 Facts.h_S_,
      StableHlo.Predicate.bcast_scalar Facts.bcast_S_S524288 Facts.h_S_] at t
    exact t

/-- The precondition gives the range of every source word and of every feature word. -/
theorem ranges_of_pre [Cert.Pre_finite_inputs.Facts] (I : Cert.Gnn.Inputs)
    (h : Cert.Pre_finite_inputs.fn (F := Ideal) I.data I.emb I.Wmsg I.bmsg I.Wself I.bself I.Wedge I.bedge I.gamma
      I.beta I.edge I.ef = (fun _ => 1#1)) :
    (∀ e : Fin Cert.Gnn.Ne, 0 ≤ (I.srcW e).toInt ∧ (I.srcW e).toInt < 16384)
      ∧ (∀ e : Fin Cert.Gnn.Ne, 0 ≤ (I.efW e).toInt ∧ (I.efW e).toInt < 64) := by
  dsimp only [fn, fn_part1, fn_part2] at h
  obtain ⟨hsrc, hef⟩ := part3_all _ _ _ _ _ h
  refine ⟨fun e => ?_, fun e => ?_⟩
  · have t := hsrc (ix1 e)
    rw [edge0_apply] at t
    obtain ⟨h0, h1⟩ := range_of_cmp _ _ t
    have hc : (16384#32 : BitVec 32).toInt = 16384 := by decide
    rw [hc] at h1
    exact ⟨h0, h1⟩
  · obtain ⟨h0, h1⟩ := range_of_cmp _ _ (hef (ix1 e))
    have hc : (64#32 : BitVec 32).toInt = 64 := by decide
    rw [hc] at h1
    exact ⟨h0, h1⟩

end Cert.Gnn.PreDecode
-- ==== Proof.lean ====
/-
  The kernel computes the same two-layer message-passing network as the reference, entry by entry over the extended
  reals, whenever every float input is finite, every source index `edge[0, e]` is a node (0 ≤ · < 16384) and every
  feature index `edge_feature[e]` is a row of the embedding table (0 ≤ · < 64).

  Per layer the reference forms every edge's message — an affine map of the features of the edge's destination plus
  an affine map of the edge's embedding row — sums the messages per source, divides by the larger of the source's
  edge count and one, adds an affine map of the node's own features, normalises each column over the nodes and takes
  the maximum with zero. The kernel applies the first affine map once per node and sums its rows per source; it
  recovers the embedding part from a histogram of (source, feature) pairs, found under the flat index
  64 · source + feature, times the embedded table; and it multiplies by the reciprocal of the count. The two agree
  because a sum of ones over a set of edges times a value is that value summed over the set, because under the two
  index ranges the flat index names exactly one (source, feature) pair (no wrap of the machine integers), and because
  dividing by a real number at least one is multiplying by its reciprocal; the rest is a regrouping of additions.
  None of this uses finiteness. The normalisation is the same arithmetic on both sides.

  The three frames: the two kernel programs' are the launch of their six regions among the host stretches; the
  reference's is its run with the result dropped. Nothing was rewritten between the kernel and its idealisation.
-/
import proofs.«410086_j81595788689991_2_alg».proof.Defs
import proofs.«410086_j81595788689991_2_alg».proof.Proof.Gen.Kernel
import proofs.«410086_j81595788689991_2_alg».proof.Proof.Gen.Kernel.Frame
import proofs.«410086_j81595788689991_2_alg».proof.Proof.Gen.KernelIdeal
import proofs.«410086_j81595788689991_2_alg».proof.Proof.Gen.KernelIdeal.Frame
import proofs.«410086_j81595788689991_2_alg».proof.Proof.Gen.ReferenceIdeal
import proofs.«410086_j81595788689991_2_alg».proof.Proof.Gen.Pre_finite_inputs
import proofs.«410086_j81595788689991_2_alg».proof.Proof.KRun
import proofs.«410086_j81595788689991_2_alg».proof.Proof.KValue
import proofs.«410086_j81595788689991_2_alg».proof.Proof.RRun
import proofs.«410086_j81595788689991_2_alg».proof.Proof.RValue
import proofs.«410086_j81595788689991_2_alg».proof.Proof.Net
import proofs.«410086_j81595788689991_2_alg».proof.Proof.Ints
import proofs.«410086_j81595788689991_2_alg».proof.Proof.PreDecode
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with the result dropped. -/
theorem frame_ri : Cert.frame_ReferenceIdeal := fun m ρ _ =>
  (θ_run Cert.ReferenceIdeal.defs _ _).mono (fun _ h c => (h c).2) (Cert.ReferenceIdeal.HandRun.run (F := Ideal) m ρ)

theorem preserves : Cert.preserves_Kernel_KernelIdeal := trivial

/-- Both programs end at the network of the arguments: the kernel's way and the reference's way of computing it agree
    under the index ranges the precondition gives. -/
theorem algebraic : Cert.algebraic_KernelIdeal_ReferenceIdeal := by
  intro m ρ m' ρ' hpre hagree
  refine ⟨fun c => (Cert.KernelIdeal.Whole.inp m ρ c).netKer, ?_, ?_⟩
  · exact (θ_run Cert.KernelIdeal.defs _ _).mono
      (fun r h c => ⟨(h c).1.trans (Cert.KernelIdeal.Whole.kernel_value m ρ c), (h c).2⟩)
      (Cert.KernelIdeal.NamedRun.run_named (F := Ideal) m ρ)
  · refine (θ_run Cert.ReferenceIdeal.defs _ _).mono (fun r h c => ⟨(h c).1.trans ?_, (h c).2⟩)
      (Cert.ReferenceIdeal.HandRun.run (F := Ideal) m' ρ')
    have hI : Cert.ReferenceIdeal.Whole.inp m' c = Cert.KernelIdeal.Whole.inp m ρ c := by
      obtain ⟨h0, h1, h2, h3, h4, h5, h6, h7, h8, h9, h10, h11⟩ := hagree c
      show Cert.Gnn.Inputs.mk _ _ _ _ _ _ _ _ _ _ _ _ = Cert.Gnn.Inputs.mk _ _ _ _ _ _ _ _ _ _ _ _
      congr 1
    have hr := Cert.Gnn.PreDecode.ranges_of_pre (Cert.KernelIdeal.Whole.inp m ρ c) (hpre c)
    rw [Cert.ReferenceIdeal.Whole.reference_value m' c, hI]
    exact (Cert.Gnn.Inputs.netKer_eq_netRef _ (Cert.Gnn.Inputs.flatOk _ hr.1 hr.2)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
